-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x128 : Shape := ⟨2, ![128, 128]⟩
abbrev S2x5 : Shape := ⟨2, ![2, 5]⟩
abbrev S128x40 : Shape := ⟨2, ![128, 40]⟩
abbrev S40 : Shape := ⟨1, ![40]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x5 : S_.BroadcastsInDim S2x5 (![] : Fin 0 → Fin S2x5.rank)
  reducesTo_S2x5_S_d0_1 : S2x5.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S128x40 .f32) (main_arg8 : FVec F S40 .f32) (main_v33 : IVec S_ 1) : IVec S_ 1 :=
  let main_v34 : FVec F S128x40 .f32 := Host.absf main_arg7
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg8
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg4 : FVec F S128x128 .f32) (main_arg5 : FVec F S128 .f32) (main_arg6 : FVec F S2x5 .f32) (main_arg7 : FVec F S128x40 .f32) (main_arg8 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x5 .f32 := Host.absf main_arg6
  let main_cst_10 : FVec F S_ .f32 := constant S_ .f32 0x7F800000#32
  let main_v30 : FVec F S2x5 .f32 := broadcastInDim S2x5 ![] bcast_S_S2x5 main_cst_10
  let main_v31 : IVec S2x5 1 := cmpf .olt main_v29 main_v30
  let main_c_11 : IVec S_ 1 := constantI S_ 1 1#1
  let main_v32 : IVec S_ 1 := (fun x v => Host.reduce IntOp.andi x v reducesTo_S2x5_S_d0_1 h_S_) main_v31 main_c_11
  let main_v33 : IVec S_ 1 := andi main_v28 main_v32
  fn_part2 (F := F) main_arg7 main_arg8 main_v33

def fn {F : FTy → Type} [FloatOps F] (main_arg0 : FVec F S10000x256 .f32) (main_arg1 : FVec F S10000x10000 .f32) (main_arg2 : FVec F S256x128 .f32) (main_arg3 : FVec F S128 .f32) (main_arg4 : FVec F S128x128 .f32) (main_arg5 : FVec F S128 .f32) (main_arg6 : FVec F S2x5 .f32) (main_arg7 : FVec F S128x40 .f32) (main_arg8 : FVec F S40 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x128 : Shape := ⟨2, ![128, 128]⟩
abbrev S2x5 : Shape := ⟨2, ![2, 5]⟩
abbrev S128x40 : Shape := ⟨2, ![128, 40]⟩
abbrev S40 : Shape := ⟨1, ![40]⟩
abbrev S5x5 : Shape := ⟨2, ![5, 5]⟩
abbrev S5x2 : Shape := ⟨2, ![5, 2]⟩
abbrev S1x128 : Shape := ⟨2, ![1, 128]⟩
abbrev S10000x128 : Shape := ⟨2, ![10000, 128]⟩
abbrev S400x256 : Shape := ⟨2, ![400, 256]⟩
abbrev S400x128 : Shape := ⟨2, ![400, 128]⟩
abbrev S1x1 : Shape := ⟨2, ![1, 1]⟩
abbrev S_ : Shape := ⟨0, ![]⟩
abbrev S400x10000 : Shape := ⟨2, ![400, 10000]⟩
abbrev S10000x40 : Shape := ⟨2, ![10000, 40]⟩

abbrev nBuf : Space → Nat
  | .hbm => 82
  | .vmem => 112
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x5, .f32⟩
  | .hbm, ⟨7, _⟩ => ⟨S128x40, .f32⟩
  | .hbm, ⟨8, _⟩ => ⟨S40, .f32⟩
  | .hbm, ⟨9, _⟩ => ⟨S5x5, .f32⟩
  | .hbm, ⟨10, _⟩ => ⟨S5x2, .f32⟩
  | .hbm, ⟨11, _⟩ => ⟨S5x2, .f32⟩
  | .hbm, ⟨12, _⟩ => ⟨S2x5, .f32⟩
  | .hbm, ⟨13, _⟩ => ⟨S1x128, .f32⟩
  | .hbm, ⟨14, _⟩ => ⟨S1x128, .f32⟩
  | .hbm, ⟨15, _⟩ => ⟨S10000x128, .f32⟩
  | .hbm, ⟨16, _⟩ => ⟨S1x1, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .bf16⟩
  | .hbm, ⟨21, _⟩ => ⟨S1x1, .f32⟩
  | .hbm, ⟨22, _⟩ => ⟨S_, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S10000x10000, .bf16⟩
  | .hbm, ⟨27, _⟩ => ⟨S10000x128, .bf16⟩
  | .hbm, ⟨28, _⟩ => ⟨S1x1, .f32⟩
  | .hbm, ⟨29, _⟩ => ⟨S_, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S10000x128, .bf16⟩
  | .hbm, ⟨34, _⟩ => ⟨S1x1, .f32⟩
  | .hbm, ⟨35, _⟩ => ⟨S_, .f32⟩
  | .hbm, ⟨36, _⟩ => ⟨S1x128, .f32⟩
  | .hbm, ⟨37, _⟩ => ⟨S10000x128, .f32⟩
  | .hbm, ⟨38, _⟩ => ⟨S10000x128, .f32⟩
  | .hbm, ⟨39, _⟩ => ⟨S10000x128, .bf16⟩
  | .hbm, ⟨40, _⟩ => ⟨S1x1, .f32⟩
  | .hbm, ⟨41, _⟩ => ⟨S_, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S1x1, .f32⟩
  | .hbm, ⟨46, _⟩ => ⟨S_, .f32⟩
  | .hbm, ⟨47, _⟩ => ⟨S10000x128, .f32⟩
  | .hbm, ⟨48, _⟩ => ⟨S10000x128, .f32⟩
  | .hbm, ⟨49, _⟩ => ⟨S10000x128, .bf16⟩
  | .hbm, ⟨50, _⟩ => ⟨S1x1, .f32⟩
  | .hbm, ⟨51, _⟩ => ⟨S_, .f32⟩
  | .hbm, ⟨52, _⟩ => ⟨S1x128, .f32⟩
  | .hbm, ⟨53, _⟩ => ⟨S10000x128, .f32⟩
  | .hbm, ⟨54, _⟩ => ⟨S10000x128, .f32⟩
  | .hbm, ⟨55, _⟩ => ⟨S10000x128, .bf16⟩
  | .hbm, ⟨56, _⟩ => ⟨S1x1, .f32⟩
  | .hbm, ⟨57, _⟩ => ⟨S_, .f32⟩
  | .hbm, ⟨58, _⟩ => ⟨S1x128, .f32⟩
  | .hbm, ⟨59, _⟩ => ⟨S10000x128, .f32⟩
  | .hbm, ⟨60, _⟩ => ⟨S10000x128, .f32⟩
  | .hbm, ⟨61, _⟩ => ⟨S10000x128, .bf16⟩
  | .hbm, ⟨62, _⟩ => ⟨S1x1, .f32⟩
  | .hbm, ⟨63, _⟩ => ⟨S_, .f32⟩
  | .hbm, ⟨64, _⟩ => ⟨S1x128, .f32⟩
  | .hbm, ⟨65, _⟩ => ⟨S10000x128, .f32⟩
  | .hbm, ⟨66, _⟩ => ⟨S10000x128, .f32⟩
  | .hbm, ⟨67, _⟩ => ⟨S10000x128, .bf16⟩
  | .hbm, ⟨68, _⟩ => ⟨S1x1, .f32⟩
  | .hbm, ⟨69, _⟩ => ⟨S_, .f32⟩
  | .hbm, ⟨70, _⟩ => ⟨S1x128, .f32⟩
  | .hbm, ⟨71, _⟩ => ⟨S10000x128, .f32⟩
  | .hbm, ⟨72, _⟩ => ⟨S10000x128, .f32⟩
  | .hbm, ⟨73, _⟩ => ⟨S_, .i32⟩
  | .hbm, ⟨74, _⟩ => ⟨S_, .f32⟩
  | .hbm, ⟨75, _⟩ => ⟨S128x128, .f32⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S10000x128, .f32⟩
  | .hbm, ⟨81, _⟩ => ⟨S10000x40, .f32⟩
  | .local _ .vmem, ⟨0, _⟩ => ⟨S400x256, .f32⟩
  | .local _ .vmem, ⟨1, _⟩ => ⟨S400x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S400x10000, .f32⟩
  | .local _ .vmem, ⟨9, _⟩ => ⟨S400x10000, .f32⟩
  | .local _ .vmem, ⟨10, _⟩ => ⟨S10000x128, .bf16⟩
  | .local _ .vmem, ⟨11, _⟩ => ⟨S400x128, .f32⟩
  | .local _ .vmem, ⟨12, _⟩ => ⟨S400x128, .f32⟩
  | .local _ .vmem, ⟨13, _⟩ => ⟨S400x128, .f32⟩
  | .local _ .vmem, ⟨14, _⟩ => ⟨S400x128, .f32⟩
  | .local _ .vmem, ⟨15, _⟩ => ⟨S1x128, .f32⟩
  | .local _ .vmem, ⟨16, _⟩ => ⟨S400x128, .f32⟩
  | .local _ .vmem, ⟨17, _⟩ => ⟨S400x128, .f32⟩
  | .local _ .vmem, ⟨18, _⟩ => ⟨S400x128, .f32⟩
  | .local _ .vmem, ⟨19, _⟩ => ⟨S400x128, .f32⟩
  | .local _ .vmem, ⟨20, _⟩ => ⟨S400x10000, .bf16⟩
  | .local _ .vmem, ⟨21, _⟩ => ⟨S400x10000, .bf16⟩
  | .local _ .vmem, ⟨22, _⟩ => ⟨S400x10000, .bf16⟩
  | .local _ .vmem, ⟨23, _⟩ => ⟨S400x10000, .bf16⟩
  | .local _ .vmem, ⟨24, _⟩ => ⟨S10000x128, .bf16⟩
  | .local _ .vmem, ⟨25, _⟩ => ⟨S400x128, .f32⟩
  | .local _ .vmem, ⟨26, _⟩ => ⟨S400x128, .f32⟩
  | .local _ .vmem, ⟨27, _⟩ => ⟨S400x128, .f32⟩
  | .local _ .vmem, ⟨28, _⟩ => ⟨S400x128, .f32⟩
  | .local _ .vmem, ⟨29, _⟩ => ⟨S1x128, .f32⟩
  | .local _ .vmem, ⟨30, _⟩ => ⟨S400x128, .f32⟩
  | .local _ .vmem, ⟨31, _⟩ => ⟨S400x128, .f32⟩
  | .local _ .vmem, ⟨32, _⟩ => ⟨S400x128, .f32⟩
  | .local _ .vmem, ⟨33, _⟩ => ⟨S400x128, .f32⟩
  | .local _ .vmem, ⟨34, _⟩ => ⟨S400x10000, .bf16⟩
  | .local _ .vmem, ⟨35, _⟩ => ⟨S400x10000, .bf16⟩
  | .local _ .vmem, ⟨36, _⟩ => ⟨S10000x128, .bf16⟩
  | .local _ .vmem, ⟨37, _⟩ => ⟨S400x128, .f32⟩
  | .local _ .vmem, ⟨38, _⟩ => ⟨S400x128, .f32⟩
  | .local _ .vmem, ⟨39, _⟩ => ⟨S400x128, .f32⟩
  | .local _ .vmem, ⟨40, _⟩ => ⟨S400x128, .f32⟩
  | .local _ .vmem, ⟨41, _⟩ => ⟨S1x128, .f32⟩
  | .local _ .vmem, ⟨42, _⟩ => ⟨S400x128, .f32⟩
  | .local _ .vmem, ⟨43, _⟩ => ⟨S400x128, .f32⟩
  | .local _ .vmem, ⟨44, _⟩ => ⟨S400x128, .f32⟩
  | .local _ .vmem, ⟨45, _⟩ => ⟨S400x128, .f32⟩
  | .local _ .vmem, ⟨46, _⟩ => ⟨S400x10000, .bf16⟩
  | .local _ .vmem, ⟨47, _⟩ => ⟨S400x10000, .bf16⟩
  | .local _ .vmem, ⟨48, _⟩ => ⟨S10000x128, .bf16⟩
  | .local _ .vmem, ⟨49, _⟩ => ⟨S400x128, .f32⟩
  | .local _ .vmem, ⟨50, _⟩ => ⟨S400x128, .f32⟩
  | .local _ .vmem, ⟨51, _⟩ => ⟨S400x128, .f32⟩
  | .local _ .vmem, ⟨52, _⟩ => ⟨S400x128, .f32⟩
  | .local _ .vmem, ⟨53, _⟩ => ⟨S1x128, .f32⟩
  | .local _ .vmem, ⟨54, _⟩ => ⟨S400x128, .f32⟩
  | .local _ .vmem, ⟨55, _⟩ => ⟨S400x128, .f32⟩
  | .local _ .vmem, ⟨56, _⟩ => ⟨S400x128, .f32⟩
  | .local _ .vmem, ⟨57, _⟩ => ⟨S400x128, .f32⟩
  | .local _ .vmem, ⟨58, _⟩ => ⟨S400x10000, .bf16⟩
  | .local _ .vmem, ⟨59, _⟩ => ⟨S400x10000, .bf16⟩
  | .local _ .vmem, ⟨60, _⟩ => ⟨S10000x128, .bf16⟩
  | .local _ .vmem, ⟨61, _⟩ => ⟨S400x128, .f32⟩
  | .local _ .vmem, ⟨62, _⟩ => ⟨S400x128, .f32⟩
  | .local _ .vmem, ⟨63, _⟩ => ⟨S400x128, .f32⟩
  | .local _ .vmem, ⟨64, _⟩ => ⟨S400x128, .f32⟩
  | .local _ .vmem, ⟨65, _⟩ => ⟨S1x128, .f32⟩
  | .local _ .vmem, ⟨66, _⟩ => ⟨S400x128, .f32⟩
  | .local _ .vmem, ⟨67, _⟩ => ⟨S400x128, .f32⟩
  | .local _ .vmem, ⟨68, _⟩ => ⟨S400x128, .f32⟩
  | .local _ .vmem, ⟨69, _⟩ => ⟨S400x128, .f32⟩
  | .local _ .vmem, ⟨70, _⟩ => ⟨S400x10000, .bf16⟩
  | .local _ .vmem, ⟨71, _⟩ => ⟨S400x10000, .bf16⟩
  | .local _ .vmem, ⟨72, _⟩ => ⟨S10000x128, .bf16⟩
  | .local _ .vmem, ⟨73, _⟩ => ⟨S400x128, .f32⟩
  | .local _ .vmem, ⟨74, _⟩ => ⟨S400x128, .f32⟩
  | .local _ .vmem, ⟨75, _⟩ => ⟨S400x128, .f32⟩
  | .local _ .vmem, ⟨76, _⟩ => ⟨S400x128, .f32⟩
  | .local _ .vmem, ⟨77, _⟩ => ⟨S1x128, .f32⟩
  | .local _ .vmem, ⟨78, _⟩ => ⟨S400x128, .f32⟩
  | .local _ .vmem, ⟨79, _⟩ => ⟨S400x128, .f32⟩
  | .local _ .vmem, ⟨80, _⟩ => ⟨S400x128, .f32⟩
  | .local _ .vmem, ⟨81, _⟩ => ⟨S400x128, .f32⟩
  | .local _ .vmem, ⟨82, _⟩ => ⟨S400x10000, .bf16⟩
  | .local _ .vmem, ⟨83, _⟩ => ⟨S400x10000, .bf16⟩
  | .local _ .vmem, ⟨84, _⟩ => ⟨S10000x128, .bf16⟩
  | .local _ .vmem, ⟨85, _⟩ => ⟨S400x128, .f32⟩
  | .local _ .vmem, ⟨86, _⟩ => ⟨S400x128, .f32⟩
  | .local _ .vmem, ⟨87, _⟩ => ⟨S400x128, .f32⟩
  | .local _ .vmem, ⟨88, _⟩ => ⟨S400x128, .f32⟩
  | .local _ .vmem, ⟨89, _⟩ => ⟨S1x128, .f32⟩
  | .local _ .vmem, ⟨90, _⟩ => ⟨S400x128, .f32⟩
  | .local _ .vmem, ⟨91, _⟩ => ⟨S400x128, .f32⟩
  | .local _ .vmem, ⟨92, _⟩ => ⟨S400x128, .f32⟩
  | .local _ .vmem, ⟨93, _⟩ => ⟨S400x128, .f32⟩
  | .local _ .vmem, ⟨94, _⟩ => ⟨S400x10000, .bf16⟩
  | .local _ .vmem, ⟨95, _⟩ => ⟨S400x10000, .bf16⟩
  | .local _ .vmem, ⟨96, _⟩ => ⟨S10000x128, .bf16⟩
  | .local _ .vmem, ⟨97, _⟩ => ⟨S400x128, .f32⟩
  | .local _ .vmem, ⟨98, _⟩ => ⟨S400x128, .f32⟩
  | .local _ .vmem, ⟨99, _⟩ => ⟨S400x128, .f32⟩
  | .local _ .vmem, ⟨100, _⟩ => ⟨S400x128, .f32⟩
  | .local _ .vmem, ⟨101, _⟩ => ⟨S1x128, .f32⟩
  | .local _ .vmem, ⟨102, _⟩ => ⟨S400x128, .f32⟩
  | .local _ .vmem, ⟨103, _⟩ => ⟨S400x128, .f32⟩
  | .local _ .vmem, ⟨104, _⟩ => ⟨S400x128, .f32⟩
  | .local _ .vmem, ⟨105, _⟩ => ⟨S400x128, .f32⟩
  | .local _ .vmem, ⟨106, _⟩ => ⟨S400x128, .f32⟩
  | .local _ .vmem, ⟨107, _⟩ => ⟨S400x128, .f32⟩
  | .local _ .vmem, ⟨108, _⟩ => ⟨S128x128, .f32⟩
  | .local _ .vmem, ⟨109, _⟩ => ⟨S1x128, .f32⟩
  | .local _ .vmem, ⟨110, _⟩ => ⟨S400x128, .f32⟩
  | .local _ .vmem, ⟨111, _⟩ => ⟨S400x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43_0 : Ref sig .tc := ⟨.hbm, 59, rfl⟩
abbrev main_v43_1 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48_0 : Ref sig .tc := ⟨.hbm, 65, rfl⟩
abbrev main_v48_1 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53_0 : Ref sig .tc := ⟨.hbm, 71, rfl⟩
abbrev main_v53_1 : Ref sig .tc := ⟨.hbm, 72, rfl⟩
abbrev main_c : Ref sig .tc := ⟨.hbm, 73, rfl⟩
abbrev main_call0_v0 : Ref sig .tc := ⟨.hbm, 74, rfl⟩
abbrev main_v54 : Ref sig .tc := ⟨.hbm, 75, rfl⟩
abbrev main_c_0 : Ref sig .tc := ⟨.hbm, 76, rfl⟩
abbrev main_call1_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg3_1 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg5_1 : Ref sig .tc := ⟨.vmem, 55, rfl⟩
abbrev cc4_stg6_0 : Ref sig .tc := ⟨.vmem, 56, rfl⟩
abbrev cc4_stg6_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg2_1 : Ref sig .tc := ⟨.vmem, 62, rfl⟩
abbrev cc5_stg3_0 : Ref sig .tc := ⟨.vmem, 63, rfl⟩
abbrev cc5_stg3_1 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc6_stg0_0 : Ref sig .tc := ⟨.vmem, 70, rfl⟩
abbrev cc6_stg0_1 : Ref sig .tc := ⟨.vmem, 71, rfl⟩
abbrev cc6_stg1_0 : Ref sig .tc := ⟨.vmem, 72, rfl⟩
abbrev cc6_stg2_0 : Ref sig .tc := ⟨.vmem, 73, rfl⟩
abbrev cc6_stg2_1 : Ref sig .tc := ⟨.vmem, 74, rfl⟩
abbrev cc6_stg3_0 : Ref sig .tc := ⟨.vmem, 75, rfl⟩
abbrev cc6_stg3_1 : Ref sig .tc := ⟨.vmem, 76, rfl⟩
abbrev cc6_stg4_0 : Ref sig .tc := ⟨.vmem, 77, rfl⟩
abbrev cc6_stg5_0 : Ref sig .tc := ⟨.vmem, 78, rfl⟩
abbrev cc6_stg5_1 : Ref sig .tc := ⟨.vmem, 79, rfl⟩
abbrev cc6_stg6_0 : Ref sig .tc := ⟨.vmem, 80, rfl⟩
abbrev cc6_stg6_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg2_0 : Ref sig .tc := ⟨.vmem, 85, rfl⟩
abbrev cc7_stg2_1 : Ref sig .tc := ⟨.vmem, 86, rfl⟩
abbrev cc7_stg3_0 : Ref sig .tc := ⟨.vmem, 87, rfl⟩
abbrev cc7_stg3_1 : Ref sig .tc := ⟨.vmem, 88, rfl⟩
abbrev cc7_stg4_0 : Ref sig .tc := ⟨.vmem, 89, rfl⟩
abbrev cc7_stg5_0 : Ref sig .tc := ⟨.vmem, 90, rfl⟩
abbrev cc7_stg5_1 : Ref sig .tc := ⟨.vmem, 91, rfl⟩
abbrev cc7_stg6_0 : Ref sig .tc := ⟨.vmem, 92, rfl⟩
abbrev cc7_stg6_1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg2_0 : Ref sig .tc := ⟨.vmem, 97, rfl⟩
abbrev cc8_stg2_1 : Ref sig .tc := ⟨.vmem, 98, rfl⟩
abbrev cc8_stg3_0 : Ref sig .tc := ⟨.vmem, 99, rfl⟩
abbrev cc8_stg3_1 : Ref sig .tc := ⟨.vmem, 100, rfl⟩
abbrev cc8_stg4_0 : Ref sig .tc := ⟨.vmem, 101, rfl⟩
abbrev cc8_stg5_0 : Ref sig .tc := ⟨.vmem, 102, rfl⟩
abbrev cc8_stg5_1 : Ref sig .tc := ⟨.vmem, 103, rfl⟩
abbrev cc8_stg6_0 : Ref sig .tc := ⟨.vmem, 104, rfl⟩
abbrev cc8_stg6_1 : Ref sig .tc := ⟨.vmem, 105, rfl⟩
abbrev cc9_stg0_0 : Ref sig .tc := ⟨.vmem, 106, rfl⟩
abbrev cc9_stg0_1 : Ref sig .tc := ⟨.vmem, 107, rfl⟩
abbrev cc9_stg1_0 : Ref sig .tc := ⟨.vmem, 108, rfl⟩
abbrev cc9_stg2_0 : Ref sig .tc := ⟨.vmem, 109, rfl⟩
abbrev cc9_stg3_0 : Ref sig .tc := ⟨.vmem, 110, rfl⟩
abbrev cc9_stg3_1 : Ref sig .tc := ⟨.vmem, 111, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem5_0 : DmaSem sig := 42
abbrev cc3_sem5_1 : DmaSem sig := 43
abbrev cc3_sem6_0 : DmaSem sig := 44
abbrev cc3_sem6_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem2_1 : DmaSem sig := 50
abbrev cc4_sem3_0 : DmaSem sig := 51
abbrev cc4_sem3_1 : DmaSem sig := 52
abbrev cc4_sem4_0 : DmaSem sig := 53
abbrev cc4_sem5_0 : DmaSem sig := 54
abbrev cc4_sem5_1 : DmaSem sig := 55
abbrev cc4_sem6_0 : DmaSem sig := 56
abbrev cc4_sem6_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem2_1 : DmaSem sig := 62
abbrev cc5_sem3_0 : DmaSem sig := 63
abbrev cc5_sem3_1 : DmaSem sig := 64
abbrev cc5_sem4_0 : DmaSem sig := 65
abbrev cc5_sem5_0 : DmaSem sig := 66
abbrev cc5_sem5_1 : DmaSem sig := 67
abbrev cc5_sem6_0 : DmaSem sig := 68
abbrev cc5_sem6_1 : DmaSem sig := 69
abbrev cc6_sem0_0 : DmaSem sig := 70
abbrev cc6_sem0_1 : DmaSem sig := 71
abbrev cc6_sem1_0 : DmaSem sig := 72
abbrev cc6_sem2_0 : DmaSem sig := 73
abbrev cc6_sem2_1 : DmaSem sig := 74
abbrev cc6_sem3_0 : DmaSem sig := 75
abbrev cc6_sem3_1 : DmaSem sig := 76
abbrev cc6_sem4_0 : DmaSem sig := 77
abbrev cc6_sem5_0 : DmaSem sig := 78
abbrev cc6_sem5_1 : DmaSem sig := 79
abbrev cc6_sem6_0 : DmaSem sig := 80
abbrev cc6_sem6_1 : DmaSem sig := 81
abbrev cc7_sem0_0 : DmaSem sig := 82
abbrev cc7_sem0_1 : DmaSem sig := 83
abbrev cc7_sem1_0 : DmaSem sig := 84
abbrev cc7_sem2_0 : DmaSem sig := 85
abbrev cc7_sem2_1 : DmaSem sig := 86
abbrev cc7_sem3_0 : DmaSem sig := 87
abbrev cc7_sem3_1 : DmaSem sig := 88
abbrev cc7_sem4_0 : DmaSem sig := 89
abbrev cc7_sem5_0 : DmaSem sig := 90
abbrev cc7_sem5_1 : DmaSem sig := 91
abbrev cc7_sem6_0 : DmaSem sig := 92
abbrev cc7_sem6_1 : DmaSem sig := 93
abbrev cc8_sem0_0 : DmaSem sig := 94
abbrev cc8_sem0_1 : DmaSem sig := 95
abbrev cc8_sem1_0 : DmaSem sig := 96
abbrev cc8_sem2_0 : DmaSem sig := 97
abbrev cc8_sem2_1 : DmaSem sig := 98
abbrev cc8_sem3_0 : DmaSem sig := 99
abbrev cc8_sem3_1 : DmaSem sig := 100
abbrev cc8_sem4_0 : DmaSem sig := 101
abbrev cc8_sem5_0 : DmaSem sig := 102
abbrev cc8_sem5_1 : DmaSem sig := 103
abbrev cc8_sem6_0 : DmaSem sig := 104
abbrev cc8_sem6_1 : DmaSem sig := 105
abbrev cc9_sem0_0 : DmaSem sig := 106
abbrev cc9_sem0_1 : DmaSem sig := 107
abbrev cc9_sem1_0 : DmaSem sig := 108
abbrev cc9_sem2_0 : DmaSem sig := 109
abbrev cc9_sem3_0 : DmaSem sig := 110
abbrev cc9_sem3_1 : DmaSem sig := 111

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x10000 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S400x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S400x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S400x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S400x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S400x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S400x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S400x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S400x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S400x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S400x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S400x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S400x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x10000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S400x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S400x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S400x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S400x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S400x10000 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S10000x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S400x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S400x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S400x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S400x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S400x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S400x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  transposes_S2x5_S5x2_1_0 : S2x5.Transposes [1, 0] S5x2
  transposes_S5x2_S2x5_1_0 : S5x2.Transposes [1, 0] S2x5
  shapeCasts_S128_S1x128 : S128.ShapeCasts S1x128
  inb_S400x256_S400x256_0_0 : ∀ a, (![0, 0] : Fin 2 → Nat) a + S400x256.size a ≤ S400x256.size a
  h_S400x256 : 0 < S400x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  slices_S2x5_S1x1_0_0 : S2x5.Slices ![0, 0] S1x1
  shapeCasts_S1x1_S_ : S1x1.ShapeCasts S_
  bcast_S_S10000x128 : S_.BroadcastsInDim S10000x128 (![] : Fin 0 → Fin S10000x128.rank)
  bitsLt_bf16_f32 : FTy.bits .bf16 < FTy.bits .f32
  slices_S2x5_S1x1_0_1 : S2x5.Slices ![0, 1] S1x1
  bcast_S_S1x128 : S_.BroadcastsInDim S1x128 (![] : Fin 0 → Fin S1x128.rank)
  iota_S400x10000_d0_w32 : S400x10000.Iotas .tc 32 [0]
  iota_S400x10000_d1_w32 : S400x10000.Iotas .tc 32 [1]
  inb_S400x10000_S400x10000_0_0 : ∀ a, (![0, 0] : Fin 2 → Nat) a + S400x10000.size a ≤ S400x10000.size a
  h_S400x10000 : 0 < S400x10000.numel
  natLt_1_32 : 1 < 32
  packedbf16_S400x10000_S400x10000_0_0 : (Rect.unit (s := S400x10000) ![0, 0] S400x10000.size inb_S400x10000_S400x10000_0_0).PackedRows (EltTy.packing .bf16)
  shapeCasts_S400x128_S400x128 : S400x128.ShapeCasts S400x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  slices_S2x5_S1x1_0_2 : S2x5.Slices ![0, 2] S1x1
  shapeCasts_S400x10000_S400x10000 : S400x10000.ShapeCasts S400x10000
  slices_S2x5_S1x1_0_3 : S2x5.Slices ![0, 3] S1x1
  slices_S2x5_S1x1_0_4 : S2x5.Slices ![0, 4] S1x1
  slices_S2x5_S1x1_1_0 : S2x5.Slices ![1, 0] S1x1
  slices_S2x5_S1x1_1_1 : S2x5.Slices ![1, 1] S1x1
  slices_S2x5_S1x1_1_2 : S2x5.Slices ![1, 2] S1x1
  slices_S2x5_S1x1_1_3 : S2x5.Slices ![1, 3] S1x1
  slices_S2x5_S1x1_1_4 : S2x5.Slices ![1, 4] S1x1
  pads_S128x40_S128x128_000_0880 : S128x40.Pads (![0, 0] : Fin 2 → Nat) ![0, 88] ![0, 0] S128x128
  h_S_ : 0 < S_.numel
  pads_S40_S128_0880 : S40.Pads (![0] : Fin 1 → Nat) ![88] ![0] S128
  shapeCasts_S128x128_S128x128 : S128x128.ShapeCasts S128x128
  slices_S10000x128_S10000x40_0_0 : S10000x128.Slices ![0, 0] S10000x40
  dot_S5x5_S5x2_S5x2_1_0_0_1_n_n_wf : DotDims.WF S5x5 S5x2 S5x2 [1] [0] [0] [1] [] []
  dot_S400x256_S256x128_S400x128_1_0_0_1_n_n_wf : DotDims.WF S400x256 S256x128 S400x128 [1] [0] [0] [1] [] []
  dot_S400x128_S128x128_S400x128_1_0_0_1_n_n_wf : DotDims.WF S400x128 S128x128 S400x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S10000x256.size a
  hwx0_0 : ∀ i : grid0.Coords, EltTy.bits .f32 = 32 ∨ (Rect.block (s := S10000x256) S400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x10000.size a ≤ S10000x10000.size a
  hwx1_7 : ∀ i : grid1.Coords, EltTy.bits .bf16 = 32 ∨ (Rect.block (s := S10000x10000) S400x10000.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x128.size a ≤ S10000x128.size a
  hwx2_6 : ∀ i : grid2.Coords, EltTy.bits .f32 = 32 ∨ (Rect.block (s := S10000x128) S400x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .f32 = 32 ∨ (Rect.block (s := S10000x128) S400x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x128.size a ≤ S10000x128.size a
  hwx3_3 : ∀ i : grid3.Coords, EltTy.bits .f32 = 32 ∨ (Rect.block (s := S10000x128) S400x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S400x128.size a ≤ S10000x128.size a
  hwx3_5 : ∀ i : grid3.Coords, EltTy.bits .f32 = 32 ∨ (Rect.block (s := S10000x128) S400x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S400x128.size a ≤ S10000x128.size a
  hwx3_6 : ∀ i : grid3.Coords, EltTy.bits .f32 = 32 ∨ (Rect.block (s := S10000x128) S400x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x128.size a ≤ S10000x128.size a
  hwx4_2 : ∀ i : grid4.Coords, EltTy.bits .f32 = 32 ∨ (Rect.block (s := S10000x128) S400x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x128.size a ≤ S10000x128.size a
  hwx4_3 : ∀ i : grid4.Coords, EltTy.bits .f32 = 32 ∨ (Rect.block (s := S10000x128) S400x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S400x128.size a ≤ S10000x128.size a
  hwx4_5 : ∀ i : grid4.Coords, EltTy.bits .f32 = 32 ∨ (Rect.block (s := S10000x128) S400x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S400x128.size a ≤ S10000x128.size a
  hwx4_6 : ∀ i : grid4.Coords, EltTy.bits .f32 = 32 ∨ (Rect.block (s := S10000x128) S400x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S10000x128.size a
  hwx5_1 : ∀ i : grid5.Coords, EltTy.bits .bf16 = 32 ∨ (Rect.block (s := S10000x128) S10000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x128.size a ≤ S10000x128.size a
  hwx5_2 : ∀ i : grid5.Coords, EltTy.bits .f32 = 32 ∨ (Rect.block (s := S10000x128) S400x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x128.size a ≤ S10000x128.size a
  hwx5_3 : ∀ i : grid5.Coords, EltTy.bits .f32 = 32 ∨ (Rect.block (s := S10000x128) S400x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S400x128.size a ≤ S10000x128.size a
  hwx5_5 : ∀ i : grid5.Coords, EltTy.bits .f32 = 32 ∨ (Rect.block (s := S10000x128) S400x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S400x128.size a ≤ S10000x128.size a
  hwx5_6 : ∀ i : grid5.Coords, EltTy.bits .f32 = 32 ∨ (Rect.block (s := S10000x128) S400x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .bf16 = 32 ∨ (Rect.block (s := S10000x10000) S400x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S10000x128.size a
  hwx6_1 : ∀ i : grid6.Coords, EltTy.bits .bf16 = 32 ∨ (Rect.block (s := S10000x128) S10000x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S400x128.size a ≤ S10000x128.size a
  hwx6_2 : ∀ i : grid6.Coords, EltTy.bits .f32 = 32 ∨ (Rect.block (s := S10000x128) S400x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S400x128.size a ≤ S10000x128.size a
  hwx6_3 : ∀ i : grid6.Coords, EltTy.bits .f32 = 32 ∨ (Rect.block (s := S10000x128) S400x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S400x128.size a ≤ S10000x128.size a
  hwx6_5 : ∀ i : grid6.Coords, EltTy.bits .f32 = 32 ∨ (Rect.block (s := S10000x128) S400x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S400x128.size a ≤ S10000x128.size a
  hwx6_6 : ∀ i : grid6.Coords, EltTy.bits .f32 = 32 ∨ (Rect.block (s := S10000x128) S400x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x10000.size a ≤ S10000x10000.size a
  hwx7_0 : ∀ i : grid7.Coords, EltTy.bits .bf16 = 32 ∨ (Rect.block (s := S10000x10000) S400x10000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S10000x128.size a
  hwx7_1 : ∀ i : grid7.Coords, EltTy.bits .bf16 = 32 ∨ (Rect.block (s := S10000x128) S10000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S400x128.size a ≤ S10000x128.size a
  hwx7_2 : ∀ i : grid7.Coords, EltTy.bits .f32 = 32 ∨ (Rect.block (s := S10000x128) S400x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S400x128.size a ≤ S10000x128.size a
  hwx7_3 : ∀ i : grid7.Coords, EltTy.bits .f32 = 32 ∨ (Rect.block (s := S10000x128) S400x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S400x128.size a ≤ S10000x128.size a
  hwx7_5 : ∀ i : grid7.Coords, EltTy.bits .f32 = 32 ∨ (Rect.block (s := S10000x128) S400x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S400x128.size a ≤ S10000x128.size a
  hwx7_6 : ∀ i : grid7.Coords, EltTy.bits .f32 = 32 ∨ (Rect.block (s := S10000x128) S400x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S400x10000.size a ≤ S10000x10000.size a
  hwx8_0 : ∀ i : grid8.Coords, EltTy.bits .bf16 = 32 ∨ (Rect.block (s := S10000x10000) S400x10000.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S10000x128.size a ≤ S10000x128.size a
  hwx8_1 : ∀ i : grid8.Coords, EltTy.bits .bf16 = 32 ∨ (Rect.block (s := S10000x128) S10000x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S400x128.size a ≤ S10000x128.size a
  hwx8_2 : ∀ i : grid8.Coords, EltTy.bits .f32 = 32 ∨ (Rect.block (s := S10000x128) S400x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S400x128.size a ≤ S10000x128.size a
  hwx8_3 : ∀ i : grid8.Coords, EltTy.bits .f32 = 32 ∨ (Rect.block (s := S10000x128) S400x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S400x128.size a ≤ S10000x128.size a
  hwx8_5 : ∀ i : grid8.Coords, EltTy.bits .f32 = 32 ∨ (Rect.block (s := S10000x128) S400x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S400x128.size a ≤ S10000x128.size a
  hwx8_6 : ∀ i : grid8.Coords, EltTy.bits .f32 = 32 ∨ (Rect.block (s := S10000x128) S400x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S400x128.size a ≤ S10000x128.size a
  hwx9_0 : ∀ i : grid9.Coords, EltTy.bits .f32 = 32 ∨ (Rect.block (s := S10000x128) S400x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S400x128.size a ≤ S10000x128.size a
  hwx9_3 : ∀ i : grid9.Coords, EltTy.bits .f32 = 32 ∨ (Rect.block (s := S10000x128) S400x128.size (cc9_transform_3 i) (hinb9_3 i)).WholeWords (EltTy.packing .f32)

variable [Facts₀]

def dot_S5x5_S5x2_S5x2_1_0_0_1_n_n : DotDims S5x5 S5x2 S5x2 where
  lhsContracting := [1]
  rhsContracting := [0]
  lhsNonContracting := [0]
  rhsNonContracting := [1]
  lhsBatch := []
  rhsBatch := []
  wf := dot_S5x5_S5x2_S5x2_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14_0) S400x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_1) S400x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v14_2) S400x10000.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v14_2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14_0) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14_1) S400x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19_0) S400x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v19_1) S400x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v14_2) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19_0) S400x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v19_1) S400x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v24_0) S400x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v24_1) S400x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v14_2) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v24_0) S400x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v24_1) S400x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v28) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v29_0) S400x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v29_1) S400x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v14_2) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S10000x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v29_1) S400x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v33) S400x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v37) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v38_0) S400x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v38_1) S400x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v14_2) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v39) S10000x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v38_0) S400x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v38_1) S400x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v42) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v43_0) S400x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v43_1) S400x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v14_2) S400x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v44) S10000x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v43_0) S400x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v43_1) S400x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v47) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v48_0) S400x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v48_1) S400x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v14_2) S400x10000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v49) S10000x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v48_0) S400x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v48_1) S400x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v52) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v53_0) S400x128.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v53_1) S400x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v53_1) S400x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v54) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v56) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v57) S400x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x128 : Shape := ⟨2, ![128, 128]⟩
abbrev S2x5 : Shape := ⟨2, ![2, 5]⟩
abbrev S128x40 : Shape := ⟨2, ![128, 40]⟩
abbrev S40 : Shape := ⟨1, ![40]⟩
abbrev S10000x128 : Shape := ⟨2, ![10000, 128]⟩
abbrev S1x128 : Shape := ⟨2, ![1, 128]⟩
abbrev S_ : Shape := ⟨0, ![]⟩
abbrev S1x5 : Shape := ⟨2, ![1, 5]⟩
abbrev S5 : Shape := ⟨1, ![5]⟩
abbrev S1 : Shape := ⟨1, ![1]⟩
abbrev S10000x40 : Shape := ⟨2, ![10000, 40]⟩
abbrev S1x40 : Shape := ⟨2, ![1, 40]⟩

abbrev nBuf : Space → Nat
  | .hbm => 162
  | .vmem => 0
  | .smem => 0
  | _ => 0

abbrev hbmTy0_0 (i : Nat) : BufTy := match i % 128 with
  | 0 => ⟨S10000x256, .f32⟩
  | 1 => ⟨S10000x10000, .f32⟩
  | 2 => ⟨S256x128, .f32⟩
  | 3 => ⟨S128, .f32⟩
  | 4 => ⟨S128x128, .f32⟩
  | 5 => ⟨S128, .f32⟩
  | 6 => ⟨S2x5, .f32⟩
  | 7 => ⟨S128x40, .f32⟩
  | 8 => ⟨S40, .f32⟩
  | 9 => ⟨S10000x128, .f32⟩
  | 10 => ⟨S1x128, .f32⟩
  | 11 => ⟨S10000x128, .f32⟩
  | 12 => ⟨S10000x128, .f32⟩
  | 13 => ⟨S_, .f32⟩
  | 14 => ⟨S10000x128, .f32⟩
  | 15 => ⟨S10000x128, .f32⟩
  | 16 => ⟨S10000x128, .f32⟩
  | 17 => ⟨S1x128, .f32⟩
  | 18 => ⟨S10000x128, .f32⟩
  | 19 => ⟨S10000x128, .f32⟩
  | 20 => ⟨S1x5, .f32⟩
  | 21 => ⟨S5, .f32⟩
  | 22 => ⟨S_, .f32⟩
  | 23 => ⟨S10000x128, .f32⟩
  | 24 => ⟨S10000x128, .f32⟩
  | 25 => ⟨S10000x128, .f32⟩
  | 26 => ⟨S10000x128, .f32⟩
  | 27 => ⟨S_, .f32⟩
  | 28 => ⟨S10000x128, .f32⟩
  | 29 => ⟨S10000x128, .f32⟩
  | 30 => ⟨S10000x128, .f32⟩
  | 31 => ⟨S10000x128, .f32⟩
  | 32 => ⟨S_, .f32⟩
  | 33 => ⟨S10000x128, .f32⟩
  | 34 => ⟨S10000x128, .f32⟩
  | 35 => ⟨S10000x128, .f32⟩
  | 36 => ⟨S10000x128, .f32⟩
  | 37 => ⟨S_, .f32⟩
  | 38 => ⟨S10000x128, .f32⟩
  | 39 => ⟨S10000x128, .f32⟩
  | 40 => ⟨S10000x128, .f32⟩
  | 41 => ⟨S10000x128, .f32⟩
  | 42 => ⟨S1, .f32⟩
  | 43 => ⟨S_, .f32⟩
  | 44 => ⟨S_, .f32⟩
  | 45 => ⟨S_, .f32⟩
  | 46 => ⟨S10000x128, .f32⟩
  | 47 => ⟨S10000x128, .f32⟩
  | 48 => ⟨S10000x128, .f32⟩
  | 49 => ⟨S1, .f32⟩
  | 50 => ⟨S_, .f32⟩
  | 51 => ⟨S_, .f32⟩
  | 52 => ⟨S_, .f32⟩
  | 53 => ⟨S10000x128, .f32⟩
  | 54 => ⟨S10000x128, .f32⟩
  | 55 => ⟨S10000x128, .f32⟩
  | 56 => ⟨S10000x128, .f32⟩
  | 57 => ⟨S10000x128, .f32⟩
  | 58 => ⟨S1, .f32⟩
  | 59 => ⟨S_, .f32⟩
  | 60 => ⟨S_, .f32⟩
  | 61 => ⟨S_, .f32⟩
  | 62 => ⟨S10000x128, .f32⟩
  | 63 => ⟨S10000x128, .f32⟩
  | 64 => ⟨S10000x128, .f32⟩
  | 65 => ⟨S10000x128, .f32⟩
  | 66 => ⟨S10000x128, .f32⟩
  | 67 => ⟨S10000x128, .f32⟩
  | 68 => ⟨S1, .f32⟩
  | 69 => ⟨S_, .f32⟩
  | 70 => ⟨S_, .f32⟩
  | 71 => ⟨S_, .f32⟩
  | 72 => ⟨S10000x128, .f32⟩
  | 73 => ⟨S10000x128, .f32⟩
  | 74 => ⟨S10000x128, .f32⟩
  | 75 => ⟨S10000x128, .f32⟩
  | 76 => ⟨S10000x128, .f32⟩
  | 77 => ⟨S10000x128, .f32⟩
  | 78 => ⟨S10000x128, .f32⟩
  | 79 => ⟨S1, .f32⟩
  | 80 => ⟨S_, .f32⟩
  | 81 => ⟨S_, .f32⟩
  | 82 => ⟨S_, .f32⟩
  | 83 => ⟨S10000x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S1x5, .f32⟩
  | 90 => ⟨S5, .f32⟩
  | 91 => ⟨S_, .f32⟩
  | 92 => ⟨S10000x128, .f32⟩
  | 93 => ⟨S10000x128, .f32⟩
  | 94 => ⟨S10000x128, .f32⟩
  | 95 => ⟨S10000x128, .f32⟩
  | 96 => ⟨S_, .f32⟩
  | 97 => ⟨S10000x128, .f32⟩
  | 98 => ⟨S10000x128, .f32⟩
  | 99 => ⟨S10000x128, .f32⟩
  | 100 => ⟨S10000x128, .f32⟩
  | 101 => ⟨S_, .f32⟩
  | 102 => ⟨S10000x128, .f32⟩
  | 103 => ⟨S10000x128, .f32⟩
  | 104 => ⟨S10000x128, .f32⟩
  | 105 => ⟨S10000x128, .f32⟩
  | 106 => ⟨S_, .f32⟩
  | 107 => ⟨S10000x128, .f32⟩
  | 108 => ⟨S10000x128, .f32⟩
  | 109 => ⟨S10000x128, .f32⟩
  | 110 => ⟨S10000x128, .f32⟩
  | 111 => ⟨S1, .f32⟩
  | 112 => ⟨S_, .f32⟩
  | 113 => ⟨S_, .f32⟩
  | 114 => ⟨S_, .f32⟩
  | 115 => ⟨S10000x128, .f32⟩
  | 116 => ⟨S10000x128, .f32⟩
  | 117 => ⟨S10000x128, .f32⟩
  | 118 => ⟨S1, .f32⟩
  | 119 => ⟨S_, .f32⟩
  | 120 => ⟨S_, .f32⟩
  | 121 => ⟨S_, .f32⟩
  | 122 => ⟨S10000x128, .f32⟩
  | 123 => ⟨S10000x128, .f32⟩
  | 124 => ⟨S10000x128, .f32⟩
  | 125 => ⟨S10000x128, .f32⟩
  | 126 => ⟨S10000x128, .f32⟩
  | 127 => ⟨S1, .f32⟩
  | _ => ⟨S10000x256, .f32⟩

abbrev hbmTy0_1 (i : Nat) : BufTy := match i % 128 with
  | 0 => ⟨S_, .f32⟩
  | 1 => ⟨S_, .f32⟩
  | 2 => ⟨S_, .f32⟩
  | 3 => ⟨S10000x128, .f32⟩
  | 4 => ⟨S10000x128, .f32⟩
  | 5 => ⟨S10000x128, .f32⟩
  | 6 => ⟨S10000x128, .f32⟩
  | 7 => ⟨S10000x128, .f32⟩
  | 8 => ⟨S10000x128, .f32⟩
  | 9 => ⟨S1, .f32⟩
  | 10 => ⟨S_, .f32⟩
  | 11 => ⟨S_, .f32⟩
  | 12 => ⟨S_, .f32⟩
  | 13 => ⟨S10000x128, .f32⟩
  | 14 => ⟨S10000x128, .f32⟩
  | 15 => ⟨S10000x128, .f32⟩
  | 16 => ⟨S10000x128, .f32⟩
  | 17 => ⟨S10000x128, .f32⟩
  | 18 => ⟨S10000x128, .f32⟩
  | 19 => ⟨S10000x128, .f32⟩
  | 20 => ⟨S1, .f32⟩
  | 21 => ⟨S_, .f32⟩
  | 22 => ⟨S_, .f32⟩
  | 23 => ⟨S_, .f32⟩
  | 24 => ⟨S10000x128, .f32⟩
  | 25 => ⟨S10000x128, .f32⟩
  | 26 => ⟨S10000x128, .f32⟩
  | 27 => ⟨S_, .f32⟩
  | 28 => ⟨S10000x128, .f32⟩
  | 29 => ⟨S10000x128, .f32⟩
  | 30 => ⟨S10000x40, .f32⟩
  | 31 => ⟨S1x40, .f32⟩
  | 32 => ⟨S10000x40, .f32⟩
  | 33 => ⟨S10000x40, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_13 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_14 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_15 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_16 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_17 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_18 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_19 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x5_S1x5_0_0 : S2x5.Slices ![0, 0] S1x5
  shapeCasts_S1x5_S5 : S1x5.ShapeCasts S5
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  slices_S2x5_S1x5_1_0 : S2x5.Slices ![1, 0] S1x5
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.Spec.lean ====
/-
  The mathematics of the two programs, as functions of the argument arrays over the extended reals.

  An array of extents [r, c] is a function on its index type; `mm A B` is the matrix product
  (A B)[i, j] = ∑ l, A[i, l] · B[l, j]. Both programs first compute
      h₀ = relu(x W₁ + b₁) W₂ + b₂,
  then apply twice (with the coefficient rows θ₀ and θ₁ of `thetas`) a polynomial filter in the matrix L
  followed by relu, and end with h W₃ + b₃.

  The kernel evaluates the filter in the monomial basis: with E = L − I (so that u + E u = L u),
      u₁ = h + E h, …, u₄ = u₃ + E u₃,   acc = c₀ h + c₁ u₁ + c₂ u₂ + c₃ u₃ + c₄ u₄,
  where c = M θ for the fixed 5 × 5 matrix M of dyadic rationals that converts Bernstein coefficients to monomial
  ones. The reference evaluates the Bernstein form itself: t₀ = h, tₖ₊₁ = 2 tₖ − L tₖ, and
      out = (1/16 θ₀) t₄ + (1/4 θ₁) L t₃ + (3/8 θ₂) L² t₂ + (1/4 θ₃) L³ t₁ + (1/16 θ₄) L⁴ t₀.
  Over the reals the two are the same polynomial in L applied to h.
-/
import Idealize.ShloMosaic.PureOps.Ideal
import Idealize.ShloMosaic.Lib.ValueIdx

noncomputable section

namespace Bern

open Idealize.ShloMosaic Idealize.ShloMosaic.ValueIdx
open scoped BigOperators

/-- An array of extents [r, c] over the extended reals. -/
abbrev Arr (r c : ℕ) := (⟨2, ![r, c]⟩ : Shape).Idx → EReal
/-- A vector of extent n over the extended reals. -/
abbrev Vec1 (n : ℕ) := (⟨1, ![n]⟩ : Shape).Idx → EReal

/-- The matrix product: (A B)[i, j] = ∑ l, A[i, l] · B[l, j]. -/
def mm {n k p : ℕ} (A : Arr n k) (B : Arr k p) : Arr n p :=
  fun i => ∑ l : Fin k, A (ix2 (i 0) l) * B (ix2 l (i 1))

theorem mm_apply {n k p : ℕ} (A : Arr n k) (B : Arr k p) (a : Fin n) (b : Fin p) :
    mm A B (ix2 a b) = ∑ l : Fin k, A (ix2 a l) * B (ix2 l b) := rfl

/-- Adding a row vector to every row: (A ⊕ b)[i, j] = A[i, j] + b[j]. -/
def addRow {n p : ℕ} (A : Arr n p) (b : Vec1 p) : Arr n p := fun i => A i + b (ix1 (i 1))

/-- relu, entry by entry. -/
def relu {n p : ℕ} (A : Arr n p) : Arr n p := fun i => max (A i) 0

/-- The two-layer perceptron both programs start with: relu(x W₁ + b₁) W₂ + b₂. -/
def mlp (x : Arr 10000 256) (W1 : Arr 256 128) (b1 : Vec1 128) (W2 : Arr 128 128) (b2 : Vec1 128) : Arr 10000 128 :=
  addRow (mm (relu (addRow (mm x W1) b1)) W2) b2

/-- The last projection: h W₃ + b₃. -/
def proj (h : Arr 10000 128) (W3 : Arr 128 40) (b3 : Vec1 40) : Arr 10000 40 := addRow (mm h W3) b3

/-! ## The kernel's filter -/

/-- E = L − I: the matrix the kernel's first propagation pass writes. -/
def subId (L : Arr 10000 10000) : Arr 10000 10000 := fun i => L i - (if (i 0).val = (i 1).val then 1 else 0)

/-- One propagation pass: u + E u. -/
def prop (E : Arr 10000 10000) (u : Arr 10000 128) : Arr 10000 128 := fun i => u i + mm E u i

/-- One accumulation: acc + c · u, entry by entry. -/
def axpy (acc : Arr 10000 128) (c : EReal) (u : Arr 10000 128) : Arr 10000 128 := fun i => acc i + c * u i

/-- A scalar times an array. -/
def scal (c : EReal) (u : Arr 10000 128) : Arr 10000 128 := fun i => c * u i

/-- The kernel's layer from its five monomial coefficients (before the closing relu):
    c₀ h + c₁ u₁ + c₂ u₂ + c₃ u₃ + c₄ u₄ with uₖ₊₁ = uₖ + E uₖ, accumulated left to right. -/
def kLayer (E : Arr 10000 10000) (c0 c1 c2 c3 c4 : EReal) (h : Arr 10000 128) : Arr 10000 128 :=
  let u1 := prop E h
  let u2 := prop E u1
  let u3 := prop E u2
  let u4 := prop E u3
  axpy (axpy (axpy (axpy (scal c0 h) c1 u1) c2 u2) c3 u3) c4 u4

/-- The monomial coefficients c = M θ of one row θ of `thetas`, each as the sum the kernel's host product forms,
    ∑ⱼ M[m, j] · θ[j], with M's zero entries kept. -/
def mono (m j : Fin 5) : EReal :=
  match m.val, j.val with
  | 0, 0 => ((1 : ℝ) : EReal)
  | 1, 0 => ((-2 : ℝ) : EReal) | 1, 1 => ((2 : ℝ) : EReal)
  | 2, 0 => ((3/2 : ℝ) : EReal) | 2, 1 => ((-3 : ℝ) : EReal) | 2, 2 => ((3/2 : ℝ) : EReal)
  | 3, 0 => ((-1/2 : ℝ) : EReal) | 3, 1 => ((3/2 : ℝ) : EReal) | 3, 2 => ((-3/2 : ℝ) : EReal) | 3, 3 => ((1/2 : ℝ) : EReal)
  | 4, 0 => ((1/16 : ℝ) : EReal) | 4, 1 => ((-1/4 : ℝ) : EReal) | 4, 2 => ((3/8 : ℝ) : EReal) | 4, 3 => ((-1/4 : ℝ) : EReal) | 4, 4 => ((1/16 : ℝ) : EReal)
  | _, _ => ((0 : ℝ) : EReal)

/-- c[l, m] = ∑ⱼ M[m, j] · θ[l, j]. -/
def coeff (th : Arr 2 5) (l : Fin 2) (m : Fin 5) : EReal := ∑ j : Fin 5, mono m j * th (ix2 l j)

/-- The kernel's layer for row l of `thetas`, relu included. -/
def kBern (E : Arr 10000 10000) (th : Arr 2 5) (l : Fin 2) (h : Arr 10000 128) : Arr 10000 128 :=
  relu (kLayer E (coeff th l 0) (coeff th l 1) (coeff th l 2) (coeff th l 3) (coeff th l 4) h)

/-- What the kernel's program returns. -/
def kernelSpec (x : Arr 10000 256) (L : Arr 10000 10000) (W1 : Arr 256 128) (b1 : Vec1 128) (W2 : Arr 128 128) (b2 : Vec1 128)
    (th : Arr 2 5) (W3 : Arr 128 40) (b3 : Vec1 40) : Arr 10000 40 :=
  proj (kBern (subId L) th 1 (kBern (subId L) th 0 (mlp x W1 b1 W2 b2))) W3 b3

/-! ## The reference's filter -/

/-- (2I − L) t, as the reference forms it: 2 · t − L t. -/
def twoSub (L : Arr 10000 10000) (t : Arr 10000 128) : Arr 10000 128 := fun i => (2 : EReal) * t i - mm L t i

/-- The reference's layer for the coefficients θ₀ … θ₄ (before relu), in its order of operations. -/
def rLayer (L : Arr 10000 10000) (t0 t1 t2 t3 t4 : EReal) (h : Arr 10000 128) : Arr 10000 128 :=
  let s1 := twoSub L h
  let s2 := twoSub L s1
  let s3 := twoSub L s2
  let s4 := twoSub L s3
  fun i =>
    ((((((1/16 : ℝ) : EReal) * t0) * s4 i
      + (((1/4 : ℝ) : EReal) * t1) * mm L s3 i)
      + (((3/8 : ℝ) : EReal) * t2) * mm L (mm L s2) i)
      + (((1/4 : ℝ) : EReal) * t3) * mm L (mm L (mm L s1)) i)
      + (((1/16 : ℝ) : EReal) * t4) * mm L (mm L (mm L (mm L h))) i

/-- The reference's layer for row l of `thetas`, relu included. -/
def rBern (L : Arr 10000 10000) (th : Arr 2 5) (l : Fin 2) (h : Arr 10000 128) : Arr 10000 128 :=
  relu (rLayer L (th (ix2 l 0)) (th (ix2 l 1)) (th (ix2 l 2)) (th (ix2 l 3)) (th (ix2 l 4)) h)

/-- What the reference returns. -/
def refSpec (x : Arr 10000 256) (L : Arr 10000 10000) (W1 : Arr 256 128) (b1 : Vec1 128) (W2 : Arr 128 128) (b2 : Vec1 128)
    (th : Arr 2 5) (W3 : Arr 128 40) (b3 : Vec1 40) : Arr 10000 40 :=
  proj (rBern L th 1 (rBern L th 0 (mlp x W1 b1 W2 b2))) W3 b3

/-! ## The array each kernel region writes, as a function of the arrays it reads

  A region reads its row vectors as arrays of extents [1, 128] (the bias rows, the coefficient row every entry of which is
  the pass's coefficient) and the propagated features twice (the copy the matrix product takes and the copy it adds to). -/

/-- Adding a [1, p] row to every row. -/
def addRowR {n p : ℕ} (A : Arr n p) (b : Arr 1 p) : Arr n p := fun i => A i + b (ix2 0 (i 1))

/-- The perceptron with its biases as [1, 128] rows. -/
def mlpR (x : Arr 10000 256) (W1 : Arr 256 128) (b1 : Arr 1 128) (W2 : Arr 128 128) (b2 : Arr 1 128) : Arr 10000 128 :=
  addRowR (mm (relu (addRowR (mm x W1) b1)) W2) b2

/-- One propagation pass with the product's operand named apart: u + E ub. -/
def prop2 (E : Arr 10000 10000) (ub u : Arr 10000 128) : Arr 10000 128 := fun i => u i + mm E ub i

/-- One accumulation with the coefficient as a [1, 128] row: acc + ct ⊙ u. -/
def axpyRow (acc : Arr 10000 128) (ct : Arr 1 128) (u : Arr 10000 128) : Arr 10000 128 :=
  fun i => acc i + ct (ix2 0 (i 1)) * u i

/-- The last projection onto 128 padded columns with its bias as a [1, 128] row. -/
def projR (h : Arr 10000 128) (W3p : Arr 128 128) (b3 : Arr 1 128) : Arr 10000 128 := addRowR (mm h W3p) b3

theorem prop2_self (E : Arr 10000 10000) (u : Arr 10000 128) : prop2 E u u = prop E u := rfl

theorem axpyRow_const (acc : Arr 10000 128) (c : EReal) (u : Arr 10000 128) : axpyRow acc (fun _ => c) u = axpy acc c u := rfl

theorem addRowR_row {n p : ℕ} (A : Arr n p) (b : Vec1 p) : addRowR A (fun i => b (ix1 (i 1))) = addRow A b := rfl

/-- An array all of whose entries are real numbers. -/
def IsReal {ι : Type} (a : ι → EReal) : Prop := ∃ a' : ι → ℝ, a = fun i => ((a' i : ℝ) : EReal)

end Bern

end
-- ==== Proof.Algebra.lean ====
/-
  On real-valued arrays the kernel's filter and the reference's filter are the same array.

  In the extended reals addition and multiplication are commutative and associative, but multiplication does not
  distribute over addition and a − b is not a + (−b) at the infinities, so no identity is computed there. An array all
  of whose entries are real is the image `up a` of a real array `a` under the coercion ℝ → EReal, and the coercion
  commutes with +, −, ·, max(·, 0) and finite sums. Hence every function of the specification, applied to images, is the
  image of the same function written over ℝ (the definitions prefixed `r` below). Over ℝ the matrix product is linear in
  its right factor and (L − I) u = L u − u, so the kernel's uₖ is Lᵏ h; the reference's tₖ = (2I − L)ᵏ h expands into a
  combination of the Lʲ h; and the two layers are, entry by entry, the same combination of h, L h, L² h, L³ h, L⁴ h: the
  coefficient identity c = M θ is the binomial expansion of the degree-4 Bernstein basis on [0, 2].
-/
import proofs.«148114_g1589137899740_cont_week2b_1182_5_alg».proof.Proof.Spec
import Mathlib.Data.EReal.Basic
import Mathlib.Data.EReal.Operations
import Mathlib.Algebra.BigOperators.Fin
import Mathlib.Tactic.Ring
import Mathlib.Tactic.FinCases

noncomputable section

namespace Bern

open Idealize.ShloMosaic Idealize.ShloMosaic.ValueIdx
open scoped BigOperators

/-! ## Real arrays and their images in the extended reals -/

/-- A real array of extents [r, c]. -/
abbrev RArr (r c : ℕ) := (⟨2, ![r, c]⟩ : Shape).Idx → ℝ
/-- A real vector of extent n. -/
abbrev RVec (n : ℕ) := (⟨1, ![n]⟩ : Shape).Idx → ℝ

/-- The extended-real array whose entries are the given real numbers. -/
def up {ι : Type} (a : ι → ℝ) : ι → EReal := fun i => ((a i : ℝ) : EReal)

theorem up_apply {ι : Type} (a : ι → ℝ) (i : ι) : up a i = ((a i : ℝ) : EReal) := rfl

/-- The coercion commutes with finite sums. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion is monotone, so it commutes with max(·, 0). -/
theorem coe_max_zero (x : ℝ) : max (x : EReal) 0 = ((max x 0 : ℝ) : EReal) := by
  rw [← EReal.coe_zero]; exact (EReal.coe_strictMono.monotone.map_max).symm

/-- The extended real 2 is the real 2. -/
theorem coe_two : ((2 : ℝ) : EReal) = 2 := rfl

/-! ## The specification's functions over ℝ -/

/-- The matrix product over ℝ. -/
def rmm {n k p : ℕ} (A : RArr n k) (B : RArr k p) : RArr n p :=
  fun i => ∑ l : Fin k, A (ix2 (i 0) l) * B (ix2 l (i 1))

/-- Adding a row vector to every row, over ℝ. -/
def raddRow {n p : ℕ} (A : RArr n p) (b : RVec p) : RArr n p := fun i => A i + b (ix1 (i 1))

/-- relu over ℝ. -/
def rrelu {n p : ℕ} (A : RArr n p) : RArr n p := fun i => max (A i) 0

/-- The perceptron over ℝ. -/
def rmlp (x : RArr 10000 256) (W1 : RArr 256 128) (b1 : RVec 128) (W2 : RArr 128 128) (b2 : RVec 128) : RArr 10000 128 :=
  raddRow (rmm (rrelu (raddRow (rmm x W1) b1)) W2) b2

/-- L − I over ℝ. -/
def rsubId {n : ℕ} (L : RArr n n) : RArr n n := fun i => L i - (if (i 0).val = (i 1).val then 1 else 0)

/-- u + E u over ℝ. -/
def rprop {n p : ℕ} (E : RArr n n) (u : RArr n p) : RArr n p := fun i => u i + rmm E u i

/-- acc + c · u over ℝ. -/
def raxpy {n p : ℕ} (acc : RArr n p) (c : ℝ) (u : RArr n p) : RArr n p := fun i => acc i + c * u i

/-- c · u over ℝ. -/
def rscal {n p : ℕ} (c : ℝ) (u : RArr n p) : RArr n p := fun i => c * u i

/-- The kernel's layer over ℝ. -/
def rkLayer {n p : ℕ} (E : RArr n n) (c0 c1 c2 c3 c4 : ℝ) (h : RArr n p) : RArr n p :=
  let u1 := rprop E h
  let u2 := rprop E u1
  let u3 := rprop E u2
  let u4 := rprop E u3
  raxpy (raxpy (raxpy (raxpy (rscal c0 h) c1 u1) c2 u2) c3 u3) c4 u4

/-- The entries of the conversion matrix M as real numbers. -/
def rmono (m j : Fin 5) : ℝ :=
  match m.val, j.val with
  | 0, 0 => 1
  | 1, 0 => -2 | 1, 1 => 2
  | 2, 0 => 3/2 | 2, 1 => -3 | 2, 2 => 3/2
  | 3, 0 => -1/2 | 3, 1 => 3/2 | 3, 2 => -3/2 | 3, 3 => 1/2
  | 4, 0 => 1/16 | 4, 1 => -1/4 | 4, 2 => 3/8 | 4, 3 => -1/4 | 4, 4 => 1/16
  | _, _ => 0

/-- c[l, m] = ∑ⱼ M[m, j] · θ[l, j] over ℝ. -/
def rcoeff (th : RArr 2 5) (l : Fin 2) (m : Fin 5) : ℝ := ∑ j : Fin 5, rmono m j * th (ix2 l j)

/-- The kernel's layer for row l of θ over ℝ, relu included. -/
def rkBern {n p : ℕ} (L : RArr n n) (th : RArr 2 5) (l : Fin 2) (h : RArr n p) : RArr n p :=
  rrelu (rkLayer (rsubId L) (rcoeff th l 0) (rcoeff th l 1) (rcoeff th l 2) (rcoeff th l 3) (rcoeff th l 4) h)

/-- 2 t − L t over ℝ. -/
def rtwoSub {n p : ℕ} (L : RArr n n) (t : RArr n p) : RArr n p := fun i => 2 * t i - rmm L t i

/-- The reference's layer over ℝ, in its order of operations. -/
def rrLayer {n p : ℕ} (L : RArr n n) (t0 t1 t2 t3 t4 : ℝ) (h : RArr n p) : RArr n p :=
  let s1 := rtwoSub L h
  let s2 := rtwoSub L s1
  let s3 := rtwoSub L s2
  let s4 := rtwoSub L s3
  fun i =>
    (((((1/16 : ℝ) * t0) * s4 i
      + ((1/4 : ℝ) * t1) * rmm L s3 i)
      + ((3/8 : ℝ) * t2) * rmm L (rmm L s2) i)
      + ((1/4 : ℝ) * t3) * rmm L (rmm L (rmm L s1)) i)
      + ((1/16 : ℝ) * t4) * rmm L (rmm L (rmm L (rmm L h))) i

/-- The reference's layer for row l of θ over ℝ, relu included. -/
def rrBern {n p : ℕ} (L : RArr n n) (th : RArr 2 5) (l : Fin 2) (h : RArr n p) : RArr n p :=
  rrelu (rrLayer L (th (ix2 l 0)) (th (ix2 l 1)) (th (ix2 l 2)) (th (ix2 l 3)) (th (ix2 l 4)) h)

/-! ## Each function of the specification maps images of real arrays to the image of its real counterpart -/

theorem mm_up {n k p : ℕ} (A : RArr n k) (B : RArr k p) : mm (up A) (up B) = up (rmm A B) := by
  funext i
  simp only [mm, rmm, up_apply, ← EReal.coe_mul, coe_sum]

theorem addRow_up {n p : ℕ} (A : RArr n p) (b : RVec p) : addRow (up A) (up b) = up (raddRow A b) := by
  funext i
  simp only [addRow, raddRow, up_apply, ← EReal.coe_add]

theorem relu_up {n p : ℕ} (A : RArr n p) : relu (up A) = up (rrelu A) := by
  funext i
  simp only [relu, rrelu, up_apply, coe_max_zero]

theorem mlp_up (x : RArr 10000 256) (W1 : RArr 256 128) (b1 : RVec 128) (W2 : RArr 128 128) (b2 : RVec 128) :
    mlp (up x) (up W1) (up b1) (up W2) (up b2) = up (rmlp x W1 b1 W2 b2) := by
  simp only [mlp, rmlp, mm_up, addRow_up, relu_up]

/-- The diagonal's 1 and the off-diagonal 0 are real. -/
theorem subId_up (L : RArr 10000 10000) : subId (up L) = up (rsubId L) := by
  funext i
  simp only [subId, rsubId, up_apply]
  split_ifs
  · rw [EReal.coe_sub, EReal.coe_one]
  · rw [EReal.coe_sub, EReal.coe_zero]

theorem prop_up (E : RArr 10000 10000) (u : RArr 10000 128) : prop (up E) (up u) = up (rprop E u) := by
  funext i
  simp only [prop, rprop, mm_up, up_apply, ← EReal.coe_add]

theorem axpy_up (acc : RArr 10000 128) (c : ℝ) (u : RArr 10000 128) : axpy (up acc) c (up u) = up (raxpy acc c u) := by
  funext i
  simp only [axpy, raxpy, up_apply, ← EReal.coe_mul, ← EReal.coe_add]

theorem scal_up (c : ℝ) (u : RArr 10000 128) : scal c (up u) = up (rscal c u) := by
  funext i
  simp only [scal, rscal, up_apply, ← EReal.coe_mul]

theorem kLayer_up (E : RArr 10000 10000) (c0 c1 c2 c3 c4 : ℝ) (h : RArr 10000 128) :
    kLayer (up E) c0 c1 c2 c3 c4 (up h) = up (rkLayer E c0 c1 c2 c3 c4 h) := by
  simp only [kLayer, rkLayer, prop_up, scal_up, axpy_up]

/-- Every entry of M is the image of its real value. -/
theorem mono_eq (m j : Fin 5) : mono m j = ((rmono m j : ℝ) : EReal) := by
  fin_cases m <;> fin_cases j <;> rfl

theorem coeff_up (th : RArr 2 5) (l : Fin 2) (m : Fin 5) : coeff (up th) l m = ((rcoeff th l m : ℝ) : EReal) := by
  simp only [coeff, rcoeff, mono_eq, up_apply, ← EReal.coe_mul, coe_sum]

theorem kBern_up (L : RArr 10000 10000) (th : RArr 2 5) (l : Fin 2) (h : RArr 10000 128) :
    kBern (subId (up L)) (up th) l (up h) = up (rkBern L th l h) := by
  simp only [kBern, rkBern, subId_up, coeff_up, kLayer_up, relu_up]

theorem twoSub_up (L : RArr 10000 10000) (t : RArr 10000 128) : twoSub (up L) (up t) = up (rtwoSub L t) := by
  funext i
  simp only [twoSub, rtwoSub, mm_up, up_apply, ← coe_two, ← EReal.coe_mul, ← EReal.coe_sub]

theorem rLayer_up (L : RArr 10000 10000) (t0 t1 t2 t3 t4 : ℝ) (h : RArr 10000 128) :
    rLayer (up L) t0 t1 t2 t3 t4 (up h) = up (rrLayer L t0 t1 t2 t3 t4 h) := by
  funext i
  simp only [rLayer, rrLayer, twoSub_up, mm_up, up_apply, ← EReal.coe_mul, ← EReal.coe_add]

theorem rBern_up (L : RArr 10000 10000) (th : RArr 2 5) (l : Fin 2) (h : RArr 10000 128) :
    rBern (up L) (up th) l (up h) = up (rrBern L th l h) := by
  simp only [rBern, rrBern, up_apply, rLayer_up, relu_up]

/-! ## Linear algebra over ℝ -/

/-- The product is additive in its right factor. -/
theorem rmm_add {n k p : ℕ} (A : RArr n k) (u v : RArr k p) :
    rmm A (fun i => u i + v i) = fun i => rmm A u i + rmm A v i := by
  funext i
  simp only [rmm, mul_add, Finset.sum_add_distrib]

/-- The product commutes with subtraction in its right factor. -/
theorem rmm_sub {n k p : ℕ} (A : RArr n k) (u v : RArr k p) :
    rmm A (fun i => u i - v i) = fun i => rmm A u i - rmm A v i := by
  funext i
  simp only [rmm, mul_sub, Finset.sum_sub_distrib]

/-- The product commutes with a scalar on its right factor. -/
theorem rmm_smul {n k p : ℕ} (A : RArr n k) (c : ℝ) (u : RArr k p) :
    rmm A (fun i => c * u i) = fun i => c * rmm A u i := by
  funext i
  simp only [rmm, Finset.mul_sum]
  exact Finset.sum_congr rfl (fun l _ => by ring)

/-- (L − I) u = L u − u: the diagonal term of the sum is u's own entry. -/
theorem rmm_subId {n p : ℕ} (L : RArr n n) (u : RArr n p) (a : Fin n) (b : Fin p) :
    rmm (rsubId L) u (ix2 a b) = rmm L u (ix2 a b) - u (ix2 a b) := by
  have hd : ∑ l : Fin n, (if a = l then (1 : ℝ) else 0) * u (ix2 l b) = u (ix2 a b) := by
    simp only [ite_mul, one_mul, zero_mul, Finset.sum_ite_eq, Finset.mem_univ, if_true]
  show ∑ l : Fin n, (L (ix2 a l) - (if a.val = l.val then 1 else 0)) * u (ix2 l b)
      = (∑ l : Fin n, L (ix2 a l) * u (ix2 l b)) - u (ix2 a b)
  simp only [Fin.val_inj, sub_mul, Finset.sum_sub_distrib, hd]

/-- u + (L − I) u = L u. -/
theorem rprop_subId {n p : ℕ} (L : RArr n n) (u : RArr n p) : rprop (rsubId L) u = rmm L u := by
  funext i
  obtain ⟨a, b, rfl⟩ : ∃ (a : Fin n) (b : Fin p), i = ix2 a b := ⟨i 0, i 1, eq_ix2 i⟩
  show u (ix2 a b) + rmm (rsubId L) u (ix2 a b) = rmm L u (ix2 a b)
  rw [rmm_subId]; ring

/-! ## The monomial coefficients, written out -/

theorem rcoeff_0 (th : RArr 2 5) (l : Fin 2) : rcoeff th l 0 = th (ix2 l 0) := by
  rw [rcoeff, Fin.sum_univ_five]
  show (1 : ℝ) * th (ix2 l 0) + 0 * th (ix2 l 1) + 0 * th (ix2 l 2) + 0 * th (ix2 l 3) + 0 * th (ix2 l 4) = _
  ring

theorem rcoeff_1 (th : RArr 2 5) (l : Fin 2) : rcoeff th l 1 = -2 * th (ix2 l 0) + 2 * th (ix2 l 1) := by
  rw [rcoeff, Fin.sum_univ_five]
  show (-2 : ℝ) * th (ix2 l 0) + 2 * th (ix2 l 1) + 0 * th (ix2 l 2) + 0 * th (ix2 l 3) + 0 * th (ix2 l 4) = _
  ring

theorem rcoeff_2 (th : RArr 2 5) (l : Fin 2) :
    rcoeff th l 2 = 3/2 * th (ix2 l 0) + -3 * th (ix2 l 1) + 3/2 * th (ix2 l 2) := by
  rw [rcoeff, Fin.sum_univ_five]
  show (3/2 : ℝ) * th (ix2 l 0) + -3 * th (ix2 l 1) + 3/2 * th (ix2 l 2) + 0 * th (ix2 l 3) + 0 * th (ix2 l 4) = _
  ring

theorem rcoeff_3 (th : RArr 2 5) (l : Fin 2) :
    rcoeff th l 3 = -1/2 * th (ix2 l 0) + 3/2 * th (ix2 l 1) + -3/2 * th (ix2 l 2) + 1/2 * th (ix2 l 3) := by
  rw [rcoeff, Fin.sum_univ_five]
  show (-1/2 : ℝ) * th (ix2 l 0) + 3/2 * th (ix2 l 1) + -3/2 * th (ix2 l 2) + 1/2 * th (ix2 l 3) + 0 * th (ix2 l 4) = _
  ring

theorem rcoeff_4 (th : RArr 2 5) (l : Fin 2) :
    rcoeff th l 4 = 1/16 * th (ix2 l 0) + -1/4 * th (ix2 l 1) + 3/8 * th (ix2 l 2) + -1/4 * th (ix2 l 3) + 1/16 * th (ix2 l 4) := by
  rw [rcoeff, Fin.sum_univ_five]
  rfl

/-! ## The two layers over ℝ -/

/-- 2 t − L t as an array (the form in which the product's linearity applies to it). -/
theorem rtwoSub_def {n p : ℕ} (L : RArr n n) (t : RArr n p) : rtwoSub L t = fun i => 2 * t i - rmm L t i := rfl

/-- Both layers are the same combination of h, L h, L² h, L³ h, L⁴ h: the kernel's uₖ is Lᵏ h, and linearity of the
    product turns every L (2 t − L t) of the reference into 2 L t − L (L t); what is left is an identity between
    polynomials in the entries (Lʲ h)[i] and θ[l, j]. -/
theorem rkLayer_eq_rrLayer {n p : ℕ} (L : RArr n n) (th : RArr 2 5) (l : Fin 2) (h : RArr n p) :
    rkLayer (rsubId L) (rcoeff th l 0) (rcoeff th l 1) (rcoeff th l 2) (rcoeff th l 3) (rcoeff th l 4) h
      = rrLayer L (th (ix2 l 0)) (th (ix2 l 1)) (th (ix2 l 2)) (th (ix2 l 3)) (th (ix2 l 4)) h := by
  funext i
  simp only [rkLayer, rprop_subId, raxpy, rscal, rrLayer, rtwoSub_def, rmm_sub, rmm_smul,
    rcoeff_0, rcoeff_1, rcoeff_2, rcoeff_3, rcoeff_4]
  ring

theorem rkBern_eq_rrBern {n p : ℕ} (L : RArr n n) (th : RArr 2 5) (l : Fin 2) (h : RArr n p) :
    rkBern L th l h = rrBern L th l h := by
  rw [rkBern, rrBern, rkLayer_eq_rrLayer]

/-! ## The two programs -/

theorem kernelSpec_eq_refSpec (x : Arr 10000 256) (L : Arr 10000 10000) (W1 : Arr 256 128) (b1 : Vec1 128) (W2 : Arr 128 128) (b2 : Vec1 128) (th : Arr 2 5) (W3 : Arr 128 40) (b3 : Vec1 40)
    (hx : IsReal x) (hL : IsReal L) (hW1 : IsReal W1) (hb1 : IsReal b1) (hW2 : IsReal W2) (hb2 : IsReal b2) (hth : IsReal th) (hW3 : IsReal W3) (hb3 : IsReal b3) :
    kernelSpec x L W1 b1 W2 b2 th W3 b3 = refSpec x L W1 b1 W2 b2 th W3 b3 := by
  obtain ⟨x', ex⟩ := hx
  obtain ⟨L', eL⟩ := hL
  obtain ⟨W1', eW1⟩ := hW1
  obtain ⟨b1', eb1⟩ := hb1
  obtain ⟨W2', eW2⟩ := hW2
  obtain ⟨b2', eb2⟩ := hb2
  obtain ⟨th', eth⟩ := hth
  have ex' : x = up x' := ex
  have eL' : L = up L' := eL
  have eW1' : W1 = up W1' := eW1
  have eb1' : b1 = up b1' := eb1
  have eW2' : W2 = up W2' := eW2
  have eb2' : b2 = up b2' := eb2
  have eth' : th = up th' := eth
  rw [kernelSpec, refSpec, ex', eL', eW1', eb1', eW2', eb2', eth', mlp_up, kBern_up, kBern_up, rBern_up, rBern_up,
    rkBern_eq_rrBern, rkBern_eq_rrBern]

end Bern

end
-- ==== Proof.PreReal.lean ====
/-
  If the conjunction over the nine argument arrays of "every entry a satisfies |a| < +∞" holds, every entry of every
  array is a real number.

  The predicate is a conjunction (bitwise and of one-bit words) of nine terms, each the and-reduction over all axes, from
  the constant true, of the array of bits [|a i| < +∞]. A conjunction that is 1 has both conjuncts 1; an and-reduction
  over all axes that is 1 met a 1 at every index; and on the extended reals |x| = max x (−x) < ⊤ excludes x = ⊤ and
  x = ⊥ (|⊥| = ⊤), so x is the image of a real number.
-/
import proofs.«148114_g1589137899740_cont_week2b_1182_5_alg».proof.Pre_finite_inputs
import proofs.«148114_g1589137899740_cont_week2b_1182_5_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.PreReal

open Idealize.ShloMosaic Cert.Pre_finite_inputs

/-- The shape of extent [] has exactly one index. -/
instance subsingleton_scalar_idx : Subsingleton S_.Idx := ⟨fun a b => funext fun d => d.elim0⟩

/-- The word 0x7F800000 is +∞. -/
theorem inf_word : Ideal.ofBits .f32 0x7F800000#32 = (⊤ : EReal) := by simp [Ideal.ofBits, Ideal.ieee]

/-- An extended real x with |x| = max x (−x) < +∞ is a real number: x = ⊤ gives |x| = ⊤, and x = ⊥ gives −x = ⊤. -/
theorem real_of_abs_lt_inf (x : EReal)
    (h : Ideal.cmp .olt (max x (-x)) (Ideal.ofBits .f32 0x7F800000#32) = 1#1) : ∃ r : ℝ, x = ((r : ℝ) : EReal) := by
  rw [inf_word] at h
  unfold Ideal.cmp at h
  induction x using EReal.rec with
  | bot => simp at h
  | coe r => exact ⟨r, rfl⟩
  | top => simp at h

/-- An array every entry of which satisfies |a i| < +∞ is an array of real numbers. -/
theorem isReal_of_entries {S : Shape} (a : FVec Ideal S .f32)
    (h : ∀ i : S.Idx, Ideal.cmp .olt (max (a i) (-(a i))) (Ideal.ofBits .f32 0x7F800000#32) = 1#1) : Bern.IsReal a := by
  choose a' ha' using fun i => real_of_abs_lt_inf (a i) (h i)
  exact ⟨a', funext ha'⟩

/-- One conjunct of the predicate: the and-reduction over all axes of the bits [|a i| < +∞] is 1, so a is real. -/
theorem isReal_of_all {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi (cmpf .olt (Host.absf a) (broadcastInDim S ![] hb (constant (F := Ideal) S_ .f32 0x7F800000#32)))
          (constantI S_ 1 1#1) hr hu ValueIdx.ix0 = 1#1) : Bern.IsReal a :=
  isReal_of_entries a fun i => Host.reduce_andi_all _ _ hr hu _ e i

theorem real_of_pre [Cert.Pre_finite_inputs.Facts]
    (a0 : FVec Ideal Cert.Pre_finite_inputs.S10000x256 .f32) (a1 : FVec Ideal Cert.Pre_finite_inputs.S10000x10000 .f32) (a2 : FVec Ideal Cert.Pre_finite_inputs.S256x128 .f32) (a3 : FVec Ideal Cert.Pre_finite_inputs.S128 .f32) (a4 : FVec Ideal Cert.Pre_finite_inputs.S128x128 .f32) (a5 : FVec Ideal Cert.Pre_finite_inputs.S128 .f32) (a6 : FVec Ideal Cert.Pre_finite_inputs.S2x5 .f32) (a7 : FVec Ideal Cert.Pre_finite_inputs.S128x40 .f32) (a8 : FVec Ideal Cert.Pre_finite_inputs.S40 .f32)
    (h : Cert.Pre_finite_inputs.fn (F := Ideal) a0 a1 a2 a3 a4 a5 a6 a7 a8 = (fun _ => 1#1)) :
    Bern.IsReal a0 ∧ Bern.IsReal a1 ∧ Bern.IsReal a2 ∧ Bern.IsReal a3 ∧ Bern.IsReal a4 ∧ Bern.IsReal a5 ∧ Bern.IsReal a6 ∧ Bern.IsReal a7 ∧ Bern.IsReal a8 := by
  have h0 := congrFun h ValueIdx.ix0
  unfold Cert.Pre_finite_inputs.fn Cert.Pre_finite_inputs.fn_part1 Cert.Pre_finite_inputs.fn_part2 at h0
  dsimp only at h0
  obtain ⟨h07, e8⟩ := IntOp.andi_eq_one.1 h0
  obtain ⟨h06, e7⟩ := IntOp.andi_eq_one.1 h07
  obtain ⟨h05, e6⟩ := IntOp.andi_eq_one.1 h06
  obtain ⟨h04, e5⟩ := IntOp.andi_eq_one.1 h05
  obtain ⟨h03, e4⟩ := IntOp.andi_eq_one.1 h04
  obtain ⟨h02, e3⟩ := IntOp.andi_eq_one.1 h03
  obtain ⟨h01, e2⟩ := IntOp.andi_eq_one.1 h02
  obtain ⟨e0, e1⟩ := IntOp.andi_eq_one.1 h01
  exact ⟨isReal_of_all a0 _ _ _ e0, isReal_of_all a1 _ _ _ e1, isReal_of_all a2 _ _ _ e2, isReal_of_all a3 _ _ _ e3,
    isReal_of_all a4 _ _ _ e4, isReal_of_all a5 _ _ _ e5, isReal_of_all a6 _ _ _ e6, isReal_of_all a7 _ _ _ e7,
    isReal_of_all a8 _ _ _ e8⟩

end Cert.PreReal

end
-- ==== Proof.Consts.lean ====
/-
  The float constants the two programs spell, as the extended reals their bit patterns denote: the entries of
  the matrix that converts Bernstein coefficients to monomial ones (all dyadic rationals), the reference's factor 2 and
  its binomial weights 1/16, 1/4, 3/8.
-/
import Idealize.ShloMosaic.PureOps.Ideal

noncomputable section

namespace Bern.Consts

open Idealize.ShloMosaic

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul]; norm_num
theorem ofBits_three_halves : Ideal.ofBits .f32 0x3FC00000#32 = ((3/2 : ℝ) : EReal) := by
  simp [Ideal.ofBits, Ideal.ieee, -EReal.coe_mul]; norm_num
theorem ofBits_neg_three : Ideal.ofBits .f32 0xC0400000#32 = ((-3 : ℝ) : EReal) := by
  simp [Ideal.ofBits, Ideal.ieee, -EReal.coe_mul]; norm_num
theorem ofBits_neg_half : Ideal.ofBits .f32 0xBF000000#32 = ((-1/2 : ℝ) : EReal) := by
  simp [Ideal.ofBits, Ideal.ieee, -EReal.coe_mul]; norm_num
theorem ofBits_neg_three_halves : Ideal.ofBits .f32 0xBFC00000#32 = ((-3/2 : ℝ) : EReal) := by
  simp [Ideal.ofBits, Ideal.ieee, -EReal.coe_mul]; norm_num
theorem ofBits_half : Ideal.ofBits .f32 0x3F000000#32 = ((1/2 : ℝ) : EReal) := by
  simp [Ideal.ofBits, Ideal.ieee, -EReal.coe_mul]; norm_num
theorem ofBits_sixteenth : Ideal.ofBits .f32 0x3D800000#32 = ((1/16 : ℝ) : EReal) := by
  simp [Ideal.ofBits, Ideal.ieee, -EReal.coe_mul]; norm_num
theorem ofBits_neg_quarter : Ideal.ofBits .f32 0xBE800000#32 = ((-1/4 : ℝ) : EReal) := by
  simp [Ideal.ofBits, Ideal.ieee, -EReal.coe_mul]; norm_num
theorem ofBits_quarter : Ideal.ofBits .f32 0x3E800000#32 = ((1/4 : ℝ) : EReal) := by
  simp [Ideal.ofBits, Ideal.ieee, -EReal.coe_mul]; norm_num
theorem ofBits_three_eighths : Ideal.ofBits .f32 0x3EC00000#32 = ((3/8 : ℝ) : EReal) := by
  simp [Ideal.ofBits, Ideal.ieee, -EReal.coe_mul]; norm_num

end Bern.Consts

end
-- ==== Proof.RefValue.lean ====
/-
  The reference's result, as the specification's function of its arguments.

  The reference's run leaves its result buffer at one composed term over named intermediates. Read entry by entry,
  each host product is the matrix product (A B)[p, q] = ∑ l, A[p, l] · B[l, q]; a vector made a row and copied down the
  rows adds entry q to column q; a scalar copied everywhere multiplies every entry. So the first named intermediate is
  h₀ = relu(x W₁ + b₁) W₂ + b₂, the next three are the iterates t ↦ 2 t − L t, and each layer is relu of
      (1/16 θ₀) t₄ + (1/4 θ₁) L t₃ + (3/8 θ₂) L² t₂ + (1/4 θ₃) L³ t₁ + (1/16 θ₄) L⁴ t₀,
  with θ the layer's row of the coefficient array. The result is the second layer's output times W₃, plus b₃.
-/
import proofs.«148114_g1589137899740_cont_week2b_1182_5_alg».proof.Proof.Gen.ReferenceIdeal.Run
import proofs.«148114_g1589137899740_cont_week2b_1182_5_alg».proof.Proof.Spec
import proofs.«148114_g1589137899740_cont_week2b_1182_5_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Value Cert.ReferenceIdeal.Gen Idealize.ShloMosaic Idealize.ShloMosaic.TcCoe
  Idealize.ShloMosaic.ValueIdx Idealize.SL.Sem
open scoped BigOperators

/-! ## The four matrix products -/

/-! ### The product [10000, 256] · [256, 128] -/

theorem lhsX_0 (j : S10000x128.Idx) (k : dot_S10000x256_S256x128_S10000x128_1_0_0_1_n_n.contr.Idx) :
    ((dot_S10000x256_S256x128_S10000x128_1_0_0_1_n_n.lhsIdx j k) 0 : ℕ) = j 0 := by
  simp [DotDims.lhsIdx, dot_S10000x256_S256x128_S10000x128_1_0_0_1_n_n]; rfl
theorem lhsX_1 (j : S10000x128.Idx) (k : dot_S10000x256_S256x128_S10000x128_1_0_0_1_n_n.contr.Idx) :
    ((dot_S10000x256_S256x128_S10000x128_1_0_0_1_n_n.lhsIdx j k) 1 : ℕ) = k ⟨0, by decide⟩ := by
  simp [DotDims.lhsIdx, dot_S10000x256_S256x128_S10000x128_1_0_0_1_n_n]; rfl
theorem rhsX_0 (j : S10000x128.Idx) (k : dot_S10000x256_S256x128_S10000x128_1_0_0_1_n_n.contr.Idx) :
    ((dot_S10000x256_S256x128_S10000x128_1_0_0_1_n_n.rhsIdx j k) 0 : ℕ) = k ⟨0, by decide⟩ := by
  simp [DotDims.rhsIdx, dot_S10000x256_S256x128_S10000x128_1_0_0_1_n_n]; rfl
theorem rhsX_1 (j : S10000x128.Idx) (k : dot_S10000x256_S256x128_S10000x128_1_0_0_1_n_n.contr.Idx) :
    ((dot_S10000x256_S256x128_S10000x128_1_0_0_1_n_n.rhsIdx j k) 1 : ℕ) = j 1 := by
  simp [DotDims.rhsIdx, dot_S10000x256_S256x128_S10000x128_1_0_0_1_n_n]; rfl

/-- The host product read at (p, q) is ∑ l, A[p, l] · B[l, q]. -/
theorem dotX_apply (A : FVec Ideal S10000x256 .f32) (B : FVec Ideal S256x128 .f32) (p : Fin 10000) (q : Fin 128) :
    Host.dotGeneral (F := Ideal) (φ₁ := .f32) (φ₂ := .f32) dot_S10000x256_S256x128_S10000x128_1_0_0_1_n_n none A B (ix2 p q) = ∑ l : Fin 256, A (ix2 p l) * B (ix2 l q) := by
  show FloatOps.dotGeneral _ none _ A B (ix2 p q) = _
  rw [Ideal.dotGeneral_apply, ← Equiv.sum_comp (contrEquiv1 dot_S10000x256_S256x128_S10000x128_1_0_0_1_n_n 256 rfl rfl).symm]
  refine Finset.sum_congr rfl fun l _ => ?_
  have hl := contrEquiv1_symm_val dot_S10000x256_S256x128_S10000x128_1_0_0_1_n_n 256 rfl rfl l
  have eL : dot_S10000x256_S256x128_S10000x128_1_0_0_1_n_n.lhsIdx (ix2 p q) ((contrEquiv1 dot_S10000x256_S256x128_S10000x128_1_0_0_1_n_n 256 rfl rfl).symm l) = ix2 p l := by
    funext a; apply Fin.ext
    match a with
    | ⟨0, _⟩ => exact lhsX_0 _ _
    | ⟨1, _⟩ => exact (lhsX_1 _ _).trans hl
  have eR : dot_S10000x256_S256x128_S10000x128_1_0_0_1_n_n.rhsIdx (ix2 p q) ((contrEquiv1 dot_S10000x256_S256x128_S10000x128_1_0_0_1_n_n 256 rfl rfl).symm l) = ix2 l q := by
    funext a; apply Fin.ext
    match a with
    | ⟨0, _⟩ => exact (rhsX_0 _ _).trans hl
    | ⟨1, _⟩ => exact rhsX_1 _ _
  rw [eL, eR]

/-- The host product is the matrix product. -/
theorem dotX_eq (A : FVec Ideal S10000x256 .f32) (B : FVec Ideal S256x128 .f32) :
    Host.dotGeneral (F := Ideal) (φ₁ := .f32) (φ₂ := .f32) dot_S10000x256_S256x128_S10000x128_1_0_0_1_n_n none A B = Bern.mm A B := by
  funext i
  obtain ⟨p, q, rfl⟩ : ∃ (p : Fin 10000) (q : Fin 128), i = ix2 p q := ⟨i 0, i 1, eq_ix2 i⟩
  rw [dotX_apply, Bern.mm_apply]

/-! ### The product [10000, 128] · [128, 128] -/

theorem lhsH_0 (j : S10000x128.Idx) (k : dot_S10000x128_S128x128_S10000x128_1_0_0_1_n_n.contr.Idx) :
    ((dot_S10000x128_S128x128_S10000x128_1_0_0_1_n_n.lhsIdx j k) 0 : ℕ) = j 0 := by
  simp [DotDims.lhsIdx, dot_S10000x128_S128x128_S10000x128_1_0_0_1_n_n]; rfl
theorem lhsH_1 (j : S10000x128.Idx) (k : dot_S10000x128_S128x128_S10000x128_1_0_0_1_n_n.contr.Idx) :
    ((dot_S10000x128_S128x128_S10000x128_1_0_0_1_n_n.lhsIdx j k) 1 : ℕ) = k ⟨0, by decide⟩ := by
  simp [DotDims.lhsIdx, dot_S10000x128_S128x128_S10000x128_1_0_0_1_n_n]; rfl
theorem rhsH_0 (j : S10000x128.Idx) (k : dot_S10000x128_S128x128_S10000x128_1_0_0_1_n_n.contr.Idx) :
    ((dot_S10000x128_S128x128_S10000x128_1_0_0_1_n_n.rhsIdx j k) 0 : ℕ) = k ⟨0, by decide⟩ := by
  simp [DotDims.rhsIdx, dot_S10000x128_S128x128_S10000x128_1_0_0_1_n_n]; rfl
theorem rhsH_1 (j : S10000x128.Idx) (k : dot_S10000x128_S128x128_S10000x128_1_0_0_1_n_n.contr.Idx) :
    ((dot_S10000x128_S128x128_S10000x128_1_0_0_1_n_n.rhsIdx j k) 1 : ℕ) = j 1 := by
  simp [DotDims.rhsIdx, dot_S10000x128_S128x128_S10000x128_1_0_0_1_n_n]; rfl

/-- The host product read at (p, q) is ∑ l, A[p, l] · B[l, q]. -/
theorem dotH_apply (A : FVec Ideal S10000x128 .f32) (B : FVec Ideal S128x128 .f32) (p : Fin 10000) (q : Fin 128) :
    Host.dotGeneral (F := Ideal) (φ₁ := .f32) (φ₂ := .f32) dot_S10000x128_S128x128_S10000x128_1_0_0_1_n_n none A B (ix2 p q) = ∑ l : Fin 128, A (ix2 p l) * B (ix2 l q) := by
  show FloatOps.dotGeneral _ none _ A B (ix2 p q) = _
  rw [Ideal.dotGeneral_apply, ← Equiv.sum_comp (contrEquiv1 dot_S10000x128_S128x128_S10000x128_1_0_0_1_n_n 128 rfl rfl).symm]
  refine Finset.sum_congr rfl fun l _ => ?_
  have hl := contrEquiv1_symm_val dot_S10000x128_S128x128_S10000x128_1_0_0_1_n_n 128 rfl rfl l
  have eL : dot_S10000x128_S128x128_S10000x128_1_0_0_1_n_n.lhsIdx (ix2 p q) ((contrEquiv1 dot_S10000x128_S128x128_S10000x128_1_0_0_1_n_n 128 rfl rfl).symm l) = ix2 p l := by
    funext a; apply Fin.ext
    match a with
    | ⟨0, _⟩ => exact lhsH_0 _ _
    | ⟨1, _⟩ => exact (lhsH_1 _ _).trans hl
  have eR : dot_S10000x128_S128x128_S10000x128_1_0_0_1_n_n.rhsIdx (ix2 p q) ((contrEquiv1 dot_S10000x128_S128x128_S10000x128_1_0_0_1_n_n 128 rfl rfl).symm l) = ix2 l q := by
    funext a; apply Fin.ext
    match a with
    | ⟨0, _⟩ => exact (rhsH_0 _ _).trans hl
    | ⟨1, _⟩ => exact rhsH_1 _ _
  rw [eL, eR]

/-- The host product is the matrix product. -/
theorem dotH_eq (A : FVec Ideal S10000x128 .f32) (B : FVec Ideal S128x128 .f32) :
    Host.dotGeneral (F := Ideal) (φ₁ := .f32) (φ₂ := .f32) dot_S10000x128_S128x128_S10000x128_1_0_0_1_n_n none A B = Bern.mm A B := by
  funext i
  obtain ⟨p, q, rfl⟩ : ∃ (p : Fin 10000) (q : Fin 128), i = ix2 p q := ⟨i 0, i 1, eq_ix2 i⟩
  rw [dotH_apply, Bern.mm_apply]

/-! ### The product [10000, 10000] · [10000, 128] -/

theorem lhsL_0 (j : S10000x128.Idx) (k : dot_S10000x10000_S10000x128_S10000x128_1_0_0_1_n_n.contr.Idx) :
    ((dot_S10000x10000_S10000x128_S10000x128_1_0_0_1_n_n.lhsIdx j k) 0 : ℕ) = j 0 := by
  simp [DotDims.lhsIdx, dot_S10000x10000_S10000x128_S10000x128_1_0_0_1_n_n]; rfl
theorem lhsL_1 (j : S10000x128.Idx) (k : dot_S10000x10000_S10000x128_S10000x128_1_0_0_1_n_n.contr.Idx) :
    ((dot_S10000x10000_S10000x128_S10000x128_1_0_0_1_n_n.lhsIdx j k) 1 : ℕ) = k ⟨0, by decide⟩ := by
  simp [DotDims.lhsIdx, dot_S10000x10000_S10000x128_S10000x128_1_0_0_1_n_n]; rfl
theorem rhsL_0 (j : S10000x128.Idx) (k : dot_S10000x10000_S10000x128_S10000x128_1_0_0_1_n_n.contr.Idx) :
    ((dot_S10000x10000_S10000x128_S10000x128_1_0_0_1_n_n.rhsIdx j k) 0 : ℕ) = k ⟨0, by decide⟩ := by
  simp [DotDims.rhsIdx, dot_S10000x10000_S10000x128_S10000x128_1_0_0_1_n_n]; rfl
theorem rhsL_1 (j : S10000x128.Idx) (k : dot_S10000x10000_S10000x128_S10000x128_1_0_0_1_n_n.contr.Idx) :
    ((dot_S10000x10000_S10000x128_S10000x128_1_0_0_1_n_n.rhsIdx j k) 1 : ℕ) = j 1 := by
  simp [DotDims.rhsIdx, dot_S10000x10000_S10000x128_S10000x128_1_0_0_1_n_n]; rfl

/-- The host product read at (p, q) is ∑ l, A[p, l] · B[l, q]. -/
theorem dotL_apply (A : FVec Ideal S10000x10000 .f32) (B : FVec Ideal S10000x128 .f32) (p : Fin 10000) (q : Fin 128) :
    Host.dotGeneral (F := Ideal) (φ₁ := .f32) (φ₂ := .f32) dot_S10000x10000_S10000x128_S10000x128_1_0_0_1_n_n none A B (ix2 p q) = ∑ l : Fin 10000, A (ix2 p l) * B (ix2 l q) := by
  show FloatOps.dotGeneral _ none _ A B (ix2 p q) = _
  rw [Ideal.dotGeneral_apply, ← Equiv.sum_comp (contrEquiv1 dot_S10000x10000_S10000x128_S10000x128_1_0_0_1_n_n 10000 rfl rfl).symm]
  refine Finset.sum_congr rfl fun l _ => ?_
  have hl := contrEquiv1_symm_val dot_S10000x10000_S10000x128_S10000x128_1_0_0_1_n_n 10000 rfl rfl l
  have eL : dot_S10000x10000_S10000x128_S10000x128_1_0_0_1_n_n.lhsIdx (ix2 p q) ((contrEquiv1 dot_S10000x10000_S10000x128_S10000x128_1_0_0_1_n_n 10000 rfl rfl).symm l) = ix2 p l := by
    funext a; apply Fin.ext
    match a with
    | ⟨0, _⟩ => exact lhsL_0 _ _
    | ⟨1, _⟩ => exact (lhsL_1 _ _).trans hl
  have eR : dot_S10000x10000_S10000x128_S10000x128_1_0_0_1_n_n.rhsIdx (ix2 p q) ((contrEquiv1 dot_S10000x10000_S10000x128_S10000x128_1_0_0_1_n_n 10000 rfl rfl).symm l) = ix2 l q := by
    funext a; apply Fin.ext
    match a with
    | ⟨0, _⟩ => exact (rhsL_0 _ _).trans hl
    | ⟨1, _⟩ => exact rhsL_1 _ _
  rw [eL, eR]

/-- The host product is the matrix product. -/
theorem dotL_eq (A : FVec Ideal S10000x10000 .f32) (B : FVec Ideal S10000x128 .f32) :
    Host.dotGeneral (F := Ideal) (φ₁ := .f32) (φ₂ := .f32) dot_S10000x10000_S10000x128_S10000x128_1_0_0_1_n_n none A B = Bern.mm A B := by
  funext i
  obtain ⟨p, q, rfl⟩ : ∃ (p : Fin 10000) (q : Fin 128), i = ix2 p q := ⟨i 0, i 1, eq_ix2 i⟩
  rw [dotL_apply, Bern.mm_apply]

/-! ### The product [10000, 128] · [128, 40] -/

theorem lhsO_0 (j : S10000x40.Idx) (k : dot_S10000x128_S128x40_S10000x40_1_0_0_1_n_n.contr.Idx) :
    ((dot_S10000x128_S128x40_S10000x40_1_0_0_1_n_n.lhsIdx j k) 0 : ℕ) = j 0 := by
  simp [DotDims.lhsIdx, dot_S10000x128_S128x40_S10000x40_1_0_0_1_n_n]; rfl
theorem lhsO_1 (j : S10000x40.Idx) (k : dot_S10000x128_S128x40_S10000x40_1_0_0_1_n_n.contr.Idx) :
    ((dot_S10000x128_S128x40_S10000x40_1_0_0_1_n_n.lhsIdx j k) 1 : ℕ) = k ⟨0, by decide⟩ := by
  simp [DotDims.lhsIdx, dot_S10000x128_S128x40_S10000x40_1_0_0_1_n_n]; rfl
theorem rhsO_0 (j : S10000x40.Idx) (k : dot_S10000x128_S128x40_S10000x40_1_0_0_1_n_n.contr.Idx) :
    ((dot_S10000x128_S128x40_S10000x40_1_0_0_1_n_n.rhsIdx j k) 0 : ℕ) = k ⟨0, by decide⟩ := by
  simp [DotDims.rhsIdx, dot_S10000x128_S128x40_S10000x40_1_0_0_1_n_n]; rfl
theorem rhsO_1 (j : S10000x40.Idx) (k : dot_S10000x128_S128x40_S10000x40_1_0_0_1_n_n.contr.Idx) :
    ((dot_S10000x128_S128x40_S10000x40_1_0_0_1_n_n.rhsIdx j k) 1 : ℕ) = j 1 := by
  simp [DotDims.rhsIdx, dot_S10000x128_S128x40_S10000x40_1_0_0_1_n_n]; rfl

/-- The host product read at (p, q) is ∑ l, A[p, l] · B[l, q]. -/
theorem dotO_apply (A : FVec Ideal S10000x128 .f32) (B : FVec Ideal S128x40 .f32) (p : Fin 10000) (q : Fin 40) :
    Host.dotGeneral (F := Ideal) (φ₁ := .f32) (φ₂ := .f32) dot_S10000x128_S128x40_S10000x40_1_0_0_1_n_n none A B (ix2 p q) = ∑ l : Fin 128, A (ix2 p l) * B (ix2 l q) := by
  show FloatOps.dotGeneral _ none _ A B (ix2 p q) = _
  rw [Ideal.dotGeneral_apply, ← Equiv.sum_comp (contrEquiv1 dot_S10000x128_S128x40_S10000x40_1_0_0_1_n_n 128 rfl rfl).symm]
  refine Finset.sum_congr rfl fun l _ => ?_
  have hl := contrEquiv1_symm_val dot_S10000x128_S128x40_S10000x40_1_0_0_1_n_n 128 rfl rfl l
  have eL : dot_S10000x128_S128x40_S10000x40_1_0_0_1_n_n.lhsIdx (ix2 p q) ((contrEquiv1 dot_S10000x128_S128x40_S10000x40_1_0_0_1_n_n 128 rfl rfl).symm l) = ix2 p l := by
    funext a; apply Fin.ext
    match a with
    | ⟨0, _⟩ => exact lhsO_0 _ _
    | ⟨1, _⟩ => exact (lhsO_1 _ _).trans hl
  have eR : dot_S10000x128_S128x40_S10000x40_1_0_0_1_n_n.rhsIdx (ix2 p q) ((contrEquiv1 dot_S10000x128_S128x40_S10000x40_1_0_0_1_n_n 128 rfl rfl).symm l) = ix2 l q := by
    funext a; apply Fin.ext
    match a with
    | ⟨0, _⟩ => exact (rhsO_0 _ _).trans hl
    | ⟨1, _⟩ => exact rhsO_1 _ _
  rw [eL, eR]

/-- The host product is the matrix product. -/
theorem dotO_eq (A : FVec Ideal S10000x128 .f32) (B : FVec Ideal S128x40 .f32) :
    Host.dotGeneral (F := Ideal) (φ₁ := .f32) (φ₂ := .f32) dot_S10000x128_S128x40_S10000x40_1_0_0_1_n_n none A B = Bern.mm A B := by
  funext i
  obtain ⟨p, q, rfl⟩ : ∃ (p : Fin 10000) (q : Fin 40), i = ix2 p q := ⟨i 0, i 1, eq_ix2 i⟩
  rw [dotO_apply, Bern.mm_apply]

/-! ## Broadcasts and slices, entry by entry -/

/-- A vector of extent n made a row and copied down m rows: entry (p, q) is entry q. -/
theorem rowBcast_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → EReal)
    (p : Fin m) (q : Fin n) :
    broadcastInDim ⟨2, ![m, n]⟩ ![0, 1] h2 (broadcastInDim ⟨2, ![1, n]⟩ ![1] h1 b) (ix2 p q) = b (ix1 q) := by
  have e2 : broadcastInDim ⟨2, ![m, n]⟩ ![0, 1] h2 (broadcastInDim ⟨2, ![1, n]⟩ ![1] h1 b) (ix2 p q)
      = broadcastInDim ⟨2, ![1, n]⟩ ![1] h1 b (ix2 (0 : Fin 1) q) := by
    refine broadcastInDim_apply ![0, 1] h2 _ (ix2 p q) (ix2 (0 : Fin 1) q) ?_
    intro a
    match a with
    | ⟨0, _⟩ => show (0 : ℕ) = if (1 : ℕ) = 1 then 0 else _; simp
    | ⟨1, _⟩ =>
      show q.val = if n = 1 then 0 else q.val
      split_ifs with hn
      · have := q.isLt; omega
      · rfl
  have e1 : broadcastInDim ⟨2, ![1, n]⟩ ![1] h1 b (ix2 (0 : Fin 1) q) = b (ix1 q) := by
    refine broadcastInDim_apply ![1] h1 b (ix2 (0 : Fin 1) q) (ix1 q) ?_
    intro a
    match a with
    | ⟨0, _⟩ =>
      show q.val = if n = 1 then 0 else q.val
      split_ifs with hn
      · have := q.isLt; omega
      · rfl
  exact e2.trans e1

/-- A scalar copied to every entry. -/
theorem scalarBcast_apply (x : FVec Ideal S_ .f32) (i : S10000x128.Idx) : broadcastInDim S10000x128 ![] bcast_S_S10000x128 x i = x ix0 := by
  unfold broadcastInDim; exact congrArg x (funext fun a => a.elim0)

/-- Row o of the coefficient array, as a vector of extent 5. -/
theorem thetaRow_eq (th : FVec Ideal S2x5 .f32) (o : ℕ) (ho : o < 2) (hs : S2x5.Slices ![o, 0] S1x5) :
    shapeCast S5 (extractStridedSlice S1x5 ![o, 0] th hs) shapeCasts_S1x5_S5 = fun i => th (ix2 (⟨o, ho⟩ : Fin 2) (i 0)) := by
  funext i
  obtain ⟨j, rfl⟩ : ∃ j : Fin 5, i = ix1 j := ⟨i 0, eq_ix1 i⟩
  rw [shapeCast_1a_a_apply, slice2_axis0_apply o th hs (0 : Fin 1) j (⟨o, ho⟩ : Fin 2) rfl]

/-- Entry o of a vector of extent 5, as a scalar. -/
theorem thetaEntry_apply (r : FVec Ideal S5 .f32) (o : ℕ) (ho : o < 5) (hs : S5.Slices ![o] S1) :
    shapeCast S_ (extractStridedSlice S1 ![o] r hs) shapeCasts_S1_S_ ix0 = r (ix1 (⟨o, ho⟩ : Fin 5)) := by
  refine (shapeCast_apply _ shapeCasts_S1_S_ ix0 (ix1 (0 : Fin 1)) ?_).trans ?_
  · rw [Shape.rowMajor_val_one]; rfl
  · refine extractStridedSlice_apply ![o] r hs (ix1 (0 : Fin 1)) (ix1 (⟨o, ho⟩ : Fin 5)) ?_
    intro a
    match a with
    | ⟨0, _⟩ => rfl

/-- The scalar c · θ copied to every entry. -/
theorem coeffBcast_apply (w : BitVec 32) (r : FVec Ideal S5 .f32) (o : ℕ) (ho : o < 5) (hs : S5.Slices ![o] S1)
    (i : S10000x128.Idx) :
    broadcastInDim S10000x128 ![] bcast_S_S10000x128 (mulf (constant (F := Ideal) S_ .f32 w) (shapeCast S_ (extractStridedSlice S1 ![o] r hs) shapeCasts_S1_S_)) i
      = Ideal.ofBits .f32 w * r (ix1 (⟨o, ho⟩ : Fin 5)) := by
  rw [scalarBcast_apply, mulf_apply, constant_apply, thetaEntry_apply r o ho hs]

/-! ## The stages -/

/-- 2 · X − L X. -/
theorem twoSub_eq (L : FVec Ideal S10000x10000 .f32) (X : FVec Ideal S10000x128 .f32) :
    (subf (mulf (broadcastInDim S10000x128 ![] bcast_S_S10000x128 (constant (F := Ideal) S_ .f32 0x40000000#32)) X) (Host.dotGeneral (F := Ideal) (φ₁ := .f32) (φ₂ := .f32) dot_S10000x10000_S10000x128_S10000x128_1_0_0_1_n_n none L X)) = Bern.twoSub L X := by
  funext i
  rw [dotL_eq, subf_apply, mulf_apply, scalarBcast_apply, constant_apply, Bern.Consts.ofBits_two]
  rfl

/-- relu(x W₁ + b₁) W₂ + b₂. -/
theorem mlp_eq (x : FVec Ideal S10000x256 .f32) (W1 : FVec Ideal S256x128 .f32) (b1 : FVec Ideal S128 .f32)
    (W2 : FVec Ideal S128x128 .f32) (b2 : FVec Ideal S128 .f32) :
    addf (Host.dotGeneral (F := Ideal) (φ₁ := .f32) (φ₂ := .f32) dot_S10000x128_S128x128_S10000x128_1_0_0_1_n_n none (maximumf (addf (Host.dotGeneral (F := Ideal) (φ₁ := .f32) (φ₂ := .f32) dot_S10000x256_S256x128_S10000x128_1_0_0_1_n_n none x W1) (broadcastInDim S10000x128 ![0, 1] bcast_S1x128_S10000x128_0_1 (broadcastInDim S1x128 ![1] bcast_S128_S1x128_1 b1))) (broadcastInDim S10000x128 ![] bcast_S_S10000x128 (constant (F := Ideal) S_ .f32 0x00000000#32))) W2) (broadcastInDim S10000x128 ![0, 1] bcast_S1x128_S10000x128_0_1 (broadcastInDim S1x128 ![1] bcast_S128_S1x128_1 b2))
      = Bern.mlp x W1 b1 W2 b2 := by
  have hin : maximumf (addf (Host.dotGeneral (F := Ideal) (φ₁ := .f32) (φ₂ := .f32) dot_S10000x256_S256x128_S10000x128_1_0_0_1_n_n none x W1) (broadcastInDim S10000x128 ![0, 1] bcast_S1x128_S10000x128_0_1 (broadcastInDim S1x128 ![1] bcast_S128_S1x128_1 b1))) (broadcastInDim S10000x128 ![] bcast_S_S10000x128 (constant (F := Ideal) S_ .f32 0x00000000#32))
      = Bern.relu (Bern.addRow (Bern.mm x W1) b1) := by
    funext i
    obtain ⟨p, q, rfl⟩ : ∃ (p : Fin 10000) (q : Fin 128), i = ix2 p q := ⟨i 0, i 1, eq_ix2 i⟩
    rw [dotX_eq, maximumf_apply, addf_apply, rowBcast_apply, scalarBcast_apply, constant_apply, Ideal.ofBits_zero_f32]
    rfl
  rw [hin, dotH_eq]
  funext i
  obtain ⟨p, q, rfl⟩ : ∃ (p : Fin 10000) (q : Fin 128), i = ix2 p q := ⟨i 0, i 1, eq_ix2 i⟩
  rw [addf_apply, rowBcast_apply]
  rfl

/-- h W₃ + b₃. -/
theorem proj_eq (h : FVec Ideal S10000x128 .f32) (W3 : FVec Ideal S128x40 .f32) (b3 : FVec Ideal S40 .f32) :
    addf (Host.dotGeneral (F := Ideal) (φ₁ := .f32) (φ₂ := .f32) dot_S10000x128_S128x40_S10000x40_1_0_0_1_n_n none h W3) (broadcastInDim S10000x40 ![0, 1] bcast_S1x40_S10000x40_0_1 (broadcastInDim S1x40 ![1] bcast_S40_S1x40_1 b3)) = Bern.proj h W3 b3 := by
  rw [dotO_eq]
  funext i
  obtain ⟨p, q, rfl⟩ : ∃ (p : Fin 10000) (q : Fin 40), i = ix2 p q := ⟨i 0, i 1, eq_ix2 i⟩
  rw [addf_apply, rowBcast_apply]
  rfl

/-- One layer of the reference's filter: relu of the five-term Bernstein sum, its coefficients the entries of r;
    s₁, s₂, s₃ are the first three iterates of t ↦ 2 t − L t from h. -/
theorem layer_eq (L : FVec Ideal S10000x10000 .f32) (r : FVec Ideal S5 .f32) (h s1 s2 s3 : FVec Ideal S10000x128 .f32)
    (e1 : s1 = Bern.twoSub L h) (e2 : s2 = Bern.twoSub L s1) (e3 : s3 = Bern.twoSub L s2) :
    maximumf (addf (addf (addf (addf (mulf (broadcastInDim S10000x128 ![] bcast_S_S10000x128 (mulf (constant (F := Ideal) S_ .f32 0x3D800000#32) (shapeCast S_ (extractStridedSlice S1 ![0] r slices_S5_S1_0) shapeCasts_S1_S_))) (subf (mulf (broadcastInDim S10000x128 ![] bcast_S_S10000x128 (constant (F := Ideal) S_ .f32 0x40000000#32)) s3) (Host.dotGeneral (F := Ideal) (φ₁ := .f32) (φ₂ := .f32) dot_S10000x10000_S10000x128_S10000x128_1_0_0_1_n_n none L s3))) (mulf (broadcastInDim S10000x128 ![] bcast_S_S10000x128 (mulf (constant (F := Ideal) S_ .f32 0x3E800000#32) (shapeCast S_ (extractStridedSlice S1 ![1] r slices_S5_S1_1) shapeCasts_S1_S_))) (Host.dotGeneral (F := Ideal) (φ₁ := .f32) (φ₂ := .f32) dot_S10000x10000_S10000x128_S10000x128_1_0_0_1_n_n none L s3))) (mulf (broadcastInDim S10000x128 ![] bcast_S_S10000x128 (mulf (constant (F := Ideal) S_ .f32 0x3EC00000#32) (shapeCast S_ (extractStridedSlice S1 ![2] r slices_S5_S1_2) shapeCasts_S1_S_))) (Host.dotGeneral (F := Ideal) (φ₁ := .f32) (φ₂ := .f32) dot_S10000x10000_S10000x128_S10000x128_1_0_0_1_n_n none L (Host.dotGeneral (F := Ideal) (φ₁ := .f32) (φ₂ := .f32) dot_S10000x10000_S10000x128_S10000x128_1_0_0_1_n_n none L s2)))) (mulf (broadcastInDim S10000x128 ![] bcast_S_S10000x128 (mulf (constant (F := Ideal) S_ .f32 0x3E800000#32) (shapeCast S_ (extractStridedSlice S1 ![3] r slices_S5_S1_3) shapeCasts_S1_S_))) (Host.dotGeneral (F := Ideal) (φ₁ := .f32) (φ₂ := .f32) dot_S10000x10000_S10000x128_S10000x128_1_0_0_1_n_n none L (Host.dotGeneral (F := Ideal) (φ₁ := .f32) (φ₂ := .f32) dot_S10000x10000_S10000x128_S10000x128_1_0_0_1_n_n none L (Host.dotGeneral (F := Ideal) (φ₁ := .f32) (φ₂ := .f32) dot_S10000x10000_S10000x128_S10000x128_1_0_0_1_n_n none L s1))))) (mulf (broadcastInDim S10000x128 ![] bcast_S_S10000x128 (mulf (constant (F := Ideal) S_ .f32 0x3D800000#32) (shapeCast S_ (extractStridedSlice S1 ![4] r slices_S5_S1_4) shapeCasts_S1_S_))) (Host.dotGeneral (F := Ideal) (φ₁ := .f32) (φ₂ := .f32) dot_S10000x10000_S10000x128_S10000x128_1_0_0_1_n_n none L (Host.dotGeneral (F := Ideal) (φ₁ := .f32) (φ₂ := .f32) dot_S10000x10000_S10000x128_S10000x128_1_0_0_1_n_n none L (Host.dotGeneral (F := Ideal) (φ₁ := .f32) (φ₂ := .f32) dot_S10000x10000_S10000x128_S10000x128_1_0_0_1_n_n none L (Host.dotGeneral (F := Ideal) (φ₁ := .f32) (φ₂ := .f32) dot_S10000x10000_S10000x128_S10000x128_1_0_0_1_n_n none L h)))))) (broadcastInDim S10000x128 ![] bcast_S_S10000x128 (constant (F := Ideal) S_ .f32 0x00000000#32))
      = Bern.relu (Bern.rLayer L (r (ix1 (0 : Fin 5))) (r (ix1 (1 : Fin 5))) (r (ix1 (2 : Fin 5))) (r (ix1 (3 : Fin 5))) (r (ix1 (4 : Fin 5))) h) := by
  funext i
  rw [twoSub_eq]
  simp only [dotL_eq]
  rw [maximumf_apply, addf_apply, addf_apply, addf_apply, addf_apply, mulf_apply, mulf_apply, mulf_apply, mulf_apply, mulf_apply,
    coeffBcast_apply _ r 0 (by decide), coeffBcast_apply _ r 1 (by decide), coeffBcast_apply _ r 2 (by decide),
    coeffBcast_apply _ r 3 (by decide), coeffBcast_apply _ r 4 (by decide), scalarBcast_apply, constant_apply,
    Bern.Consts.ofBits_sixteenth, Bern.Consts.ofBits_quarter, Bern.Consts.ofBits_three_eighths, Ideal.ofBits_zero_f32]
  subst e3 e2 e1
  rfl

/-! ## The reference's named intermediates, and its result -/

section Stages
variable (V0 : Valuation τ sig (Elt Ideal))

/-- h₀ = relu(x W₁ + b₁) W₂ + b₂. -/
theorem v9_eq : res_main_v9 V0 = (Bern.mlp (V0 (Proc.devRef .tc main_arg0)) (V0 (Proc.devRef .tc main_arg2)) (V0 (Proc.devRef .tc main_arg3)) (V0 (Proc.devRef .tc main_arg4)) (V0 (Proc.devRef .tc main_arg5))) := by
  unfold res_main_v9; exact mlp_eq _ _ _ _ _

/-- θ₀: row 0 of the coefficient array. -/
theorem v11_eq : res_main_v11 V0 = fun i => (V0 (Proc.devRef .tc main_arg6)) (ix2 (0 : Fin 2) (i 0)) := by
  unfold res_main_v11; exact thetaRow_eq _ 0 (by decide) _

/-- θ₁: row 1 of the coefficient array. -/
theorem v70_eq : res_main_v70 V0 = fun i => (V0 (Proc.devRef .tc main_arg6)) (ix2 (1 : Fin 2) (i 0)) := by
  unfold res_main_v70; exact thetaRow_eq _ 1 (by decide) _

/-- First layer: t₁ = 2 t₀ − L t₀, t₂, t₃ likewise. -/
theorem v15_eq : res_main_v15 V0 = Bern.twoSub (V0 (Proc.devRef .tc main_arg1)) (res_main_v9 V0) := by
  unfold res_main_v15; exact twoSub_eq _ _
theorem v19_eq : res_main_v19 V0 = Bern.twoSub (V0 (Proc.devRef .tc main_arg1)) (res_main_v15 V0) := by
  unfold res_main_v19; exact twoSub_eq _ _
theorem v23_eq : res_main_v23 V0 = Bern.twoSub (V0 (Proc.devRef .tc main_arg1)) (res_main_v19 V0) := by
  unfold res_main_v23; exact twoSub_eq _ _

/-- The first layer's output. -/
theorem v68_eq : res_main_v68 V0 = Bern.rBern (V0 (Proc.devRef .tc main_arg1)) (V0 (Proc.devRef .tc main_arg6)) 0 (Bern.mlp (V0 (Proc.devRef .tc main_arg0)) (V0 (Proc.devRef .tc main_arg2)) (V0 (Proc.devRef .tc main_arg3)) (V0 (Proc.devRef .tc main_arg4)) (V0 (Proc.devRef .tc main_arg5))) := by
  unfold res_main_v68
  refine (layer_eq _ (res_main_v11 V0) (res_main_v9 V0) (res_main_v15 V0) (res_main_v19 V0) (res_main_v23 V0)
    (v15_eq V0) (v19_eq V0) (v23_eq V0)).trans ?_
  rw [v11_eq, v9_eq]
  rfl

/-- Second layer: the same iterates from the first layer's output. -/
theorem v74_eq : res_main_v74 V0 = Bern.twoSub (V0 (Proc.devRef .tc main_arg1)) (res_main_v68 V0) := by
  unfold res_main_v74; exact twoSub_eq _ _
theorem v78_eq : res_main_v78 V0 = Bern.twoSub (V0 (Proc.devRef .tc main_arg1)) (res_main_v74 V0) := by
  unfold res_main_v78; exact twoSub_eq _ _
theorem v82_eq : res_main_v82 V0 = Bern.twoSub (V0 (Proc.devRef .tc main_arg1)) (res_main_v78 V0) := by
  unfold res_main_v82; exact twoSub_eq _ _

/-- The reference's result is the second layer's output times W₃, plus b₃. -/
theorem out_eq :
    addf (Host.dotGeneral (F := Ideal) (φ₁ := .f32) (φ₂ := .f32) dot_S10000x128_S128x40_S10000x40_1_0_0_1_n_n none (maximumf (addf (addf (addf (addf (mulf (broadcastInDim S10000x128 ![] bcast_S_S10000x128 (mulf (constant (F := Ideal) S_ .f32 0x3D800000#32) (shapeCast _ (extractStridedSlice S1 ![0] (res_main_v70 V0) slices_S5_S1_0) shapeCasts_S1_S_))) (subf (mulf (broadcastInDim S10000x128 ![] bcast_S_S10000x128 (constant (F := Ideal) S_ .f32 0x40000000#32)) (res_main_v82 V0)) (Host.dotGeneral (F := Ideal) (φ₁ := .f32) (φ₂ := .f32) dot_S10000x10000_S10000x128_S10000x128_1_0_0_1_n_n none (V0 (Proc.devRef .tc main_arg1)) (res_main_v82 V0)))) (mulf (broadcastInDim S10000x128 ![] bcast_S_S10000x128 (mulf (constant (F := Ideal) S_ .f32 0x3E800000#32) (shapeCast _ (extractStridedSlice S1 ![1] (res_main_v70 V0) slices_S5_S1_1) shapeCasts_S1_S_))) (Host.dotGeneral (F := Ideal) (φ₁ := .f32) (φ₂ := .f32) dot_S10000x10000_S10000x128_S10000x128_1_0_0_1_n_n none (V0 (Proc.devRef .tc main_arg1)) (res_main_v82 V0)))) (mulf (broadcastInDim S10000x128 ![] bcast_S_S10000x128 (mulf (constant (F := Ideal) S_ .f32 0x3EC00000#32) (shapeCast _ (extractStridedSlice S1 ![2] (res_main_v70 V0) slices_S5_S1_2) shapeCasts_S1_S_))) (Host.dotGeneral (F := Ideal) (φ₁ := .f32) (φ₂ := .f32) dot_S10000x10000_S10000x128_S10000x128_1_0_0_1_n_n none (V0 (Proc.devRef .tc main_arg1)) (Host.dotGeneral (F := Ideal) (φ₁ := .f32) (φ₂ := .f32) dot_S10000x10000_S10000x128_S10000x128_1_0_0_1_n_n none (V0 (Proc.devRef .tc main_arg1)) (res_main_v78 V0))))) (mulf (broadcastInDim S10000x128 ![] bcast_S_S10000x128 (mulf (constant (F := Ideal) S_ .f32 0x3E800000#32) (shapeCast _ (extractStridedSlice S1 ![3] (res_main_v70 V0) slices_S5_S1_3) shapeCasts_S1_S_))) (Host.dotGeneral (F := Ideal) (φ₁ := .f32) (φ₂ := .f32) dot_S10000x10000_S10000x128_S10000x128_1_0_0_1_n_n none (V0 (Proc.devRef .tc main_arg1)) (Host.dotGeneral (F := Ideal) (φ₁ := .f32) (φ₂ := .f32) dot_S10000x10000_S10000x128_S10000x128_1_0_0_1_n_n none (V0 (Proc.devRef .tc main_arg1)) (Host.dotGeneral (F := Ideal) (φ₁ := .f32) (φ₂ := .f32) dot_S10000x10000_S10000x128_S10000x128_1_0_0_1_n_n none (V0 (Proc.devRef .tc main_arg1)) (res_main_v74 V0)))))) (mulf (broadcastInDim S10000x128 ![] bcast_S_S10000x128 (mulf (constant (F := Ideal) S_ .f32 0x3D800000#32) (shapeCast _ (extractStridedSlice S1 ![4] (res_main_v70 V0) slices_S5_S1_4) shapeCasts_S1_S_))) (Host.dotGeneral (F := Ideal) (φ₁ := .f32) (φ₂ := .f32) dot_S10000x10000_S10000x128_S10000x128_1_0_0_1_n_n none (V0 (Proc.devRef .tc main_arg1)) (Host.dotGeneral (F := Ideal) (φ₁ := .f32) (φ₂ := .f32) dot_S10000x10000_S10000x128_S10000x128_1_0_0_1_n_n none (V0 (Proc.devRef .tc main_arg1)) (Host.dotGeneral (F := Ideal) (φ₁ := .f32) (φ₂ := .f32) dot_S10000x10000_S10000x128_S10000x128_1_0_0_1_n_n none (V0 (Proc.devRef .tc main_arg1)) (Host.dotGeneral (F := Ideal) (φ₁ := .f32) (φ₂ := .f32) dot_S10000x10000_S10000x128_S10000x128_1_0_0_1_n_n none (V0 (Proc.devRef .tc main_arg1)) (res_main_v68 V0))))))) (broadcastInDim S10000x128 ![] bcast_S_S10000x128 (constant (F := Ideal) S_ .f32 0x00000000#32))) (V0 (Proc.devRef .tc main_arg7))) (broadcastInDim S10000x40 ![0, 1] bcast_S1x40_S10000x40_0_1 (broadcastInDim S1x40 ![1] bcast_S40_S1x40_1 (V0 (Proc.devRef .tc main_arg8))))
      = Bern.refSpec (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  rw [layer_eq _ (res_main_v70 V0) (res_main_v68 V0) (res_main_v74 V0) (res_main_v78 V0) (res_main_v82 V0)
    (v74_eq V0) (v78_eq V0) (v82_eq V0)]
  rw [v70_eq, v68_eq]
  exact proj_eq _ _ _

end Stages

/-- Every weakly fair execution of the reference terminates with its result buffer at the specification's function
    of the arguments' launch contents, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v131) = Bern.refSpec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (out_eq (StableHlo.launchContents m c)), (h c).2⟩)
    (Cert.ReferenceIdeal.Value.run (F := Ideal) m ρ)

end Cert.ReferenceIdeal.RefValue

end
-- ==== Proof.ChainDefs.lean ====
/-
  The values the kernel's program holds along @main, as functions of its argument arrays on one device: the
  perceptron's output h₀; E = L − I; the monomial coefficients c[l, k] of row l of thetas; within a layer with input h
  and row l the propagated features u₁ = h + E h, …, u₄ and the running sums a₀ = c₀ h, aₖ = aₖ₋₁ + cₖ uₖ, the layer's
  output relu(a₃ + c₄ u₄); h₁ and h₂ the two layers' outputs.
-/
import proofs.«148114_g1589137899740_cont_week2b_1182_5_alg».proof.KernelIdeal
import proofs.«148114_g1589137899740_cont_week2b_1182_5_alg».proof.Proof.Spec

set_option maxRecDepth 16384

noncomputable section

namespace Cert.KernelIdeal.KVal

open Cert.KernelIdeal
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument arrays on device c. -/
abbrev aX (c : Dev nD) : Bern.Arr 10000 256 := m ((c : Thread nD τ).loc main_arg0)
abbrev aL (c : Dev nD) : Bern.Arr 10000 10000 := m ((c : Thread nD τ).loc main_arg1)
abbrev aW1 (c : Dev nD) : Bern.Arr 256 128 := m ((c : Thread nD τ).loc main_arg2)
abbrev ab1 (c : Dev nD) : Bern.Vec1 128 := m ((c : Thread nD τ).loc main_arg3)
abbrev aW2 (c : Dev nD) : Bern.Arr 128 128 := m ((c : Thread nD τ).loc main_arg4)
abbrev ab2 (c : Dev nD) : Bern.Vec1 128 := m ((c : Thread nD τ).loc main_arg5)
abbrev aTh (c : Dev nD) : Bern.Arr 2 5 := m ((c : Thread nD τ).loc main_arg6)
abbrev aW3 (c : Dev nD) : Bern.Arr 128 40 := m ((c : Thread nD τ).loc main_arg7)
abbrev ab3 (c : Dev nD) : Bern.Vec1 40 := m ((c : Thread nD τ).loc main_arg8)

/-- E = L − I. -/
def cE (c : Dev nD) : Bern.Arr 10000 10000 := Bern.subId (aL m c)
/-- The monomial coefficient c[l, k]. -/
def cC (c : Dev nD) (l : Fin 2) (k : Fin 5) : EReal := Bern.coeff (aTh m c) l k
/-- The coefficient matrix as an array. -/
def cCs (c : Dev nD) : Bern.Arr 2 5 := fun i => cC m c (i 0) (i 1)
/-- The perceptron's output. -/
def cH0 (c : Dev nD) : Bern.Arr 10000 128 := Bern.mlp (aX m c) (aW1 m c) (ab1 m c) (aW2 m c) (ab2 m c)

def lU1 (c : Dev nD) (h : Bern.Arr 10000 128) : Bern.Arr 10000 128 := Bern.prop (cE m c) h
def lU2 (c : Dev nD) (h : Bern.Arr 10000 128) : Bern.Arr 10000 128 := Bern.prop (cE m c) (lU1 m c h)
def lU3 (c : Dev nD) (h : Bern.Arr 10000 128) : Bern.Arr 10000 128 := Bern.prop (cE m c) (lU2 m c h)
def lU4 (c : Dev nD) (h : Bern.Arr 10000 128) : Bern.Arr 10000 128 := Bern.prop (cE m c) (lU3 m c h)
def lA0 (c : Dev nD) (l : Fin 2) (h : Bern.Arr 10000 128) : Bern.Arr 10000 128 := Bern.scal (cC m c l 0) h
def lA1 (c : Dev nD) (l : Fin 2) (h : Bern.Arr 10000 128) : Bern.Arr 10000 128 := Bern.axpy (lA0 m c l h) (cC m c l 1) (lU1 m c h)
def lA2 (c : Dev nD) (l : Fin 2) (h : Bern.Arr 10000 128) : Bern.Arr 10000 128 := Bern.axpy (lA1 m c l h) (cC m c l 2) (lU2 m c h)
def lA3 (c : Dev nD) (l : Fin 2) (h : Bern.Arr 10000 128) : Bern.Arr 10000 128 := Bern.axpy (lA2 m c l h) (cC m c l 3) (lU3 m c h)
/-- A layer's output: relu(a₃ + c₄ u₄). -/
def lOut (c : Dev nD) (l : Fin 2) (h : Bern.Arr 10000 128) : Bern.Arr 10000 128 := Bern.relu (Bern.axpy (lA3 m c l h) (cC m c l 4) (lU4 m c h))

/-- It is the specification's layer. -/
theorem lOut_eq (c : Dev nD) (l : Fin 2) (h : Bern.Arr 10000 128) : lOut m c l h = Bern.kBern (cE m c) (aTh m c) l h := rfl

def cH1 (c : Dev nD) : Bern.Arr 10000 128 := lOut m c 0 (cH0 m c)
def cH2 (c : Dev nD) : Bern.Arr 10000 128 := lOut m c 1 (cH1 m c)

/-- The kernel's result in these terms is the specification. -/
theorem spec_eq (c : Dev nD) : Bern.proj (cH2 m c) (aW3 m c) (ab3 m c)
    = Bern.kernelSpec (aX m c) (aL m c) (aW1 m c) (ab1 m c) (aW2 m c) (ab2 m c) (aTh m c) (aW3 m c) (ab3 m c) := rfl

end Cert.KernelIdeal.KVal

end
-- ==== Proof.Keep.lean ====
import proofs.«148114_g1589137899740_cont_week2b_1182_5_alg».proof.Proof.FrameKernelIdeal

set_option maxRecDepth 16384

noncomputable section

namespace Cert.KernelIdeal.GenP

open Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ## main_arg0: unchanged from boundary 0 to boundary 1 -/

theorem keep_main_arg0_1 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_main_arg0_1 (c : Dev nD) : W1 m ρ c (Proc.devRef .tc main_arg0) = W0 m ρ c (Proc.devRef .tc main_arg0) :=
  keep_main_arg0_1 m ρ c

/-! ## main_arg2: unchanged from boundary 0 to boundary 1 -/

theorem keep_main_arg2_1 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_main_arg2_1 (c : Dev nD) : W1 m ρ c (Proc.devRef .tc main_arg2) = W0 m ρ c (Proc.devRef .tc main_arg2) :=
  keep_main_arg2_1 m ρ c

/-! ## main_arg4: unchanged from boundary 0 to boundary 1 -/

theorem keep_main_arg4_1 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_main_arg4_1 (c : Dev nD) : W1 m ρ c (Proc.devRef .tc main_arg4) = W0 m ρ c (Proc.devRef .tc main_arg4) :=
  keep_main_arg4_1 m ρ c

/-! ## main_arg1: unchanged from boundary 0 to boundary 3 -/

theorem keep_main_arg1_1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg1_2 (c : Dev nD) : W2 m ρ c (Proc.devRef .tc main_arg1) = W1 m ρ c (Proc.devRef .tc main_arg1) :=
  W2_of_ne m ρ c main_arg1 (by decide)
theorem keep_main_arg1_3 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_main_arg1_3 (c : Dev nD) : W3 m ρ c (Proc.devRef .tc main_arg1) = W0 m ρ c (Proc.devRef .tc main_arg1) :=
  ((keep_main_arg1_3 m ρ c).trans (keep_main_arg1_2 m ρ c)).trans (keep_main_arg1_1 m ρ c)

/-! ## main_arg7: unchanged from boundary 0 to boundary 19 -/

theorem keep_main_arg7_1 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg7_2 (c : Dev nD) : W2 m ρ c (Proc.devRef .tc main_arg7) = W1 m ρ c (Proc.devRef .tc main_arg7) :=
  W2_of_ne m ρ c main_arg7 (by decide)
theorem keep_main_arg7_3 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg7_4 (c : Dev nD) : W4 m ρ c (Proc.devRef .tc main_arg7) = W3 m ρ c (Proc.devRef .tc main_arg7) :=
  W4_of_ne m ρ c main_arg7 (by decide)
theorem keep_main_arg7_5 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg7_6 (c : Dev nD) : W6 m ρ c (Proc.devRef .tc main_arg7) = W5 m ρ c (Proc.devRef .tc main_arg7) :=
  W6_of_ne m ρ c main_arg7 (by decide)
theorem keep_main_arg7_7 (c : Dev nD) : W7 m ρ c (Proc.devRef .tc main_arg7) = W6 m ρ c (Proc.devRef .tc main_arg7) :=
  StableHlo.after_of_forall_not_mem (b := Proc.devRef .tc main_arg7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg7_8 (c : Dev nD) : W8 m ρ c (Proc.devRef .tc main_arg7) = W7 m ρ c (Proc.devRef .tc main_arg7) :=
  W8_of_ne m ρ c main_arg7 (by decide)
theorem keep_main_arg7_9 (c : Dev nD) : W9 m ρ c (Proc.devRef .tc main_arg7) = W8 m ρ c (Proc.devRef .tc main_arg7) :=
  StableHlo.after_of_forall_not_mem (b := Proc.devRef .tc main_arg7) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg7_10 (c : Dev nD) : W10 m ρ c (Proc.devRef .tc main_arg7) = W9 m ρ c (Proc.devRef .tc main_arg7) :=
  W10_of_ne m ρ c main_arg7 (by decide)
theorem keep_main_arg7_11 (c : Dev nD) : W11 m ρ c (Proc.devRef .tc main_arg7) = W10 m ρ c (Proc.devRef .tc main_arg7) :=
  StableHlo.after_of_forall_not_mem (b := Proc.devRef .tc main_arg7) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg7_12 (c : Dev nD) : W12 m ρ c (Proc.devRef .tc main_arg7) = W11 m ρ c (Proc.devRef .tc main_arg7) :=
  W12_of_ne m ρ c main_arg7 (by decide)
theorem keep_main_arg7_13 (c : Dev nD) : W13 m ρ c (Proc.devRef .tc main_arg7) = W12 m ρ c (Proc.devRef .tc main_arg7) :=
  StableHlo.after_of_forall_not_mem (b := Proc.devRef .tc main_arg7) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg7_14 (c : Dev nD) : W14 m ρ c (Proc.devRef .tc main_arg7) = W13 m ρ c (Proc.devRef .tc main_arg7) :=
  W14_of_ne m ρ c main_arg7 (by decide)
theorem keep_main_arg7_15 (c : Dev nD) : W15 m ρ c (Proc.devRef .tc main_arg7) = W14 m ρ c (Proc.devRef .tc main_arg7) :=
  StableHlo.after_of_forall_not_mem (b := Proc.devRef .tc main_arg7) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg7_16 (c : Dev nD) : W16 m ρ c (Proc.devRef .tc main_arg7) = W15 m ρ c (Proc.devRef .tc main_arg7) :=
  W16_of_ne m ρ c main_arg7 (by decide)
theorem keep_main_arg7_17 (c : Dev nD) : W17 m ρ c (Proc.devRef .tc main_arg7) = W16 m ρ c (Proc.devRef .tc main_arg7) :=
  StableHlo.after_of_forall_not_mem (b := Proc.devRef .tc main_arg7) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg7_18 (c : Dev nD) : W18 m ρ c (Proc.devRef .tc main_arg7) = W17 m ρ c (Proc.devRef .tc main_arg7) :=
  W18_of_ne m ρ c main_arg7 (by decide)
theorem keep_main_arg7_19 (c : Dev nD) : W19 m ρ c (Proc.devRef .tc main_arg7) = W18 m ρ c (Proc.devRef .tc main_arg7) :=
  StableHlo.after_of_forall_not_mem (b := Proc.devRef .tc main_arg7) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_main_arg7_19 (c : Dev nD) : W19 m ρ c (Proc.devRef .tc main_arg7) = W0 m ρ c (Proc.devRef .tc main_arg7) :=
  ((((((((((((((((((keep_main_arg7_19 m ρ c).trans (keep_main_arg7_18 m ρ c)).trans (keep_main_arg7_17 m ρ c)).trans (keep_main_arg7_16 m ρ c)).trans (keep_main_arg7_15 m ρ c)).trans (keep_main_arg7_14 m ρ c)).trans (keep_main_arg7_13 m ρ c)).trans (keep_main_arg7_12 m ρ c)).trans (keep_main_arg7_11 m ρ c)).trans (keep_main_arg7_10 m ρ c)).trans (keep_main_arg7_9 m ρ c)).trans (keep_main_arg7_8 m ρ c)).trans (keep_main_arg7_7 m ρ c)).trans (keep_main_arg7_6 m ρ c)).trans (keep_main_arg7_5 m ρ c)).trans (keep_main_arg7_4 m ρ c)).trans (keep_main_arg7_3 m ρ c)).trans (keep_main_arg7_2 m ρ c)).trans (keep_main_arg7_1 m ρ c)

/-! ## main_arg8: unchanged from boundary 0 to boundary 21 -/

theorem keep_main_arg8_1 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg8_2 (c : Dev nD) : W2 m ρ c (Proc.devRef .tc main_arg8) = W1 m ρ c (Proc.devRef .tc main_arg8) :=
  W2_of_ne m ρ c main_arg8 (by decide)
theorem keep_main_arg8_3 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg8_4 (c : Dev nD) : W4 m ρ c (Proc.devRef .tc main_arg8) = W3 m ρ c (Proc.devRef .tc main_arg8) :=
  W4_of_ne m ρ c main_arg8 (by decide)
theorem keep_main_arg8_5 (c : Dev nD) : W5 m ρ c (Proc.devRef .tc main_arg8) = W4 m ρ c (Proc.devRef .tc main_arg8) :=
  StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg8_6 (c : Dev nD) : W6 m ρ c (Proc.devRef .tc main_arg8) = W5 m ρ c (Proc.devRef .tc main_arg8) :=
  W6_of_ne m ρ c main_arg8 (by decide)
theorem keep_main_arg8_7 (c : Dev nD) : W7 m ρ c (Proc.devRef .tc main_arg8) = W6 m ρ c (Proc.devRef .tc main_arg8) :=
  StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg8_8 (c : Dev nD) : W8 m ρ c (Proc.devRef .tc main_arg8) = W7 m ρ c (Proc.devRef .tc main_arg8) :=
  W8_of_ne m ρ c main_arg8 (by decide)
theorem keep_main_arg8_9 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg8_10 (c : Dev nD) : W10 m ρ c (Proc.devRef .tc main_arg8) = W9 m ρ c (Proc.devRef .tc main_arg8) :=
  W10_of_ne m ρ c main_arg8 (by decide)
theorem keep_main_arg8_11 (c : Dev nD) : W11 m ρ c (Proc.devRef .tc main_arg8) = W10 m ρ c (Proc.devRef .tc main_arg8) :=
  StableHlo.after_of_forall_not_mem (b := Proc.devRef .tc main_arg8) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg8_12 (c : Dev nD) : W12 m ρ c (Proc.devRef .tc main_arg8) = W11 m ρ c (Proc.devRef .tc main_arg8) :=
  W12_of_ne m ρ c main_arg8 (by decide)
theorem keep_main_arg8_13 (c : Dev nD) : W13 m ρ c (Proc.devRef .tc main_arg8) = W12 m ρ c (Proc.devRef .tc main_arg8) :=
  StableHlo.after_of_forall_not_mem (b := Proc.devRef .tc main_arg8) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg8_14 (c : Dev nD) : W14 m ρ c (Proc.devRef .tc main_arg8) = W13 m ρ c (Proc.devRef .tc main_arg8) :=
  W14_of_ne m ρ c main_arg8 (by decide)
theorem keep_main_arg8_15 (c : Dev nD) : W15 m ρ c (Proc.devRef .tc main_arg8) = W14 m ρ c (Proc.devRef .tc main_arg8) :=
  StableHlo.after_of_forall_not_mem (b := Proc.devRef .tc main_arg8) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg8_16 (c : Dev nD) : W16 m ρ c (Proc.devRef .tc main_arg8) = W15 m ρ c (Proc.devRef .tc main_arg8) :=
  W16_of_ne m ρ c main_arg8 (by decide)
theorem keep_main_arg8_17 (c : Dev nD) : W17 m ρ c (Proc.devRef .tc main_arg8) = W16 m ρ c (Proc.devRef .tc main_arg8) :=
  StableHlo.after_of_forall_not_mem (b := Proc.devRef .tc main_arg8) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg8_18 (c : Dev nD) : W18 m ρ c (Proc.devRef .tc main_arg8) = W17 m ρ c (Proc.devRef .tc main_arg8) :=
  W18_of_ne m ρ c main_arg8 (by decide)
theorem keep_main_arg8_19 (c : Dev nD) : W19 m ρ c (Proc.devRef .tc main_arg8) = W18 m ρ c (Proc.devRef .tc main_arg8) :=
  StableHlo.after_of_forall_not_mem (b := Proc.devRef .tc main_arg8) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg8_20 (c : Dev nD) : W20 m ρ c (Proc.devRef .tc main_arg8) = W19 m ρ c (Proc.devRef .tc main_arg8) :=
  StableHlo.after_of_forall_not_mem (b := Proc.devRef .tc main_arg8) _ _ (List.forall_iff_forall_mem.mp (by
      simp only [hostOps9_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg8_21 (c : Dev nD) : W21 m ρ c (Proc.devRef .tc main_arg8) = W20 m ρ c (Proc.devRef .tc main_arg8) :=
  StableHlo.after_of_forall_not_mem (b := Proc.devRef .tc main_arg8) _ _ (List.forall_iff_forall_mem.mp (by
      simp only [hostOps9_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_main_arg8_21 (c : Dev nD) : W21 m ρ c (Proc.devRef .tc main_arg8) = W0 m ρ c (Proc.devRef .tc main_arg8) :=
  ((((((((((((((((((((keep_main_arg8_21 m ρ c).trans (keep_main_arg8_20 m ρ c)).trans (keep_main_arg8_19 m ρ c)).trans (keep_main_arg8_18 m ρ c)).trans (keep_main_arg8_17 m ρ c)).trans (keep_main_arg8_16 m ρ c)).trans (keep_main_arg8_15 m ρ c)).trans (keep_main_arg8_14 m ρ c)).trans (keep_main_arg8_13 m ρ c)).trans (keep_main_arg8_12 m ρ c)).trans (keep_main_arg8_11 m ρ c)).trans (keep_main_arg8_10 m ρ c)).trans (keep_main_arg8_9 m ρ c)).trans (keep_main_arg8_8 m ρ c)).trans (keep_main_arg8_7 m ρ c)).trans (keep_main_arg8_6 m ρ c)).trans (keep_main_arg8_5 m ρ c)).trans (keep_main_arg8_4 m ρ c)).trans (keep_main_arg8_3 m ρ c)).trans (keep_main_arg8_2 m ρ c)).trans (keep_main_arg8_1 m ρ c)

/-! ## main_v2: unchanged from boundary 1 to boundary 16 -/

theorem keep_main_v2_2 (c : Dev nD) : W2 m ρ c (Proc.devRef .tc main_v2) = W1 m ρ c (Proc.devRef .tc main_v2) :=
  W2_of_ne m ρ c main_v2 (by decide)
theorem keep_main_v2_3 (c : Dev nD) : W3 m ρ c (Proc.devRef .tc main_v2) = W2 m ρ c (Proc.devRef .tc main_v2) :=
  StableHlo.after_of_forall_not_mem (b := Proc.devRef .tc main_v2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v2_4 (c : Dev nD) : W4 m ρ c (Proc.devRef .tc main_v2) = W3 m ρ c (Proc.devRef .tc main_v2) :=
  W4_of_ne m ρ c main_v2 (by decide)
theorem keep_main_v2_5 (c : Dev nD) : W5 m ρ c (Proc.devRef .tc main_v2) = W4 m ρ c (Proc.devRef .tc main_v2) :=
  StableHlo.after_of_forall_not_mem (b := Proc.devRef .tc main_v2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v2_6 (c : Dev nD) : W6 m ρ c (Proc.devRef .tc main_v2) = W5 m ρ c (Proc.devRef .tc main_v2) :=
  W6_of_ne m ρ c main_v2 (by decide)
theorem keep_main_v2_7 (c : Dev nD) : W7 m ρ c (Proc.devRef .tc main_v2) = W6 m ρ c (Proc.devRef .tc main_v2) :=
  StableHlo.after_of_forall_not_mem (b := Proc.devRef .tc main_v2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v2_8 (c : Dev nD) : W8 m ρ c (Proc.devRef .tc main_v2) = W7 m ρ c (Proc.devRef .tc main_v2) :=
  W8_of_ne m ρ c main_v2 (by decide)
theorem keep_main_v2_9 (c : Dev nD) : W9 m ρ c (Proc.devRef .tc main_v2) = W8 m ρ c (Proc.devRef .tc main_v2) :=
  StableHlo.after_of_forall_not_mem (b := Proc.devRef .tc main_v2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v2_10 (c : Dev nD) : W10 m ρ c (Proc.devRef .tc main_v2) = W9 m ρ c (Proc.devRef .tc main_v2) :=
  W10_of_ne m ρ c main_v2 (by decide)
theorem keep_main_v2_11 (c : Dev nD) : W11 m ρ c (Proc.devRef .tc main_v2) = W10 m ρ c (Proc.devRef .tc main_v2) :=
  StableHlo.after_of_forall_not_mem (b := Proc.devRef .tc main_v2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v2_12 (c : Dev nD) : W12 m ρ c (Proc.devRef .tc main_v2) = W11 m ρ c (Proc.devRef .tc main_v2) :=
  W12_of_ne m ρ c main_v2 (by decide)
theorem keep_main_v2_13 (c : Dev nD) : W13 m ρ c (Proc.devRef .tc main_v2) = W12 m ρ c (Proc.devRef .tc main_v2) :=
  StableHlo.after_of_forall_not_mem (b := Proc.devRef .tc main_v2) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v2_14 (c : Dev nD) : W14 m ρ c (Proc.devRef .tc main_v2) = W13 m ρ c (Proc.devRef .tc main_v2) :=
  W14_of_ne m ρ c main_v2 (by decide)
theorem keep_main_v2_15 (c : Dev nD) : W15 m ρ c (Proc.devRef .tc main_v2) = W14 m ρ c (Proc.devRef .tc main_v2) :=
  StableHlo.after_of_forall_not_mem (b := Proc.devRef .tc main_v2) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v2_16 (c : Dev nD) : W16 m ρ c (Proc.devRef .tc main_v2) = W15 m ρ c (Proc.devRef .tc main_v2) :=
  W16_of_ne m ρ c main_v2 (by decide)
theorem at_main_v2_2 (c : Dev nD) : W2 m ρ c (Proc.devRef .tc main_v2) = W1 m ρ c (Proc.devRef .tc main_v2) :=
  keep_main_v2_2 m ρ c
theorem at_main_v2_4 (c : Dev nD) : W4 m ρ c (Proc.devRef .tc main_v2) = W1 m ρ c (Proc.devRef .tc main_v2) :=
  ((keep_main_v2_4 m ρ c).trans (keep_main_v2_3 m ρ c)).trans (keep_main_v2_2 m ρ c)
theorem at_main_v2_6 (c : Dev nD) : W6 m ρ c (Proc.devRef .tc main_v2) = W1 m ρ c (Proc.devRef .tc main_v2) :=
  ((((keep_main_v2_6 m ρ c).trans (keep_main_v2_5 m ρ c)).trans (keep_main_v2_4 m ρ c)).trans (keep_main_v2_3 m ρ c)).trans (keep_main_v2_2 m ρ c)
theorem at_main_v2_8 (c : Dev nD) : W8 m ρ c (Proc.devRef .tc main_v2) = W1 m ρ c (Proc.devRef .tc main_v2) :=
  ((((((keep_main_v2_8 m ρ c).trans (keep_main_v2_7 m ρ c)).trans (keep_main_v2_6 m ρ c)).trans (keep_main_v2_5 m ρ c)).trans (keep_main_v2_4 m ρ c)).trans (keep_main_v2_3 m ρ c)).trans (keep_main_v2_2 m ρ c)
theorem at_main_v2_10 (c : Dev nD) : W10 m ρ c (Proc.devRef .tc main_v2) = W1 m ρ c (Proc.devRef .tc main_v2) :=
  ((((((((keep_main_v2_10 m ρ c).trans (keep_main_v2_9 m ρ c)).trans (keep_main_v2_8 m ρ c)).trans (keep_main_v2_7 m ρ c)).trans (keep_main_v2_6 m ρ c)).trans (keep_main_v2_5 m ρ c)).trans (keep_main_v2_4 m ρ c)).trans (keep_main_v2_3 m ρ c)).trans (keep_main_v2_2 m ρ c)
theorem at_main_v2_12 (c : Dev nD) : W12 m ρ c (Proc.devRef .tc main_v2) = W1 m ρ c (Proc.devRef .tc main_v2) :=
  ((((((((((keep_main_v2_12 m ρ c).trans (keep_main_v2_11 m ρ c)).trans (keep_main_v2_10 m ρ c)).trans (keep_main_v2_9 m ρ c)).trans (keep_main_v2_8 m ρ c)).trans (keep_main_v2_7 m ρ c)).trans (keep_main_v2_6 m ρ c)).trans (keep_main_v2_5 m ρ c)).trans (keep_main_v2_4 m ρ c)).trans (keep_main_v2_3 m ρ c)).trans (keep_main_v2_2 m ρ c)
theorem at_main_v2_14 (c : Dev nD) : W14 m ρ c (Proc.devRef .tc main_v2) = W1 m ρ c (Proc.devRef .tc main_v2) :=
  ((((((((((((keep_main_v2_14 m ρ c).trans (keep_main_v2_13 m ρ c)).trans (keep_main_v2_12 m ρ c)).trans (keep_main_v2_11 m ρ c)).trans (keep_main_v2_10 m ρ c)).trans (keep_main_v2_9 m ρ c)).trans (keep_main_v2_8 m ρ c)).trans (keep_main_v2_7 m ρ c)).trans (keep_main_v2_6 m ρ c)).trans (keep_main_v2_5 m ρ c)).trans (keep_main_v2_4 m ρ c)).trans (keep_main_v2_3 m ρ c)).trans (keep_main_v2_2 m ρ c)
theorem at_main_v2_16 (c : Dev nD) : W16 m ρ c (Proc.devRef .tc main_v2) = W1 m ρ c (Proc.devRef .tc main_v2) :=
  ((((((((((((((keep_main_v2_16 m ρ c).trans (keep_main_v2_15 m ρ c)).trans (keep_main_v2_14 m ρ c)).trans (keep_main_v2_13 m ρ c)).trans (keep_main_v2_12 m ρ c)).trans (keep_main_v2_11 m ρ c)).trans (keep_main_v2_10 m ρ c)).trans (keep_main_v2_9 m ρ c)).trans (keep_main_v2_8 m ρ c)).trans (keep_main_v2_7 m ρ c)).trans (keep_main_v2_6 m ρ c)).trans (keep_main_v2_5 m ρ c)).trans (keep_main_v2_4 m ρ c)).trans (keep_main_v2_3 m ρ c)).trans (keep_main_v2_2 m ρ c)

/-! ## main_v14_2: unchanged from boundary 4 to boundary 17 -/

theorem keep_main_v14_2_5 (c : Dev nD) : W5 m ρ c (Proc.devRef .tc main_v14_2) = W4 m ρ c (Proc.devRef .tc main_v14_2) :=
  StableHlo.after_of_forall_not_mem (b := Proc.devRef .tc main_v14_2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v14_2_6 (c : Dev nD) : W6 m ρ c (Proc.devRef .tc main_v14_2) = W5 m ρ c (Proc.devRef .tc main_v14_2) :=
  (W6_arr m ρ c 0).trans (((dat2 (V5 m ρ) c).arrAt_in 0 rfl _).trans (A_eq2 (V5 m ρ) c 0))
theorem keep_main_v14_2_7 (c : Dev nD) : W7 m ρ c (Proc.devRef .tc main_v14_2) = W6 m ρ c (Proc.devRef .tc main_v14_2) :=
  StableHlo.after_of_forall_not_mem (b := Proc.devRef .tc main_v14_2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v14_2_8 (c : Dev nD) : W8 m ρ c (Proc.devRef .tc main_v14_2) = W7 m ρ c (Proc.devRef .tc main_v14_2) :=
  (W8_arr m ρ c 0).trans (((dat3 (V7 m ρ) c).arrAt_in 0 rfl _).trans (A_eq3 (V7 m ρ) c 0))
theorem keep_main_v14_2_9 (c : Dev nD) : W9 m ρ c (Proc.devRef .tc main_v14_2) = W8 m ρ c (Proc.devRef .tc main_v14_2) :=
  StableHlo.after_of_forall_not_mem (b := Proc.devRef .tc main_v14_2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v14_2_10 (c : Dev nD) : W10 m ρ c (Proc.devRef .tc main_v14_2) = W9 m ρ c (Proc.devRef .tc main_v14_2) :=
  (W10_arr m ρ c 0).trans (((dat4 (V9 m ρ) c).arrAt_in 0 rfl _).trans (A_eq4 (V9 m ρ) c 0))
theorem keep_main_v14_2_11 (c : Dev nD) : W11 m ρ c (Proc.devRef .tc main_v14_2) = W10 m ρ c (Proc.devRef .tc main_v14_2) :=
  StableHlo.after_of_forall_not_mem (b := Proc.devRef .tc main_v14_2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v14_2_12 (c : Dev nD) : W12 m ρ c (Proc.devRef .tc main_v14_2) = W11 m ρ c (Proc.devRef .tc main_v14_2) :=
  (W12_arr m ρ c 0).trans (((dat5 (V11 m ρ) c).arrAt_in 0 rfl _).trans (A_eq5 (V11 m ρ) c 0))
theorem keep_main_v14_2_13 (c : Dev nD) : W13 m ρ c (Proc.devRef .tc main_v14_2) = W12 m ρ c (Proc.devRef .tc main_v14_2) :=
  StableHlo.after_of_forall_not_mem (b := Proc.devRef .tc main_v14_2) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v14_2_14 (c : Dev nD) : W14 m ρ c (Proc.devRef .tc main_v14_2) = W13 m ρ c (Proc.devRef .tc main_v14_2) :=
  (W14_arr m ρ c 0).trans (((dat6 (V13 m ρ) c).arrAt_in 0 rfl _).trans (A_eq6 (V13 m ρ) c 0))
theorem keep_main_v14_2_15 (c : Dev nD) : W15 m ρ c (Proc.devRef .tc main_v14_2) = W14 m ρ c (Proc.devRef .tc main_v14_2) :=
  StableHlo.after_of_forall_not_mem (b := Proc.devRef .tc main_v14_2) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v14_2_16 (c : Dev nD) : W16 m ρ c (Proc.devRef .tc main_v14_2) = W15 m ρ c (Proc.devRef .tc main_v14_2) :=
  (W16_arr m ρ c 0).trans (((dat7 (V15 m ρ) c).arrAt_in 0 rfl _).trans (A_eq7 (V15 m ρ) c 0))
theorem keep_main_v14_2_17 (c : Dev nD) : W17 m ρ c (Proc.devRef .tc main_v14_2) = W16 m ρ c (Proc.devRef .tc main_v14_2) :=
  StableHlo.after_of_forall_not_mem (b := Proc.devRef .tc main_v14_2) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_main_v14_2_5 (c : Dev nD) : W5 m ρ c (Proc.devRef .tc main_v14_2) = W4 m ρ c (Proc.devRef .tc main_v14_2) :=
  keep_main_v14_2_5 m ρ c
theorem at_main_v14_2_7 (c : Dev nD) : W7 m ρ c (Proc.devRef .tc main_v14_2) = W4 m ρ c (Proc.devRef .tc main_v14_2) :=
  ((keep_main_v14_2_7 m ρ c).trans (keep_main_v14_2_6 m ρ c)).trans (keep_main_v14_2_5 m ρ c)
theorem at_main_v14_2_9 (c : Dev nD) : W9 m ρ c (Proc.devRef .tc main_v14_2) = W4 m ρ c (Proc.devRef .tc main_v14_2) :=
  ((((keep_main_v14_2_9 m ρ c).trans (keep_main_v14_2_8 m ρ c)).trans (keep_main_v14_2_7 m ρ c)).trans (keep_main_v14_2_6 m ρ c)).trans (keep_main_v14_2_5 m ρ c)
theorem at_main_v14_2_11 (c : Dev nD) : W11 m ρ c (Proc.devRef .tc main_v14_2) = W4 m ρ c (Proc.devRef .tc main_v14_2) :=
  ((((((keep_main_v14_2_11 m ρ c).trans (keep_main_v14_2_10 m ρ c)).trans (keep_main_v14_2_9 m ρ c)).trans (keep_main_v14_2_8 m ρ c)).trans (keep_main_v14_2_7 m ρ c)).trans (keep_main_v14_2_6 m ρ c)).trans (keep_main_v14_2_5 m ρ c)
theorem at_main_v14_2_13 (c : Dev nD) : W13 m ρ c (Proc.devRef .tc main_v14_2) = W4 m ρ c (Proc.devRef .tc main_v14_2) :=
  ((((((((keep_main_v14_2_13 m ρ c).trans (keep_main_v14_2_12 m ρ c)).trans (keep_main_v14_2_11 m ρ c)).trans (keep_main_v14_2_10 m ρ c)).trans (keep_main_v14_2_9 m ρ c)).trans (keep_main_v14_2_8 m ρ c)).trans (keep_main_v14_2_7 m ρ c)).trans (keep_main_v14_2_6 m ρ c)).trans (keep_main_v14_2_5 m ρ c)
theorem at_main_v14_2_15 (c : Dev nD) : W15 m ρ c (Proc.devRef .tc main_v14_2) = W4 m ρ c (Proc.devRef .tc main_v14_2) :=
  ((((((((((keep_main_v14_2_15 m ρ c).trans (keep_main_v14_2_14 m ρ c)).trans (keep_main_v14_2_13 m ρ c)).trans (keep_main_v14_2_12 m ρ c)).trans (keep_main_v14_2_11 m ρ c)).trans (keep_main_v14_2_10 m ρ c)).trans (keep_main_v14_2_9 m ρ c)).trans (keep_main_v14_2_8 m ρ c)).trans (keep_main_v14_2_7 m ρ c)).trans (keep_main_v14_2_6 m ρ c)).trans (keep_main_v14_2_5 m ρ c)
theorem at_main_v14_2_17 (c : Dev nD) : W17 m ρ c (Proc.devRef .tc main_v14_2) = W4 m ρ c (Proc.devRef .tc main_v14_2) :=
  ((((((((((((keep_main_v14_2_17 m ρ c).trans (keep_main_v14_2_16 m ρ c)).trans (keep_main_v14_2_15 m ρ c)).trans (keep_main_v14_2_14 m ρ c)).trans (keep_main_v14_2_13 m ρ c)).trans (keep_main_v14_2_12 m ρ c)).trans (keep_main_v14_2_11 m ρ c)).trans (keep_main_v14_2_10 m ρ c)).trans (keep_main_v14_2_9 m ρ c)).trans (keep_main_v14_2_8 m ρ c)).trans (keep_main_v14_2_7 m ρ c)).trans (keep_main_v14_2_6 m ρ c)).trans (keep_main_v14_2_5 m ρ c)

end Cert.KernelIdeal.GenP

end
-- ==== Proof.Coeffs.lean ====
/-
  The functions the kernel program applies on the host, read index by index at the ideal values.

  The coefficient matrix: the program forms (M θᵀ)ᵀ for the dense 5 × 5 constant M and the 2 × 5 array θ. The two
  transposes swap the coordinates, the product at (m, l) is the sum over the contracted coordinate j of M[m, j] · θᵀ[j, l],
  and the 25 bit patterns of the constant denote, row by row, the dyadic rationals of the matrix that converts Bernstein
  coefficients to monomial ones; so the result at (l, m) is ∑ⱼ M[m, j] · θ[l, j].

  One coefficient picked out and spread: the 1 × 1 block at the offsets (l, k), read as a scalar and broadcast, is the entry
  (l, k) at every index. A product with such a constant array is the scalar multiple; a change of format is the identity
  at the ideal values; a vector read as a one-row matrix has its entry q at (0, q).

  The tail: the last matrix is padded from 40 to 128 columns and the last bias from 40 to 128 entries, the projection is
  formed on 128 columns and columns 0 … 39 are kept. In those columns the padded matrix reads the matrix and the padded
  bias reads the bias, so the sum over the contracted coordinate is the unpadded one and the padding value never enters.
-/
import proofs.«148114_g1589137899740_cont_week2b_1182_5_alg».proof.Proof.Gen.KernelIdeal.Launch
import proofs.«148114_g1589137899740_cont_week2b_1182_5_alg».proof.Proof.Spec
import proofs.«148114_g1589137899740_cont_week2b_1182_5_alg».proof.Proof.Consts
import Idealize.ShloMosaic.Lib.ValueIdx
import Idealize.ShloMosaic.Lib.Pipeline.Value
import Idealize.ShloMosaic.Lib.ValueLayout
import Idealize.ShloMosaic.Lib.StackMember
import Idealize.ShloMosaic.Lib.IdealHost
import Idealize.ShloMosaic.PureOps.Ideal.Laws
import Mathlib.Tactic.FinCases

noncomputable section

namespace Cert.KernelIdeal.HostVal

open Cert.KernelIdeal Cert.KernelIdeal.Gen Idealize.ShloMosaic Idealize.ShloMosaic.ValueIdx
open scoped BigOperators

/-! ## The coefficient matrix -/

/-- The dimension numbers of the 5 × 5 by 5 × 2 product are the plain matrix product's. -/
theorem dot_eq_plain : dot_S5x5_S5x2_S5x2_1_0_0_1_n_n = DotDims.plain 5 5 2 := rfl

/-- Entry (m, c) of a 5 × 5 array is at row-major position 5 m + c. -/
theorem lit_pos (m c : Fin 5) : S5x5.rowMajor (ix2 m c) = ⟨m.val * 5 + c.val, by
    have h := (S5x5.rowMajor (ix2 m c)).isLt
    rw [Shape.rowMajor_val_two] at h
    exact h⟩ :=
  Fin.ext (Shape.rowMajor_val_two (ix2 m c))

/-- The dense constant's entry (m, c) denotes the entry M[m, c] of the conversion matrix: the 25 bit patterns, row by row. -/
theorem cst_entry (m c : Fin 5) :
    (FloatOps.ofBits (F := Ideal) .f32 (lit0 (S5x5.rowMajor (ix2 m c))) : EReal) = Bern.mono m c := by
  rw [lit_pos]
  fin_cases m <;> fin_cases c
  · exact Bern.Consts.ofBits_one
  · exact Bern.Consts.ofBits_zero
  · exact Bern.Consts.ofBits_zero
  · exact Bern.Consts.ofBits_zero
  · exact Bern.Consts.ofBits_zero
  · exact Bern.Consts.ofBits_neg_two
  · exact Bern.Consts.ofBits_two
  · exact Bern.Consts.ofBits_zero
  · exact Bern.Consts.ofBits_zero
  · exact Bern.Consts.ofBits_zero
  · exact Bern.Consts.ofBits_three_halves
  · exact Bern.Consts.ofBits_neg_three
  · exact Bern.Consts.ofBits_three_halves
  · exact Bern.Consts.ofBits_zero
  · exact Bern.Consts.ofBits_zero
  · exact Bern.Consts.ofBits_neg_half
  · exact Bern.Consts.ofBits_three_halves
  · exact Bern.Consts.ofBits_neg_three_halves
  · exact Bern.Consts.ofBits_half
  · exact Bern.Consts.ofBits_zero
  · exact Bern.Consts.ofBits_sixteenth
  · exact Bern.Consts.ofBits_neg_quarter
  · exact Bern.Consts.ofBits_three_eighths
  · exact Bern.Consts.ofBits_neg_quarter
  · exact Bern.Consts.ofBits_sixteenth

/-- (M θᵀ)ᵀ read at (l, m) is ∑ⱼ M[m, j] · θ[l, j]: the two transposes swap the coordinates and the product is the sum
    over the contracted coordinate. -/
theorem coeffs_read (th : FVec Ideal S2x5 .f32) :
    transpose S2x5 [1, 0] (Host.dotGeneral dot_S5x5_S5x2_S5x2_1_0_0_1_n_n none
        (fun i => FloatOps.ofBits (F := Ideal) .f32 (lit0 (S5x5.rowMajor i)))
        (transpose S5x2 [1, 0] th transposes_S2x5_S5x2_1_0)) transposes_S5x2_S2x5_1_0
      = fun i => Bern.coeff th (i 0) (i 1) := by
  funext i
  obtain ⟨l, m, rfl⟩ : ∃ (l : Fin 2) (m : Fin 5), i = ix2 l m := ⟨i 0, i 1, eq_ix2 i⟩
  rw [transpose_ix2_apply, dot_eq_plain, StackMember.dotGeneral_plain_apply]
  show _ = ∑ j : Fin 5, Bern.mono m j * th (ix2 l j)
  refine Finset.sum_congr rfl fun c _ => ?_
  rw [cst_entry, transpose_ix2_apply]

/-! ## One coefficient picked out and spread -/

/-- The 1 × 1 block of a 2 × 5 array at the offsets (l, k), read as a scalar, is the entry (l, k); spread over any shape it
    is that entry everywhere. -/
theorem pick_at {T : Shape} (hb : S_.BroadcastsInDim T ![]) (cs : FVec Ideal S2x5 .f32) (off : Fin S2x5.rank → ℕ)
    (l : Fin 2) (k : Fin 5) (h0 : off 0 = l.val) (h1 : off 1 = k.val) (hs : S2x5.Slices off S1x1) (hc : S1x1.ShapeCasts S_) :
    broadcastInDim T ![] hb (shapeCast S_ (extractStridedSlice S1x1 off cs hs) hc) = fun _ => cs (ix2 l k) := by
  funext j
  rw [broadcastInDim_scalar_apply]
  refine (shapeCast_apply _ hc ix0 (ix2 (0 : Fin 1) (0 : Fin 1)) (by decide)).trans ?_
  exact extractStridedSlice_apply off cs hs _ (ix2 l k) fun a =>
    match a with
    | ⟨0, _⟩ => by show l.val = off 0 + 0; omega
    | ⟨1, _⟩ => by show k.val = off 1 + 0; omega

theorem pick_row_0_1 (cs : FVec Ideal S2x5 .f32) :
    broadcastInDim S1x128 ![] bcast_S_S1x128 (shapeCast S_ (extractStridedSlice S1x1 ![0, 1] cs slices_S2x5_S1x1_0_1) shapeCasts_S1x1_S_)
      = fun _ => cs (ix2 0 1) := pick_at bcast_S_S1x128 cs ![0, 1] 0 1 rfl rfl slices_S2x5_S1x1_0_1 shapeCasts_S1x1_S_
theorem pick_row_0_2 (cs : FVec Ideal S2x5 .f32) :
    broadcastInDim S1x128 ![] bcast_S_S1x128 (shapeCast S_ (extractStridedSlice S1x1 ![0, 2] cs slices_S2x5_S1x1_0_2) shapeCasts_S1x1_S_)
      = fun _ => cs (ix2 0 2) := pick_at bcast_S_S1x128 cs ![0, 2] 0 2 rfl rfl slices_S2x5_S1x1_0_2 shapeCasts_S1x1_S_
theorem pick_row_0_3 (cs : FVec Ideal S2x5 .f32) :
    broadcastInDim S1x128 ![] bcast_S_S1x128 (shapeCast S_ (extractStridedSlice S1x1 ![0, 3] cs slices_S2x5_S1x1_0_3) shapeCasts_S1x1_S_)
      = fun _ => cs (ix2 0 3) := pick_at bcast_S_S1x128 cs ![0, 3] 0 3 rfl rfl slices_S2x5_S1x1_0_3 shapeCasts_S1x1_S_
theorem pick_row_0_4 (cs : FVec Ideal S2x5 .f32) :
    broadcastInDim S1x128 ![] bcast_S_S1x128 (shapeCast S_ (extractStridedSlice S1x1 ![0, 4] cs slices_S2x5_S1x1_0_4) shapeCasts_S1x1_S_)
      = fun _ => cs (ix2 0 4) := pick_at bcast_S_S1x128 cs ![0, 4] 0 4 rfl rfl slices_S2x5_S1x1_0_4 shapeCasts_S1x1_S_
theorem pick_row_1_1 (cs : FVec Ideal S2x5 .f32) :
    broadcastInDim S1x128 ![] bcast_S_S1x128 (shapeCast S_ (extractStridedSlice S1x1 ![1, 1] cs slices_S2x5_S1x1_1_1) shapeCasts_S1x1_S_)
      = fun _ => cs (ix2 1 1) := pick_at bcast_S_S1x128 cs ![1, 1] 1 1 rfl rfl slices_S2x5_S1x1_1_1 shapeCasts_S1x1_S_
theorem pick_row_1_2 (cs : FVec Ideal S2x5 .f32) :
    broadcastInDim S1x128 ![] bcast_S_S1x128 (shapeCast S_ (extractStridedSlice S1x1 ![1, 2] cs slices_S2x5_S1x1_1_2) shapeCasts_S1x1_S_)
      = fun _ => cs (ix2 1 2) := pick_at bcast_S_S1x128 cs ![1, 2] 1 2 rfl rfl slices_S2x5_S1x1_1_2 shapeCasts_S1x1_S_
theorem pick_row_1_3 (cs : FVec Ideal S2x5 .f32) :
    broadcastInDim S1x128 ![] bcast_S_S1x128 (shapeCast S_ (extractStridedSlice S1x1 ![1, 3] cs slices_S2x5_S1x1_1_3) shapeCasts_S1x1_S_)
      = fun _ => cs (ix2 1 3) := pick_at bcast_S_S1x128 cs ![1, 3] 1 3 rfl rfl slices_S2x5_S1x1_1_3 shapeCasts_S1x1_S_
theorem pick_row_1_4 (cs : FVec Ideal S2x5 .f32) :
    broadcastInDim S1x128 ![] bcast_S_S1x128 (shapeCast S_ (extractStridedSlice S1x1 ![1, 4] cs slices_S2x5_S1x1_1_4) shapeCasts_S1x1_S_)
      = fun _ => cs (ix2 1 4) := pick_at bcast_S_S1x128 cs ![1, 4] 1 4 rfl rfl slices_S2x5_S1x1_1_4 shapeCasts_S1x1_S_
theorem pick_full_0_0 (cs : FVec Ideal S2x5 .f32) :
    broadcastInDim S10000x128 ![] bcast_S_S10000x128 (shapeCast S_ (extractStridedSlice S1x1 ![0, 0] cs slices_S2x5_S1x1_0_0) shapeCasts_S1x1_S_)
      = fun _ => cs (ix2 0 0) := pick_at bcast_S_S10000x128 cs ![0, 0] 0 0 rfl rfl slices_S2x5_S1x1_0_0 shapeCasts_S1x1_S_
theorem pick_full_1_0 (cs : FVec Ideal S2x5 .f32) :
    broadcastInDim S10000x128 ![] bcast_S_S10000x128 (shapeCast S_ (extractStridedSlice S1x1 ![1, 0] cs slices_S2x5_S1x1_1_0) shapeCasts_S1x1_S_)
      = fun _ => cs (ix2 1 0) := pick_at bcast_S_S10000x128 cs ![1, 0] 1 0 rfl rfl slices_S2x5_S1x1_1_0 shapeCasts_S1x1_S_

/-- The product with a constant array is the scalar multiple. -/
theorem scal_read (c : EReal) (h : FVec Ideal S10000x128 .f32) : mulf (fun _ => c) h = Bern.scal c h := rfl

/-- A change of format is the identity on the ideal values. -/
theorem trunc_read (h : FVec Ideal S10000x128 .f32) : truncf .bf16 h bitsLt_bf16_f32 = h := rfl

/-- A vector read as a one-row matrix has the vector's entry q at (0, q). -/
theorem row_read (b : FVec Ideal S128 .f32) : shapeCast S1x128 b shapeCasts_S128_S1x128 = fun i => b (ix1 (i 1)) := by
  funext i
  obtain ⟨u, q, rfl⟩ : ∃ (u : Fin 1) (q : Fin 128), i = ix2 u q := ⟨i 0, i 1, eq_ix2 i⟩
  exact shapeCast_a_1a_apply b shapeCasts_S128_S1x128 u q

/-! ## The tail: the projection onto 128 padded columns, cut back to 40 -/

/-- The matrix padded on the right reads the matrix itself in its first 40 columns. -/
theorem padW_apply (W3 : FVec Ideal S128x40 .f32) {u : Shape} (v : u.Idx → EReal) (hu : 0 < u.numel) (l : Fin 128) (q : Fin 40) :
    pad S128x128 ![0, 0] ![0, 88] ![0, 0] W3 v pads_S128x40_S128x128_000_0880 hu (ix2 l (⟨q.val, by omega⟩ : Fin 128)) = W3 (ix2 l q) :=
  pad_apply_of_inside _ _ _ W3 v pads_S128x40_S128x128_000_0880 hu _ (ix2 l q) fun a =>
    match a with
    | ⟨0, _⟩ => by show l.val = 0 + l.val * (0 + 1); omega
    | ⟨1, _⟩ => by show q.val = 0 + q.val * (0 + 1); omega

/-- The vector padded at its end reads the vector itself in its first 40 entries. -/
theorem padb_apply (b3 : FVec Ideal S40 .f32) {u : Shape} (v : u.Idx → EReal) (hu : 0 < u.numel) (q : Fin 40) :
    pad S128 ![0] ![88] ![0] b3 v pads_S40_S128_0880 hu (ix1 (⟨q.val, by omega⟩ : Fin 128)) = b3 (ix1 q) :=
  pad_apply_of_inside _ _ _ b3 v pads_S40_S128_0880 hu _ (ix1 q) fun a =>
    match a with
    | ⟨0, _⟩ => by show q.val = 0 + q.val * (0 + 1); omega

/-- Columns 0 … 39 of the padded projection are the projection: there the padded matrix and the padded bias read the
    matrix and the bias, so the padding value never enters. -/
theorem tail_read (h : FVec Ideal S10000x128 .f32) (W3 : FVec Ideal S128x40 .f32) (b3 : FVec Ideal S40 .f32) :
    extractStridedSlice S10000x40 ![0, 0]
        (Bern.projR h
          (pad S128x128 ![0, 0] ![0, 88] ![0, 0] W3 (sitofp (F := Ideal) .f32 (constantI S_ 32 0#32)) pads_S128x40_S128x128_000_0880 h_S_)
          (shapeCast S1x128 (pad S128 ![0] ![88] ![0] b3 (sitofp (F := Ideal) .f32 (constantI S_ 32 0#32)) pads_S40_S128_0880 h_S_) shapeCasts_S128_S1x128))
        slices_S10000x128_S10000x40_0_0
      = Bern.proj h W3 b3 := by
  funext i
  obtain ⟨p, q, rfl⟩ : ∃ (p : Fin 10000) (q : Fin 40), i = ix2 p q := ⟨i 0, i 1, eq_ix2 i⟩
  refine (extractStridedSlice_apply _ _ slices_S10000x128_S10000x40_0_0 _ (ix2 p (⟨q.val, by omega⟩ : Fin 128)) fun a =>
    match a with
    | ⟨0, _⟩ => by show p.val = 0 + p.val; omega
    | ⟨1, _⟩ => by show q.val = 0 + q.val; omega).trans ?_
  show (∑ l : Fin 128, h (ix2 p l) * pad S128x128 ![0, 0] ![0, 88] ![0, 0] W3 _ pads_S128x40_S128x128_000_0880 h_S_ (ix2 l (⟨q.val, by omega⟩ : Fin 128)))
      + shapeCast S1x128 (pad S128 ![0] ![88] ![0] b3 _ pads_S40_S128_0880 h_S_) shapeCasts_S128_S1x128 (ix2 (0 : Fin 1) (⟨q.val, by omega⟩ : Fin 128))
    = (∑ l : Fin 128, h (ix2 p l) * W3 (ix2 l q)) + b3 (ix1 q)
  rw [shapeCast_a_1a_apply, padb_apply]
  congr 1
  exact Finset.sum_congr rfl fun l _ => by rw [padW_apply]

end Cert.KernelIdeal.HostVal

end
-- ==== Proof.RegionMlp.lean ====
/-
  Region 0 of the kernel: the two-layer perceptron, block by block.

  The region's grid has 25 points. At point t its body reads rows 400 t … 400 t + 399 of x (all 256 columns), the whole
  weight matrices W₁ [256, 128] and W₂ [128, 128] and the two bias rows b₁, b₂ as [1, 128] arrays, and writes rows
  400 t … 400 t + 399 of the output [10000, 128]:
      out[r, q] = ∑ₗ max(∑ₖ x[r, k] · W₁[k, l] + b₁[l], 0) · W₂[l, q] + b₂[q].
  Each product is a sum over its one contracted axis into a zero accumulator; the bias rows are broadcast over the 400
  rows; relu is the maximum with the zero splat. The 25 blocks of 400 rows tile the 10000 rows, so after the region the
  output array is relu(x W₁ + b₁) W₂ + b₂ of the arrays the region reads.
-/
import proofs.«148114_g1589137899740_cont_week2b_1182_5_alg».proof.Proof.FrameKernelIdeal
import proofs.«148114_g1589137899740_cont_week2b_1182_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)
open scoped BigOperators

variable (V : (c : Dev nD) → (b : Ref sig .tc) → Buf (Elt Ideal) ((c : Thread nD τ).loc b))

/-! ## The body's arithmetic at an index

  The body forms relu(x W₁ + b₁) W₂ + b₂ on a block of 400 rows: two products into zero accumulators (a sum over the one
  contracted axis), each followed by the bias row broadcast over the rows; relu is the maximum with the zero splat. -/

/-- The left operand's row coordinate at an output index is the output's row. -/
theorem lhs_xw1_0 (i : S400x128.Idx) (q : dot_S400x256_S256x128_S400x128_1_0_0_1_n_n.contr.Idx) :
    (dot_S400x256_S256x128_S400x128_1_0_0_1_n_n.lhsIdx i q 0).val = (i 0).val := by
  unfold DotDims.lhsIdx
  rw [dif_neg (show ¬(0 : Fin S400x256.rank) ∈ dot_S400x256_S256x128_S400x128_1_0_0_1_n_n.lhsBatch by decide), dif_pos (show (0 : Fin S400x256.rank) ∈ dot_S400x256_S256x128_S400x128_1_0_0_1_n_n.lhsNonContracting by decide)]
  rfl
/-- The left operand's column coordinate is the contraction position. -/
theorem lhs_xw1_1 (i : S400x128.Idx) (q : dot_S400x256_S256x128_S400x128_1_0_0_1_n_n.contr.Idx) :
    (dot_S400x256_S256x128_S400x128_1_0_0_1_n_n.lhsIdx i q 1).val = (q ⟨0, by decide⟩).val :=
  dot_S400x256_S256x128_S400x128_1_0_0_1_n_n.lhsIdx_val_of_single rfl i q
/-- The right operand's row coordinate is the contraction position. -/
theorem rhs_xw1_0 (i : S400x128.Idx) (q : dot_S400x256_S256x128_S400x128_1_0_0_1_n_n.contr.Idx) :
    (dot_S400x256_S256x128_S400x128_1_0_0_1_n_n.rhsIdx i q 0).val = (q ⟨0, by decide⟩).val :=
  dot_S400x256_S256x128_S400x128_1_0_0_1_n_n.rhsIdx_val_of_single rfl i q
/-- The right operand's column coordinate at an output index is the output's column. -/
theorem rhs_xw1_1 (i : S400x128.Idx) (q : dot_S400x256_S256x128_S400x128_1_0_0_1_n_n.contr.Idx) :
    (dot_S400x256_S256x128_S400x128_1_0_0_1_n_n.rhsIdx i q 1).val = (i 1).val := by
  unfold DotDims.rhsIdx
  rw [dif_neg (show ¬(1 : Fin S256x128.rank) ∈ dot_S400x256_S256x128_S400x128_1_0_0_1_n_n.rhsBatch by decide), dif_pos (show (1 : Fin S256x128.rank) ∈ dot_S400x256_S256x128_S400x128_1_0_0_1_n_n.rhsNonContracting by decide)]
  rfl

/-- The left operand's row coordinate at an output index is the output's row. -/
theorem lhs_hw2_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- The left operand's column coordinate is the contraction position. -/
theorem lhs_hw2_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- The right operand's row coordinate is the contraction position. -/
theorem rhs_hw2_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- The right operand's column coordinate at an output index is the output's column. -/
theorem rhs_hw2_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A block product into the zero accumulator, read at (p, q): the sum over the 256 contraction positions of
    left[p, l] · right[l, q]. -/
theorem mm_xw1_apply (x : FVec Ideal S400x256 .f32) (w : FVec Ideal S256x128 .f32) (p : Fin 400) (q : Fin 128) :
    matmul dot_S400x256_S256x128_S400x128_1_0_0_1_n_n none x w (constant S400x128 .f32 0x00000000#32) (ix2 p q)
      = ∑ l : Fin 256, x (ix2 p l) * w (ix2 l q) := by
  simp only [matmul]
  rw [Ideal.matmul_constant_zero_apply, ← Equiv.sum_comp (contrEquiv1 dot_S400x256_S256x128_S400x128_1_0_0_1_n_n 256 rfl rfl).symm]
  refine Finset.sum_congr rfl fun k _ => ?_
  have hk := contrEquiv1_symm_val dot_S400x256_S256x128_S400x128_1_0_0_1_n_n 256 rfl rfl k
  have el : dot_S400x256_S256x128_S400x128_1_0_0_1_n_n.lhsIdx (ix2 p q) ((contrEquiv1 dot_S400x256_S256x128_S400x128_1_0_0_1_n_n 256 rfl rfl).symm k) = ix2 p k := funext fun a => Fin.ext (by
    match a with
    | ⟨0, _⟩ => exact lhs_xw1_0 _ _
    | ⟨1, _⟩ => exact (lhs_xw1_1 _ _).trans hk)
  have er : dot_S400x256_S256x128_S400x128_1_0_0_1_n_n.rhsIdx (ix2 p q) ((contrEquiv1 dot_S400x256_S256x128_S400x128_1_0_0_1_n_n 256 rfl rfl).symm k) = ix2 k q := funext fun a => Fin.ext (by
    match a with
    | ⟨0, _⟩ => exact (rhs_xw1_0 _ _).trans hk
    | ⟨1, _⟩ => exact rhs_xw1_1 _ _)
  rw [el, er]

/-- A block product into the zero accumulator, read at (p, q): the sum over the 128 contraction positions of
    left[p, l] · right[l, q]. -/
theorem mm_hw2_apply (x : FVec Ideal S400x128 .f32) (w : FVec Ideal S128x128 .f32) (p : Fin 400) (q : Fin 128) :
    matmul dot_S400x128_S128x128_S400x128_1_0_0_1_n_n none x w (constant S400x128 .f32 0x00000000#32) (ix2 p q)
      = ∑ l : Fin 128, x (ix2 p l) * w (ix2 l q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhs_hw2_0 _ _
    | ⟨1, _⟩ => exact (lhs_hw2_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhs_hw2_0 _ _).trans hk
    | ⟨1, _⟩ => exact rhs_hw2_1 _ _)
  rw [el, er]

/-- A [1, 128] row, cast to its own shape and broadcast over 400 rows, read at (p, q): the row's entry q. -/
theorem bias_row0_apply (v : FVec Ideal S1x128 .f32) (p : Fin 400) (q : Fin 128) :
    broadcastTo S400x128 (shapeCast S1x128 v shapeCasts_S1x128_S1x128) broadcasts_S1x128_S400x128 (ix2 p q) = v (ix2 (0 : Fin 1) q) := by
  rw [shapeCast_self]
  exact broadcastTo_1b_ab_apply v broadcasts_S1x128_S400x128 p q

/-- The block's payload at (p, q): ∑ₗ max(∑ₖ x[p, k] W₁[k, l] + b₁[l], 0) · W₂[l, q] + b₂[q], over the loaded blocks. -/
theorem pay_mlp_apply (v0 : FVec Ideal S400x256 .f32) (v1 : FVec Ideal S256x128 .f32) (v3 : FVec Ideal S1x128 .f32)
    (v9 : FVec Ideal S128x128 .f32) (v11 : FVec Ideal S1x128 .f32) (p : Fin 400) (q : Fin 128) :
    k0_pay1 (F := Ideal) v0 v1 v3 v9 v11 (ix2 p q)
      = (∑ l : Fin 128, max ((∑ k : Fin 256, v0 (ix2 p k) * v1 (ix2 k l)) + v3 (ix2 (0 : Fin 1) l)) 0 * v9 (ix2 l q))
        + v11 (ix2 (0 : Fin 1) q) := by
  unfold k0_pay1
  refine (addf_apply _ _ _).trans ?_
  refine congrArg₂ (· + ·) ?_ (bias_row0_apply v11 p q)
  refine (mm_hw2_apply _ v9 p q).trans ?_
  refine Finset.sum_congr rfl fun l _ => congrArg (· * v9 (ix2 l q)) ?_
  refine (maximumf_apply _ _ _).trans ?_
  refine congrArg₂ max ?_ ?_
  · refine (addf_apply _ _ _).trans ?_
    exact congrArg₂ (· + ·) (mm_xw1_apply v0 v1 p l) (bias_row0_apply v3 p l)
  · show Ideal.ofBits .f32 0x00000000#32 = 0
    exact Ideal.ofBits_zero_f32

/-- The specification at (r, s), written out: the same double sum over the whole arrays. -/
theorem mlpR_apply (x : Bern.Arr 10000 256) (W1 : Bern.Arr 256 128) (b1 : Bern.Arr 1 128) (W2 : Bern.Arr 128 128) (b2 : Bern.Arr 1 128)
    (r : Fin 10000) (s : Fin 128) :
    Bern.mlpR x W1 b1 W2 b2 (ix2 r s)
      = (∑ l : Fin 128, max ((∑ k : Fin 256, x (ix2 r k) * W1 (ix2 k l)) + b1 (ix2 (0 : Fin 1) l)) 0 * W2 (ix2 l s))
        + b2 (ix2 (0 : Fin 1) s) := rfl

/-! ## The blocks the body reads

  The grid has 25 points. At point t the block of x and the output block are rows 400 t … 400 t + 399 (all columns); the
  weights and the bias rows are whole arrays at every point. -/

/-- The zero offsets, as a constant function. -/
theorem hz0 : (![0, 0] : Fin 2 → Nat) = fun _ => 0 := funext fun a => by
  match a with
  | ⟨0, _⟩ => rfl
  | ⟨1, _⟩ => rfl

/-- The index maps, decided over the 25 points: x's block and the output's block are at (t, 0); every other window's at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, k) of x's block at point t is x[400 t + p, k]. -/
theorem read0_x (c : Dev nD) (t : Fin cfg0.N) (p : Fin 400) (k : Fin 256) (r : Fin 10000) (hr : r.val = 400 * t.val + p.val) :
    (iblk0 V c 0 t : Vec Ideal S400x256 .f32) (ix2 p k) = (V c main_arg0 : Bern.Arr 10000 256) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 400 + 1 * p.val = r.val; omega
  | ⟨1, _⟩ => show win0_0.index t (1 : Fin 2) * 256 + 1 * k.val = k.val; omega

/-- W₁'s block at every point is W₁. -/
theorem read0_W1 (c : Dev nD) (t : Fin cfg0.N) (k : Fin 256) (l : Fin 128) :
    (iblk0 V c 1 t : Vec Ideal S256x128 .f32) (ix2 k l) = (V c main_arg2 : Bern.Arr 256 128) (ix2 k l) := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 256 + 1 * k.val = k.val; omega
  | ⟨1, _⟩ => show win0_1.index t (1 : Fin 2) * 128 + 1 * l.val = l.val; omega

/-- The first bias row's block at every point is the row. -/
theorem read0_b1 (c : Dev nD) (t : Fin cfg0.N) (l : Fin 128) :
    (iblk0 V c 2 t : Vec Ideal S1x128 .f32) (ix2 (0 : Fin 1) l) = (V c main_v3 : Bern.Arr 1 128) (ix2 (0 : Fin 1) l) := by
  obtain ⟨-, -, -, -, e0, e1, -⟩ := idx_facts0 t
  unfold iblk0
  rw [View.read_apply]
  show V c main_v3 _ = V c main_v3 _
  congr 1
  funext a
  apply Fin.ext
  match a with
  | ⟨0, _⟩ => show win0_2.index t (0 : Fin 2) * 1 + 1 * 0 = 0; omega
  | ⟨1, _⟩ => show win0_2.index t (1 : Fin 2) * 128 + 1 * l.val = l.val; omega

/-- W₂'s block at every point is W₂. -/
theorem read0_W2 (c : Dev nD) (t : Fin cfg0.N) (l : Fin 128) (q : Fin 128) :
    (iblk0 V c 3 t : Vec Ideal S128x128 .f32) (ix2 l q) = (V c main_arg4 : Bern.Arr 128 128) (ix2 l q) := by
  obtain ⟨-, -, -, -, -, -, e0, e1, -⟩ := idx_facts0 t
  unfold iblk0
  rw [View.read_apply]
  show V c main_arg4 _ = V c main_arg4 _
  congr 1
  funext a
  apply Fin.ext
  match a with
  | ⟨0, _⟩ => show win0_3.index t (0 : Fin 2) * 128 + 1 * l.val = l.val; omega
  | ⟨1, _⟩ => show win0_3.index t (1 : Fin 2) * 128 + 1 * q.val = q.val; omega

/-- The second bias row's block at every point is the row. -/
theorem read0_b2 (c : Dev nD) (t : Fin cfg0.N) (q : Fin 128) :
    (iblk0 V c 4 t : Vec Ideal S1x128 .f32) (ix2 (0 : Fin 1) q) = (V c main_v4 : Bern.Arr 1 128) (ix2 (0 : Fin 1) q) := by
  obtain ⟨-, -, -, -, -, -, -, -, e0, e1, -⟩ := idx_facts0 t
  unfold iblk0
  rw [View.read_apply]
  show V c main_v4 _ = V c main_v4 _
  congr 1
  funext a
  apply Fin.ext
  match a with
  | ⟨0, _⟩ => show win0_4.index t (0 : Fin 2) * 1 + 1 * 0 = 0; omega
  | ⟨1, _⟩ => show win0_4.index t (1 : Fin 2) * 128 + 1 * q.val = q.val; omega

/-! ## What a point writes back, and the array -/

/-- The payload of point t's blocks at (p, q) is the specification at row 400 t + p, column q. -/
theorem block_mlp (c : Dev nD) (t : Fin cfg0.N) (p : Fin 400) (q : Fin 128) (r : Fin 10000) (hr : r.val = 400 * t.val + p.val) :
    k0_pay1 (F := Ideal) (iblk0 V c 0 t) (iblk0 V c 1 t) (iblk0 V c 2 t) (iblk0 V c 3 t) (iblk0 V c 4 t) (ix2 p q)
      = Bern.mlpR (V c main_arg0) (V c main_arg2) (V c main_v3) (V c main_arg4) (V c main_v4) (ix2 r q) := by
  refine (pay_mlp_apply (iblk0 V c 0 t) (iblk0 V c 1 t) (iblk0 V c 2 t) (iblk0 V c 3 t) (iblk0 V c 4 t) p q).trans ?_
  refine Eq.trans ?_ (mlpR_apply (V c main_arg0) (V c main_arg2) (V c main_v3) (V c main_arg4) (V c main_v4) r q).symm
  refine congrArg₂ (· + ·) (Finset.sum_congr rfl fun l _ => ?_) (read0_b2 V c t q)
  refine congrArg₂ (· * ·) (congrArg (max · 0) ?_) (read0_W2 V c t l q)
  refine congrArg₂ (· + ·) (Finset.sum_congr rfl fun k _ => ?_) (read0_b1 V c t l)
  exact congrArg₂ (· * ·) (read0_x V c t p k r hr) (read0_W1 V c t k l)

/-- What point t writes back is block t of the specification's array. -/
theorem flushed0_5_eq (c : Dev nD) (t : Fin cfg0.N) :
    (dat0 (F := Ideal) V c).flushed 5 t
      = ((cfg0.win 5).blk t).view.read (Elt Ideal) (Bern.mlpR (V c main_arg0) (V c main_arg2) (V c main_v3) (V c main_arg4) (V c main_v4)) := by
  show (cfg0.win 5).cut (grid0.coords t) ((dat0 (F := Ideal) V c).after 5 t) = _
  rw [after0_5]
  unfold out0_5
  rw [View.canon_unit_zero hz0]
  simp only [View.ld_unit_zero (S := S400x256) hz0, View.ld_unit_zero (S := S256x128) hz0, View.ld_unit_zero (S := S1x128) hz0,
    View.ld_unit_zero (S := S128x128) hz0]
  obtain ⟨-, -, -, -, -, -, -, -, -, -, e0, e1⟩ := idx_facts0 t
  funext j
  have hj0 : (j 0).val < 400 := (j 0).isLt
  have hj1 : (j 1).val < 128 := (j 1).isLt
  have ht : t.val < 25 := t.isLt.trans_eq N_0
  refine (congrArg (k0_pay1 (F := Ideal) (iblk0 V c 0 t) (iblk0 V c 1 t) (iblk0 V c 2 t) (iblk0 V c 3 t) (iblk0 V c 4 t)) (eq_ix2 j)).trans ?_
  refine (block_mlp V c t (j 0) (j 1) ⟨400 * t.val + (j 0).val, by omega⟩ rfl).trans ?_
  show Bern.mlpR (V c main_arg0) (V c main_arg2) (V c main_v3) (V c main_arg4) (V c main_v4) _
      = Bern.mlpR (V c main_arg0) (V c main_arg2) (V c main_v3) (V c main_arg4) (V c main_v4) (((cfg0.win 5).blk t).view.emb j)
  congr 1
  funext a
  apply Fin.ext
  match a with
  | ⟨0, _⟩ => show 400 * t.val + (j 0).val = win0_5.index t (0 : Fin 2) * 400 + 1 * (j 0).val; omega
  | ⟨1, _⟩ => show (j 1).val = win0_5.index t (1 : Fin 2) * 128 + 1 * (j 1).val; omega

/-- An index of the array is in point t's block iff each coordinate is in the block's range on its axis. -/
theorem mem_blk0_5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v5).slice (win0_5.rect t)).set ↔ _
  rw [View.set_slice_whole, Rect.mem_set_unit]
  exact Iff.rfl

/-- Every index of the array is in some point's block: row r is in the block of point r / 400. -/
theorem cover0_5_all (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  obtain ⟨-, -, -, -, -, -, -, -, -, -, e0, e1⟩ := idx_facts0 t
  have tv : t.val = (i 0).val / 400 := rfl
  refine ⟨t, flush0_5 t, ?_⟩
  rw [mem_blk0_5]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- The array the region writes is relu(x W₁ + b₁) W₂ + b₂ of the arrays it reads. -/
theorem final0_5 (c : Dev nD) :
    (dat0 (F := Ideal) V c).arrAt 5 cfg0.N = Bern.mlpR (V c main_arg0) (V c main_arg2) (V c main_v3) (V c main_arg4) (V c main_v4) :=
  (dat0 (F := Ideal) V c).arrAt_eq_of_cover 5 (Bern.mlpR (V c main_arg0) (V c main_arg2) (V c main_v3) (V c main_arg4) (V c main_v4))
    (fun t _ => flushed0_5_eq V c t) cover0_5_all

end Cert.KernelIdeal.RegVal

end
-- ==== Proof.RegionFirst.lean ====
/-
  Region 1 of the kernel's program (the first propagation pass), read as mathematics.

  The region walks 25 grid positions; at position t it reads rows 400·t … 400·t + 399 of L, of the features u and of the
  accumulator acc, the whole copy ub of the features that the product takes and the whole coefficient row ct, and writes
  the same rows of three arrays:
    E = L − I                      (the identity's entry found by comparing the row number 400·t + p with the column number),
    u + E ub,
    acc + ct ⊙ (u + E ub).
  Here each written array is shown to be, after the last position, that function of the arrays the region found.
-/
import proofs.«148114_g1589137899740_cont_week2b_1182_5_alg».proof.Proof.FrameKernelIdeal
import proofs.«148114_g1589137899740_cont_week2b_1182_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)
open scoped BigOperators

namespace First

/-! ## The stored values at an index -/

/-- The word test "row 400·a + p is column k", converted to a number: 1 on the diagonal, 0 off it.
    Nothing wraps: 400·a + p < 10000 < 2³². -/
theorem diagWord (a p k : Nat) (ha : a < 25) (hp : p < 400) (hk : k < 10000) :
    FloatOps.sitofp (F := Ideal) .f32
      ((IntOp.cmpi .eq (IntOp.addi (Scalar.muli (BitVec.ofNat 32 a) 400#32) (BitVec.ofNat 32 p)) (BitVec.ofNat 32 k)).setWidth 32)
      = if 400 * a + p = k then (1 : EReal) else 0 := by
  have hx : IntOp.addi (Scalar.muli (BitVec.ofNat 32 a) 400#32) (BitVec.ofNat 32 p) = BitVec.ofNat 32 (400 * a + p) := by
    apply BitVec.eq_of_toNat_eq
    show ((BitVec.ofNat 32 a * 400#32) + BitVec.ofNat 32 p).toNat = _
    simp only [BitVec.toNat_add, BitVec.toNat_mul, BitVec.toNat_ofNat]
    omega
  rw [hx]
  by_cases h : 400 * a + p = k
  · rw [if_pos h, h]
    show (((((BitVec.ofBool (BitVec.ofNat 32 k == BitVec.ofNat 32 k)).setWidth 32).toInt : ℤ) : ℝ) : EReal) = 1
    simp
  · rw [if_neg h]
    have hne : (BitVec.ofNat 32 (400 * a + p) == BitVec.ofNat 32 k) = false := by
      rw [beq_eq_false_iff_ne]
      intro e
      have := congrArg BitVec.toNat e
      simp only [BitVec.toNat_ofNat] at this
      omega
    show (((((BitVec.ofBool (BitVec.ofNat 32 (400 * a + p) == BitVec.ofNat 32 k)).setWidth 32).toInt : ℤ) : ℝ) : EReal) = 0
    rw [hne]
    simp

/-- The first stored value at block row p, column k: the block's entry less the identity's entry at array row
    400·(i 0) + p, column k. The narrowing to bf16 is the identity on extended reals. -/
theorem pay1_apply (i : grid1.Coords) (hi : (i 0).val < 25) (v5 : Vec Ideal S400x10000 .f32) (p : Fin 400) (k : Fin 10000) :
    k1_pay1 (F := Ideal) i v5 (ix2 p k) = v5 (ix2 p k) - (if 400 * (i 0).val + p.val = k.val then (1 : EReal) else 0) := by
  unfold k1_pay1
  show v5 (ix2 p k) - FloatOps.sitofp (F := Ideal) .f32
      ((IntOp.cmpi .eq (IntOp.addi (Scalar.muli (BitVec.ofNat 32 (i 0).val) 400#32)
          (iota .tc S400x10000 32 [0] iota_S400x10000_d0_w32 (ix2 p k)))
        (iota .tc S400x10000 32 [1] iota_S400x10000_d1_w32 (ix2 p k))).setWidth 32) = _
  rw [iota_single_apply, iota_single_apply]
  exact congrArg (v5 (ix2 p k) - ·) (diagWord (i 0).val p.val k.val hi p.isLt k.isLt)

/-! ## The block product at an index

The product contracts the left operand's axis 1 with the right operand's axis 0; its output index (p, q) and
contraction position l name the left entry (p, l) and the right entry (l, q). One lemma per operand axis. -/

/-- The left operand's row is the output's row. -/
theorem lhs_dot_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl

/-- The left operand's column is the contraction position. -/
theorem lhs_dot_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q

/-- The right operand's row is the contraction position. -/
theorem rhs_dot_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q

/-- The right operand's column is the output's column. -/
theorem rhs_dot_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The block product into the zero accumulator, at (p, q): ∑ₗ A[p, l] · B[l, q]. -/
theorem blockProduct_apply (A : FVec Ideal S400x10000 .bf16) (B : FVec Ideal S10000x128 .bf16) (p : Fin 400) (q : Fin 128) :
    matmul dot_S400x10000_S10000x128_S400x128_1_0_0_1_n_n none A B (constant (F := Ideal) S400x128 .f32 0x00000000#32) (ix2 p q)
      = ∑ l : Fin 10000, A (ix2 p l) * B (ix2 l q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_dot_0 _ _
    | ⟨1, _⟩ => exact (lhs_dot_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_dot_0 _ _).trans hk
    | ⟨1, _⟩ => exact rhs_dot_1 _ _)
  rw [el, er]

/-- The second stored value at (p, q): the features' block entry plus the block product of the first stored value
    with the features' copy. -/
theorem pay2_apply (i : grid1.Coords) (hi : (i 0).val < 25) (v5 : Vec Ideal S400x10000 .f32) (v12 : Vec Ideal S400x128 .f32)
    (v14 : Vec Ideal S10000x128 .bf16) (p : Fin 400) (q : Fin 128) :
    k1_pay2 (F := Ideal) i v5 v12 v14 (ix2 p q)
      = v12 (ix2 p q) + ∑ l : Fin 10000, (v5 (ix2 p l) - (if 400 * (i 0).val + p.val = l.val then (1 : EReal) else 0)) * v14 (ix2 l q) := by
  unfold k1_pay2
  simp only [shapeCast_self]
  refine (addf_apply _ _ _).trans ?_
  refine congrArg (v12 (ix2 p q) + ·) ?_
  refine (blockProduct_apply _ _ p q).trans ?_
  exact Finset.sum_congr rfl fun l _ => congrArg (· * v14 (ix2 l q)) (pay1_apply i hi v5 p l)

/-- The third stored value at (p, q): the accumulator's block entry plus the coefficient row's entry q times the
    second stored value. -/
theorem pay3_apply (i : grid1.Coords) (hi : (i 0).val < 25) (v5 : Vec Ideal S400x10000 .f32) (v12 : Vec Ideal S400x128 .f32)
    (v14 : Vec Ideal S10000x128 .bf16) (v19 : Vec Ideal S400x128 .f32) (v21 : Vec Ideal S1x128 .f32) (p : Fin 400) (q : Fin 128) :
    k1_pay3 (F := Ideal) i v5 v12 v14 v19 v21 (ix2 p q)
      = v19 (ix2 p q) + v21 (ix2 0 q) * (v12 (ix2 p q) + ∑ l : Fin 10000, (v5 (ix2 p l) - (if 400 * (i 0).val + p.val = l.val then (1 : EReal) else 0)) * v14 (ix2 l q)) := by
  unfold k1_pay3
  simp only [shapeCast_self]
  refine (addf_apply _ _ _).trans ?_
  refine congrArg (v19 (ix2 p q) + ·) ?_
  refine (mulf_apply _ _ _).trans ?_
  rw [pay2_apply i hi v5 v12 v14 p q]
  refine congrArg (· * _) ?_
  refine broadcastTo_apply v21 broadcasts_S1x128_S400x128 (ix2 p q) (ix2 0 q) fun a => ?_
  match a with
  | ⟨0, _⟩ => rfl
  | ⟨1, _⟩ => rfl

/-! ## One entry of each written block, as the specification's entry

The block at grid position tv holds rows 400·tv … 400·tv + 399. Stated over a block x₀ of L, a block x₂ of the
features, a block x₃ of the accumulator, the features' copy x₁ and the coefficient row x₄, each given by what its
entries are in the whole arrays. -/

/-- Row p of the block at grid position tv is row 400·tv + p of the array; it is below 10000. -/
theorem row_lt (tv : Nat) (ht : tv < 25) (p : Fin 400) : 400 * tv + p.val < 10000 := by have := p.isLt; omega

/-- That row, as an index of the arrays' first axis. -/
abbrev rowAt (tv : Nat) (ht : tv < 25) (p : Fin 400) : Fin 10000 := ⟨400 * tv + p.val, row_lt tv ht p⟩

/-- Entry j of the first written block is entry r of E = L − I, when r is j moved down by 400·tv rows. -/
theorem point7 (L : Bern.Arr 10000 10000) (i : grid1.Coords) (tv : Nat) (ht : tv < 25) (hi : (i 0).val = tv)
    (x0 : Vec Ideal S400x10000 .f32) (j : S400x10000.Idx) (r : S10000x10000.Idx)
    (hx : x0 j = L r) (hr0 : (r 0).val = 400 * tv + (j 0).val) (hr1 : (r 1).val = (j 1).val) :
    k1_pay1 (F := Ideal) i x0 j = Bern.subId L r := by
  obtain ⟨p, k, rfl⟩ : ∃ (p : Fin 400) (k : Fin 10000), j = ix2 p k := ⟨j 0, j 1, eq_ix2 j⟩
  rw [pay1_apply i (by omega) x0 p k, hx]
  show L r - (if 400 * (i 0).val + p.val = k.val then (1 : EReal) else 0) = L r - (if (r 0).val = (r 1).val then 1 else 0)
  have h0 : (r 0).val = 400 * tv + p.val := hr0
  have h1 : (r 1).val = k.val := hr1
  rw [hi, h0, h1]

/-- An array index is its two coordinates. -/
theorem idx_of_coords {n0 n1 : Nat} (r : (⟨2, ![n0, n1]⟩ : Shape).Idx) (a : Fin n0) (b : Fin n1) (h0 : (r 0).val = a.val) (h1 : (r 1).val = b.val) :
    r = ix2 a b := by
  funext d; match d with | ⟨0, _⟩ => exact Fin.ext h0 | ⟨1, _⟩ => exact Fin.ext h1

/-- Entry j of the second written block is entry r of u + E ub. -/
theorem point5 (L : Bern.Arr 10000 10000) (ub u : Bern.Arr 10000 128) (i : grid1.Coords) (tv : Nat) (ht : tv < 25) (hi : (i 0).val = tv)
    (x0 : Vec Ideal S400x10000 .f32) (x2 : Vec Ideal S400x128 .f32) (x1 : Vec Ideal S10000x128 .bf16)
    (hx0 : ∀ (p : Fin 400) (l : Fin 10000), x0 (ix2 p l) = L (ix2 (rowAt tv ht p) l))
    (hx1 : ∀ (l : Fin 10000) (q : Fin 128), x1 (ix2 l q) = ub (ix2 l q))
    (hx2 : ∀ (p : Fin 400) (q : Fin 128), x2 (ix2 p q) = u (ix2 (rowAt tv ht p) q))
    (j : S400x128.Idx) (r : S10000x128.Idx) (hr0 : (r 0).val = 400 * tv + (j 0).val) (hr1 : (r 1).val = (j 1).val) :
    k1_pay2 (F := Ideal) i x0 x2 x1 j = Bern.prop2 (Bern.subId L) ub u r := by
  obtain ⟨p, q, rfl⟩ : ∃ (p : Fin 400) (q : Fin 128), j = ix2 p q := ⟨j 0, j 1, eq_ix2 j⟩
  obtain rfl : r = ix2 (rowAt tv ht p) q := idx_of_coords r _ _ hr0 hr1
  rw [pay2_apply i (by omega) x0 x2 x1 p q, hx2 p q]
  show _ = u _ + ∑ l : Fin 10000, (L (ix2 (rowAt tv ht p) l) - (if 400 * tv + p.val = l.val then (1 : EReal) else 0)) * ub (ix2 l q)
  refine congrArg (_ + ·) (Finset.sum_congr rfl fun l _ => ?_)
  rw [hx0 p l, hx1 l q, hi]

/-- Entry j of the third written block is entry r of acc + ct ⊙ (u + E ub). -/
theorem point6 (L : Bern.Arr 10000 10000) (ub u acc : Bern.Arr 10000 128) (ct : Bern.Arr 1 128) (i : grid1.Coords) (tv : Nat) (ht : tv < 25) (hi : (i 0).val = tv)
    (x0 : Vec Ideal S400x10000 .f32) (x2 : Vec Ideal S400x128 .f32) (x1 : Vec Ideal S10000x128 .bf16)
    (x3 : Vec Ideal S400x128 .f32) (x4 : Vec Ideal S1x128 .f32)
    (hx0 : ∀ (p : Fin 400) (l : Fin 10000), x0 (ix2 p l) = L (ix2 (rowAt tv ht p) l))
    (hx1 : ∀ (l : Fin 10000) (q : Fin 128), x1 (ix2 l q) = ub (ix2 l q))
    (hx2 : ∀ (p : Fin 400) (q : Fin 128), x2 (ix2 p q) = u (ix2 (rowAt tv ht p) q))
    (hx3 : ∀ (p : Fin 400) (q : Fin 128), x3 (ix2 p q) = acc (ix2 (rowAt tv ht p) q))
    (hx4 : ∀ (q : Fin 128), x4 (ix2 0 q) = ct (ix2 0 q))
    (j : S400x128.Idx) (r : S10000x128.Idx) (hr0 : (r 0).val = 400 * tv + (j 0).val) (hr1 : (r 1).val = (j 1).val) :
    k1_pay3 (F := Ideal) i x0 x2 x1 x3 x4 j = Bern.axpyRow acc ct (Bern.prop2 (Bern.subId L) ub u) r := by
  obtain ⟨p, q, rfl⟩ : ∃ (p : Fin 400) (q : Fin 128), j = ix2 p q := ⟨j 0, j 1, eq_ix2 j⟩
  obtain rfl : r = ix2 (rowAt tv ht p) q := idx_of_coords r _ _ hr0 hr1
  rw [pay3_apply i (by omega) x0 x2 x1 x3 x4 p q, hx3 p q, hx4 q, ← pay2_apply i (by omega) x0 x2 x1 p q,
    point5 L ub u i tv ht hi x0 x2 x1 hx0 hx1 hx2 (ix2 p q) (ix2 (rowAt tv ht p) q) rfl rfl]
  rfl

end First

variable (V : (c : Dev nD) → (b : Ref sig .tc) → Buf (Elt Ideal) ((c : Thread nD τ).loc b))

namespace First

/-! ## From blocks to arrays -/

/-- The zero offsets of a whole-block access, however spelt. -/
theorem hz : (![0, 0] : Fin 2 → Nat) = fun _ => 0 := funext fun a => by fin_cases a <;> rfl

/-- The grid has 25 positions. -/
theorem pos_lt (t : Fin cfg1.N) : t.val < 25 := Nat.lt_of_lt_of_eq t.isLt N_1

/-- The printed index maps, decided over the 25 positions: position t's coordinate is t; the blocks of L, of the
    features, of the accumulator and of the three written arrays are block (t, 0); the features' copy and the
    coefficient row are block (0, 0), whole, at every position. -/
theorem idx_facts : ∀ t : Fin cfg1.N,
    ((grid1.coords t) 0).val = t.val
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-! ### Each input block, read in its array -/

/-- The block of L at position t: entry x is L's entry 400·t rows further down. -/
theorem blockL (c : Dev nD) (t : Fin cfg1.N) (x : S400x10000.Idx) (k : S10000x10000.Idx)
    (hk0 : (k 0).val = 400 * t.val + (x 0).val) (hk1 : (k 1).val = (x 1).val) :
    (iblk1 (F := Ideal) V c 0 t : Vec Ideal S400x10000 .f32) x = (V c main_arg1 : S10000x10000.Idx → EReal) k := by
  obtain ⟨-, e0, e1, -⟩ := idx_facts t
  show (V c main_arg1 : S10000x10000.Idx → EReal) (((cfg1.win 0).blk t).view.emb x) = _
  refine congrArg (V c main_arg1 : S10000x10000.Idx → EReal) (funext fun a => Fin.ext ?_)
  match a with
  | ⟨0, _⟩ => show win1_0.index t (0 : Fin 2) * 400 + 1 * (x 0).val = (k 0).val; rw [e0, hk0]; omega
  | ⟨1, _⟩ => show win1_0.index t (1 : Fin 2) * 10000 + 1 * (x 1).val = (k 1).val; rw [e1, hk1]; omega

/-- The features' copy is read whole at every position. -/
theorem blockUb (c : Dev nD) (t : Fin cfg1.N) (x : S10000x128.Idx) :
    (iblk1 (F := Ideal) V c 1 t : Vec Ideal S10000x128 .bf16) x = (V c main_v10 : S10000x128.Idx → EReal) x := by
  obtain ⟨-, -, -, e0, e1, -⟩ := idx_facts t
  show (V c main_v10 : S10000x128.Idx → EReal) (((cfg1.win 1).blk t).view.emb x) = _
  refine congrArg (V c main_v10 : S10000x128.Idx → EReal) (funext fun a => Fin.ext ?_)
  match a with
  | ⟨0, _⟩ => show win1_1.index t (0 : Fin 2) * 10000 + 1 * (x 0).val = (x 0).val; rw [e0]; omega
  | ⟨1, _⟩ => show win1_1.index t (1 : Fin 2) * 128 + 1 * (x 1).val = (x 1).val; rw [e1]; omega

/-- The block of the features at position t. -/
theorem blockU (c : Dev nD) (t : Fin cfg1.N) (x : S400x128.Idx) (k : S10000x128.Idx)
    (hk0 : (k 0).val = 400 * t.val + (x 0).val) (hk1 : (k 1).val = (x 1).val) :
    (iblk1 (F := Ideal) V c 2 t : Vec Ideal S400x128 .f32) x = (V c main_v5 : S10000x128.Idx → EReal) k := by
  obtain ⟨-, -, -, -, -, e0, e1, -⟩ := idx_facts t
  show (V c main_v5 : S10000x128.Idx → EReal) (((cfg1.win 2).blk t).view.emb x) = _
  refine congrArg (V c main_v5 : S10000x128.Idx → EReal) (funext fun a => Fin.ext ?_)
  match a with
  | ⟨0, _⟩ => show win1_2.index t (0 : Fin 2) * 400 + 1 * (x 0).val = (k 0).val; rw [e0, hk0]; omega
  | ⟨1, _⟩ => show win1_2.index t (1 : Fin 2) * 128 + 1 * (x 1).val = (k 1).val; rw [e1, hk1]; omega

/-- The block of the accumulator at position t. -/
theorem blockAcc (c : Dev nD) (t : Fin cfg1.N) (x : S400x128.Idx) (k : S10000x128.Idx)
    (hk0 : (k 0).val = 400 * t.val + (x 0).val) (hk1 : (k 1).val = (x 1).val) :
    (iblk1 (F := Ideal) V c 3 t : Vec Ideal S400x128 .f32) x = (V c main_v9 : S10000x128.Idx → EReal) k := by
  obtain ⟨-, -, -, -, -, -, -, e0, e1, -⟩ := idx_facts t
  show (V c main_v9 : S10000x128.Idx → EReal) (((cfg1.win 3).blk t).view.emb x) = _
  refine congrArg (V c main_v9 : S10000x128.Idx → EReal) (funext fun a => Fin.ext ?_)
  match a with
  | ⟨0, _⟩ => show win1_3.index t (0 : Fin 2) * 400 + 1 * (x 0).val = (k 0).val; rw [e0, hk0]; omega
  | ⟨1, _⟩ => show win1_3.index t (1 : Fin 2) * 128 + 1 * (x 1).val = (k 1).val; rw [e1, hk1]; omega

/-- The coefficient row is read whole at every position. -/
theorem blockCt (c : Dev nD) (t : Fin cfg1.N) (x : S1x128.Idx) :
    (iblk1 (F := Ideal) V c 4 t : Vec Ideal S1x128 .f32) x = (V c main_v13 : S1x128.Idx → EReal) x := by
  obtain ⟨-, -, -, -, -, -, -, -, -, e0, e1, -⟩ := idx_facts t
  show (V c main_v13 : S1x128.Idx → EReal) (((cfg1.win 4).blk t).view.emb x) = _
  refine congrArg (V c main_v13 : S1x128.Idx → EReal) (funext fun a => Fin.ext ?_)
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-! ### What each position writes back is its block of the specification's array -/

/-- Position t writes rows 400·t … 400·t + 399 of E = L − I. -/
theorem flushed7 (c : Dev nD) (t : Fin cfg1.N) :
    (dat1 (F := Ideal) V c).flushed 7 t = ((cfg1.win 7).blk t).view.read (Elt Ideal) (Bern.subId (V c main_arg1)) := by
  show (cfg1.win 7).cut (grid1.coords t) ((dat1 (F := Ideal) V c).after 7 t) = _
  rw [after1_7]
  unfold out1_7
  rw [View.canon_unit_zero hz]
  simp only [View.ld_unit_zero (S := S400x10000) hz]
  obtain ⟨ec, -, -, -, -, -, -, -, -, -, -, -, -, -, -, e0, e1⟩ := idx_facts t
  have ht : t.val < 25 := pos_lt t
  funext j
  show k1_pay1 (F := Ideal) (grid1.coords t) (iblk1 (F := Ideal) V c 0 t) j
      = Bern.subId (V c main_arg1) (((cfg1.win 7).blk t).view.emb j)
  have h0 : ((((cfg1.win 7).blk t).view.emb j) 0).val = 400 * t.val + (j 0).val := by
    show win1_7.index t (0 : Fin 2) * 400 + 1 * (j 0).val = _; rw [e0]; omega
  have h1 : ((((cfg1.win 7).blk t).view.emb j) 1).val = (j 1).val := by
    show win1_7.index t (1 : Fin 2) * 10000 + 1 * (j 1).val = _; rw [e1]; omega
  exact point7 (V c main_arg1) (grid1.coords t) t.val ht ec (iblk1 (F := Ideal) V c 0 t) j (((cfg1.win 7).blk t).view.emb j)
    (blockL V c t j _ h0 h1) h0 h1

/-- Position t writes rows 400·t … 400·t + 399 of u + E ub. -/
theorem flushed5 (c : Dev nD) (t : Fin cfg1.N) :
    (dat1 (F := Ideal) V c).flushed 5 t
      = ((cfg1.win 5).blk t).view.read (Elt Ideal) (Bern.prop2 (Bern.subId (V c main_arg1)) (V c main_v10) (V c main_v5)) := by
  show (cfg1.win 5).cut (grid1.coords t) ((dat1 (F := Ideal) V c).after 5 t) = _
  rw [after1_5]
  unfold out1_5
  rw [View.canon_unit_zero hz]
  simp only [View.ld_unit_zero (S := S400x10000) hz, View.ld_unit_zero (S := S400x128) hz, View.ld_unit_zero (S := S10000x128) hz]
  obtain ⟨ec, -, -, -, -, -, -, -, -, -, -, e0, e1, -⟩ := idx_facts t
  have ht : t.val < 25 := pos_lt t
  funext j
  show k1_pay2 (F := Ideal) (grid1.coords t) (iblk1 (F := Ideal) V c 0 t) (iblk1 (F := Ideal) V c 2 t) (iblk1 (F := Ideal) V c 1 t) j
      = Bern.prop2 (Bern.subId (V c main_arg1)) (V c main_v10) (V c main_v5) (((cfg1.win 5).blk t).view.emb j)
  exact point5 (V c main_arg1) (V c main_v10) (V c main_v5) (grid1.coords t) t.val ht ec
    (iblk1 (F := Ideal) V c 0 t) (iblk1 (F := Ideal) V c 2 t) (iblk1 (F := Ideal) V c 1 t)
    (fun p l => blockL V c t (ix2 p l) (ix2 (rowAt t.val ht p) l) rfl rfl)
    (fun l q => blockUb V c t (ix2 l q))
    (fun p q => blockU V c t (ix2 p q) (ix2 (rowAt t.val ht p) q) rfl rfl)
    j (((cfg1.win 5).blk t).view.emb j)
    (by show win1_5.index t (0 : Fin 2) * 400 + 1 * (j 0).val = _; rw [e0]; omega)
    (by show win1_5.index t (1 : Fin 2) * 128 + 1 * (j 1).val = _; rw [e1]; omega)

/-- Position t writes rows 400·t … 400·t + 399 of acc + ct ⊙ (u + E ub). -/
theorem flushed6 (c : Dev nD) (t : Fin cfg1.N) :
    (dat1 (F := Ideal) V c).flushed 6 t
      = ((cfg1.win 6).blk t).view.read (Elt Ideal)
          (Bern.axpyRow (V c main_v9) (V c main_v13) (Bern.prop2 (Bern.subId (V c main_arg1)) (V c main_v10) (V c main_v5))) := by
  show (cfg1.win 6).cut (grid1.coords t) ((dat1 (F := Ideal) V c).after 6 t) = _
  rw [after1_6]
  unfold out1_6
  rw [View.canon_unit_zero hz]
  simp only [View.ld_unit_zero (S := S400x10000) hz, View.ld_unit_zero (S := S400x128) hz, View.ld_unit_zero (S := S10000x128) hz,
    View.ld_unit_zero (S := S1x128) hz]
  obtain ⟨ec, -, -, -, -, -, -, -, -, -, -, -, -, e0, e1, -⟩ := idx_facts t
  have ht : t.val < 25 := pos_lt t
  funext j
  show k1_pay3 (F := Ideal) (grid1.coords t) (iblk1 (F := Ideal) V c 0 t) (iblk1 (F := Ideal) V c 2 t) (iblk1 (F := Ideal) V c 1 t)
        (iblk1 (F := Ideal) V c 3 t) (iblk1 (F := Ideal) V c 4 t) j
      = Bern.axpyRow (V c main_v9) (V c main_v13) (Bern.prop2 (Bern.subId (V c main_arg1)) (V c main_v10) (V c main_v5))
          (((cfg1.win 6).blk t).view.emb j)
  exact point6 (V c main_arg1) (V c main_v10) (V c main_v5) (V c main_v9) (V c main_v13) (grid1.coords t) t.val ht ec
    (iblk1 (F := Ideal) V c 0 t) (iblk1 (F := Ideal) V c 2 t) (iblk1 (F := Ideal) V c 1 t)
    (iblk1 (F := Ideal) V c 3 t) (iblk1 (F := Ideal) V c 4 t)
    (fun p l => blockL V c t (ix2 p l) (ix2 (rowAt t.val ht p) l) rfl rfl)
    (fun l q => blockUb V c t (ix2 l q))
    (fun p q => blockU V c t (ix2 p q) (ix2 (rowAt t.val ht p) q) rfl rfl)
    (fun p q => blockAcc V c t (ix2 p q) (ix2 (rowAt t.val ht p) q) rfl rfl)
    (fun q => blockCt V c t (ix2 0 q))
    j (((cfg1.win 6).blk t).view.emb j)
    (by show win1_6.index t (0 : Fin 2) * 400 + 1 * (j 0).val = _; rw [e0]; omega)
    (by show win1_6.index t (1 : Fin 2) * 128 + 1 * (j 1).val = _; rw [e1]; omega)

/-! ### The blocks tile each written array: row r lies in position r / 400's block -/

/-- An index of E's array lies in position t's block iff, on each axis, it lies in the block's range. -/
theorem mem_blk7 (t : Fin cfg1.N) (i : S10000x10000.Idx) :
    i ∈ ((cfg1.win 7).blk t).view.set ↔ ∀ a : Fin 2, win1_7.index t a * S400x10000.size a ≤ (i a).val ∧ (i a).val < win1_7.index t a * S400x10000.size a + S400x10000.size a := by
  show i ∈ ((View.whole main_v14_2).slice (win1_7.rect t)).set ↔ _
  rw [View.set_slice_whole, Rect.mem_set_unit]
  exact Iff.rfl

/-- The same for the array of u + E ub. -/
theorem mem_blk5 (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v14_0).slice (win1_5.rect t)).set ↔ _
  rw [View.set_slice_whole, Rect.mem_set_unit]
  exact Iff.rfl

/-- The same for the array of acc + ct ⊙ (u + E ub). -/
theorem mem_blk6 (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v14_1).slice (win1_6.rect t)).set ↔ _
  rw [View.set_slice_whole, Rect.mem_set_unit]
  exact Iff.rfl

/-- The position whose block holds row r. -/
theorem pos_of_row (r : Nat) (hr : r < 10000) : ∃ t : Fin cfg1.N, t.val = r / 400 :=
  ⟨⟨r / 400, Nat.lt_of_lt_of_eq (by omega : r / 400 < 25) N_1.symm⟩, rfl⟩

/-- Every index of E's array lies in some position's block. -/
theorem cover7 (i : S10000x10000.Idx) : ∃ t : Fin cfg1.N, (cfg1.win 7).flush t = true ∧ i ∈ ((cfg1.win 7).blk t).view.set := by
  have hi0 : (i 0).val < 10000 := (i 0).isLt
  have hi1 : (i 1).val < 10000 := (i 1).isLt
  obtain ⟨t, ht⟩ := pos_of_row (i 0).val hi0
  obtain ⟨-, -, -, -, -, -, -, -, -, -, -, -, -, -, -, e0, e1⟩ := idx_facts t
  refine ⟨t, flush1_7 t, ?_⟩
  rw [mem_blk7]
  intro a
  match a with
  | ⟨0, _⟩ => show win1_7.index t (0 : Fin 2) * 400 ≤ (i 0).val ∧ (i 0).val < win1_7.index t (0 : Fin 2) * 400 + 400; rw [e0, ht]; omega
  | ⟨1, _⟩ => show win1_7.index t (1 : Fin 2) * 10000 ≤ (i 1).val ∧ (i 1).val < win1_7.index t (1 : Fin 2) * 10000 + 10000; rw [e1]; omega

/-- Every index of the array of u + E ub lies in some position's block. -/
theorem cover5 (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  obtain ⟨t, ht⟩ := pos_of_row (i 0).val hi0
  obtain ⟨-, -, -, -, -, -, -, -, -, -, -, e0, e1, -⟩ := idx_facts t
  refine ⟨t, flush1_5 t, ?_⟩
  rw [mem_blk5]
  intro a
  match a with
  | ⟨0, _⟩ => show win1_5.index t (0 : Fin 2) * 400 ≤ (i 0).val ∧ (i 0).val < win1_5.index t (0 : Fin 2) * 400 + 400; rw [e0, ht]; omega
  | ⟨1, _⟩ => show win1_5.index t (1 : Fin 2) * 128 ≤ (i 1).val ∧ (i 1).val < win1_5.index t (1 : Fin 2) * 128 + 128; rw [e1]; omega

/-- Every index of the array of acc + ct ⊙ (u + E ub) lies in some position's block. -/
theorem cover6 (i : S10000x128.Idx) : ∃ t : Fin cfg1.N, (cfg1.win 6).flush t = true ∧ i ∈ ((cfg1.win 6).blk t).view.set := by
  have hi0 : (i 0).val < 10000 := (i 0).isLt
  have hi1 : (i 1).val < 128 := (i 1).isLt
  obtain ⟨t, ht⟩ := pos_of_row (i 0).val hi0
  obtain ⟨-, -, -, -, -, -, -, -, -, -, -, -, -, e0, e1, -⟩ := idx_facts t
  refine ⟨t, flush1_6 t, ?_⟩
  rw [mem_blk6]
  intro a
  match a with
  | ⟨0, _⟩ => show win1_6.index t (0 : Fin 2) * 400 ≤ (i 0).val ∧ (i 0).val < win1_6.index t (0 : Fin 2) * 400 + 400; rw [e0, ht]; omega
  | ⟨1, _⟩ => show win1_6.index t (1 : Fin 2) * 128 ≤ (i 1).val ∧ (i 1).val < win1_6.index t (1 : Fin 2) * 128 + 128; rw [e1]; omega

end First

/-! ## The three arrays after the last position -/

/-- The first written array is E = L − I. -/
theorem final1_7 (c : Dev nD) : (dat1 (F := Ideal) V c).arrAt 7 cfg1.N = Bern.subId (V c main_arg1) :=
  (dat1 (F := Ideal) V c).arrAt_eq_of_cover 7 (Bern.subId (V c main_arg1)) (fun t _ => First.flushed7 V c t) First.cover7

/-- The second is u + E ub. -/
theorem final1_5 (c : Dev nD) :
    (dat1 (F := Ideal) V c).arrAt 5 cfg1.N = Bern.prop2 (Bern.subId (V c main_arg1)) (V c main_v10) (V c main_v5) :=
  (dat1 (F := Ideal) V c).arrAt_eq_of_cover 5 (Bern.prop2 (Bern.subId (V c main_arg1)) (V c main_v10) (V c main_v5))
    (fun t _ => First.flushed5 V c t) First.cover5

/-- The third is acc + ct ⊙ (u + E ub). -/
theorem final1_6 (c : Dev nD) :
    (dat1 (F := Ideal) V c).arrAt 6 cfg1.N
      = Bern.axpyRow (V c main_v9) (V c main_v13) (Bern.prop2 (Bern.subId (V c main_arg1)) (V c main_v10) (V c main_v5)) :=
  (dat1 (F := Ideal) V c).arrAt_eq_of_cover 6
    (Bern.axpyRow (V c main_v9) (V c main_v13) (Bern.prop2 (Bern.subId (V c main_arg1)) (V c main_v10) (V c main_v5)))
    (fun t _ => First.flushed6 V c t) First.cover6

end Cert.KernelIdeal.RegVal

end
-- ==== Proof.RegionProp.lean ====
/-
  Region 2 of the filter: one propagation pass and one accumulation.

  The region's grid has 25 points. At point t the body reads rows 400 t … 400 t + 399 (every column) of the matrix E, of
  the features u and of the accumulator acc, and the whole of the features' second copy ub and of the coefficient row
  ct, and writes rows 400 t … 400 t + 399 of two arrays. With r = 400 t + p,
      first array   [r, q] = u[r, q] + ∑ l, E[r, l] · ub[l, q]                         (u + E ub),
      second array  [r, q] = acc[r, q] + ct[0, q] · (u + E ub)[r, q].
  The 25 row blocks tile the 10000 rows, so after the region the first array is `Bern.prop2 E ub u` and the second is
  `Bern.axpyRow acc ct (Bern.prop2 E ub u)` of the arrays as the region found them.
-/
import proofs.«148114_g1589137899740_cont_week2b_1182_5_alg».proof.Proof.FrameKernelIdeal
import proofs.«148114_g1589137899740_cont_week2b_1182_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

/-! ## The body's arithmetic at an entry -/

/-- The product's left operand at output entry j and contraction position k: row j₀ … -/
theorem r2_lhs_0 (j : S400x128.Idx) (k : dot_S400x10000_S10000x128_S400x128_1_0_0_1_n_n.contr.Idx) :
    ((dot_S400x10000_S10000x128_S400x128_1_0_0_1_n_n.lhsIdx j k 0 : Fin _) : ℕ) = (j 0 : ℕ) := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

/-- … column k; -/
theorem r2_lhs_1 (j : S400x128.Idx) (k : dot_S400x10000_S10000x128_S400x128_1_0_0_1_n_n.contr.Idx) :
    ((dot_S400x10000_S10000x128_S400x128_1_0_0_1_n_n.lhsIdx j k 1 : Fin _) : ℕ) = (k ⟨0, by decide⟩ : ℕ) :=
  dot_S400x10000_S10000x128_S400x128_1_0_0_1_n_n.lhsIdx_val_of_single (cl := 1) rfl j k

/-- the right operand's: row k … -/
theorem r2_rhs_0 (j : S400x128.Idx) (k : dot_S400x10000_S10000x128_S400x128_1_0_0_1_n_n.contr.Idx) :
    ((dot_S400x10000_S10000x128_S400x128_1_0_0_1_n_n.rhsIdx j k 0 : Fin _) : ℕ) = (k ⟨0, by decide⟩ : ℕ) :=
  dot_S400x10000_S10000x128_S400x128_1_0_0_1_n_n.rhsIdx_val_of_single (cr := 0) rfl j k

/-- … column j₁. -/
theorem r2_rhs_1 (j : S400x128.Idx) (k : dot_S400x10000_S10000x128_S400x128_1_0_0_1_n_n.contr.Idx) :
    ((dot_S400x10000_S10000x128_S400x128_1_0_0_1_n_n.rhsIdx j k 1 : Fin _) : ℕ) = (j 1 : ℕ) := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product of a [400, 10000] block and a [10000, 128] array, accumulated from zero, at (p, q):
    ∑ l, a[p, l] · b[l, q]. -/
theorem r2_matmul_apply (a : FVec Ideal S400x10000 .bf16) (b : FVec Ideal S10000x128 .bf16) (p : Fin 400) (q : Fin 128) :
    matmul dot_S400x10000_S10000x128_S400x128_1_0_0_1_n_n none a b (constant S400x128 .f32 0x00000000#32) (ix2 p q)
      = ∑ l : Fin 10000, a (ix2 p l) * b (ix2 l q) := by
  refine (Ideal.matmul_constant_zero_apply dot_S400x10000_S10000x128_S400x128_1_0_0_1_n_n none a b (ix2 p q)).trans ?_
  rw [← Equiv.sum_comp (contrEquiv1 dot_S400x10000_S10000x128_S400x128_1_0_0_1_n_n 10000 rfl rfl).symm]
  refine Finset.sum_congr rfl fun l _ => ?_
  have hk := contrEquiv1_symm_val dot_S400x10000_S10000x128_S400x128_1_0_0_1_n_n 10000 rfl rfl l
  congr 1
  · refine congrArg a (funext fun d => Fin.ext ?_)
    match d with
    | ⟨0, _⟩ => exact r2_lhs_0 _ _
    | ⟨1, _⟩ => exact (r2_lhs_1 _ _).trans hk
  · refine congrArg b (funext fun d => Fin.ext ?_)
    match d with
    | ⟨0, _⟩ => exact (r2_rhs_0 _ _).trans hk
    | ⟨1, _⟩ => exact r2_rhs_1 _ _

/-- A [1, 128] row broadcast to [400, 128] reads, at (p, q), the row's entry of column q. -/
theorem r2_bcast_apply (v : FVec Ideal S1x128 .f32) (p : Fin 400) (q : Fin 128) :
    broadcastTo S400x128 v broadcasts_S1x128_S400x128 (ix2 p q) = v (ix2 0 q) := by
  refine broadcastTo_apply v broadcasts_S1x128_S400x128 (ix2 p q) (ix2 0 q) fun a => ?_
  match a with
  | ⟨0, _⟩ => rfl
  | ⟨1, _⟩ => rfl

/-- The propagated block at (p, q): the features' entry plus row p of the matrix block times column q of the
    features' second copy. -/
theorem r2_pay1_apply (vu : Vec Ideal S400x128 .f32) (vE : Vec Ideal S400x10000 .bf16) (vb : Vec Ideal S10000x128 .bf16)
    (p : Fin 400) (q : Fin 128) :
    k2_pay1 vu vE vb (ix2 p q) = vu (ix2 p q) + ∑ l : Fin 10000, vE (ix2 p l) * vb (ix2 l q) := by
  unfold k2_pay1
  simp only [shapeCast_self]
  refine (addf_apply _ _ (ix2 p q)).trans ?_
  rw [r2_matmul_apply]

/-- The accumulated block at (p, q): the accumulator's entry plus the coefficient row's entry of column q times the
    propagated entry. -/
theorem r2_pay2_apply (vu : Vec Ideal S400x128 .f32) (vE : Vec Ideal S400x10000 .bf16) (vb : Vec Ideal S10000x128 .bf16)
    (va : Vec Ideal S400x128 .f32) (vc : Vec Ideal S1x128 .f32) (p : Fin 400) (q : Fin 128) :
    k2_pay2 vu vE vb va vc (ix2 p q) = va (ix2 p q) + vc (ix2 0 q) * k2_pay1 vu vE vb (ix2 p q) := by
  unfold k2_pay2
  simp only [shapeCast_self]
  refine (addf_apply _ _ (ix2 p q)).trans ?_
  refine congrArg (va (ix2 p q) + ·) ?_
  refine (mulf_apply _ _ (ix2 p q)).trans ?_
  rw [r2_bcast_apply]

/-- The propagated block, from blocks that are rows r p of E, of u, and the whole of ub, is those rows of u + E ub. -/
theorem r2_point_prop (E : Bern.Arr 10000 10000) (ub u : Bern.Arr 10000 128)
    (xE : Vec Ideal S400x10000 .bf16) (xb : Vec Ideal S10000x128 .bf16) (xu : Vec Ideal S400x128 .f32) (r : Fin 400 → Fin 10000)
    (hE : ∀ p l, xE (ix2 p l) = E (ix2 (r p) l)) (hb : ∀ l q, xb (ix2 l q) = ub (ix2 l q))
    (hu : ∀ p q, xu (ix2 p q) = u (ix2 (r p) q)) (p : Fin 400) (q : Fin 128) :
    k2_pay1 xu xE xb (ix2 p q) = Bern.prop2 E ub u (ix2 (r p) q) := by
  rw [r2_pay1_apply, hu]
  show _ = u (ix2 (r p) q) + Bern.mm E ub (ix2 (r p) q)
  rw [Bern.mm_apply]
  refine congrArg (u (ix2 (r p) q) + ·) (Finset.sum_congr rfl fun l _ => ?_)
  rw [hE, hb]

/-- The accumulated block, from those and rows r p of acc and the whole row ct, is those rows of
    acc + ct ⊙ (u + E ub). -/
theorem r2_point_acc (E : Bern.Arr 10000 10000) (ub u acc : Bern.Arr 10000 128) (ct : Bern.Arr 1 128)
    (xE : Vec Ideal S400x10000 .bf16) (xb : Vec Ideal S10000x128 .bf16) (xu xa : Vec Ideal S400x128 .f32) (xc : Vec Ideal S1x128 .f32)
    (r : Fin 400 → Fin 10000)
    (hE : ∀ p l, xE (ix2 p l) = E (ix2 (r p) l)) (hb : ∀ l q, xb (ix2 l q) = ub (ix2 l q))
    (hu : ∀ p q, xu (ix2 p q) = u (ix2 (r p) q)) (ha : ∀ p q, xa (ix2 p q) = acc (ix2 (r p) q))
    (hc : ∀ q, xc (ix2 0 q) = ct (ix2 0 q)) (p : Fin 400) (q : Fin 128) :
    k2_pay2 xu xE xb xa xc (ix2 p q) = Bern.axpyRow acc ct (Bern.prop2 E ub u) (ix2 (r p) q) := by
  rw [r2_pay2_apply, ha, hc, r2_point_prop E ub u xE xb xu r hE hb hu]
  rfl

/-! ## The grid: 25 points; point t's blocks are rows 400 t … 400 t + 399 -/

theorem r2_hz : (![0, 0] : Fin 2 → Nat) = fun _ => 0 := funext fun a => by fin_cases a <;> rfl

/-- The block indices of the seven windows at every point: (t, 0) for the matrix, the features, the accumulator and the two
    outputs; (0, 0) for the features' second copy and the coefficient row. -/
theorem r2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

theorem r2_lt (t : Fin cfg2.N) : t.val < 25 := Nat.lt_of_lt_of_eq t.isLt (show cfg2.N = 25 from N_2)

/-- Row 400 t + p: the array's row under row p of the block at point t. -/
noncomputable def r2_row (t : Fin cfg2.N) (p : Fin 400) : Fin 10000 :=
  ⟨400 * t.val + p.val, by have := r2_lt t; have := p.isLt; omega⟩

/-- The matrix's block at point t is rows 400 t … of the matrix, every column. -/
theorem r2_read0 (A : Bern.Arr 10000 10000) (t : Fin cfg2.N) (p : Fin 400) (l : Fin 10000) :
    (((cfg2.win 0).blk t).view.read (Elt Ideal) A : Vec Ideal S400x10000 .bf16) (ix2 p l) = A (ix2 (r2_row t p) l) := by
  obtain ⟨e0, e1, -⟩ := r2_idx_facts t
  rw [View.read_apply]
  show A _ = A _
  refine congrArg A (funext fun a => Fin.ext ?_)
  match a with
  | ⟨0, _⟩ => show win2_0.index t (0 : Fin 2) * 400 + 1 * p.val = 400 * t.val + p.val; rw [e0]; omega
  | ⟨1, _⟩ => show win2_0.index t (1 : Fin 2) * 10000 + 1 * l.val = l.val; rw [e1]; omega

/-- The features' second copy is staged whole at every point. -/
theorem r2_read1 (A : Bern.Arr 10000 128) (t : Fin cfg2.N) (l : Fin 10000) (q : Fin 128) :
    (((cfg2.win 1).blk t).view.read (Elt Ideal) A : Vec Ideal S10000x128 .bf16) (ix2 l q) = A (ix2 l q) := by
  obtain ⟨-, -, e0, e1, -⟩ := r2_idx_facts t
  rw [View.read_apply]
  show A _ = A _
  refine congrArg A (funext fun a => Fin.ext ?_)
  match a with
  | ⟨0, _⟩ => show win2_1.index t (0 : Fin 2) * 10000 + 1 * l.val = l.val; rw [e0]; omega
  | ⟨1, _⟩ => show win2_1.index t (1 : Fin 2) * 128 + 1 * q.val = q.val; rw [e1]; omega

/-- The features' block at point t is rows 400 t … of the features. -/
theorem r2_read2 (A : Bern.Arr 10000 128) (t : Fin cfg2.N) (p : Fin 400) (q : Fin 128) :
    (((cfg2.win 2).blk t).view.read (Elt Ideal) A : Vec Ideal S400x128 .f32) (ix2 p q) = A (ix2 (r2_row t p) q) := by
  obtain ⟨-, -, -, -, e0, e1, -⟩ := r2_idx_facts t
  rw [View.read_apply]
  show A _ = A _
  refine congrArg A (funext fun a => Fin.ext ?_)
  match a with
  | ⟨0, _⟩ => show win2_2.index t (0 : Fin 2) * 400 + 1 * p.val = 400 * t.val + p.val; rw [e0]; omega
  | ⟨1, _⟩ => show win2_2.index t (1 : Fin 2) * 128 + 1 * q.val = q.val; rw [e1]; omega

/-- The accumulator's block at point t is rows 400 t … of the accumulator. -/
theorem r2_read3 (A : Bern.Arr 10000 128) (t : Fin cfg2.N) (p : Fin 400) (q : Fin 128) :
    (((cfg2.win 3).blk t).view.read (Elt Ideal) A : Vec Ideal S400x128 .f32) (ix2 p q) = A (ix2 (r2_row t p) q) := by
  obtain ⟨-, -, -, -, -, -, e0, e1, -⟩ := r2_idx_facts t
  rw [View.read_apply]
  show A _ = A _
  refine congrArg A (funext fun a => Fin.ext ?_)
  match a with
  | ⟨0, _⟩ => show win2_3.index t (0 : Fin 2) * 400 + 1 * p.val = 400 * t.val + p.val; rw [e0]; omega
  | ⟨1, _⟩ => show win2_3.index t (1 : Fin 2) * 128 + 1 * q.val = q.val; rw [e1]; omega

/-- The coefficient row is staged whole at every point. -/
theorem r2_read4 (A : Bern.Arr 1 128) (t : Fin cfg2.N) (q : Fin 128) :
    (((cfg2.win 4).blk t).view.read (Elt Ideal) A : Vec Ideal S1x128 .f32) (ix2 0 q) = A (ix2 0 q) := by
  obtain ⟨-, -, -, -, -, -, -, -, e0, e1, -⟩ := r2_idx_facts t
  rw [View.read_apply]
  show A _ = A _
  refine congrArg A (funext fun a => Fin.ext ?_)
  match a with
  | ⟨0, _⟩ => show win2_4.index t (0 : Fin 2) * 1 + 1 * 0 = 0; rw [e0]
  | ⟨1, _⟩ => show win2_4.index t (1 : Fin 2) * 128 + 1 * q.val = q.val; rw [e1]; omega

/-- The first output's block at point t is rows 400 t … of its array. -/
theorem r2_read5 (A : Bern.Arr 10000 128) (t : Fin cfg2.N) (p : Fin 400) (q : Fin 128) :
    (((cfg2.win 5).blk t).view.read (Elt Ideal) A : Vec Ideal S400x128 .f32) (ix2 p q) = A (ix2 (r2_row t p) q) := by
  obtain ⟨-, -, -, -, -, -, -, -, -, -, e0, e1, -⟩ := r2_idx_facts t
  rw [View.read_apply]
  show A _ = A _
  refine congrArg A (funext fun a => Fin.ext ?_)
  match a with
  | ⟨0, _⟩ => show win2_5.index t (0 : Fin 2) * 400 + 1 * p.val = 400 * t.val + p.val; rw [e0]; omega
  | ⟨1, _⟩ => show win2_5.index t (1 : Fin 2) * 128 + 1 * q.val = q.val; rw [e1]; omega

/-- The second output's block at point t is rows 400 t … of its array. -/
theorem r2_read6 (A : Bern.Arr 10000 128) (t : Fin cfg2.N) (p : Fin 400) (q : Fin 128) :
    (((cfg2.win 6).blk t).view.read (Elt Ideal) A : Vec Ideal S400x128 .f32) (ix2 p q) = A (ix2 (r2_row t p) q) := by
  obtain ⟨-, -, -, -, -, -, -, -, -, -, -, -, e0, e1⟩ := r2_idx_facts t
  rw [View.read_apply]
  show A _ = A _
  refine congrArg A (funext fun a => Fin.ext ?_)
  match a with
  | ⟨0, _⟩ => show win2_6.index t (0 : Fin 2) * 400 + 1 * p.val = 400 * t.val + p.val; rw [e0]; omega
  | ⟨1, _⟩ => show win2_6.index t (1 : Fin 2) * 128 + 1 * q.val = q.val; rw [e1]; omega

/-! ## The arrays the region reads, as it finds them -/

/-- The matrix E (window 0's array). -/
noncomputable abbrev r2_E (c : Dev nD) : Bern.Arr 10000 10000 := V c (Pipeline.arrRef spec2 0)
/-- The features' second copy, the product's operand (window 1's array). -/
noncomputable abbrev r2_ub (c : Dev nD) : Bern.Arr 10000 128 := V c (Pipeline.arrRef spec2 1)
/-- The features (window 2's array). -/
noncomputable abbrev r2_u (c : Dev nD) : Bern.Arr 10000 128 := V c (Pipeline.arrRef spec2 2)
/-- The accumulator (window 3's array). -/
noncomputable abbrev r2_acc (c : Dev nD) : Bern.Arr 10000 128 := V c (Pipeline.arrRef spec2 3)
/-- The coefficient row (window 4's array). -/
noncomputable abbrev r2_ct (c : Dev nD) : Bern.Arr 1 128 := V c (Pipeline.arrRef spec2 4)

/-! ## What each point writes back -/

/-- Point t writes rows 400 t … 400 t + 399 of u + E ub to the first output. -/
theorem r2_flushed5_eq (c : Dev nD) (t : Fin cfg2.N) :
    (dat2 (F := Ideal) V c).flushed 5 t
      = ((cfg2.win 5).blk t).view.read (Elt Ideal) (Bern.prop2 (r2_E V c) (r2_ub V c) (r2_u V c)) := by
  show (cfg2.win 5).cut (grid2.coords t) ((dat2 (F := Ideal) V c).after 5 t) = _
  rw [after2_5]
  unfold out2_5
  rw [View.canon_unit_zero r2_hz]
  simp only [View.ld_unit_zero (S := S400x128) r2_hz, View.ld_unit_zero (S := S400x10000) r2_hz,
    View.ld_unit_zero (S := S10000x128) r2_hz]
  funext j
  obtain ⟨p, q, rfl⟩ : ∃ (p : Fin 400) (q : Fin 128), j = ix2 p q := ⟨j 0, j 1, eq_ix2 j⟩
  refine Eq.trans ?_ (r2_read5 (Bern.prop2 (r2_E V c) (r2_ub V c) (r2_u V c)) t p q).symm
  exact r2_point_prop (r2_E V c) (r2_ub V c) (r2_u V c) (iblk2 V c 0 t) (iblk2 V c 1 t) (iblk2 V c 2 t) (r2_row t)
    (r2_read0 (r2_E V c) t) (r2_read1 (r2_ub V c) t) (r2_read2 (r2_u V c) t) p q

/-- Point t writes rows 400 t … 400 t + 399 of acc + ct ⊙ (u + E ub) to the second output. -/
theorem r2_flushed6_eq (c : Dev nD) (t : Fin cfg2.N) :
    (dat2 (F := Ideal) V c).flushed 6 t
      = ((cfg2.win 6).blk t).view.read (Elt Ideal)
          (Bern.axpyRow (r2_acc V c) (r2_ct V c) (Bern.prop2 (r2_E V c) (r2_ub V c) (r2_u V c))) := by
  show (cfg2.win 6).cut (grid2.coords t) ((dat2 (F := Ideal) V c).after 6 t) = _
  rw [after2_6]
  unfold out2_6
  rw [View.canon_unit_zero r2_hz]
  simp only [View.ld_unit_zero (S := S400x128) r2_hz, View.ld_unit_zero (S := S400x10000) r2_hz,
    View.ld_unit_zero (S := S10000x128) r2_hz, View.ld_unit_zero (S := S1x128) r2_hz]
  funext j
  obtain ⟨p, q, rfl⟩ : ∃ (p : Fin 400) (q : Fin 128), j = ix2 p q := ⟨j 0, j 1, eq_ix2 j⟩
  refine Eq.trans ?_ (r2_read6 (Bern.axpyRow (r2_acc V c) (r2_ct V c) (Bern.prop2 (r2_E V c) (r2_ub V c) (r2_u V c))) t p q).symm
  exact r2_point_acc (r2_E V c) (r2_ub V c) (r2_u V c) (r2_acc V c) (r2_ct V c)
    (iblk2 V c 0 t) (iblk2 V c 1 t) (iblk2 V c 2 t) (iblk2 V c 3 t) (iblk2 V c 4 t) (r2_row t)
    (r2_read0 (r2_E V c) t) (r2_read1 (r2_ub V c) t) (r2_read2 (r2_u V c) t) (r2_read3 (r2_acc V c) t)
    (r2_read4 (r2_ct V c) t) p q

/-! ## The row blocks tile the rows -/

/-- An entry of the first output's array is in point t's block iff, on each axis, its coordinate lies in the block's
    range: from block index × block size, one block size long. -/
theorem r2_mem_blk5 (t : Fin cfg2.N) (i : S10000x128.Idx) :
    i ∈ ((cfg2.win 5).blk t).view.set ↔ ∀ a : Fin 2, win2_5.index t a * S400x128.size a ≤ (i a).val
      ∧ (i a).val < win2_5.index t a * S400x128.size a + S400x128.size a := by
  show i ∈ ((View.whole (Pipeline.arrRef spec2 5)).slice (win2_5.rect t)).set ↔ _
  rw [View.set_slice_whole, Rect.mem_set_unit]
  exact Iff.rfl

/-- The same for the second output's. -/
theorem r2_mem_blk6 (t : Fin cfg2.N) (i : S10000x128.Idx) :
    i ∈ ((cfg2.win 6).blk t).view.set ↔ ∀ a : Fin 2, win2_6.index t a * S400x128.size a ≤ (i a).val
      ∧ (i a).val < win2_6.index t a * S400x128.size a + S400x128.size a := by
  show i ∈ ((View.whole (Pipeline.arrRef spec2 6)).slice (win2_6.rect t)).set ↔ _
  rw [View.set_slice_whole, Rect.mem_set_unit]
  exact Iff.rfl

/-- Row r is in the block of point r / 400, which writes back. -/
theorem r2_cover5 (i : S10000x128.Idx) :
    ∃ t : Fin cfg2.N, (cfg2.win 5).flush t = true ∧ i ∈ ((cfg2.win 5).blk t).view.set := by
  have hi0 : (i 0).val < 10000 := idx2_lt0 i
  have hi1 : (i 1).val < 128 := idx2_lt1 i
  have ht : (i 0).val / 400 < cfg2.N := Nat.lt_of_lt_of_eq (by omega) (show cfg2.N = 25 from N_2).symm
  obtain ⟨-, -, -, -, -, -, -, -, -, -, e0, e1, -⟩ := r2_idx_facts ⟨(i 0).val / 400, ht⟩
  refine ⟨⟨(i 0).val / 400, ht⟩, flush2_5 _, ?_⟩
  rw [r2_mem_blk5]
  intro a
  match a with
  | ⟨0, _⟩ =>
    show win2_5.index ⟨(i 0).val / 400, ht⟩ (0 : Fin 2) * 400 ≤ (i 0).val
      ∧ (i 0).val < win2_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win2_5.index ⟨(i 0).val / 400, ht⟩ (1 : Fin 2) * 128 ≤ (i 1).val
      ∧ (i 1).val < win2_5.index ⟨(i 0).val / 400, ht⟩ (1 : Fin 2) * 128 + 128
    rw [e1]; omega

theorem r2_cover6 (i : S10000x128.Idx) :
    ∃ t : Fin cfg2.N, (cfg2.win 6).flush t = true ∧ i ∈ ((cfg2.win 6).blk t).view.set := by
  have hi0 : (i 0).val < 10000 := idx2_lt0 i
  have hi1 : (i 1).val < 128 := idx2_lt1 i
  have ht : (i 0).val / 400 < cfg2.N := Nat.lt_of_lt_of_eq (by omega) (show cfg2.N = 25 from N_2).symm
  obtain ⟨-, -, -, -, -, -, -, -, -, -, -, -, e0, e1⟩ := r2_idx_facts ⟨(i 0).val / 400, ht⟩
  refine ⟨⟨(i 0).val / 400, ht⟩, flush2_6 _, ?_⟩
  rw [r2_mem_blk6]
  intro a
  match a with
  | ⟨0, _⟩ =>
    show win2_6.index ⟨(i 0).val / 400, ht⟩ (0 : Fin 2) * 400 ≤ (i 0).val
      ∧ (i 0).val < win2_6.index ⟨(i 0).val / 400, ht⟩ (0 : Fin 2) * 400 + 400
    rw [e0]; show (i 0).val / 400 * 400 ≤ (i 0).val ∧ (i 0).val < (i 0).val / 400 * 400 + 400; omega
  | ⟨1, _⟩ =>
    show win2_6.index ⟨(i 0).val / 400, ht⟩ (1 : Fin 2) * 128 ≤ (i 1).val
      ∧ (i 1).val < win2_6.index ⟨(i 0).val / 400, ht⟩ (1 : Fin 2) * 128 + 128
    rw [e1]; omega

/-! ## The two arrays after the region -/

/-- The first output after the region is u + E ub of the arrays the region found. -/
theorem final2_5 (c : Dev nD) :
    (dat2 (F := Ideal) V c).arrAt 5 cfg2.N
      = Bern.prop2 (V c (Pipeline.arrRef spec2 0) : Bern.Arr 10000 10000) (V c (Pipeline.arrRef spec2 1) : Bern.Arr 10000 128)
          (V c (Pipeline.arrRef spec2 2) : Bern.Arr 10000 128) :=
  (dat2 (F := Ideal) V c).arrAt_eq_of_cover 5 (Bern.prop2 (r2_E V c) (r2_ub V c) (r2_u V c))
    (fun t _ => r2_flushed5_eq V c t) r2_cover5

/-- The second output after the region is acc + ct ⊙ (u + E ub) of the arrays the region found. -/
theorem final2_6 (c : Dev nD) :
    (dat2 (F := Ideal) V c).arrAt 6 cfg2.N
      = Bern.axpyRow (V c (Pipeline.arrRef spec2 3) : Bern.Arr 10000 128) (V c (Pipeline.arrRef spec2 4) : Bern.Arr 1 128)
          (Bern.prop2 (V c (Pipeline.arrRef spec2 0) : Bern.Arr 10000 10000) (V c (Pipeline.arrRef spec2 1) : Bern.Arr 10000 128)
            (V c (Pipeline.arrRef spec2 2) : Bern.Arr 10000 128)) :=
  (dat2 (F := Ideal) V c).arrAt_eq_of_cover 6
    (Bern.axpyRow (r2_acc V c) (r2_ct V c) (Bern.prop2 (r2_E V c) (r2_ub V c) (r2_u V c)))
    (fun t _ => r2_flushed6_eq V c t) r2_cover6

end Cert.KernelIdeal.RegVal

end
-- ==== Proof.RegionProp3.lean ====
/-
  Region 3 of the filter: one propagation pass and one accumulation.

  The region's grid has 25 points. At point t the body reads rows 400 t … 400 t + 399 (every column) of the matrix E, of
  the features u and of the accumulator acc, and the whole of the features' second copy ub and of the coefficient row
  ct, and writes rows 400 t … 400 t + 399 of two arrays. With r = 400 t + p,
      first array   [r, q] = u[r, q] + ∑ l, E[r, l] · ub[l, q]                         (u + E ub),
      second array  [r, q] = acc[r, q] + ct[0, q] · (u + E ub)[r, q].
  The 25 row blocks tile the 10000 rows, so after the region the first array is `Bern.prop2 E ub u` and the second is
  `Bern.axpyRow acc ct (Bern.prop2 E ub u)` of the arrays as the region found them.
-/
import proofs.«148114_g1589137899740_cont_week2b_1182_5_alg».proof.Proof.FrameKernelIdeal
import proofs.«148114_g1589137899740_cont_week2b_1182_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

/-! ## The body's arithmetic at an entry -/

/-- The product's left operand at output entry j and contraction position k: row j₀ … -/
theorem r3_lhs_0 (j : S400x128.Idx) (k : dot_S400x10000_S10000x128_S400x128_1_0_0_1_n_n.contr.Idx) :
    ((dot_S400x10000_S10000x128_S400x128_1_0_0_1_n_n.lhsIdx j k 0 : Fin _) : ℕ) = (j 0 : ℕ) := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

/-- … column k; -/
theorem r3_lhs_1 (j : S400x128.Idx) (k : dot_S400x10000_S10000x128_S400x128_1_0_0_1_n_n.contr.Idx) :
    ((dot_S400x10000_S10000x128_S400x128_1_0_0_1_n_n.lhsIdx j k 1 : Fin _) : ℕ) = (k ⟨0, by decide⟩ : ℕ) :=
  dot_S400x10000_S10000x128_S400x128_1_0_0_1_n_n.lhsIdx_val_of_single (cl := 1) rfl j k

/-- the right operand's: row k … -/
theorem r3_rhs_0 (j : S400x128.Idx) (k : dot_S400x10000_S10000x128_S400x128_1_0_0_1_n_n.contr.Idx) :
    ((dot_S400x10000_S10000x128_S400x128_1_0_0_1_n_n.rhsIdx j k 0 : Fin _) : ℕ) = (k ⟨0, by decide⟩ : ℕ) :=
  dot_S400x10000_S10000x128_S400x128_1_0_0_1_n_n.rhsIdx_val_of_single (cr := 0) rfl j k

/-- … column j₁. -/
theorem r3_rhs_1 (j : S400x128.Idx) (k : dot_S400x10000_S10000x128_S400x128_1_0_0_1_n_n.contr.Idx) :
    ((dot_S400x10000_S10000x128_S400x128_1_0_0_1_n_n.rhsIdx j k 1 : Fin _) : ℕ) = (j 1 : ℕ) := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product of a [400, 10000] block and a [10000, 128] array, accumulated from zero, at (p, q):
    ∑ l, a[p, l] · b[l, q]. -/
theorem r3_matmul_apply (a : FVec Ideal S400x10000 .bf16) (b : FVec Ideal S10000x128 .bf16) (p : Fin 400) (q : Fin 128) :
    matmul dot_S400x10000_S10000x128_S400x128_1_0_0_1_n_n none a b (constant S400x128 .f32 0x00000000#32) (ix2 p q)
      = ∑ l : Fin 10000, a (ix2 p l) * b (ix2 l q) := by
  refine (Ideal.matmul_constant_zero_apply dot_S400x10000_S10000x128_S400x128_1_0_0_1_n_n none a b (ix2 p q)).trans ?_
  rw [← Equiv.sum_comp (contrEquiv1 dot_S400x10000_S10000x128_S400x128_1_0_0_1_n_n 10000 rfl rfl).symm]
  refine Finset.sum_congr rfl fun l _ => ?_
  have hk := contrEquiv1_symm_val dot_S400x10000_S10000x128_S400x128_1_0_0_1_n_n 10000 rfl rfl l
  congr 1
  · refine congrArg a (funext fun d => Fin.ext ?_)
    match d with
    | ⟨0, _⟩ => exact r3_lhs_0 _ _
    | ⟨1, _⟩ => exact (r3_lhs_1 _ _).trans hk
  · refine congrArg b (funext fun d => Fin.ext ?_)
    match d with
    | ⟨0, _⟩ => exact (r3_rhs_0 _ _).trans hk
    | ⟨1, _⟩ => exact r3_rhs_1 _ _

/-- A [1, 128] row broadcast to [400, 128] reads, at (p, q), the row's entry of column q. -/
theorem r3_bcast_apply (v : FVec Ideal S1x128 .f32) (p : Fin 400) (q : Fin 128) :
    broadcastTo S400x128 v broadcasts_S1x128_S400x128 (ix2 p q) = v (ix2 0 q) := by
  refine broadcastTo_apply v broadcasts_S1x128_S400x128 (ix2 p q) (ix2 0 q) fun a => ?_
  match a with
  | ⟨0, _⟩ => rfl
  | ⟨1, _⟩ => rfl

/-- The propagated block at (p, q): the features' entry plus row p of the matrix block times column q of the
    features' second copy. -/
theorem r3_pay1_apply (vu : Vec Ideal S400x128 .f32) (vE : Vec Ideal S400x10000 .bf16) (vb : Vec Ideal S10000x128 .bf16)
    (p : Fin 400) (q : Fin 128) :
    k3_pay1 vu vE vb (ix2 p q) = vu (ix2 p q) + ∑ l : Fin 10000, vE (ix2 p l) * vb (ix2 l q) := by
  unfold k3_pay1
  simp only [shapeCast_self]
  refine (addf_apply _ _ (ix2 p q)).trans ?_
  rw [r3_matmul_apply]

/-- The accumulated block at (p, q): the accumulator's entry plus the coefficient row's entry of column q times the
    propagated entry. -/
theorem r3_pay2_apply (vu : Vec Ideal S400x128 .f32) (vE : Vec Ideal S400x10000 .bf16) (vb : Vec Ideal S10000x128 .bf16)
    (va : Vec Ideal S400x128 .f32) (vc : Vec Ideal S1x128 .f32) (p : Fin 400) (q : Fin 128) :
    k3_pay2 vu vE vb va vc (ix2 p q) = va (ix2 p q) + vc (ix2 0 q) * k3_pay1 vu vE vb (ix2 p q) := by
  unfold k3_pay2
  simp only [shapeCast_self]
  refine (addf_apply _ _ (ix2 p q)).trans ?_
  refine congrArg (va (ix2 p q) + ·) ?_
  refine (mulf_apply _ _ (ix2 p q)).trans ?_
  rw [r3_bcast_apply]

/-- The propagated block, from blocks that are rows r p of E, of u, and the whole of ub, is those rows of u + E ub. -/
theorem r3_point_prop (E : Bern.Arr 10000 10000) (ub u : Bern.Arr 10000 128)
    (xE : Vec Ideal S400x10000 .bf16) (xb : Vec Ideal S10000x128 .bf16) (xu : Vec Ideal S400x128 .f32) (r : Fin 400 → Fin 10000)
    (hE : ∀ p l, xE (ix2 p l) = E (ix2 (r p) l)) (hb : ∀ l q, xb (ix2 l q) = ub (ix2 l q))
    (hu : ∀ p q, xu (ix2 p q) = u (ix2 (r p) q)) (p : Fin 400) (q : Fin 128) :
    k3_pay1 xu xE xb (ix2 p q) = Bern.prop2 E ub u (ix2 (r p) q) := by
  rw [r3_pay1_apply, hu]
  show _ = u (ix2 (r p) q) + Bern.mm E ub (ix2 (r p) q)
  rw [Bern.mm_apply]
  refine congrArg (u (ix2 (r p) q) + ·) (Finset.sum_congr rfl fun l _ => ?_)
  rw [hE, hb]

/-- The accumulated block, from those and rows r p of acc and the whole row ct, is those rows of
    acc + ct ⊙ (u + E ub). -/
theorem r3_point_acc (E : Bern.Arr 10000 10000) (ub u acc : Bern.Arr 10000 128) (ct : Bern.Arr 1 128)
    (xE : Vec Ideal S400x10000 .bf16) (xb : Vec Ideal S10000x128 .bf16) (xu xa : Vec Ideal S400x128 .f32) (xc : Vec Ideal S1x128 .f32)
    (r : Fin 400 → Fin 10000)
    (hE : ∀ p l, xE (ix2 p l) = E (ix2 (r p) l)) (hb : ∀ l q, xb (ix2 l q) = ub (ix2 l q))
    (hu : ∀ p q, xu (ix2 p q) = u (ix2 (r p) q)) (ha : ∀ p q, xa (ix2 p q) = acc (ix2 (r p) q))
    (hc : ∀ q, xc (ix2 0 q) = ct (ix2 0 q)) (p : Fin 400) (q : Fin 128) :
    k3_pay2 xu xE xb xa xc (ix2 p q) = Bern.axpyRow acc ct (Bern.prop2 E ub u) (ix2 (r p) q) := by
  rw [r3_pay2_apply, ha, hc, r3_point_prop E ub u xE xb xu r hE hb hu]
  rfl

/-! ## The grid: 25 points; point t's blocks are rows 400 t … 400 t + 399 -/

theorem r3_hz : (![0, 0] : Fin 2 → Nat) = fun _ => 0 := funext fun a => by fin_cases a <;> rfl

/-- The block indices of the seven windows at every point: (t, 0) for the matrix, the features, the accumulator and the two
    outputs; (0, 0) for the features' second copy and the coefficient row. -/
theorem r3_idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

theorem r3_lt (t : Fin cfg3.N) : t.val < 25 := Nat.lt_of_lt_of_eq t.isLt (show cfg3.N = 25 from N_3)

/-- Row 400 t + p: the array's row under row p of the block at point t. -/
noncomputable def r3_row (t : Fin cfg3.N) (p : Fin 400) : Fin 10000 :=
  ⟨400 * t.val + p.val, by have := r3_lt t; have := p.isLt; omega⟩

/-- The matrix's block at point t is rows 400 t … of the matrix, every column. -/
theorem r3_read0 (A : Bern.Arr 10000 10000) (t : Fin cfg3.N) (p : Fin 400) (l : Fin 10000) :
    (((cfg3.win 0).blk t).view.read (Elt Ideal) A : Vec Ideal S400x10000 .bf16) (ix2 p l) = A (ix2 (r3_row t p) l) := by
  obtain ⟨e0, e1, -⟩ := r3_idx_facts t
  rw [View.read_apply]
  show A _ = A _
  refine congrArg A (funext fun a => Fin.ext ?_)
  match a with
  | ⟨0, _⟩ => show win3_0.index t (0 : Fin 2) * 400 + 1 * p.val = 400 * t.val + p.val; rw [e0]; omega
  | ⟨1, _⟩ => show win3_0.index t (1 : Fin 2) * 10000 + 1 * l.val = l.val; rw [e1]; omega

/-- The features' second copy is staged whole at every point. -/
theorem r3_read1 (A : Bern.Arr 10000 128) (t : Fin cfg3.N) (l : Fin 10000) (q : Fin 128) :
    (((cfg3.win 1).blk t).view.read (Elt Ideal) A : Vec Ideal S10000x128 .bf16) (ix2 l q) = A (ix2 l q) := by
  obtain ⟨-, -, e0, e1, -⟩ := r3_idx_facts t
  rw [View.read_apply]
  show A _ = A _
  refine congrArg A (funext fun a => Fin.ext ?_)
  match a with
  | ⟨0, _⟩ => show win3_1.index t (0 : Fin 2) * 10000 + 1 * l.val = l.val; rw [e0]; omega
  | ⟨1, _⟩ => show win3_1.index t (1 : Fin 2) * 128 + 1 * q.val = q.val; rw [e1]; omega

/-- The features' block at point t is rows 400 t … of the features. -/
theorem r3_read2 (A : Bern.Arr 10000 128) (t : Fin cfg3.N) (p : Fin 400) (q : Fin 128) :
    (((cfg3.win 2).blk t).view.read (Elt Ideal) A : Vec Ideal S400x128 .f32) (ix2 p q) = A (ix2 (r3_row t p) q) := by
  obtain ⟨-, -, -, -, e0, e1, -⟩ := r3_idx_facts t
  rw [View.read_apply]
  show A _ = A _
  refine congrArg A (funext fun a => Fin.ext ?_)
  match a with
  | ⟨0, _⟩ => show win3_2.index t (0 : Fin 2) * 400 + 1 * p.val = 400 * t.val + p.val; rw [e0]; omega
  | ⟨1, _⟩ => show win3_2.index t (1 : Fin 2) * 128 + 1 * q.val = q.val; rw [e1]; omega

/-- The accumulator's block at point t is rows 400 t … of the accumulator. -/
theorem r3_read3 (A : Bern.Arr 10000 128) (t : Fin cfg3.N) (p : Fin 400) (q : Fin 128) :
    (((cfg3.win 3).blk t).view.read (Elt Ideal) A : Vec Ideal S400x128 .f32) (ix2 p q) = A (ix2 (r3_row t p) q) := by
  obtain ⟨-, -, -, -, -, -, e0, e1, -⟩ := r3_idx_facts t
  rw [View.read_apply]
  show A _ = A _
  refine congrArg A (funext fun a => Fin.ext ?_)
  match a with
  | ⟨0, _⟩ => show win3_3.index t (0 : Fin 2) * 400 + 1 * p.val = 400 * t.val + p.val; rw [e0]; omega
  | ⟨1, _⟩ => show win3_3.index t (1 : Fin 2) * 128 + 1 * q.val = q.val; rw [e1]; omega

/-- The coefficient row is staged whole at every point. -/
theorem r3_read4 (A : Bern.Arr 1 128) (t : Fin cfg3.N) (q : Fin 128) :
    (((cfg3.win 4).blk t).view.read (Elt Ideal) A : Vec Ideal S1x128 .f32) (ix2 0 q) = A (ix2 0 q) := by
  obtain ⟨-, -, -, -, -, -, -, -, e0, e1, -⟩ := r3_idx_facts t
  rw [View.read_apply]
  show A _ = A _
  refine congrArg A (funext fun a => Fin.ext ?_)
  match a with
  | ⟨0, _⟩ => show win3_4.index t (0 : Fin 2) * 1 + 1 * 0 = 0; rw [e0]
  | ⟨1, _⟩ => show win3_4.index t (1 : Fin 2) * 128 + 1 * q.val = q.val; rw [e1]; omega

/-- The first output's block at point t is rows 400 t … of its array. -/
theorem r3_read5 (A : Bern.Arr 10000 128) (t : Fin cfg3.N) (p : Fin 400) (q : Fin 128) :
    (((cfg3.win 5).blk t).view.read (Elt Ideal) A : Vec Ideal S400x128 .f32) (ix2 p q) = A (ix2 (r3_row t p) q) := by
  obtain ⟨-, -, -, -, -, -, -, -, -, -, e0, e1, -⟩ := r3_idx_facts t
  rw [View.read_apply]
  show A _ = A _
  refine congrArg A (funext fun a => Fin.ext ?_)
  match a with
  | ⟨0, _⟩ => show win3_5.index t (0 : Fin 2) * 400 + 1 * p.val = 400 * t.val + p.val; rw [e0]; omega
  | ⟨1, _⟩ => show win3_5.index t (1 : Fin 2) * 128 + 1 * q.val = q.val; rw [e1]; omega

/-- The second output's block at point t is rows 400 t … of its array. -/
theorem r3_read6 (A : Bern.Arr 10000 128) (t : Fin cfg3.N) (p : Fin 400) (q : Fin 128) :
    (((cfg3.win 6).blk t).view.read (Elt Ideal) A : Vec Ideal S400x128 .f32) (ix2 p q) = A (ix2 (r3_row t p) q) := by
  obtain ⟨-, -, -, -, -, -, -, -, -, -, -, -, e0, e1⟩ := r3_idx_facts t
  rw [View.read_apply]
  show A _ = A _
  refine congrArg A (funext fun a => Fin.ext ?_)
  match a with
  | ⟨0, _⟩ => show win3_6.index t (0 : Fin 2) * 400 + 1 * p.val = 400 * t.val + p.val; rw [e0]; omega
  | ⟨1, _⟩ => show win3_6.index t (1 : Fin 2) * 128 + 1 * q.val = q.val; rw [e1]; omega

/-! ## The arrays the region reads, as it finds them -/

/-- The matrix E (window 0's array). -/
noncomputable abbrev r3_E (c : Dev nD) : Bern.Arr 10000 10000 := V c (Pipeline.arrRef spec3 0)
/-- The features' second copy, the product's operand (window 1's array). -/
noncomputable abbrev r3_ub (c : Dev nD) : Bern.Arr 10000 128 := V c (Pipeline.arrRef spec3 1)
/-- The features (window 2's array). -/
noncomputable abbrev r3_u (c : Dev nD) : Bern.Arr 10000 128 := V c (Pipeline.arrRef spec3 2)
/-- The accumulator (window 3's array). -/
noncomputable abbrev r3_acc (c : Dev nD) : Bern.Arr 10000 128 := V c (Pipeline.arrRef spec3 3)
/-- The coefficient row (window 4's array). -/
noncomputable abbrev r3_ct (c : Dev nD) : Bern.Arr 1 128 := V c (Pipeline.arrRef spec3 4)

/-! ## What each point writes back -/

/-- Point t writes rows 400 t … 400 t + 399 of u + E ub to the first output. -/
theorem r3_flushed5_eq (c : Dev nD) (t : Fin cfg3.N) :
    (dat3 (F := Ideal) V c).flushed 5 t
      = ((cfg3.win 5).blk t).view.read (Elt Ideal) (Bern.prop2 (r3_E V c) (r3_ub V c) (r3_u V c)) := by
  show (cfg3.win 5).cut (grid3.coords t) ((dat3 (F := Ideal) V c).after 5 t) = _
  rw [after3_5]
  unfold out3_5
  rw [View.canon_unit_zero r3_hz]
  simp only [View.ld_unit_zero (S := S400x128) r3_hz, View.ld_unit_zero (S := S400x10000) r3_hz,
    View.ld_unit_zero (S := S10000x128) r3_hz]
  funext j
  obtain ⟨p, q, rfl⟩ : ∃ (p : Fin 400) (q : Fin 128), j = ix2 p q := ⟨j 0, j 1, eq_ix2 j⟩
  refine Eq.trans ?_ (r3_read5 (Bern.prop2 (r3_E V c) (r3_ub V c) (r3_u V c)) t p q).symm
  exact r3_point_prop (r3_E V c) (r3_ub V c) (r3_u V c) (iblk3 V c 0 t) (iblk3 V c 1 t) (iblk3 V c 2 t) (r3_row t)
    (r3_read0 (r3_E V c) t) (r3_read1 (r3_ub V c) t) (r3_read2 (r3_u V c) t) p q

/-- Point t writes rows 400 t … 400 t + 399 of acc + ct ⊙ (u + E ub) to the second output. -/
theorem r3_flushed6_eq (c : Dev nD) (t : Fin cfg3.N) :
    (dat3 (F := Ideal) V c).flushed 6 t
      = ((cfg3.win 6).blk t).view.read (Elt Ideal)
          (Bern.axpyRow (r3_acc V c) (r3_ct V c) (Bern.prop2 (r3_E V c) (r3_ub V c) (r3_u V c))) := by
  show (cfg3.win 6).cut (grid3.coords t) ((dat3 (F := Ideal) V c).after 6 t) = _
  rw [after3_6]
  unfold out3_6
  rw [View.canon_unit_zero r3_hz]
  simp only [View.ld_unit_zero (S := S400x128) r3_hz, View.ld_unit_zero (S := S400x10000) r3_hz,
    View.ld_unit_zero (S := S10000x128) r3_hz, View.ld_unit_zero (S := S1x128) r3_hz]
  funext j
  obtain ⟨p, q, rfl⟩ : ∃ (p : Fin 400) (q : Fin 128), j = ix2 p q := ⟨j 0, j 1, eq_ix2 j⟩
  refine Eq.trans ?_ (r3_read6 (Bern.axpyRow (r3_acc V c) (r3_ct V c) (Bern.prop2 (r3_E V c) (r3_ub V c) (r3_u V c))) t p q).symm
  exact r3_point_acc (r3_E V c) (r3_ub V c) (r3_u V c) (r3_acc V c) (r3_ct V c)
    (iblk3 V c 0 t) (iblk3 V c 1 t) (iblk3 V c 2 t) (iblk3 V c 3 t) (iblk3 V c 4 t) (r3_row t)
    (r3_read0 (r3_E V c) t) (r3_read1 (r3_ub V c) t) (r3_read2 (r3_u V c) t) (r3_read3 (r3_acc V c) t)
    (r3_read4 (r3_ct V c) t) p q

/-! ## The row blocks tile the rows -/

/-- An entry of the first output's array is in point t's block iff, on each axis, its coordinate lies in the block's
    range: from block index × block size, one block size long. -/
theorem r3_mem_blk5 (t : Fin cfg3.N) (i : S10000x128.Idx) :
    i ∈ ((cfg3.win 5).blk t).view.set ↔ ∀ a : Fin 2, win3_5.index t a * S400x128.size a ≤ (i a).val
      ∧ (i a).val < win3_5.index t a * S400x128.size a + S400x128.size a := by
  show i ∈ ((View.whole (Pipeline.arrRef spec3 5)).slice (win3_5.rect t)).set ↔ _
  rw [View.set_slice_whole, Rect.mem_set_unit]
  exact Iff.rfl

/-- The same for the second output's. -/
theorem r3_mem_blk6 (t : Fin cfg3.N) (i : S10000x128.Idx) :
    i ∈ ((cfg3.win 6).blk t).view.set ↔ ∀ a : Fin 2, win3_6.index t a * S400x128.size a ≤ (i a).val
      ∧ (i a).val < win3_6.index t a * S400x128.size a + S400x128.size a := by
  show i ∈ ((View.whole (Pipeline.arrRef spec3 6)).slice (win3_6.rect t)).set ↔ _
  rw [View.set_slice_whole, Rect.mem_set_unit]
  exact Iff.rfl

/-- Row r is in the block of point r / 400, which writes back. -/
theorem r3_cover5 (i : S10000x128.Idx) :
    ∃ t : Fin cfg3.N, (cfg3.win 5).flush t = true ∧ i ∈ ((cfg3.win 5).blk t).view.set := by
  have hi0 : (i 0).val < 10000 := idx2_lt0 i
  have hi1 : (i 1).val < 128 := idx2_lt1 i
  have ht : (i 0).val / 400 < cfg3.N := Nat.lt_of_lt_of_eq (by omega) (show cfg3.N = 25 from N_3).symm
  obtain ⟨-, -, -, -, -, -, -, -, -, -, e0, e1, -⟩ := r3_idx_facts ⟨(i 0).val / 400, ht⟩
  refine ⟨⟨(i 0).val / 400, ht⟩, flush3_5 _, ?_⟩
  rw [r3_mem_blk5]
  intro a
  match a with
  | ⟨0, _⟩ =>
    show win3_5.index ⟨(i 0).val / 400, ht⟩ (0 : Fin 2) * 400 ≤ (i 0).val
      ∧ (i 0).val < win3_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win3_5.index ⟨(i 0).val / 400, ht⟩ (1 : Fin 2) * 128 ≤ (i 1).val
      ∧ (i 1).val < win3_5.index ⟨(i 0).val / 400, ht⟩ (1 : Fin 2) * 128 + 128
    rw [e1]; omega

theorem r3_cover6 (i : S10000x128.Idx) :
    ∃ t : Fin cfg3.N, (cfg3.win 6).flush t = true ∧ i ∈ ((cfg3.win 6).blk t).view.set := by
  have hi0 : (i 0).val < 10000 := idx2_lt0 i
  have hi1 : (i 1).val < 128 := idx2_lt1 i
  have ht : (i 0).val / 400 < cfg3.N := Nat.lt_of_lt_of_eq (by omega) (show cfg3.N = 25 from N_3).symm
  obtain ⟨-, -, -, -, -, -, -, -, -, -, -, -, e0, e1⟩ := r3_idx_facts ⟨(i 0).val / 400, ht⟩
  refine ⟨⟨(i 0).val / 400, ht⟩, flush3_6 _, ?_⟩
  rw [r3_mem_blk6]
  intro a
  match a with
  | ⟨0, _⟩ =>
    show win3_6.index ⟨(i 0).val / 400, ht⟩ (0 : Fin 2) * 400 ≤ (i 0).val
      ∧ (i 0).val < win3_6.index ⟨(i 0).val / 400, ht⟩ (0 : Fin 2) * 400 + 400
    rw [e0]; show (i 0).val / 400 * 400 ≤ (i 0).val ∧ (i 0).val < (i 0).val / 400 * 400 + 400; omega
  | ⟨1, _⟩ =>
    show win3_6.index ⟨(i 0).val / 400, ht⟩ (1 : Fin 2) * 128 ≤ (i 1).val
      ∧ (i 1).val < win3_6.index ⟨(i 0).val / 400, ht⟩ (1 : Fin 2) * 128 + 128
    rw [e1]; omega

/-! ## The two arrays after the region -/

/-- The first output after the region is u + E ub of the arrays the region found. -/
theorem final3_5 (c : Dev nD) :
    (dat3 (F := Ideal) V c).arrAt 5 cfg3.N
      = Bern.prop2 (V c (Pipeline.arrRef spec3 0) : Bern.Arr 10000 10000) (V c (Pipeline.arrRef spec3 1) : Bern.Arr 10000 128)
          (V c (Pipeline.arrRef spec3 2) : Bern.Arr 10000 128) :=
  (dat3 (F := Ideal) V c).arrAt_eq_of_cover 5 (Bern.prop2 (r3_E V c) (r3_ub V c) (r3_u V c))
    (fun t _ => r3_flushed5_eq V c t) r3_cover5

/-- The second output after the region is acc + ct ⊙ (u + E ub) of the arrays the region found. -/
theorem final3_6 (c : Dev nD) :
    (dat3 (F := Ideal) V c).arrAt 6 cfg3.N
      = Bern.axpyRow (V c (Pipeline.arrRef spec3 3) : Bern.Arr 10000 128) (V c (Pipeline.arrRef spec3 4) : Bern.Arr 1 128)
          (Bern.prop2 (V c (Pipeline.arrRef spec3 0) : Bern.Arr 10000 10000) (V c (Pipeline.arrRef spec3 1) : Bern.Arr 10000 128)
            (V c (Pipeline.arrRef spec3 2) : Bern.Arr 10000 128)) :=
  (dat3 (F := Ideal) V c).arrAt_eq_of_cover 6
    (Bern.axpyRow (r3_acc V c) (r3_ct V c) (Bern.prop2 (r3_E V c) (r3_ub V c) (r3_u V c)))
    (fun t _ => r3_flushed6_eq V c t) r3_cover6

end Cert.KernelIdeal.RegVal

end
-- ==== Proof.RegionPropRelu.lean ====
/-
  Region 4 of the filter: one propagation pass and one accumulation, closed by relu.

  The region's grid has 25 points. At point t the body reads rows 400 t … 400 t + 399 (every column) of the matrix E, of
  the features u and of the accumulator acc, and the whole of the features' second copy ub and of the coefficient row
  ct, and writes rows 400 t … 400 t + 399 of two arrays. With r = 400 t + p,
      first array   [r, q] = u[r, q] + ∑ l, E[r, l] · ub[l, q]                         (u + E ub),
      second array  [r, q] = max (acc[r, q] + ct[0, q] · (u + E ub)[r, q]) 0.
  The 25 row blocks tile the 10000 rows, so after the region the first array is `Bern.prop2 E ub u` and the second is
  `Bern.relu (Bern.axpyRow acc ct (Bern.prop2 E ub u))` of the arrays as the region found them.
-/
import proofs.«148114_g1589137899740_cont_week2b_1182_5_alg».proof.Proof.FrameKernelIdeal
import proofs.«148114_g1589137899740_cont_week2b_1182_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

/-! ## The body's arithmetic at an entry -/

/-- The product's left operand at output entry j and contraction position k: row j₀ … -/
theorem r4_lhs_0 (j : S400x128.Idx) (k : dot_S400x10000_S10000x128_S400x128_1_0_0_1_n_n.contr.Idx) :
    ((dot_S400x10000_S10000x128_S400x128_1_0_0_1_n_n.lhsIdx j k 0 : Fin _) : ℕ) = (j 0 : ℕ) := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

/-- … column k; -/
theorem r4_lhs_1 (j : S400x128.Idx) (k : dot_S400x10000_S10000x128_S400x128_1_0_0_1_n_n.contr.Idx) :
    ((dot_S400x10000_S10000x128_S400x128_1_0_0_1_n_n.lhsIdx j k 1 : Fin _) : ℕ) = (k ⟨0, by decide⟩ : ℕ) :=
  dot_S400x10000_S10000x128_S400x128_1_0_0_1_n_n.lhsIdx_val_of_single (cl := 1) rfl j k

/-- the right operand's: row k … -/
theorem r4_rhs_0 (j : S400x128.Idx) (k : dot_S400x10000_S10000x128_S400x128_1_0_0_1_n_n.contr.Idx) :
    ((dot_S400x10000_S10000x128_S400x128_1_0_0_1_n_n.rhsIdx j k 0 : Fin _) : ℕ) = (k ⟨0, by decide⟩ : ℕ) :=
  dot_S400x10000_S10000x128_S400x128_1_0_0_1_n_n.rhsIdx_val_of_single (cr := 0) rfl j k

/-- … column j₁. -/
theorem r4_rhs_1 (j : S400x128.Idx) (k : dot_S400x10000_S10000x128_S400x128_1_0_0_1_n_n.contr.Idx) :
    ((dot_S400x10000_S10000x128_S400x128_1_0_0_1_n_n.rhsIdx j k 1 : Fin _) : ℕ) = (j 1 : ℕ) := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product of a [400, 10000] block and a [10000, 128] array, accumulated from zero, at (p, q):
    ∑ l, a[p, l] · b[l, q]. -/
theorem r4_matmul_apply (a : FVec Ideal S400x10000 .bf16) (b : FVec Ideal S10000x128 .bf16) (p : Fin 400) (q : Fin 128) :
    matmul dot_S400x10000_S10000x128_S400x128_1_0_0_1_n_n none a b (constant S400x128 .f32 0x00000000#32) (ix2 p q)
      = ∑ l : Fin 10000, a (ix2 p l) * b (ix2 l q) := by
  refine (Ideal.matmul_constant_zero_apply dot_S400x10000_S10000x128_S400x128_1_0_0_1_n_n none a b (ix2 p q)).trans ?_
  rw [← Equiv.sum_comp (contrEquiv1 dot_S400x10000_S10000x128_S400x128_1_0_0_1_n_n 10000 rfl rfl).symm]
  refine Finset.sum_congr rfl fun l _ => ?_
  have hk := contrEquiv1_symm_val dot_S400x10000_S10000x128_S400x128_1_0_0_1_n_n 10000 rfl rfl l
  congr 1
  · refine congrArg a (funext fun d => Fin.ext ?_)
    match d with
    | ⟨0, _⟩ => exact r4_lhs_0 _ _
    | ⟨1, _⟩ => exact (r4_lhs_1 _ _).trans hk
  · refine congrArg b (funext fun d => Fin.ext ?_)
    match d with
    | ⟨0, _⟩ => exact (r4_rhs_0 _ _).trans hk
    | ⟨1, _⟩ => exact r4_rhs_1 _ _

/-- A [1, 128] row broadcast to [400, 128] reads, at (p, q), the row's entry of column q. -/
theorem r4_bcast_apply (v : FVec Ideal S1x128 .f32) (p : Fin 400) (q : Fin 128) :
    broadcastTo S400x128 v broadcasts_S1x128_S400x128 (ix2 p q) = v (ix2 0 q) := by
  refine broadcastTo_apply v broadcasts_S1x128_S400x128 (ix2 p q) (ix2 0 q) fun a => ?_
  match a with
  | ⟨0, _⟩ => rfl
  | ⟨1, _⟩ => rfl

/-- The propagated block at (p, q): the features' entry plus row p of the matrix block times column q of the
    features' second copy. -/
theorem r4_pay1_apply (vu : Vec Ideal S400x128 .f32) (vE : Vec Ideal S400x10000 .bf16) (vb : Vec Ideal S10000x128 .bf16)
    (p : Fin 400) (q : Fin 128) :
    k4_pay1 vu vE vb (ix2 p q) = vu (ix2 p q) + ∑ l : Fin 10000, vE (ix2 p l) * vb (ix2 l q) := by
  unfold k4_pay1
  simp only [shapeCast_self]
  refine (addf_apply _ _ (ix2 p q)).trans ?_
  rw [r4_matmul_apply]

/-- The accumulated block at (p, q): the larger of zero and the accumulator's entry plus the coefficient row's entry
    of column q times the propagated entry. -/
theorem r4_pay2_apply (vu : Vec Ideal S400x128 .f32) (vE : Vec Ideal S400x10000 .bf16) (vb : Vec Ideal S10000x128 .bf16)
    (va : Vec Ideal S400x128 .f32) (vc : Vec Ideal S1x128 .f32) (p : Fin 400) (q : Fin 128) :
    k4_pay2 vu vE vb va vc (ix2 p q) = max (va (ix2 p q) + vc (ix2 0 q) * k4_pay1 vu vE vb (ix2 p q)) 0 := by
  unfold k4_pay2
  simp only [shapeCast_self]
  refine (maximumf_apply _ _ (ix2 p q)).trans ?_
  refine congrArg₂ max ?_ Ideal.ofBits_zero_f32
  refine (addf_apply _ _ (ix2 p q)).trans ?_
  refine congrArg (va (ix2 p q) + ·) ?_
  refine (mulf_apply _ _ (ix2 p q)).trans ?_
  rw [r4_bcast_apply]

/-- The propagated block, from blocks that are rows r p of E, of u, and the whole of ub, is those rows of u + E ub. -/
theorem r4_point_prop (E : Bern.Arr 10000 10000) (ub u : Bern.Arr 10000 128)
    (xE : Vec Ideal S400x10000 .bf16) (xb : Vec Ideal S10000x128 .bf16) (xu : Vec Ideal S400x128 .f32) (r : Fin 400 → Fin 10000)
    (hE : ∀ p l, xE (ix2 p l) = E (ix2 (r p) l)) (hb : ∀ l q, xb (ix2 l q) = ub (ix2 l q))
    (hu : ∀ p q, xu (ix2 p q) = u (ix2 (r p) q)) (p : Fin 400) (q : Fin 128) :
    k4_pay1 xu xE xb (ix2 p q) = Bern.prop2 E ub u (ix2 (r p) q) := by
  rw [r4_pay1_apply, hu]
  show _ = u (ix2 (r p) q) + Bern.mm E ub (ix2 (r p) q)
  rw [Bern.mm_apply]
  refine congrArg (u (ix2 (r p) q) + ·) (Finset.sum_congr rfl fun l _ => ?_)
  rw [hE, hb]

/-- The accumulated block, from those and rows r p of acc and the whole row ct, is those rows of
    relu (acc + ct ⊙ (u + E ub)). -/
theorem r4_point_acc (E : Bern.Arr 10000 10000) (ub u acc : Bern.Arr 10000 128) (ct : Bern.Arr 1 128)
    (xE : Vec Ideal S400x10000 .bf16) (xb : Vec Ideal S10000x128 .bf16) (xu xa : Vec Ideal S400x128 .f32) (xc : Vec Ideal S1x128 .f32)
    (r : Fin 400 → Fin 10000)
    (hE : ∀ p l, xE (ix2 p l) = E (ix2 (r p) l)) (hb : ∀ l q, xb (ix2 l q) = ub (ix2 l q))
    (hu : ∀ p q, xu (ix2 p q) = u (ix2 (r p) q)) (ha : ∀ p q, xa (ix2 p q) = acc (ix2 (r p) q))
    (hc : ∀ q, xc (ix2 0 q) = ct (ix2 0 q)) (p : Fin 400) (q : Fin 128) :
    k4_pay2 xu xE xb xa xc (ix2 p q) = Bern.relu (Bern.axpyRow acc ct (Bern.prop2 E ub u)) (ix2 (r p) q) := by
  rw [r4_pay2_apply, ha, hc, r4_point_prop E ub u xE xb xu r hE hb hu]
  rfl

/-! ## The grid: 25 points; point t's blocks are rows 400 t … 400 t + 399 -/

theorem r4_hz : (![0, 0] : Fin 2 → Nat) = fun _ => 0 := funext fun a => by fin_cases a <;> rfl

/-- The block indices of the seven windows at every point: (t, 0) for the matrix, the features, the accumulator and the two
    outputs; (0, 0) for the features' second copy and the coefficient row. -/
theorem r4_idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

theorem r4_lt (t : Fin cfg4.N) : t.val < 25 := Nat.lt_of_lt_of_eq t.isLt (show cfg4.N = 25 from N_4)

/-- Row 400 t + p: the array's row under row p of the block at point t. -/
noncomputable def r4_row (t : Fin cfg4.N) (p : Fin 400) : Fin 10000 :=
  ⟨400 * t.val + p.val, by have := r4_lt t; have := p.isLt; omega⟩

/-- The matrix's block at point t is rows 400 t … of the matrix, every column. -/
theorem r4_read0 (A : Bern.Arr 10000 10000) (t : Fin cfg4.N) (p : Fin 400) (l : Fin 10000) :
    (((cfg4.win 0).blk t).view.read (Elt Ideal) A : Vec Ideal S400x10000 .bf16) (ix2 p l) = A (ix2 (r4_row t p) l) := by
  obtain ⟨e0, e1, -⟩ := r4_idx_facts t
  rw [View.read_apply]
  show A _ = A _
  refine congrArg A (funext fun a => Fin.ext ?_)
  match a with
  | ⟨0, _⟩ => show win4_0.index t (0 : Fin 2) * 400 + 1 * p.val = 400 * t.val + p.val; rw [e0]; omega
  | ⟨1, _⟩ => show win4_0.index t (1 : Fin 2) * 10000 + 1 * l.val = l.val; rw [e1]; omega

/-- The features' second copy is staged whole at every point. -/
theorem r4_read1 (A : Bern.Arr 10000 128) (t : Fin cfg4.N) (l : Fin 10000) (q : Fin 128) :
    (((cfg4.win 1).blk t).view.read (Elt Ideal) A : Vec Ideal S10000x128 .bf16) (ix2 l q) = A (ix2 l q) := by
  obtain ⟨-, -, e0, e1, -⟩ := r4_idx_facts t
  rw [View.read_apply]
  show A _ = A _
  refine congrArg A (funext fun a => Fin.ext ?_)
  match a with
  | ⟨0, _⟩ => show win4_1.index t (0 : Fin 2) * 10000 + 1 * l.val = l.val; rw [e0]; omega
  | ⟨1, _⟩ => show win4_1.index t (1 : Fin 2) * 128 + 1 * q.val = q.val; rw [e1]; omega

/-- The features' block at point t is rows 400 t … of the features. -/
theorem r4_read2 (A : Bern.Arr 10000 128) (t : Fin cfg4.N) (p : Fin 400) (q : Fin 128) :
    (((cfg4.win 2).blk t).view.read (Elt Ideal) A : Vec Ideal S400x128 .f32) (ix2 p q) = A (ix2 (r4_row t p) q) := by
  obtain ⟨-, -, -, -, e0, e1, -⟩ := r4_idx_facts t
  rw [View.read_apply]
  show A _ = A _
  refine congrArg A (funext fun a => Fin.ext ?_)
  match a with
  | ⟨0, _⟩ => show win4_2.index t (0 : Fin 2) * 400 + 1 * p.val = 400 * t.val + p.val; rw [e0]; omega
  | ⟨1, _⟩ => show win4_2.index t (1 : Fin 2) * 128 + 1 * q.val = q.val; rw [e1]; omega

/-- The accumulator's block at point t is rows 400 t … of the accumulator. -/
theorem r4_read3 (A : Bern.Arr 10000 128) (t : Fin cfg4.N) (p : Fin 400) (q : Fin 128) :
    (((cfg4.win 3).blk t).view.read (Elt Ideal) A : Vec Ideal S400x128 .f32) (ix2 p q) = A (ix2 (r4_row t p) q) := by
  obtain ⟨-, -, -, -, -, -, e0, e1, -⟩ := r4_idx_facts t
  rw [View.read_apply]
  show A _ = A _
  refine congrArg A (funext fun a => Fin.ext ?_)
  match a with
  | ⟨0, _⟩ => show win4_3.index t (0 : Fin 2) * 400 + 1 * p.val = 400 * t.val + p.val; rw [e0]; omega
  | ⟨1, _⟩ => show win4_3.index t (1 : Fin 2) * 128 + 1 * q.val = q.val; rw [e1]; omega

/-- The coefficient row is staged whole at every point. -/
theorem r4_read4 (A : Bern.Arr 1 128) (t : Fin cfg4.N) (q : Fin 128) :
    (((cfg4.win 4).blk t).view.read (Elt Ideal) A : Vec Ideal S1x128 .f32) (ix2 0 q) = A (ix2 0 q) := by
  obtain ⟨-, -, -, -, -, -, -, -, e0, e1, -⟩ := r4_idx_facts t
  rw [View.read_apply]
  show A _ = A _
  refine congrArg A (funext fun a => Fin.ext ?_)
  match a with
  | ⟨0, _⟩ => show win4_4.index t (0 : Fin 2) * 1 + 1 * 0 = 0; rw [e0]
  | ⟨1, _⟩ => show win4_4.index t (1 : Fin 2) * 128 + 1 * q.val = q.val; rw [e1]; omega

/-- The first output's block at point t is rows 400 t … of its array. -/
theorem r4_read5 (A : Bern.Arr 10000 128) (t : Fin cfg4.N) (p : Fin 400) (q : Fin 128) :
    (((cfg4.win 5).blk t).view.read (Elt Ideal) A : Vec Ideal S400x128 .f32) (ix2 p q) = A (ix2 (r4_row t p) q) := by
  obtain ⟨-, -, -, -, -, -, -, -, -, -, e0, e1, -⟩ := r4_idx_facts t
  rw [View.read_apply]
  show A _ = A _
  refine congrArg A (funext fun a => Fin.ext ?_)
  match a with
  | ⟨0, _⟩ => show win4_5.index t (0 : Fin 2) * 400 + 1 * p.val = 400 * t.val + p.val; rw [e0]; omega
  | ⟨1, _⟩ => show win4_5.index t (1 : Fin 2) * 128 + 1 * q.val = q.val; rw [e1]; omega

/-- The second output's block at point t is rows 400 t … of its array. -/
theorem r4_read6 (A : Bern.Arr 10000 128) (t : Fin cfg4.N) (p : Fin 400) (q : Fin 128) :
    (((cfg4.win 6).blk t).view.read (Elt Ideal) A : Vec Ideal S400x128 .f32) (ix2 p q) = A (ix2 (r4_row t p) q) := by
  obtain ⟨-, -, -, -, -, -, -, -, -, -, -, -, e0, e1⟩ := r4_idx_facts t
  rw [View.read_apply]
  show A _ = A _
  refine congrArg A (funext fun a => Fin.ext ?_)
  match a with
  | ⟨0, _⟩ => show win4_6.index t (0 : Fin 2) * 400 + 1 * p.val = 400 * t.val + p.val; rw [e0]; omega
  | ⟨1, _⟩ => show win4_6.index t (1 : Fin 2) * 128 + 1 * q.val = q.val; rw [e1]; omega

/-! ## The arrays the region reads, as it finds them -/

/-- The matrix E (window 0's array). -/
noncomputable abbrev r4_E (c : Dev nD) : Bern.Arr 10000 10000 := V c (Pipeline.arrRef spec4 0)
/-- The features' second copy, the product's operand (window 1's array). -/
noncomputable abbrev r4_ub (c : Dev nD) : Bern.Arr 10000 128 := V c (Pipeline.arrRef spec4 1)
/-- The features (window 2's array). -/
noncomputable abbrev r4_u (c : Dev nD) : Bern.Arr 10000 128 := V c (Pipeline.arrRef spec4 2)
/-- The accumulator (window 3's array). -/
noncomputable abbrev r4_acc (c : Dev nD) : Bern.Arr 10000 128 := V c (Pipeline.arrRef spec4 3)
/-- The coefficient row (window 4's array). -/
noncomputable abbrev r4_ct (c : Dev nD) : Bern.Arr 1 128 := V c (Pipeline.arrRef spec4 4)

/-! ## What each point writes back -/

/-- Point t writes rows 400 t … 400 t + 399 of u + E ub to the first output. -/
theorem r4_flushed5_eq (c : Dev nD) (t : Fin cfg4.N) :
    (dat4 (F := Ideal) V c).flushed 5 t
      = ((cfg4.win 5).blk t).view.read (Elt Ideal) (Bern.prop2 (r4_E V c) (r4_ub V c) (r4_u V c)) := by
  show (cfg4.win 5).cut (grid4.coords t) ((dat4 (F := Ideal) V c).after 5 t) = _
  rw [after4_5]
  unfold out4_5
  rw [View.canon_unit_zero r4_hz]
  simp only [View.ld_unit_zero (S := S400x128) r4_hz, View.ld_unit_zero (S := S400x10000) r4_hz,
    View.ld_unit_zero (S := S10000x128) r4_hz]
  funext j
  obtain ⟨p, q, rfl⟩ : ∃ (p : Fin 400) (q : Fin 128), j = ix2 p q := ⟨j 0, j 1, eq_ix2 j⟩
  refine Eq.trans ?_ (r4_read5 (Bern.prop2 (r4_E V c) (r4_ub V c) (r4_u V c)) t p q).symm
  exact r4_point_prop (r4_E V c) (r4_ub V c) (r4_u V c) (iblk4 V c 0 t) (iblk4 V c 1 t) (iblk4 V c 2 t) (r4_row t)
    (r4_read0 (r4_E V c) t) (r4_read1 (r4_ub V c) t) (r4_read2 (r4_u V c) t) p q

/-- Point t writes rows 400 t … 400 t + 399 of relu (acc + ct ⊙ (u + E ub)) to the second output. -/
theorem r4_flushed6_eq (c : Dev nD) (t : Fin cfg4.N) :
    (dat4 (F := Ideal) V c).flushed 6 t
      = ((cfg4.win 6).blk t).view.read (Elt Ideal)
          (Bern.relu (Bern.axpyRow (r4_acc V c) (r4_ct V c) (Bern.prop2 (r4_E V c) (r4_ub V c) (r4_u V c)))) := by
  show (cfg4.win 6).cut (grid4.coords t) ((dat4 (F := Ideal) V c).after 6 t) = _
  rw [after4_6]
  unfold out4_6
  rw [View.canon_unit_zero r4_hz]
  simp only [View.ld_unit_zero (S := S400x128) r4_hz, View.ld_unit_zero (S := S400x10000) r4_hz,
    View.ld_unit_zero (S := S10000x128) r4_hz, View.ld_unit_zero (S := S1x128) r4_hz]
  funext j
  obtain ⟨p, q, rfl⟩ : ∃ (p : Fin 400) (q : Fin 128), j = ix2 p q := ⟨j 0, j 1, eq_ix2 j⟩
  refine Eq.trans ?_ (r4_read6 (Bern.relu (Bern.axpyRow (r4_acc V c) (r4_ct V c) (Bern.prop2 (r4_E V c) (r4_ub V c) (r4_u V c)))) t p q).symm
  exact r4_point_acc (r4_E V c) (r4_ub V c) (r4_u V c) (r4_acc V c) (r4_ct V c)
    (iblk4 V c 0 t) (iblk4 V c 1 t) (iblk4 V c 2 t) (iblk4 V c 3 t) (iblk4 V c 4 t) (r4_row t)
    (r4_read0 (r4_E V c) t) (r4_read1 (r4_ub V c) t) (r4_read2 (r4_u V c) t) (r4_read3 (r4_acc V c) t)
    (r4_read4 (r4_ct V c) t) p q

/-! ## The row blocks tile the rows -/

/-- An entry of the first output's array is in point t's block iff, on each axis, its coordinate lies in the block's
    range: from block index × block size, one block size long. -/
theorem r4_mem_blk5 (t : Fin cfg4.N) (i : S10000x128.Idx) :
    i ∈ ((cfg4.win 5).blk t).view.set ↔ ∀ a : Fin 2, win4_5.index t a * S400x128.size a ≤ (i a).val
      ∧ (i a).val < win4_5.index t a * S400x128.size a + S400x128.size a := by
  show i ∈ ((View.whole (Pipeline.arrRef spec4 5)).slice (win4_5.rect t)).set ↔ _
  rw [View.set_slice_whole, Rect.mem_set_unit]
  exact Iff.rfl

/-- The same for the second output's. -/
theorem r4_mem_blk6 (t : Fin cfg4.N) (i : S10000x128.Idx) :
    i ∈ ((cfg4.win 6).blk t).view.set ↔ ∀ a : Fin 2, win4_6.index t a * S400x128.size a ≤ (i a).val
      ∧ (i a).val < win4_6.index t a * S400x128.size a + S400x128.size a := by
  show i ∈ ((View.whole (Pipeline.arrRef spec4 6)).slice (win4_6.rect t)).set ↔ _
  rw [View.set_slice_whole, Rect.mem_set_unit]
  exact Iff.rfl

/-- Row r is in the block of point r / 400, which writes back. -/
theorem r4_cover5 (i : S10000x128.Idx) :
    ∃ t : Fin cfg4.N, (cfg4.win 5).flush t = true ∧ i ∈ ((cfg4.win 5).blk t).view.set := by
  have hi0 : (i 0).val < 10000 := idx2_lt0 i
  have hi1 : (i 1).val < 128 := idx2_lt1 i
  have ht : (i 0).val / 400 < cfg4.N := Nat.lt_of_lt_of_eq (by omega) (show cfg4.N = 25 from N_4).symm
  obtain ⟨-, -, -, -, -, -, -, -, -, -, e0, e1, -⟩ := r4_idx_facts ⟨(i 0).val / 400, ht⟩
  refine ⟨⟨(i 0).val / 400, ht⟩, flush4_5 _, ?_⟩
  rw [r4_mem_blk5]
  intro a
  match a with
  | ⟨0, _⟩ =>
    show win4_5.index ⟨(i 0).val / 400, ht⟩ (0 : Fin 2) * 400 ≤ (i 0).val
      ∧ (i 0).val < win4_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win4_5.index ⟨(i 0).val / 400, ht⟩ (1 : Fin 2) * 128 ≤ (i 1).val
      ∧ (i 1).val < win4_5.index ⟨(i 0).val / 400, ht⟩ (1 : Fin 2) * 128 + 128
    rw [e1]; omega

theorem r4_cover6 (i : S10000x128.Idx) :
    ∃ t : Fin cfg4.N, (cfg4.win 6).flush t = true ∧ i ∈ ((cfg4.win 6).blk t).view.set := by
  have hi0 : (i 0).val < 10000 := idx2_lt0 i
  have hi1 : (i 1).val < 128 := idx2_lt1 i
  have ht : (i 0).val / 400 < cfg4.N := Nat.lt_of_lt_of_eq (by omega) (show cfg4.N = 25 from N_4).symm
  obtain ⟨-, -, -, -, -, -, -, -, -, -, -, -, e0, e1⟩ := r4_idx_facts ⟨(i 0).val / 400, ht⟩
  refine ⟨⟨(i 0).val / 400, ht⟩, flush4_6 _, ?_⟩
  rw [r4_mem_blk6]
  intro a
  match a with
  | ⟨0, _⟩ =>
    show win4_6.index ⟨(i 0).val / 400, ht⟩ (0 : Fin 2) * 400 ≤ (i 0).val
      ∧ (i 0).val < win4_6.index ⟨(i 0).val / 400, ht⟩ (0 : Fin 2) * 400 + 400
    rw [e0]; show (i 0).val / 400 * 400 ≤ (i 0).val ∧ (i 0).val < (i 0).val / 400 * 400 + 400; omega
  | ⟨1, _⟩ =>
    show win4_6.index ⟨(i 0).val / 400, ht⟩ (1 : Fin 2) * 128 ≤ (i 1).val
      ∧ (i 1).val < win4_6.index ⟨(i 0).val / 400, ht⟩ (1 : Fin 2) * 128 + 128
    rw [e1]; omega

/-! ## The two arrays after the region -/

/-- The first output after the region is u + E ub of the arrays the region found. -/
theorem final4_5 (c : Dev nD) :
    (dat4 (F := Ideal) V c).arrAt 5 cfg4.N
      = Bern.prop2 (V c (Pipeline.arrRef spec4 0) : Bern.Arr 10000 10000) (V c (Pipeline.arrRef spec4 1) : Bern.Arr 10000 128)
          (V c (Pipeline.arrRef spec4 2) : Bern.Arr 10000 128) :=
  (dat4 (F := Ideal) V c).arrAt_eq_of_cover 5 (Bern.prop2 (r4_E V c) (r4_ub V c) (r4_u V c))
    (fun t _ => r4_flushed5_eq V c t) r4_cover5

/-- The second output after the region is relu (acc + ct ⊙ (u + E ub)) of the arrays the region found. -/
theorem final4_6 (c : Dev nD) :
    (dat4 (F := Ideal) V c).arrAt 6 cfg4.N
      = Bern.relu (Bern.axpyRow (V c (Pipeline.arrRef spec4 3) : Bern.Arr 10000 128) (V c (Pipeline.arrRef spec4 4) : Bern.Arr 1 128)
          (Bern.prop2 (V c (Pipeline.arrRef spec4 0) : Bern.Arr 10000 10000) (V c (Pipeline.arrRef spec4 1) : Bern.Arr 10000 128)
            (V c (Pipeline.arrRef spec4 2) : Bern.Arr 10000 128))) :=
  (dat4 (F := Ideal) V c).arrAt_eq_of_cover 6
    (Bern.relu (Bern.axpyRow (r4_acc V c) (r4_ct V c) (Bern.prop2 (r4_E V c) (r4_ub V c) (r4_u V c))))
    (fun t _ => r4_flushed6_eq V c t) r4_cover6

end Cert.KernelIdeal.RegVal

end
-- ==== Proof.ChainA.lean ====
/-
  The kernel's program followed through its first layer: what each buffer the next step reads holds, as a function of
  the argument arrays. A host stretch applies its operations to what was there; a region leaves in each output array
  the function of its input arrays that the region's value lemma states, and every other buffer as it was.
-/
import proofs.«148114_g1589137899740_cont_week2b_1182_5_alg».proof.Proof.FrameKernelIdeal
import proofs.«148114_g1589137899740_cont_week2b_1182_5_alg».proof.Proof.Keep
import proofs.«148114_g1589137899740_cont_week2b_1182_5_alg».proof.Proof.ChainDefs
import proofs.«148114_g1589137899740_cont_week2b_1182_5_alg».proof.Proof.Spec
import proofs.«148114_g1589137899740_cont_week2b_1182_5_alg».proof.Proof.Coeffs
import proofs.«148114_g1589137899740_cont_week2b_1182_5_alg».proof.Proof.RegionMlp
import proofs.«148114_g1589137899740_cont_week2b_1182_5_alg».proof.Proof.RegionFirst
import proofs.«148114_g1589137899740_cont_week2b_1182_5_alg».proof.Proof.RegionProp
import proofs.«148114_g1589137899740_cont_week2b_1182_5_alg».proof.Proof.RegionProp3
import proofs.«148114_g1589137899740_cont_week2b_1182_5_alg».proof.Proof.RegionPropRelu

set_option maxRecDepth 16384

noncomputable section

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

namespace Cert.KernelIdeal.KVal

open Cert.KernelIdeal.RegVal Cert.KernelIdeal.HostVal

/-- A host stretch read at one buffer: the stretch's operations applied to the contents before it. -/
macro "host_read" ops:ident : tactic =>
  `(tactic| (show StableHlo.after $ops _ _ = _; simp only [$ops:ident]; after_results))

/-! ## Before region 0 -/

theorem w1_v2 (c : Dev nD) : W1 m ρ c (Proc.devRef .tc main_v2) = cCs m c := by
  host_read hostOps0
  exact coeffs_read _

theorem w1_v3 (c : Dev nD) : W1 m ρ c (Proc.devRef .tc main_v3) = fun i => ab1 m c (ix1 (i 1)) := by
  host_read hostOps0
  exact row_read _

theorem w1_v4 (c : Dev nD) : W1 m ρ c (Proc.devRef .tc main_v4) = fun i => ab2 m c (ix1 (i 1)) := by
  host_read hostOps0
  exact row_read _

/-! ## Region 0: the perceptron -/

theorem w2_v5 (c : Dev nD) : W2 m ρ c (Proc.devRef .tc main_v5) = cH0 m c := by
  refine (W2_arr m ρ c 5).trans ((final0_5 (V1 m ρ) c).trans ?_)
  show Bern.mlpR (W1 m ρ c (Proc.devRef .tc main_arg0)) (W1 m ρ c (Proc.devRef .tc main_arg2)) (W1 m ρ c (Proc.devRef .tc main_v3))
    (W1 m ρ c (Proc.devRef .tc main_arg4)) (W1 m ρ c (Proc.devRef .tc main_v4)) = _
  rw [at_main_arg0_1 m ρ c, at_main_arg2_1 m ρ c, at_main_arg4_1 m ρ c, w1_v3 m ρ c, w1_v4 m ρ c]
  rfl

theorem w2_v2 (c : Dev nD) : W2 m ρ c (Proc.devRef .tc main_v2) = cCs m c :=
  (at_main_v2_2 m ρ c).trans (w1_v2 m ρ c)

/-! ## Layer 0, pass 1 (region 1: it also writes E) -/

theorem w3_v9 (c : Dev nD) : W3 m ρ c (Proc.devRef .tc main_v9) = lA0 m c 0 (cH0 m c) := by
  host_read hostOps1
  rw [w2_v2 m ρ c, w2_v5 m ρ c]
  exact (congrArg (fun t => mulf t (cH0 m c)) (pick_full_0_0 (cCs m c))).trans (scal_read _ _)

theorem w3_v10 (c : Dev nD) : W3 m ρ c (Proc.devRef .tc main_v10) = cH0 m c := by
  host_read hostOps1
  rw [w2_v5 m ρ c]
  exact trunc_read _

theorem w3_v13 (c : Dev nD) : W3 m ρ c (Proc.devRef .tc main_v13) = fun _ => cC m c 0 1 := by
  host_read hostOps1
  rw [w2_v2 m ρ c]
  exact pick_row_0_1 (cCs m c)

theorem w3_v5 (c : Dev nD) : W3 m ρ c (Proc.devRef .tc main_v5) = cH0 m c := by
  host_read hostOps1
  exact w2_v5 m ρ c

theorem w4_E (c : Dev nD) : W4 m ρ c (Proc.devRef .tc main_v14_2) = cE m c := by
  refine (W4_arr m ρ c 7).trans ((final1_7 (V3 m ρ) c).trans ?_)
  show Bern.subId (W3 m ρ c (Proc.devRef .tc main_arg1)) = _
  rw [at_main_arg1_3 m ρ c]
  rfl

theorem w4_u (c : Dev nD) : W4 m ρ c (Proc.devRef .tc main_v14_0) = lU1 m c (cH0 m c) := by
  refine (W4_arr m ρ c 5).trans ((final1_5 (V3 m ρ) c).trans ?_)
  show Bern.prop2 (Bern.subId (W3 m ρ c (Proc.devRef .tc main_arg1))) (W3 m ρ c (Proc.devRef .tc main_v10)) (W3 m ρ c (Proc.devRef .tc main_v5)) = _
  rw [at_main_arg1_3 m ρ c, w3_v10 m ρ c, w3_v5 m ρ c]
  rfl

theorem w4_a (c : Dev nD) : W4 m ρ c (Proc.devRef .tc main_v14_1) = lA1 m c 0 (cH0 m c) := by
  refine (W4_arr m ρ c 6).trans ((final1_6 (V3 m ρ) c).trans ?_)
  show Bern.axpyRow (W3 m ρ c (Proc.devRef .tc main_v9)) (W3 m ρ c (Proc.devRef .tc main_v13))
    (Bern.prop2 (Bern.subId (W3 m ρ c (Proc.devRef .tc main_arg1))) (W3 m ρ c (Proc.devRef .tc main_v10)) (W3 m ρ c (Proc.devRef .tc main_v5))) = _
  rw [at_main_arg1_3 m ρ c, w3_v9 m ρ c, w3_v10 m ρ c, w3_v13 m ρ c, w3_v5 m ρ c]
  rfl

theorem w4_v2 (c : Dev nD) : W4 m ρ c (Proc.devRef .tc main_v2) = cCs m c :=
  (at_main_v2_4 m ρ c).trans (w1_v2 m ρ c)

/-! ## Layer 0, pass 2 (region 2) -/

theorem w5_v15 (c : Dev nD) : W5 m ρ c (Proc.devRef .tc main_v15) = lU1 m c (cH0 m c) := by
  host_read hostOps2
  rw [w4_u m ρ c]
  exact trunc_read _

theorem w5_v18 (c : Dev nD) : W5 m ρ c (Proc.devRef .tc main_v18) = fun _ => cC m c 0 2 := by
  host_read hostOps2
  rw [w4_v2 m ρ c]
  exact pick_row_0_2 (cCs m c)

theorem w5_u (c : Dev nD) : W5 m ρ c (Proc.devRef .tc main_v14_0) = lU1 m c (cH0 m c) := by
  host_read hostOps2
  exact w4_u m ρ c

theorem w5_a (c : Dev nD) : W5 m ρ c (Proc.devRef .tc main_v14_1) = lA1 m c 0 (cH0 m c) := by
  host_read hostOps2
  exact w4_a m ρ c

theorem w5_E (c : Dev nD) : W5 m ρ c (Proc.devRef .tc main_v14_2) = cE m c :=
  (at_main_v14_2_5 m ρ c).trans (w4_E m ρ c)

theorem w6_u (c : Dev nD) : W6 m ρ c (Proc.devRef .tc main_v19_0) = lU2 m c (cH0 m c) := by
  refine (W6_arr m ρ c 5).trans ((final2_5 (V5 m ρ) c).trans ?_)
  show Bern.prop2 (W5 m ρ c (Proc.devRef .tc main_v14_2)) (W5 m ρ c (Proc.devRef .tc main_v15)) (W5 m ρ c (Proc.devRef .tc main_v14_0)) = _
  rw [w5_E m ρ c, w5_v15 m ρ c, w5_u m ρ c]
  rfl

theorem w6_a (c : Dev nD) : W6 m ρ c (Proc.devRef .tc main_v19_1) = lA2 m c 0 (cH0 m c) := by
  refine (W6_arr m ρ c 6).trans ((final2_6 (V5 m ρ) c).trans ?_)
  show Bern.axpyRow (W5 m ρ c (Proc.devRef .tc main_v14_1)) (W5 m ρ c (Proc.devRef .tc main_v18))
    (Bern.prop2 (W5 m ρ c (Proc.devRef .tc main_v14_2)) (W5 m ρ c (Proc.devRef .tc main_v15)) (W5 m ρ c (Proc.devRef .tc main_v14_0))) = _
  rw [w5_E m ρ c, w5_v15 m ρ c, w5_u m ρ c, w5_a m ρ c, w5_v18 m ρ c]
  rfl

theorem w6_v2 (c : Dev nD) : W6 m ρ c (Proc.devRef .tc main_v2) = cCs m c :=
  (at_main_v2_6 m ρ c).trans (w1_v2 m ρ c)

/-! ## Layer 0, pass 3 (region 3) -/

theorem w7_v20 (c : Dev nD) : W7 m ρ c (Proc.devRef .tc main_v20) = lU2 m c (cH0 m c) := by
  host_read hostOps3
  rw [w6_u m ρ c]
  exact trunc_read _

theorem w7_v23 (c : Dev nD) : W7 m ρ c (Proc.devRef .tc main_v23) = fun _ => cC m c 0 3 := by
  host_read hostOps3
  rw [w6_v2 m ρ c]
  exact pick_row_0_3 (cCs m c)

theorem w7_u (c : Dev nD) : W7 m ρ c (Proc.devRef .tc main_v19_0) = lU2 m c (cH0 m c) := by
  host_read hostOps3
  exact w6_u m ρ c

theorem w7_a (c : Dev nD) : W7 m ρ c (Proc.devRef .tc main_v19_1) = lA2 m c 0 (cH0 m c) := by
  host_read hostOps3
  exact w6_a m ρ c

theorem w7_E (c : Dev nD) : W7 m ρ c (Proc.devRef .tc main_v14_2) = cE m c :=
  (at_main_v14_2_7 m ρ c).trans (w4_E m ρ c)

theorem w8_u (c : Dev nD) : W8 m ρ c (Proc.devRef .tc main_v24_0) = lU3 m c (cH0 m c) := by
  refine (W8_arr m ρ c 5).trans ((final3_5 (V7 m ρ) c).trans ?_)
  show Bern.prop2 (W7 m ρ c (Proc.devRef .tc main_v14_2)) (W7 m ρ c (Proc.devRef .tc main_v20)) (W7 m ρ c (Proc.devRef .tc main_v19_0)) = _
  rw [w7_E m ρ c, w7_v20 m ρ c, w7_u m ρ c]
  rfl

theorem w8_a (c : Dev nD) : W8 m ρ c (Proc.devRef .tc main_v24_1) = lA3 m c 0 (cH0 m c) := by
  refine (W8_arr m ρ c 6).trans ((final3_6 (V7 m ρ) c).trans ?_)
  show Bern.axpyRow (W7 m ρ c (Proc.devRef .tc main_v19_1)) (W7 m ρ c (Proc.devRef .tc main_v23))
    (Bern.prop2 (W7 m ρ c (Proc.devRef .tc main_v14_2)) (W7 m ρ c (Proc.devRef .tc main_v20)) (W7 m ρ c (Proc.devRef .tc main_v19_0))) = _
  rw [w7_E m ρ c, w7_v20 m ρ c, w7_u m ρ c, w7_a m ρ c, w7_v23 m ρ c]
  rfl

theorem w8_v2 (c : Dev nD) : W8 m ρ c (Proc.devRef .tc main_v2) = cCs m c :=
  (at_main_v2_8 m ρ c).trans (w1_v2 m ρ c)

/-! ## Layer 0, pass 4 (region 4, with the closing relu) -/

theorem w9_v25 (c : Dev nD) : W9 m ρ c (Proc.devRef .tc main_v25) = lU3 m c (cH0 m c) := by
  host_read hostOps4
  rw [w8_u m ρ c]
  exact trunc_read _

theorem w9_v28 (c : Dev nD) : W9 m ρ c (Proc.devRef .tc main_v28) = fun _ => cC m c 0 4 := by
  host_read hostOps4
  rw [w8_v2 m ρ c]
  exact pick_row_0_4 (cCs m c)

theorem w9_u (c : Dev nD) : W9 m ρ c (Proc.devRef .tc main_v24_0) = lU3 m c (cH0 m c) := by
  host_read hostOps4
  exact w8_u m ρ c

theorem w9_a (c : Dev nD) : W9 m ρ c (Proc.devRef .tc main_v24_1) = lA3 m c 0 (cH0 m c) := by
  host_read hostOps4
  exact w8_a m ρ c

theorem w9_E (c : Dev nD) : W9 m ρ c (Proc.devRef .tc main_v14_2) = cE m c :=
  (at_main_v14_2_9 m ρ c).trans (w4_E m ρ c)

/-- The first layer's output. -/
theorem w10_h1 (c : Dev nD) : W10 m ρ c (Proc.devRef .tc main_v29_1) = cH1 m c := by
  refine (W10_arr m ρ c 6).trans ((final4_6 (V9 m ρ) c).trans ?_)
  show Bern.relu (Bern.axpyRow (W9 m ρ c (Proc.devRef .tc main_v24_1)) (W9 m ρ c (Proc.devRef .tc main_v28))
    (Bern.prop2 (W9 m ρ c (Proc.devRef .tc main_v14_2)) (W9 m ρ c (Proc.devRef .tc main_v25)) (W9 m ρ c (Proc.devRef .tc main_v24_0)))) = _
  rw [w9_E m ρ c, w9_v25 m ρ c, w9_u m ρ c, w9_a m ρ c, w9_v28 m ρ c]
  rfl

theorem w10_v2 (c : Dev nD) : W10 m ρ c (Proc.devRef .tc main_v2) = cCs m c :=
  (at_main_v2_10 m ρ c).trans (w1_v2 m ρ c)

end Cert.KernelIdeal.KVal

end
-- ==== Proof.RegionProp5.lean ====
/-
  Region 5 of the filter: one propagation pass and one accumulation.

  The region's grid has 25 points. At point t the body reads rows 400 t … 400 t + 399 (every column) of the matrix E, of
  the features u and of the accumulator acc, and the whole of the features' second copy ub and of the coefficient row
  ct, and writes rows 400 t … 400 t + 399 of two arrays. With r = 400 t + p,
      first array   [r, q] = u[r, q] + ∑ l, E[r, l] · ub[l, q]                         (u + E ub),
      second array  [r, q] = acc[r, q] + ct[0, q] · (u + E ub)[r, q].
  The 25 row blocks tile the 10000 rows, so after the region the first array is `Bern.prop2 E ub u` and the second is
  `Bern.axpyRow acc ct (Bern.prop2 E ub u)` of the arrays as the region found them.
-/
import proofs.«148114_g1589137899740_cont_week2b_1182_5_alg».proof.Proof.FrameKernelIdeal
import proofs.«148114_g1589137899740_cont_week2b_1182_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

/-! ## The body's arithmetic at an entry -/

/-- The product's left operand at output entry j and contraction position k: row j₀ … -/
theorem r5_lhs_0 (j : S400x128.Idx) (k : dot_S400x10000_S10000x128_S400x128_1_0_0_1_n_n.contr.Idx) :
    ((dot_S400x10000_S10000x128_S400x128_1_0_0_1_n_n.lhsIdx j k 0 : Fin _) : ℕ) = (j 0 : ℕ) := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

/-- … column k; -/
theorem r5_lhs_1 (j : S400x128.Idx) (k : dot_S400x10000_S10000x128_S400x128_1_0_0_1_n_n.contr.Idx) :
    ((dot_S400x10000_S10000x128_S400x128_1_0_0_1_n_n.lhsIdx j k 1 : Fin _) : ℕ) = (k ⟨0, by decide⟩ : ℕ) :=
  dot_S400x10000_S10000x128_S400x128_1_0_0_1_n_n.lhsIdx_val_of_single (cl := 1) rfl j k

/-- the right operand's: row k … -/
theorem r5_rhs_0 (j : S400x128.Idx) (k : dot_S400x10000_S10000x128_S400x128_1_0_0_1_n_n.contr.Idx) :
    ((dot_S400x10000_S10000x128_S400x128_1_0_0_1_n_n.rhsIdx j k 0 : Fin _) : ℕ) = (k ⟨0, by decide⟩ : ℕ) :=
  dot_S400x10000_S10000x128_S400x128_1_0_0_1_n_n.rhsIdx_val_of_single (cr := 0) rfl j k

/-- … column j₁. -/
theorem r5_rhs_1 (j : S400x128.Idx) (k : dot_S400x10000_S10000x128_S400x128_1_0_0_1_n_n.contr.Idx) :
    ((dot_S400x10000_S10000x128_S400x128_1_0_0_1_n_n.rhsIdx j k 1 : Fin _) : ℕ) = (j 1 : ℕ) := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product of a [400, 10000] block and a [10000, 128] array, accumulated from zero, at (p, q):
    ∑ l, a[p, l] · b[l, q]. -/
theorem r5_matmul_apply (a : FVec Ideal S400x10000 .bf16) (b : FVec Ideal S10000x128 .bf16) (p : Fin 400) (q : Fin 128) :
    matmul dot_S400x10000_S10000x128_S400x128_1_0_0_1_n_n none a b (constant S400x128 .f32 0x00000000#32) (ix2 p q)
      = ∑ l : Fin 10000, a (ix2 p l) * b (ix2 l q) := by
  refine (Ideal.matmul_constant_zero_apply dot_S400x10000_S10000x128_S400x128_1_0_0_1_n_n none a b (ix2 p q)).trans ?_
  rw [← Equiv.sum_comp (contrEquiv1 dot_S400x10000_S10000x128_S400x128_1_0_0_1_n_n 10000 rfl rfl).symm]
  refine Finset.sum_congr rfl fun l _ => ?_
  have hk := contrEquiv1_symm_val dot_S400x10000_S10000x128_S400x128_1_0_0_1_n_n 10000 rfl rfl l
  congr 1
  · refine congrArg a (funext fun d => Fin.ext ?_)
    match d with
    | ⟨0, _⟩ => exact r5_lhs_0 _ _
    | ⟨1, _⟩ => exact (r5_lhs_1 _ _).trans hk
  · refine congrArg b (funext fun d => Fin.ext ?_)
    match d with
    | ⟨0, _⟩ => exact (r5_rhs_0 _ _).trans hk
    | ⟨1, _⟩ => exact r5_rhs_1 _ _

/-- A [1, 128] row broadcast to [400, 128] reads, at (p, q), the row's entry of column q. -/
theorem r5_bcast_apply (v : FVec Ideal S1x128 .f32) (p : Fin 400) (q : Fin 128) :
    broadcastTo S400x128 v broadcasts_S1x128_S400x128 (ix2 p q) = v (ix2 0 q) := by
  refine broadcastTo_apply v broadcasts_S1x128_S400x128 (ix2 p q) (ix2 0 q) fun a => ?_
  match a with
  | ⟨0, _⟩ => rfl
  | ⟨1, _⟩ => rfl

/-- The propagated block at (p, q): the features' entry plus row p of the matrix block times column q of the
    features' second copy. -/
theorem r5_pay1_apply (vu : Vec Ideal S400x128 .f32) (vE : Vec Ideal S400x10000 .bf16) (vb : Vec Ideal S10000x128 .bf16)
    (p : Fin 400) (q : Fin 128) :
    k5_pay1 vu vE vb (ix2 p q) = vu (ix2 p q) + ∑ l : Fin 10000, vE (ix2 p l) * vb (ix2 l q) := by
  unfold k5_pay1
  simp only [shapeCast_self]
  refine (addf_apply _ _ (ix2 p q)).trans ?_
  rw [r5_matmul_apply]

/-- The accumulated block at (p, q): the accumulator's entry plus the coefficient row's entry of column q times the
    propagated entry. -/
theorem r5_pay2_apply (vu : Vec Ideal S400x128 .f32) (vE : Vec Ideal S400x10000 .bf16) (vb : Vec Ideal S10000x128 .bf16)
    (va : Vec Ideal S400x128 .f32) (vc : Vec Ideal S1x128 .f32) (p : Fin 400) (q : Fin 128) :
    k5_pay2 vu vE vb va vc (ix2 p q) = va (ix2 p q) + vc (ix2 0 q) * k5_pay1 vu vE vb (ix2 p q) := by
  unfold k5_pay2
  simp only [shapeCast_self]
  refine (addf_apply _ _ (ix2 p q)).trans ?_
  refine congrArg (va (ix2 p q) + ·) ?_
  refine (mulf_apply _ _ (ix2 p q)).trans ?_
  rw [r5_bcast_apply]

/-- The propagated block, from blocks that are rows r p of E, of u, and the whole of ub, is those rows of u + E ub. -/
theorem r5_point_prop (E : Bern.Arr 10000 10000) (ub u : Bern.Arr 10000 128)
    (xE : Vec Ideal S400x10000 .bf16) (xb : Vec Ideal S10000x128 .bf16) (xu : Vec Ideal S400x128 .f32) (r : Fin 400 → Fin 10000)
    (hE : ∀ p l, xE (ix2 p l) = E (ix2 (r p) l)) (hb : ∀ l q, xb (ix2 l q) = ub (ix2 l q))
    (hu : ∀ p q, xu (ix2 p q) = u (ix2 (r p) q)) (p : Fin 400) (q : Fin 128) :
    k5_pay1 xu xE xb (ix2 p q) = Bern.prop2 E ub u (ix2 (r p) q) := by
  rw [r5_pay1_apply, hu]
  show _ = u (ix2 (r p) q) + Bern.mm E ub (ix2 (r p) q)
  rw [Bern.mm_apply]
  refine congrArg (u (ix2 (r p) q) + ·) (Finset.sum_congr rfl fun l _ => ?_)
  rw [hE, hb]

/-- The accumulated block, from those and rows r p of acc and the whole row ct, is those rows of
    acc + ct ⊙ (u + E ub). -/
theorem r5_point_acc (E : Bern.Arr 10000 10000) (ub u acc : Bern.Arr 10000 128) (ct : Bern.Arr 1 128)
    (xE : Vec Ideal S400x10000 .bf16) (xb : Vec Ideal S10000x128 .bf16) (xu xa : Vec Ideal S400x128 .f32) (xc : Vec Ideal S1x128 .f32)
    (r : Fin 400 → Fin 10000)
    (hE : ∀ p l, xE (ix2 p l) = E (ix2 (r p) l)) (hb : ∀ l q, xb (ix2 l q) = ub (ix2 l q))
    (hu : ∀ p q, xu (ix2 p q) = u (ix2 (r p) q)) (ha : ∀ p q, xa (ix2 p q) = acc (ix2 (r p) q))
    (hc : ∀ q, xc (ix2 0 q) = ct (ix2 0 q)) (p : Fin 400) (q : Fin 128) :
    k5_pay2 xu xE xb xa xc (ix2 p q) = Bern.axpyRow acc ct (Bern.prop2 E ub u) (ix2 (r p) q) := by
  rw [r5_pay2_apply, ha, hc, r5_point_prop E ub u xE xb xu r hE hb hu]
  rfl

/-! ## The grid: 25 points; point t's blocks are rows 400 t … 400 t + 399 -/

theorem r5_hz : (![0, 0] : Fin 2 → Nat) = fun _ => 0 := funext fun a => by fin_cases a <;> rfl

/-- The block indices of the seven windows at every point: (t, 0) for the matrix, the features, the accumulator and the two
    outputs; (0, 0) for the features' second copy and the coefficient row. -/
theorem r5_idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

theorem r5_lt (t : Fin cfg5.N) : t.val < 25 := Nat.lt_of_lt_of_eq t.isLt (show cfg5.N = 25 from N_5)

/-- Row 400 t + p: the array's row under row p of the block at point t. -/
noncomputable def r5_row (t : Fin cfg5.N) (p : Fin 400) : Fin 10000 :=
  ⟨400 * t.val + p.val, by have := r5_lt t; have := p.isLt; omega⟩

/-- The matrix's block at point t is rows 400 t … of the matrix, every column. -/
theorem r5_read0 (A : Bern.Arr 10000 10000) (t : Fin cfg5.N) (p : Fin 400) (l : Fin 10000) :
    (((cfg5.win 0).blk t).view.read (Elt Ideal) A : Vec Ideal S400x10000 .bf16) (ix2 p l) = A (ix2 (r5_row t p) l) := by
  obtain ⟨e0, e1, -⟩ := r5_idx_facts t
  rw [View.read_apply]
  show A _ = A _
  refine congrArg A (funext fun a => Fin.ext ?_)
  match a with
  | ⟨0, _⟩ => show win5_0.index t (0 : Fin 2) * 400 + 1 * p.val = 400 * t.val + p.val; rw [e0]; omega
  | ⟨1, _⟩ => show win5_0.index t (1 : Fin 2) * 10000 + 1 * l.val = l.val; rw [e1]; omega

/-- The features' second copy is staged whole at every point. -/
theorem r5_read1 (A : Bern.Arr 10000 128) (t : Fin cfg5.N) (l : Fin 10000) (q : Fin 128) :
    (((cfg5.win 1).blk t).view.read (Elt Ideal) A : Vec Ideal S10000x128 .bf16) (ix2 l q) = A (ix2 l q) := by
  obtain ⟨-, -, e0, e1, -⟩ := r5_idx_facts t
  rw [View.read_apply]
  show A _ = A _
  refine congrArg A (funext fun a => Fin.ext ?_)
  match a with
  | ⟨0, _⟩ => show win5_1.index t (0 : Fin 2) * 10000 + 1 * l.val = l.val; rw [e0]; omega
  | ⟨1, _⟩ => show win5_1.index t (1 : Fin 2) * 128 + 1 * q.val = q.val; rw [e1]; omega

/-- The features' block at point t is rows 400 t … of the features. -/
theorem r5_read2 (A : Bern.Arr 10000 128) (t : Fin cfg5.N) (p : Fin 400) (q : Fin 128) :
    (((cfg5.win 2).blk t).view.read (Elt Ideal) A : Vec Ideal S400x128 .f32) (ix2 p q) = A (ix2 (r5_row t p) q) := by
  obtain ⟨-, -, -, -, e0, e1, -⟩ := r5_idx_facts t
  rw [View.read_apply]
  show A _ = A _
  refine congrArg A (funext fun a => Fin.ext ?_)
  match a with
  | ⟨0, _⟩ => show win5_2.index t (0 : Fin 2) * 400 + 1 * p.val = 400 * t.val + p.val; rw [e0]; omega
  | ⟨1, _⟩ => show win5_2.index t (1 : Fin 2) * 128 + 1 * q.val = q.val; rw [e1]; omega

/-- The accumulator's block at point t is rows 400 t … of the accumulator. -/
theorem r5_read3 (A : Bern.Arr 10000 128) (t : Fin cfg5.N) (p : Fin 400) (q : Fin 128) :
    (((cfg5.win 3).blk t).view.read (Elt Ideal) A : Vec Ideal S400x128 .f32) (ix2 p q) = A (ix2 (r5_row t p) q) := by
  obtain ⟨-, -, -, -, -, -, e0, e1, -⟩ := r5_idx_facts t
  rw [View.read_apply]
  show A _ = A _
  refine congrArg A (funext fun a => Fin.ext ?_)
  match a with
  | ⟨0, _⟩ => show win5_3.index t (0 : Fin 2) * 400 + 1 * p.val = 400 * t.val + p.val; rw [e0]; omega
  | ⟨1, _⟩ => show win5_3.index t (1 : Fin 2) * 128 + 1 * q.val = q.val; rw [e1]; omega

/-- The coefficient row is staged whole at every point. -/
theorem r5_read4 (A : Bern.Arr 1 128) (t : Fin cfg5.N) (q : Fin 128) :
    (((cfg5.win 4).blk t).view.read (Elt Ideal) A : Vec Ideal S1x128 .f32) (ix2 0 q) = A (ix2 0 q) := by
  obtain ⟨-, -, -, -, -, -, -, -, e0, e1, -⟩ := r5_idx_facts t
  rw [View.read_apply]
  show A _ = A _
  refine congrArg A (funext fun a => Fin.ext ?_)
  match a with
  | ⟨0, _⟩ => show win5_4.index t (0 : Fin 2) * 1 + 1 * 0 = 0; rw [e0]
  | ⟨1, _⟩ => show win5_4.index t (1 : Fin 2) * 128 + 1 * q.val = q.val; rw [e1]; omega

/-- The first output's block at point t is rows 400 t … of its array. -/
theorem r5_read5 (A : Bern.Arr 10000 128) (t : Fin cfg5.N) (p : Fin 400) (q : Fin 128) :
    (((cfg5.win 5).blk t).view.read (Elt Ideal) A : Vec Ideal S400x128 .f32) (ix2 p q) = A (ix2 (r5_row t p) q) := by
  obtain ⟨-, -, -, -, -, -, -, -, -, -, e0, e1, -⟩ := r5_idx_facts t
  rw [View.read_apply]
  show A _ = A _
  refine congrArg A (funext fun a => Fin.ext ?_)
  match a with
  | ⟨0, _⟩ => show win5_5.index t (0 : Fin 2) * 400 + 1 * p.val = 400 * t.val + p.val; rw [e0]; omega
  | ⟨1, _⟩ => show win5_5.index t (1 : Fin 2) * 128 + 1 * q.val = q.val; rw [e1]; omega

/-- The second output's block at point t is rows 400 t … of its array. -/
theorem r5_read6 (A : Bern.Arr 10000 128) (t : Fin cfg5.N) (p : Fin 400) (q : Fin 128) :
    (((cfg5.win 6).blk t).view.read (Elt Ideal) A : Vec Ideal S400x128 .f32) (ix2 p q) = A (ix2 (r5_row t p) q) := by
  obtain ⟨-, -, -, -, -, -, -, -, -, -, -, -, e0, e1⟩ := r5_idx_facts t
  rw [View.read_apply]
  show A _ = A _
  refine congrArg A (funext fun a => Fin.ext ?_)
  match a with
  | ⟨0, _⟩ => show win5_6.index t (0 : Fin 2) * 400 + 1 * p.val = 400 * t.val + p.val; rw [e0]; omega
  | ⟨1, _⟩ => show win5_6.index t (1 : Fin 2) * 128 + 1 * q.val = q.val; rw [e1]; omega

/-! ## The arrays the region reads, as it finds them -/

/-- The matrix E (window 0's array). -/
noncomputable abbrev r5_E (c : Dev nD) : Bern.Arr 10000 10000 := V c (Pipeline.arrRef spec5 0)
/-- The features' second copy, the product's operand (window 1's array). -/
noncomputable abbrev r5_ub (c : Dev nD) : Bern.Arr 10000 128 := V c (Pipeline.arrRef spec5 1)
/-- The features (window 2's array). -/
noncomputable abbrev r5_u (c : Dev nD) : Bern.Arr 10000 128 := V c (Pipeline.arrRef spec5 2)
/-- The accumulator (window 3's array). -/
noncomputable abbrev r5_acc (c : Dev nD) : Bern.Arr 10000 128 := V c (Pipeline.arrRef spec5 3)
/-- The coefficient row (window 4's array). -/
noncomputable abbrev r5_ct (c : Dev nD) : Bern.Arr 1 128 := V c (Pipeline.arrRef spec5 4)

/-! ## What each point writes back -/

/-- Point t writes rows 400 t … 400 t + 399 of u + E ub to the first output. -/
theorem r5_flushed5_eq (c : Dev nD) (t : Fin cfg5.N) :
    (dat5 (F := Ideal) V c).flushed 5 t
      = ((cfg5.win 5).blk t).view.read (Elt Ideal) (Bern.prop2 (r5_E V c) (r5_ub V c) (r5_u V c)) := by
  show (cfg5.win 5).cut (grid5.coords t) ((dat5 (F := Ideal) V c).after 5 t) = _
  rw [after5_5]
  unfold out5_5
  rw [View.canon_unit_zero r5_hz]
  simp only [View.ld_unit_zero (S := S400x128) r5_hz, View.ld_unit_zero (S := S400x10000) r5_hz,
    View.ld_unit_zero (S := S10000x128) r5_hz]
  funext j
  obtain ⟨p, q, rfl⟩ : ∃ (p : Fin 400) (q : Fin 128), j = ix2 p q := ⟨j 0, j 1, eq_ix2 j⟩
  refine Eq.trans ?_ (r5_read5 (Bern.prop2 (r5_E V c) (r5_ub V c) (r5_u V c)) t p q).symm
  exact r5_point_prop (r5_E V c) (r5_ub V c) (r5_u V c) (iblk5 V c 0 t) (iblk5 V c 1 t) (iblk5 V c 2 t) (r5_row t)
    (r5_read0 (r5_E V c) t) (r5_read1 (r5_ub V c) t) (r5_read2 (r5_u V c) t) p q

/-- Point t writes rows 400 t … 400 t + 399 of acc + ct ⊙ (u + E ub) to the second output. -/
theorem r5_flushed6_eq (c : Dev nD) (t : Fin cfg5.N) :
    (dat5 (F := Ideal) V c).flushed 6 t
      = ((cfg5.win 6).blk t).view.read (Elt Ideal)
          (Bern.axpyRow (r5_acc V c) (r5_ct V c) (Bern.prop2 (r5_E V c) (r5_ub V c) (r5_u V c))) := by
  show (cfg5.win 6).cut (grid5.coords t) ((dat5 (F := Ideal) V c).after 6 t) = _
  rw [after5_6]
  unfold out5_6
  rw [View.canon_unit_zero r5_hz]
  simp only [View.ld_unit_zero (S := S400x128) r5_hz, View.ld_unit_zero (S := S400x10000) r5_hz,
    View.ld_unit_zero (S := S10000x128) r5_hz, View.ld_unit_zero (S := S1x128) r5_hz]
  funext j
  obtain ⟨p, q, rfl⟩ : ∃ (p : Fin 400) (q : Fin 128), j = ix2 p q := ⟨j 0, j 1, eq_ix2 j⟩
  refine Eq.trans ?_ (r5_read6 (Bern.axpyRow (r5_acc V c) (r5_ct V c) (Bern.prop2 (r5_E V c) (r5_ub V c) (r5_u V c))) t p q).symm
  exact r5_point_acc (r5_E V c) (r5_ub V c) (r5_u V c) (r5_acc V c) (r5_ct V c)
    (iblk5 V c 0 t) (iblk5 V c 1 t) (iblk5 V c 2 t) (iblk5 V c 3 t) (iblk5 V c 4 t) (r5_row t)
    (r5_read0 (r5_E V c) t) (r5_read1 (r5_ub V c) t) (r5_read2 (r5_u V c) t) (r5_read3 (r5_acc V c) t)
    (r5_read4 (r5_ct V c) t) p q

/-! ## The row blocks tile the rows -/

/-- An entry of the first output's array is in point t's block iff, on each axis, its coordinate lies in the block's
    range: from block index × block size, one block size long. -/
theorem r5_mem_blk5 (t : Fin cfg5.N) (i : S10000x128.Idx) :
    i ∈ ((cfg5.win 5).blk t).view.set ↔ ∀ a : Fin 2, win5_5.index t a * S400x128.size a ≤ (i a).val
      ∧ (i a).val < win5_5.index t a * S400x128.size a + S400x128.size a := by
  show i ∈ ((View.whole (Pipeline.arrRef spec5 5)).slice (win5_5.rect t)).set ↔ _
  rw [View.set_slice_whole, Rect.mem_set_unit]
  exact Iff.rfl

/-- The same for the second output's. -/
theorem r5_mem_blk6 (t : Fin cfg5.N) (i : S10000x128.Idx) :
    i ∈ ((cfg5.win 6).blk t).view.set ↔ ∀ a : Fin 2, win5_6.index t a * S400x128.size a ≤ (i a).val
      ∧ (i a).val < win5_6.index t a * S400x128.size a + S400x128.size a := by
  show i ∈ ((View.whole (Pipeline.arrRef spec5 6)).slice (win5_6.rect t)).set ↔ _
  rw [View.set_slice_whole, Rect.mem_set_unit]
  exact Iff.rfl

/-- Row r is in the block of point r / 400, which writes back. -/
theorem r5_cover5 (i : S10000x128.Idx) :
    ∃ t : Fin cfg5.N, (cfg5.win 5).flush t = true ∧ i ∈ ((cfg5.win 5).blk t).view.set := by
  have hi0 : (i 0).val < 10000 := idx2_lt0 i
  have hi1 : (i 1).val < 128 := idx2_lt1 i
  have ht : (i 0).val / 400 < cfg5.N := Nat.lt_of_lt_of_eq (by omega) (show cfg5.N = 25 from N_5).symm
  obtain ⟨-, -, -, -, -, -, -, -, -, -, e0, e1, -⟩ := r5_idx_facts ⟨(i 0).val / 400, ht⟩
  refine ⟨⟨(i 0).val / 400, ht⟩, flush5_5 _, ?_⟩
  rw [r5_mem_blk5]
  intro a
  match a with
  | ⟨0, _⟩ =>
    show win5_5.index ⟨(i 0).val / 400, ht⟩ (0 : Fin 2) * 400 ≤ (i 0).val
      ∧ (i 0).val < win5_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win5_5.index ⟨(i 0).val / 400, ht⟩ (1 : Fin 2) * 128 ≤ (i 1).val
      ∧ (i 1).val < win5_5.index ⟨(i 0).val / 400, ht⟩ (1 : Fin 2) * 128 + 128
    rw [e1]; omega

theorem r5_cover6 (i : S10000x128.Idx) :
    ∃ t : Fin cfg5.N, (cfg5.win 6).flush t = true ∧ i ∈ ((cfg5.win 6).blk t).view.set := by
  have hi0 : (i 0).val < 10000 := idx2_lt0 i
  have hi1 : (i 1).val < 128 := idx2_lt1 i
  have ht : (i 0).val / 400 < cfg5.N := Nat.lt_of_lt_of_eq (by omega) (show cfg5.N = 25 from N_5).symm
  obtain ⟨-, -, -, -, -, -, -, -, -, -, -, -, e0, e1⟩ := r5_idx_facts ⟨(i 0).val / 400, ht⟩
  refine ⟨⟨(i 0).val / 400, ht⟩, flush5_6 _, ?_⟩
  rw [r5_mem_blk6]
  intro a
  match a with
  | ⟨0, _⟩ =>
    show win5_6.index ⟨(i 0).val / 400, ht⟩ (0 : Fin 2) * 400 ≤ (i 0).val
      ∧ (i 0).val < win5_6.index ⟨(i 0).val / 400, ht⟩ (0 : Fin 2) * 400 + 400
    rw [e0]; show (i 0).val / 400 * 400 ≤ (i 0).val ∧ (i 0).val < (i 0).val / 400 * 400 + 400; omega
  | ⟨1, _⟩ =>
    show win5_6.index ⟨(i 0).val / 400, ht⟩ (1 : Fin 2) * 128 ≤ (i 1).val
      ∧ (i 1).val < win5_6.index ⟨(i 0).val / 400, ht⟩ (1 : Fin 2) * 128 + 128
    rw [e1]; omega

/-! ## The two arrays after the region -/

/-- The first output after the region is u + E ub of the arrays the region found. -/
theorem final5_5 (c : Dev nD) :
    (dat5 (F := Ideal) V c).arrAt 5 cfg5.N
      = Bern.prop2 (V c (Pipeline.arrRef spec5 0) : Bern.Arr 10000 10000) (V c (Pipeline.arrRef spec5 1) : Bern.Arr 10000 128)
          (V c (Pipeline.arrRef spec5 2) : Bern.Arr 10000 128) :=
  (dat5 (F := Ideal) V c).arrAt_eq_of_cover 5 (Bern.prop2 (r5_E V c) (r5_ub V c) (r5_u V c))
    (fun t _ => r5_flushed5_eq V c t) r5_cover5

/-- The second output after the region is acc + ct ⊙ (u + E ub) of the arrays the region found. -/
theorem final5_6 (c : Dev nD) :
    (dat5 (F := Ideal) V c).arrAt 6 cfg5.N
      = Bern.axpyRow (V c (Pipeline.arrRef spec5 3) : Bern.Arr 10000 128) (V c (Pipeline.arrRef spec5 4) : Bern.Arr 1 128)
          (Bern.prop2 (V c (Pipeline.arrRef spec5 0) : Bern.Arr 10000 10000) (V c (Pipeline.arrRef spec5 1) : Bern.Arr 10000 128)
            (V c (Pipeline.arrRef spec5 2) : Bern.Arr 10000 128)) :=
  (dat5 (F := Ideal) V c).arrAt_eq_of_cover 6
    (Bern.axpyRow (r5_acc V c) (r5_ct V c) (Bern.prop2 (r5_E V c) (r5_ub V c) (r5_u V c)))
    (fun t _ => r5_flushed6_eq V c t) r5_cover6

end Cert.KernelIdeal.RegVal

end
-- ==== Proof.RegionProp6.lean ====
/-
  Region 6 of the filter: one propagation pass and one accumulation.

  The region's grid has 25 points. At point t the body reads rows 400 t … 400 t + 399 (every column) of the matrix E, of
  the features u and of the accumulator acc, and the whole of the features' second copy ub and of the coefficient row
  ct, and writes rows 400 t … 400 t + 399 of two arrays. With r = 400 t + p,
      first array   [r, q] = u[r, q] + ∑ l, E[r, l] · ub[l, q]                         (u + E ub),
      second array  [r, q] = acc[r, q] + ct[0, q] · (u + E ub)[r, q].
  The 25 row blocks tile the 10000 rows, so after the region the first array is `Bern.prop2 E ub u` and the second is
  `Bern.axpyRow acc ct (Bern.prop2 E ub u)` of the arrays as the region found them.
-/
import proofs.«148114_g1589137899740_cont_week2b_1182_5_alg».proof.Proof.FrameKernelIdeal
import proofs.«148114_g1589137899740_cont_week2b_1182_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

/-! ## The body's arithmetic at an entry -/

/-- The product's left operand at output entry j and contraction position k: row j₀ … -/
theorem r6_lhs_0 (j : S400x128.Idx) (k : dot_S400x10000_S10000x128_S400x128_1_0_0_1_n_n.contr.Idx) :
    ((dot_S400x10000_S10000x128_S400x128_1_0_0_1_n_n.lhsIdx j k 0 : Fin _) : ℕ) = (j 0 : ℕ) := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

/-- … column k; -/
theorem r6_lhs_1 (j : S400x128.Idx) (k : dot_S400x10000_S10000x128_S400x128_1_0_0_1_n_n.contr.Idx) :
    ((dot_S400x10000_S10000x128_S400x128_1_0_0_1_n_n.lhsIdx j k 1 : Fin _) : ℕ) = (k ⟨0, by decide⟩ : ℕ) :=
  dot_S400x10000_S10000x128_S400x128_1_0_0_1_n_n.lhsIdx_val_of_single (cl := 1) rfl j k

/-- the right operand's: row k … -/
theorem r6_rhs_0 (j : S400x128.Idx) (k : dot_S400x10000_S10000x128_S400x128_1_0_0_1_n_n.contr.Idx) :
    ((dot_S400x10000_S10000x128_S400x128_1_0_0_1_n_n.rhsIdx j k 0 : Fin _) : ℕ) = (k ⟨0, by decide⟩ : ℕ) :=
  dot_S400x10000_S10000x128_S400x128_1_0_0_1_n_n.rhsIdx_val_of_single (cr := 0) rfl j k

/-- … column j₁. -/
theorem r6_rhs_1 (j : S400x128.Idx) (k : dot_S400x10000_S10000x128_S400x128_1_0_0_1_n_n.contr.Idx) :
    ((dot_S400x10000_S10000x128_S400x128_1_0_0_1_n_n.rhsIdx j k 1 : Fin _) : ℕ) = (j 1 : ℕ) := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product of a [400, 10000] block and a [10000, 128] array, accumulated from zero, at (p, q):
    ∑ l, a[p, l] · b[l, q]. -/
theorem r6_matmul_apply (a : FVec Ideal S400x10000 .bf16) (b : FVec Ideal S10000x128 .bf16) (p : Fin 400) (q : Fin 128) :
    matmul dot_S400x10000_S10000x128_S400x128_1_0_0_1_n_n none a b (constant S400x128 .f32 0x00000000#32) (ix2 p q)
      = ∑ l : Fin 10000, a (ix2 p l) * b (ix2 l q) := by
  refine (Ideal.matmul_constant_zero_apply dot_S400x10000_S10000x128_S400x128_1_0_0_1_n_n none a b (ix2 p q)).trans ?_
  rw [← Equiv.sum_comp (contrEquiv1 dot_S400x10000_S10000x128_S400x128_1_0_0_1_n_n 10000 rfl rfl).symm]
  refine Finset.sum_congr rfl fun l _ => ?_
  have hk := contrEquiv1_symm_val dot_S400x10000_S10000x128_S400x128_1_0_0_1_n_n 10000 rfl rfl l
  congr 1
  · refine congrArg a (funext fun d => Fin.ext ?_)
    match d with
    | ⟨0, _⟩ => exact r6_lhs_0 _ _
    | ⟨1, _⟩ => exact (r6_lhs_1 _ _).trans hk
  · refine congrArg b (funext fun d => Fin.ext ?_)
    match d with
    | ⟨0, _⟩ => exact (r6_rhs_0 _ _).trans hk
    | ⟨1, _⟩ => exact r6_rhs_1 _ _

/-- A [1, 128] row broadcast to [400, 128] reads, at (p, q), the row's entry of column q. -/
theorem r6_bcast_apply (v : FVec Ideal S1x128 .f32) (p : Fin 400) (q : Fin 128) :
    broadcastTo S400x128 v broadcasts_S1x128_S400x128 (ix2 p q) = v (ix2 0 q) := by
  refine broadcastTo_apply v broadcasts_S1x128_S400x128 (ix2 p q) (ix2 0 q) fun a => ?_
  match a with
  | ⟨0, _⟩ => rfl
  | ⟨1, _⟩ => rfl

/-- The propagated block at (p, q): the features' entry plus row p of the matrix block times column q of the
    features' second copy. -/
theorem r6_pay1_apply (vu : Vec Ideal S400x128 .f32) (vE : Vec Ideal S400x10000 .bf16) (vb : Vec Ideal S10000x128 .bf16)
    (p : Fin 400) (q : Fin 128) :
    k6_pay1 vu vE vb (ix2 p q) = vu (ix2 p q) + ∑ l : Fin 10000, vE (ix2 p l) * vb (ix2 l q) := by
  unfold k6_pay1
  simp only [shapeCast_self]
  refine (addf_apply _ _ (ix2 p q)).trans ?_
  rw [r6_matmul_apply]

/-- The accumulated block at (p, q): the accumulator's entry plus the coefficient row's entry of column q times the
    propagated entry. -/
theorem r6_pay2_apply (vu : Vec Ideal S400x128 .f32) (vE : Vec Ideal S400x10000 .bf16) (vb : Vec Ideal S10000x128 .bf16)
    (va : Vec Ideal S400x128 .f32) (vc : Vec Ideal S1x128 .f32) (p : Fin 400) (q : Fin 128) :
    k6_pay2 vu vE vb va vc (ix2 p q) = va (ix2 p q) + vc (ix2 0 q) * k6_pay1 vu vE vb (ix2 p q) := by
  unfold k6_pay2
  simp only [shapeCast_self]
  refine (addf_apply _ _ (ix2 p q)).trans ?_
  refine congrArg (va (ix2 p q) + ·) ?_
  refine (mulf_apply _ _ (ix2 p q)).trans ?_
  rw [r6_bcast_apply]

/-- The propagated block, from blocks that are rows r p of E, of u, and the whole of ub, is those rows of u + E ub. -/
theorem r6_point_prop (E : Bern.Arr 10000 10000) (ub u : Bern.Arr 10000 128)
    (xE : Vec Ideal S400x10000 .bf16) (xb : Vec Ideal S10000x128 .bf16) (xu : Vec Ideal S400x128 .f32) (r : Fin 400 → Fin 10000)
    (hE : ∀ p l, xE (ix2 p l) = E (ix2 (r p) l)) (hb : ∀ l q, xb (ix2 l q) = ub (ix2 l q))
    (hu : ∀ p q, xu (ix2 p q) = u (ix2 (r p) q)) (p : Fin 400) (q : Fin 128) :
    k6_pay1 xu xE xb (ix2 p q) = Bern.prop2 E ub u (ix2 (r p) q) := by
  rw [r6_pay1_apply, hu]
  show _ = u (ix2 (r p) q) + Bern.mm E ub (ix2 (r p) q)
  rw [Bern.mm_apply]
  refine congrArg (u (ix2 (r p) q) + ·) (Finset.sum_congr rfl fun l _ => ?_)
  rw [hE, hb]

/-- The accumulated block, from those and rows r p of acc and the whole row ct, is those rows of
    acc + ct ⊙ (u + E ub). -/
theorem r6_point_acc (E : Bern.Arr 10000 10000) (ub u acc : Bern.Arr 10000 128) (ct : Bern.Arr 1 128)
    (xE : Vec Ideal S400x10000 .bf16) (xb : Vec Ideal S10000x128 .bf16) (xu xa : Vec Ideal S400x128 .f32) (xc : Vec Ideal S1x128 .f32)
    (r : Fin 400 → Fin 10000)
    (hE : ∀ p l, xE (ix2 p l) = E (ix2 (r p) l)) (hb : ∀ l q, xb (ix2 l q) = ub (ix2 l q))
    (hu : ∀ p q, xu (ix2 p q) = u (ix2 (r p) q)) (ha : ∀ p q, xa (ix2 p q) = acc (ix2 (r p) q))
    (hc : ∀ q, xc (ix2 0 q) = ct (ix2 0 q)) (p : Fin 400) (q : Fin 128) :
    k6_pay2 xu xE xb xa xc (ix2 p q) = Bern.axpyRow acc ct (Bern.prop2 E ub u) (ix2 (r p) q) := by
  rw [r6_pay2_apply, ha, hc, r6_point_prop E ub u xE xb xu r hE hb hu]
  rfl

/-! ## The grid: 25 points; point t's blocks are rows 400 t … 400 t + 399 -/

theorem r6_hz : (![0, 0] : Fin 2 → Nat) = fun _ => 0 := funext fun a => by fin_cases a <;> rfl

/-- The block indices of the seven windows at every point: (t, 0) for the matrix, the features, the accumulator and the two
    outputs; (0, 0) for the features' second copy and the coefficient row. -/
theorem r6_idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

theorem r6_lt (t : Fin cfg6.N) : t.val < 25 := Nat.lt_of_lt_of_eq t.isLt (show cfg6.N = 25 from N_6)

/-- Row 400 t + p: the array's row under row p of the block at point t. -/
noncomputable def r6_row (t : Fin cfg6.N) (p : Fin 400) : Fin 10000 :=
  ⟨400 * t.val + p.val, by have := r6_lt t; have := p.isLt; omega⟩

/-- The matrix's block at point t is rows 400 t … of the matrix, every column. -/
theorem r6_read0 (A : Bern.Arr 10000 10000) (t : Fin cfg6.N) (p : Fin 400) (l : Fin 10000) :
    (((cfg6.win 0).blk t).view.read (Elt Ideal) A : Vec Ideal S400x10000 .bf16) (ix2 p l) = A (ix2 (r6_row t p) l) := by
  obtain ⟨e0, e1, -⟩ := r6_idx_facts t
  rw [View.read_apply]
  show A _ = A _
  refine congrArg A (funext fun a => Fin.ext ?_)
  match a with
  | ⟨0, _⟩ => show win6_0.index t (0 : Fin 2) * 400 + 1 * p.val = 400 * t.val + p.val; rw [e0]; omega
  | ⟨1, _⟩ => show win6_0.index t (1 : Fin 2) * 10000 + 1 * l.val = l.val; rw [e1]; omega

/-- The features' second copy is staged whole at every point. -/
theorem r6_read1 (A : Bern.Arr 10000 128) (t : Fin cfg6.N) (l : Fin 10000) (q : Fin 128) :
    (((cfg6.win 1).blk t).view.read (Elt Ideal) A : Vec Ideal S10000x128 .bf16) (ix2 l q) = A (ix2 l q) := by
  obtain ⟨-, -, e0, e1, -⟩ := r6_idx_facts t
  rw [View.read_apply]
  show A _ = A _
  refine congrArg A (funext fun a => Fin.ext ?_)
  match a with
  | ⟨0, _⟩ => show win6_1.index t (0 : Fin 2) * 10000 + 1 * l.val = l.val; rw [e0]; omega
  | ⟨1, _⟩ => show win6_1.index t (1 : Fin 2) * 128 + 1 * q.val = q.val; rw [e1]; omega

/-- The features' block at point t is rows 400 t … of the features. -/
theorem r6_read2 (A : Bern.Arr 10000 128) (t : Fin cfg6.N) (p : Fin 400) (q : Fin 128) :
    (((cfg6.win 2).blk t).view.read (Elt Ideal) A : Vec Ideal S400x128 .f32) (ix2 p q) = A (ix2 (r6_row t p) q) := by
  obtain ⟨-, -, -, -, e0, e1, -⟩ := r6_idx_facts t
  rw [View.read_apply]
  show A _ = A _
  refine congrArg A (funext fun a => Fin.ext ?_)
  match a with
  | ⟨0, _⟩ => show win6_2.index t (0 : Fin 2) * 400 + 1 * p.val = 400 * t.val + p.val; rw [e0]; omega
  | ⟨1, _⟩ => show win6_2.index t (1 : Fin 2) * 128 + 1 * q.val = q.val; rw [e1]; omega

/-- The accumulator's block at point t is rows 400 t … of the accumulator. -/
theorem r6_read3 (A : Bern.Arr 10000 128) (t : Fin cfg6.N) (p : Fin 400) (q : Fin 128) :
    (((cfg6.win 3).blk t).view.read (Elt Ideal) A : Vec Ideal S400x128 .f32) (ix2 p q) = A (ix2 (r6_row t p) q) := by
  obtain ⟨-, -, -, -, -, -, e0, e1, -⟩ := r6_idx_facts t
  rw [View.read_apply]
  show A _ = A _
  refine congrArg A (funext fun a => Fin.ext ?_)
  match a with
  | ⟨0, _⟩ => show win6_3.index t (0 : Fin 2) * 400 + 1 * p.val = 400 * t.val + p.val; rw [e0]; omega
  | ⟨1, _⟩ => show win6_3.index t (1 : Fin 2) * 128 + 1 * q.val = q.val; rw [e1]; omega

/-- The coefficient row is staged whole at every point. -/
theorem r6_read4 (A : Bern.Arr 1 128) (t : Fin cfg6.N) (q : Fin 128) :
    (((cfg6.win 4).blk t).view.read (Elt Ideal) A : Vec Ideal S1x128 .f32) (ix2 0 q) = A (ix2 0 q) := by
  obtain ⟨-, -, -, -, -, -, -, -, e0, e1, -⟩ := r6_idx_facts t
  rw [View.read_apply]
  show A _ = A _
  refine congrArg A (funext fun a => Fin.ext ?_)
  match a with
  | ⟨0, _⟩ => show win6_4.index t (0 : Fin 2) * 1 + 1 * 0 = 0; rw [e0]
  | ⟨1, _⟩ => show win6_4.index t (1 : Fin 2) * 128 + 1 * q.val = q.val; rw [e1]; omega

/-- The first output's block at point t is rows 400 t … of its array. -/
theorem r6_read5 (A : Bern.Arr 10000 128) (t : Fin cfg6.N) (p : Fin 400) (q : Fin 128) :
    (((cfg6.win 5).blk t).view.read (Elt Ideal) A : Vec Ideal S400x128 .f32) (ix2 p q) = A (ix2 (r6_row t p) q) := by
  obtain ⟨-, -, -, -, -, -, -, -, -, -, e0, e1, -⟩ := r6_idx_facts t
  rw [View.read_apply]
  show A _ = A _
  refine congrArg A (funext fun a => Fin.ext ?_)
  match a with
  | ⟨0, _⟩ => show win6_5.index t (0 : Fin 2) * 400 + 1 * p.val = 400 * t.val + p.val; rw [e0]; omega
  | ⟨1, _⟩ => show win6_5.index t (1 : Fin 2) * 128 + 1 * q.val = q.val; rw [e1]; omega

/-- The second output's block at point t is rows 400 t … of its array. -/
theorem r6_read6 (A : Bern.Arr 10000 128) (t : Fin cfg6.N) (p : Fin 400) (q : Fin 128) :
    (((cfg6.win 6).blk t).view.read (Elt Ideal) A : Vec Ideal S400x128 .f32) (ix2 p q) = A (ix2 (r6_row t p) q) := by
  obtain ⟨-, -, -, -, -, -, -, -, -, -, -, -, e0, e1⟩ := r6_idx_facts t
  rw [View.read_apply]
  show A _ = A _
  refine congrArg A (funext fun a => Fin.ext ?_)
  match a with
  | ⟨0, _⟩ => show win6_6.index t (0 : Fin 2) * 400 + 1 * p.val = 400 * t.val + p.val; rw [e0]; omega
  | ⟨1, _⟩ => show win6_6.index t (1 : Fin 2) * 128 + 1 * q.val = q.val; rw [e1]; omega

/-! ## The arrays the region reads, as it finds them -/

/-- The matrix E (window 0's array). -/
noncomputable abbrev r6_E (c : Dev nD) : Bern.Arr 10000 10000 := V c (Pipeline.arrRef spec6 0)
/-- The features' second copy, the product's operand (window 1's array). -/
noncomputable abbrev r6_ub (c : Dev nD) : Bern.Arr 10000 128 := V c (Pipeline.arrRef spec6 1)
/-- The features (window 2's array). -/
noncomputable abbrev r6_u (c : Dev nD) : Bern.Arr 10000 128 := V c (Pipeline.arrRef spec6 2)
/-- The accumulator (window 3's array). -/
noncomputable abbrev r6_acc (c : Dev nD) : Bern.Arr 10000 128 := V c (Pipeline.arrRef spec6 3)
/-- The coefficient row (window 4's array). -/
noncomputable abbrev r6_ct (c : Dev nD) : Bern.Arr 1 128 := V c (Pipeline.arrRef spec6 4)

/-! ## What each point writes back -/

/-- Point t writes rows 400 t … 400 t + 399 of u + E ub to the first output. -/
theorem r6_flushed5_eq (c : Dev nD) (t : Fin cfg6.N) :
    (dat6 (F := Ideal) V c).flushed 5 t
      = ((cfg6.win 5).blk t).view.read (Elt Ideal) (Bern.prop2 (r6_E V c) (r6_ub V c) (r6_u V c)) := by
  show (cfg6.win 5).cut (grid6.coords t) ((dat6 (F := Ideal) V c).after 5 t) = _
  rw [after6_5]
  unfold out6_5
  rw [View.canon_unit_zero r6_hz]
  simp only [View.ld_unit_zero (S := S400x128) r6_hz, View.ld_unit_zero (S := S400x10000) r6_hz,
    View.ld_unit_zero (S := S10000x128) r6_hz]
  funext j
  obtain ⟨p, q, rfl⟩ : ∃ (p : Fin 400) (q : Fin 128), j = ix2 p q := ⟨j 0, j 1, eq_ix2 j⟩
  refine Eq.trans ?_ (r6_read5 (Bern.prop2 (r6_E V c) (r6_ub V c) (r6_u V c)) t p q).symm
  exact r6_point_prop (r6_E V c) (r6_ub V c) (r6_u V c) (iblk6 V c 0 t) (iblk6 V c 1 t) (iblk6 V c 2 t) (r6_row t)
    (r6_read0 (r6_E V c) t) (r6_read1 (r6_ub V c) t) (r6_read2 (r6_u V c) t) p q

/-- Point t writes rows 400 t … 400 t + 399 of acc + ct ⊙ (u + E ub) to the second output. -/
theorem r6_flushed6_eq (c : Dev nD) (t : Fin cfg6.N) :
    (dat6 (F := Ideal) V c).flushed 6 t
      = ((cfg6.win 6).blk t).view.read (Elt Ideal)
          (Bern.axpyRow (r6_acc V c) (r6_ct V c) (Bern.prop2 (r6_E V c) (r6_ub V c) (r6_u V c))) := by
  show (cfg6.win 6).cut (grid6.coords t) ((dat6 (F := Ideal) V c).after 6 t) = _
  rw [after6_6]
  unfold out6_6
  rw [View.canon_unit_zero r6_hz]
  simp only [View.ld_unit_zero (S := S400x128) r6_hz, View.ld_unit_zero (S := S400x10000) r6_hz,
    View.ld_unit_zero (S := S10000x128) r6_hz, View.ld_unit_zero (S := S1x128) r6_hz]
  funext j
  obtain ⟨p, q, rfl⟩ : ∃ (p : Fin 400) (q : Fin 128), j = ix2 p q := ⟨j 0, j 1, eq_ix2 j⟩
  refine Eq.trans ?_ (r6_read6 (Bern.axpyRow (r6_acc V c) (r6_ct V c) (Bern.prop2 (r6_E V c) (r6_ub V c) (r6_u V c))) t p q).symm
  exact r6_point_acc (r6_E V c) (r6_ub V c) (r6_u V c) (r6_acc V c) (r6_ct V c)
    (iblk6 V c 0 t) (iblk6 V c 1 t) (iblk6 V c 2 t) (iblk6 V c 3 t) (iblk6 V c 4 t) (r6_row t)
    (r6_read0 (r6_E V c) t) (r6_read1 (r6_ub V c) t) (r6_read2 (r6_u V c) t) (r6_read3 (r6_acc V c) t)
    (r6_read4 (r6_ct V c) t) p q

/-! ## The row blocks tile the rows -/

/-- An entry of the first output's array is in point t's block iff, on each axis, its coordinate lies in the block's
    range: from block index × block size, one block size long. -/
theorem r6_mem_blk5 (t : Fin cfg6.N) (i : S10000x128.Idx) :
    i ∈ ((cfg6.win 5).blk t).view.set ↔ ∀ a : Fin 2, win6_5.index t a * S400x128.size a ≤ (i a).val
      ∧ (i a).val < win6_5.index t a * S400x128.size a + S400x128.size a := by
  show i ∈ ((View.whole (Pipeline.arrRef spec6 5)).slice (win6_5.rect t)).set ↔ _
  rw [View.set_slice_whole, Rect.mem_set_unit]
  exact Iff.rfl

/-- The same for the second output's. -/
theorem r6_mem_blk6 (t : Fin cfg6.N) (i : S10000x128.Idx) :
    i ∈ ((cfg6.win 6).blk t).view.set ↔ ∀ a : Fin 2, win6_6.index t a * S400x128.size a ≤ (i a).val
      ∧ (i a).val < win6_6.index t a * S400x128.size a + S400x128.size a := by
  show i ∈ ((View.whole (Pipeline.arrRef spec6 6)).slice (win6_6.rect t)).set ↔ _
  rw [View.set_slice_whole, Rect.mem_set_unit]
  exact Iff.rfl

/-- Row r is in the block of point r / 400, which writes back. -/
theorem r6_cover5 (i : S10000x128.Idx) :
    ∃ t : Fin cfg6.N, (cfg6.win 5).flush t = true ∧ i ∈ ((cfg6.win 5).blk t).view.set := by
  have hi0 : (i 0).val < 10000 := idx2_lt0 i
  have hi1 : (i 1).val < 128 := idx2_lt1 i
  have ht : (i 0).val / 400 < cfg6.N := Nat.lt_of_lt_of_eq (by omega) (show cfg6.N = 25 from N_6).symm
  obtain ⟨-, -, -, -, -, -, -, -, -, -, e0, e1, -⟩ := r6_idx_facts ⟨(i 0).val / 400, ht⟩
  refine ⟨⟨(i 0).val / 400, ht⟩, flush6_5 _, ?_⟩
  rw [r6_mem_blk5]
  intro a
  match a with
  | ⟨0, _⟩ =>
    show win6_5.index ⟨(i 0).val / 400, ht⟩ (0 : Fin 2) * 400 ≤ (i 0).val
      ∧ (i 0).val < win6_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win6_5.index ⟨(i 0).val / 400, ht⟩ (1 : Fin 2) * 128 ≤ (i 1).val
      ∧ (i 1).val < win6_5.index ⟨(i 0).val / 400, ht⟩ (1 : Fin 2) * 128 + 128
    rw [e1]; omega

theorem r6_cover6 (i : S10000x128.Idx) :
    ∃ t : Fin cfg6.N, (cfg6.win 6).flush t = true ∧ i ∈ ((cfg6.win 6).blk t).view.set := by
  have hi0 : (i 0).val < 10000 := idx2_lt0 i
  have hi1 : (i 1).val < 128 := idx2_lt1 i
  have ht : (i 0).val / 400 < cfg6.N := Nat.lt_of_lt_of_eq (by omega) (show cfg6.N = 25 from N_6).symm
  obtain ⟨-, -, -, -, -, -, -, -, -, -, -, -, e0, e1⟩ := r6_idx_facts ⟨(i 0).val / 400, ht⟩
  refine ⟨⟨(i 0).val / 400, ht⟩, flush6_6 _, ?_⟩
  rw [r6_mem_blk6]
  intro a
  match a with
  | ⟨0, _⟩ =>
    show win6_6.index ⟨(i 0).val / 400, ht⟩ (0 : Fin 2) * 400 ≤ (i 0).val
      ∧ (i 0).val < win6_6.index ⟨(i 0).val / 400, ht⟩ (0 : Fin 2) * 400 + 400
    rw [e0]; show (i 0).val / 400 * 400 ≤ (i 0).val ∧ (i 0).val < (i 0).val / 400 * 400 + 400; omega
  | ⟨1, _⟩ =>
    show win6_6.index ⟨(i 0).val / 400, ht⟩ (1 : Fin 2) * 128 ≤ (i 1).val
      ∧ (i 1).val < win6_6.index ⟨(i 0).val / 400, ht⟩ (1 : Fin 2) * 128 + 128
    rw [e1]; omega

/-! ## The two arrays after the region -/

/-- The first output after the region is u + E ub of the arrays the region found. -/
theorem final6_5 (c : Dev nD) :
    (dat6 (F := Ideal) V c).arrAt 5 cfg6.N
      = Bern.prop2 (V c (Pipeline.arrRef spec6 0) : Bern.Arr 10000 10000) (V c (Pipeline.arrRef spec6 1) : Bern.Arr 10000 128)
          (V c (Pipeline.arrRef spec6 2) : Bern.Arr 10000 128) :=
  (dat6 (F := Ideal) V c).arrAt_eq_of_cover 5 (Bern.prop2 (r6_E V c) (r6_ub V c) (r6_u V c))
    (fun t _ => r6_flushed5_eq V c t) r6_cover5

/-- The second output after the region is acc + ct ⊙ (u + E ub) of the arrays the region found. -/
theorem final6_6 (c : Dev nD) :
    (dat6 (F := Ideal) V c).arrAt 6 cfg6.N
      = Bern.axpyRow (V c (Pipeline.arrRef spec6 3) : Bern.Arr 10000 128) (V c (Pipeline.arrRef spec6 4) : Bern.Arr 1 128)
          (Bern.prop2 (V c (Pipeline.arrRef spec6 0) : Bern.Arr 10000 10000) (V c (Pipeline.arrRef spec6 1) : Bern.Arr 10000 128)
            (V c (Pipeline.arrRef spec6 2) : Bern.Arr 10000 128)) :=
  (dat6 (F := Ideal) V c).arrAt_eq_of_cover 6
    (Bern.axpyRow (r6_acc V c) (r6_ct V c) (Bern.prop2 (r6_E V c) (r6_ub V c) (r6_u V c)))
    (fun t _ => r6_flushed6_eq V c t) r6_cover6

end Cert.KernelIdeal.RegVal

end
-- ==== Proof.RegionProp7.lean ====
/-
  Region 7 of the filter: one propagation pass and one accumulation.

  The region's grid has 25 points. At point t the body reads rows 400 t … 400 t + 399 (every column) of the matrix E, of
  the features u and of the accumulator acc, and the whole of the features' second copy ub and of the coefficient row
  ct, and writes rows 400 t … 400 t + 399 of two arrays. With r = 400 t + p,
      first array   [r, q] = u[r, q] + ∑ l, E[r, l] · ub[l, q]                         (u + E ub),
      second array  [r, q] = acc[r, q] + ct[0, q] · (u + E ub)[r, q].
  The 25 row blocks tile the 10000 rows, so after the region the first array is `Bern.prop2 E ub u` and the second is
  `Bern.axpyRow acc ct (Bern.prop2 E ub u)` of the arrays as the region found them.
-/
import proofs.«148114_g1589137899740_cont_week2b_1182_5_alg».proof.Proof.FrameKernelIdeal
import proofs.«148114_g1589137899740_cont_week2b_1182_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

/-! ## The body's arithmetic at an entry -/

/-- The product's left operand at output entry j and contraction position k: row j₀ … -/
theorem r7_lhs_0 (j : S400x128.Idx) (k : dot_S400x10000_S10000x128_S400x128_1_0_0_1_n_n.contr.Idx) :
    ((dot_S400x10000_S10000x128_S400x128_1_0_0_1_n_n.lhsIdx j k 0 : Fin _) : ℕ) = (j 0 : ℕ) := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

/-- … column k; -/
theorem r7_lhs_1 (j : S400x128.Idx) (k : dot_S400x10000_S10000x128_S400x128_1_0_0_1_n_n.contr.Idx) :
    ((dot_S400x10000_S10000x128_S400x128_1_0_0_1_n_n.lhsIdx j k 1 : Fin _) : ℕ) = (k ⟨0, by decide⟩ : ℕ) :=
  dot_S400x10000_S10000x128_S400x128_1_0_0_1_n_n.lhsIdx_val_of_single (cl := 1) rfl j k

/-- the right operand's: row k … -/
theorem r7_rhs_0 (j : S400x128.Idx) (k : dot_S400x10000_S10000x128_S400x128_1_0_0_1_n_n.contr.Idx) :
    ((dot_S400x10000_S10000x128_S400x128_1_0_0_1_n_n.rhsIdx j k 0 : Fin _) : ℕ) = (k ⟨0, by decide⟩ : ℕ) :=
  dot_S400x10000_S10000x128_S400x128_1_0_0_1_n_n.rhsIdx_val_of_single (cr := 0) rfl j k

/-- … column j₁. -/
theorem r7_rhs_1 (j : S400x128.Idx) (k : dot_S400x10000_S10000x128_S400x128_1_0_0_1_n_n.contr.Idx) :
    ((dot_S400x10000_S10000x128_S400x128_1_0_0_1_n_n.rhsIdx j k 1 : Fin _) : ℕ) = (j 1 : ℕ) := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product of a [400, 10000] block and a [10000, 128] array, accumulated from zero, at (p, q):
    ∑ l, a[p, l] · b[l, q]. -/
theorem r7_matmul_apply (a : FVec Ideal S400x10000 .bf16) (b : FVec Ideal S10000x128 .bf16) (p : Fin 400) (q : Fin 128) :
    matmul dot_S400x10000_S10000x128_S400x128_1_0_0_1_n_n none a b (constant S400x128 .f32 0x00000000#32) (ix2 p q)
      = ∑ l : Fin 10000, a (ix2 p l) * b (ix2 l q) := by
  refine (Ideal.matmul_constant_zero_apply dot_S400x10000_S10000x128_S400x128_1_0_0_1_n_n none a b (ix2 p q)).trans ?_
  rw [← Equiv.sum_comp (contrEquiv1 dot_S400x10000_S10000x128_S400x128_1_0_0_1_n_n 10000 rfl rfl).symm]
  refine Finset.sum_congr rfl fun l _ => ?_
  have hk := contrEquiv1_symm_val dot_S400x10000_S10000x128_S400x128_1_0_0_1_n_n 10000 rfl rfl l
  congr 1
  · refine congrArg a (funext fun d => Fin.ext ?_)
    match d with
    | ⟨0, _⟩ => exact r7_lhs_0 _ _
    | ⟨1, _⟩ => exact (r7_lhs_1 _ _).trans hk
  · refine congrArg b (funext fun d => Fin.ext ?_)
    match d with
    | ⟨0, _⟩ => exact (r7_rhs_0 _ _).trans hk
    | ⟨1, _⟩ => exact r7_rhs_1 _ _

/-- A [1, 128] row broadcast to [400, 128] reads, at (p, q), the row's entry of column q. -/
theorem r7_bcast_apply (v : FVec Ideal S1x128 .f32) (p : Fin 400) (q : Fin 128) :
    broadcastTo S400x128 v broadcasts_S1x128_S400x128 (ix2 p q) = v (ix2 0 q) := by
  refine broadcastTo_apply v broadcasts_S1x128_S400x128 (ix2 p q) (ix2 0 q) fun a => ?_
  match a with
  | ⟨0, _⟩ => rfl
  | ⟨1, _⟩ => rfl

/-- The propagated block at (p, q): the features' entry plus row p of the matrix block times column q of the
    features' second copy. -/
theorem r7_pay1_apply (vu : Vec Ideal S400x128 .f32) (vE : Vec Ideal S400x10000 .bf16) (vb : Vec Ideal S10000x128 .bf16)
    (p : Fin 400) (q : Fin 128) :
    k7_pay1 vu vE vb (ix2 p q) = vu (ix2 p q) + ∑ l : Fin 10000, vE (ix2 p l) * vb (ix2 l q) := by
  unfold k7_pay1
  simp only [shapeCast_self]
  refine (addf_apply _ _ (ix2 p q)).trans ?_
  rw [r7_matmul_apply]

/-- The accumulated block at (p, q): the accumulator's entry plus the coefficient row's entry of column q times the
    propagated entry. -/
theorem r7_pay2_apply (vu : Vec Ideal S400x128 .f32) (vE : Vec Ideal S400x10000 .bf16) (vb : Vec Ideal S10000x128 .bf16)
    (va : Vec Ideal S400x128 .f32) (vc : Vec Ideal S1x128 .f32) (p : Fin 400) (q : Fin 128) :
    k7_pay2 vu vE vb va vc (ix2 p q) = va (ix2 p q) + vc (ix2 0 q) * k7_pay1 vu vE vb (ix2 p q) := by
  unfold k7_pay2
  simp only [shapeCast_self]
  refine (addf_apply _ _ (ix2 p q)).trans ?_
  refine congrArg (va (ix2 p q) + ·) ?_
  refine (mulf_apply _ _ (ix2 p q)).trans ?_
  rw [r7_bcast_apply]

/-- The propagated block, from blocks that are rows r p of E, of u, and the whole of ub, is those rows of u + E ub. -/
theorem r7_point_prop (E : Bern.Arr 10000 10000) (ub u : Bern.Arr 10000 128)
    (xE : Vec Ideal S400x10000 .bf16) (xb : Vec Ideal S10000x128 .bf16) (xu : Vec Ideal S400x128 .f32) (r : Fin 400 → Fin 10000)
    (hE : ∀ p l, xE (ix2 p l) = E (ix2 (r p) l)) (hb : ∀ l q, xb (ix2 l q) = ub (ix2 l q))
    (hu : ∀ p q, xu (ix2 p q) = u (ix2 (r p) q)) (p : Fin 400) (q : Fin 128) :
    k7_pay1 xu xE xb (ix2 p q) = Bern.prop2 E ub u (ix2 (r p) q) := by
  rw [r7_pay1_apply, hu]
  show _ = u (ix2 (r p) q) + Bern.mm E ub (ix2 (r p) q)
  rw [Bern.mm_apply]
  refine congrArg (u (ix2 (r p) q) + ·) (Finset.sum_congr rfl fun l _ => ?_)
  rw [hE, hb]

/-- The accumulated block, from those and rows r p of acc and the whole row ct, is those rows of
    acc + ct ⊙ (u + E ub). -/
theorem r7_point_acc (E : Bern.Arr 10000 10000) (ub u acc : Bern.Arr 10000 128) (ct : Bern.Arr 1 128)
    (xE : Vec Ideal S400x10000 .bf16) (xb : Vec Ideal S10000x128 .bf16) (xu xa : Vec Ideal S400x128 .f32) (xc : Vec Ideal S1x128 .f32)
    (r : Fin 400 → Fin 10000)
    (hE : ∀ p l, xE (ix2 p l) = E (ix2 (r p) l)) (hb : ∀ l q, xb (ix2 l q) = ub (ix2 l q))
    (hu : ∀ p q, xu (ix2 p q) = u (ix2 (r p) q)) (ha : ∀ p q, xa (ix2 p q) = acc (ix2 (r p) q))
    (hc : ∀ q, xc (ix2 0 q) = ct (ix2 0 q)) (p : Fin 400) (q : Fin 128) :
    k7_pay2 xu xE xb xa xc (ix2 p q) = Bern.axpyRow acc ct (Bern.prop2 E ub u) (ix2 (r p) q) := by
  rw [r7_pay2_apply, ha, hc, r7_point_prop E ub u xE xb xu r hE hb hu]
  rfl

/-! ## The grid: 25 points; point t's blocks are rows 400 t … 400 t + 399 -/

theorem r7_hz : (![0, 0] : Fin 2 → Nat) = fun _ => 0 := funext fun a => by fin_cases a <;> rfl

/-- The block indices of the seven windows at every point: (t, 0) for the matrix, the features, the accumulator and the two
    outputs; (0, 0) for the features' second copy and the coefficient row. -/
theorem r7_idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

theorem r7_lt (t : Fin cfg7.N) : t.val < 25 := Nat.lt_of_lt_of_eq t.isLt (show cfg7.N = 25 from N_7)

/-- Row 400 t + p: the array's row under row p of the block at point t. -/
noncomputable def r7_row (t : Fin cfg7.N) (p : Fin 400) : Fin 10000 :=
  ⟨400 * t.val + p.val, by have := r7_lt t; have := p.isLt; omega⟩

/-- The matrix's block at point t is rows 400 t … of the matrix, every column. -/
theorem r7_read0 (A : Bern.Arr 10000 10000) (t : Fin cfg7.N) (p : Fin 400) (l : Fin 10000) :
    (((cfg7.win 0).blk t).view.read (Elt Ideal) A : Vec Ideal S400x10000 .bf16) (ix2 p l) = A (ix2 (r7_row t p) l) := by
  obtain ⟨e0, e1, -⟩ := r7_idx_facts t
  rw [View.read_apply]
  show A _ = A _
  refine congrArg A (funext fun a => Fin.ext ?_)
  match a with
  | ⟨0, _⟩ => show win7_0.index t (0 : Fin 2) * 400 + 1 * p.val = 400 * t.val + p.val; rw [e0]; omega
  | ⟨1, _⟩ => show win7_0.index t (1 : Fin 2) * 10000 + 1 * l.val = l.val; rw [e1]; omega

/-- The features' second copy is staged whole at every point. -/
theorem r7_read1 (A : Bern.Arr 10000 128) (t : Fin cfg7.N) (l : Fin 10000) (q : Fin 128) :
    (((cfg7.win 1).blk t).view.read (Elt Ideal) A : Vec Ideal S10000x128 .bf16) (ix2 l q) = A (ix2 l q) := by
  obtain ⟨-, -, e0, e1, -⟩ := r7_idx_facts t
  rw [View.read_apply]
  show A _ = A _
  refine congrArg A (funext fun a => Fin.ext ?_)
  match a with
  | ⟨0, _⟩ => show win7_1.index t (0 : Fin 2) * 10000 + 1 * l.val = l.val; rw [e0]; omega
  | ⟨1, _⟩ => show win7_1.index t (1 : Fin 2) * 128 + 1 * q.val = q.val; rw [e1]; omega

/-- The features' block at point t is rows 400 t … of the features. -/
theorem r7_read2 (A : Bern.Arr 10000 128) (t : Fin cfg7.N) (p : Fin 400) (q : Fin 128) :
    (((cfg7.win 2).blk t).view.read (Elt Ideal) A : Vec Ideal S400x128 .f32) (ix2 p q) = A (ix2 (r7_row t p) q) := by
  obtain ⟨-, -, -, -, e0, e1, -⟩ := r7_idx_facts t
  rw [View.read_apply]
  show A _ = A _
  refine congrArg A (funext fun a => Fin.ext ?_)
  match a with
  | ⟨0, _⟩ => show win7_2.index t (0 : Fin 2) * 400 + 1 * p.val = 400 * t.val + p.val; rw [e0]; omega
  | ⟨1, _⟩ => show win7_2.index t (1 : Fin 2) * 128 + 1 * q.val = q.val; rw [e1]; omega

/-- The accumulator's block at point t is rows 400 t … of the accumulator. -/
theorem r7_read3 (A : Bern.Arr 10000 128) (t : Fin cfg7.N) (p : Fin 400) (q : Fin 128) :
    (((cfg7.win 3).blk t).view.read (Elt Ideal) A : Vec Ideal S400x128 .f32) (ix2 p q) = A (ix2 (r7_row t p) q) := by
  obtain ⟨-, -, -, -, -, -, e0, e1, -⟩ := r7_idx_facts t
  rw [View.read_apply]
  show A _ = A _
  refine congrArg A (funext fun a => Fin.ext ?_)
  match a with
  | ⟨0, _⟩ => show win7_3.index t (0 : Fin 2) * 400 + 1 * p.val = 400 * t.val + p.val; rw [e0]; omega
  | ⟨1, _⟩ => show win7_3.index t (1 : Fin 2) * 128 + 1 * q.val = q.val; rw [e1]; omega

/-- The coefficient row is staged whole at every point. -/
theorem r7_read4 (A : Bern.Arr 1 128) (t : Fin cfg7.N) (q : Fin 128) :
    (((cfg7.win 4).blk t).view.read (Elt Ideal) A : Vec Ideal S1x128 .f32) (ix2 0 q) = A (ix2 0 q) := by
  obtain ⟨-, -, -, -, -, -, -, -, e0, e1, -⟩ := r7_idx_facts t
  rw [View.read_apply]
  show A _ = A _
  refine congrArg A (funext fun a => Fin.ext ?_)
  match a with
  | ⟨0, _⟩ => show win7_4.index t (0 : Fin 2) * 1 + 1 * 0 = 0; rw [e0]
  | ⟨1, _⟩ => show win7_4.index t (1 : Fin 2) * 128 + 1 * q.val = q.val; rw [e1]; omega

/-- The first output's block at point t is rows 400 t … of its array. -/
theorem r7_read5 (A : Bern.Arr 10000 128) (t : Fin cfg7.N) (p : Fin 400) (q : Fin 128) :
    (((cfg7.win 5).blk t).view.read (Elt Ideal) A : Vec Ideal S400x128 .f32) (ix2 p q) = A (ix2 (r7_row t p) q) := by
  obtain ⟨-, -, -, -, -, -, -, -, -, -, e0, e1, -⟩ := r7_idx_facts t
  rw [View.read_apply]
  show A _ = A _
  refine congrArg A (funext fun a => Fin.ext ?_)
  match a with
  | ⟨0, _⟩ => show win7_5.index t (0 : Fin 2) * 400 + 1 * p.val = 400 * t.val + p.val; rw [e0]; omega
  | ⟨1, _⟩ => show win7_5.index t (1 : Fin 2) * 128 + 1 * q.val = q.val; rw [e1]; omega

/-- The second output's block at point t is rows 400 t … of its array. -/
theorem r7_read6 (A : Bern.Arr 10000 128) (t : Fin cfg7.N) (p : Fin 400) (q : Fin 128) :
    (((cfg7.win 6).blk t).view.read (Elt Ideal) A : Vec Ideal S400x128 .f32) (ix2 p q) = A (ix2 (r7_row t p) q) := by
  obtain ⟨-, -, -, -, -, -, -, -, -, -, -, -, e0, e1⟩ := r7_idx_facts t
  rw [View.read_apply]
  show A _ = A _
  refine congrArg A (funext fun a => Fin.ext ?_)
  match a with
  | ⟨0, _⟩ => show win7_6.index t (0 : Fin 2) * 400 + 1 * p.val = 400 * t.val + p.val; rw [e0]; omega
  | ⟨1, _⟩ => show win7_6.index t (1 : Fin 2) * 128 + 1 * q.val = q.val; rw [e1]; omega

/-! ## The arrays the region reads, as it finds them -/

/-- The matrix E (window 0's array). -/
noncomputable abbrev r7_E (c : Dev nD) : Bern.Arr 10000 10000 := V c (Pipeline.arrRef spec7 0)
/-- The features' second copy, the product's operand (window 1's array). -/
noncomputable abbrev r7_ub (c : Dev nD) : Bern.Arr 10000 128 := V c (Pipeline.arrRef spec7 1)
/-- The features (window 2's array). -/
noncomputable abbrev r7_u (c : Dev nD) : Bern.Arr 10000 128 := V c (Pipeline.arrRef spec7 2)
/-- The accumulator (window 3's array). -/
noncomputable abbrev r7_acc (c : Dev nD) : Bern.Arr 10000 128 := V c (Pipeline.arrRef spec7 3)
/-- The coefficient row (window 4's array). -/
noncomputable abbrev r7_ct (c : Dev nD) : Bern.Arr 1 128 := V c (Pipeline.arrRef spec7 4)

/-! ## What each point writes back -/

/-- Point t writes rows 400 t … 400 t + 399 of u + E ub to the first output. -/
theorem r7_flushed5_eq (c : Dev nD) (t : Fin cfg7.N) :
    (dat7 (F := Ideal) V c).flushed 5 t
      = ((cfg7.win 5).blk t).view.read (Elt Ideal) (Bern.prop2 (r7_E V c) (r7_ub V c) (r7_u V c)) := by
  show (cfg7.win 5).cut (grid7.coords t) ((dat7 (F := Ideal) V c).after 5 t) = _
  rw [after7_5]
  unfold out7_5
  rw [View.canon_unit_zero r7_hz]
  simp only [View.ld_unit_zero (S := S400x128) r7_hz, View.ld_unit_zero (S := S400x10000) r7_hz,
    View.ld_unit_zero (S := S10000x128) r7_hz]
  funext j
  obtain ⟨p, q, rfl⟩ : ∃ (p : Fin 400) (q : Fin 128), j = ix2 p q := ⟨j 0, j 1, eq_ix2 j⟩
  refine Eq.trans ?_ (r7_read5 (Bern.prop2 (r7_E V c) (r7_ub V c) (r7_u V c)) t p q).symm
  exact r7_point_prop (r7_E V c) (r7_ub V c) (r7_u V c) (iblk7 V c 0 t) (iblk7 V c 1 t) (iblk7 V c 2 t) (r7_row t)
    (r7_read0 (r7_E V c) t) (r7_read1 (r7_ub V c) t) (r7_read2 (r7_u V c) t) p q

/-- Point t writes rows 400 t … 400 t + 399 of acc + ct ⊙ (u + E ub) to the second output. -/
theorem r7_flushed6_eq (c : Dev nD) (t : Fin cfg7.N) :
    (dat7 (F := Ideal) V c).flushed 6 t
      = ((cfg7.win 6).blk t).view.read (Elt Ideal)
          (Bern.axpyRow (r7_acc V c) (r7_ct V c) (Bern.prop2 (r7_E V c) (r7_ub V c) (r7_u V c))) := by
  show (cfg7.win 6).cut (grid7.coords t) ((dat7 (F := Ideal) V c).after 6 t) = _
  rw [after7_6]
  unfold out7_6
  rw [View.canon_unit_zero r7_hz]
  simp only [View.ld_unit_zero (S := S400x128) r7_hz, View.ld_unit_zero (S := S400x10000) r7_hz,
    View.ld_unit_zero (S := S10000x128) r7_hz, View.ld_unit_zero (S := S1x128) r7_hz]
  funext j
  obtain ⟨p, q, rfl⟩ : ∃ (p : Fin 400) (q : Fin 128), j = ix2 p q := ⟨j 0, j 1, eq_ix2 j⟩
  refine Eq.trans ?_ (r7_read6 (Bern.axpyRow (r7_acc V c) (r7_ct V c) (Bern.prop2 (r7_E V c) (r7_ub V c) (r7_u V c))) t p q).symm
  exact r7_point_acc (r7_E V c) (r7_ub V c) (r7_u V c) (r7_acc V c) (r7_ct V c)
    (iblk7 V c 0 t) (iblk7 V c 1 t) (iblk7 V c 2 t) (iblk7 V c 3 t) (iblk7 V c 4 t) (r7_row t)
    (r7_read0 (r7_E V c) t) (r7_read1 (r7_ub V c) t) (r7_read2 (r7_u V c) t) (r7_read3 (r7_acc V c) t)
    (r7_read4 (r7_ct V c) t) p q

/-! ## The row blocks tile the rows -/

/-- An entry of the first output's array is in point t's block iff, on each axis, its coordinate lies in the block's
    range: from block index × block size, one block size long. -/
theorem r7_mem_blk5 (t : Fin cfg7.N) (i : S10000x128.Idx) :
    i ∈ ((cfg7.win 5).blk t).view.set ↔ ∀ a : Fin 2, win7_5.index t a * S400x128.size a ≤ (i a).val
      ∧ (i a).val < win7_5.index t a * S400x128.size a + S400x128.size a := by
  show i ∈ ((View.whole (Pipeline.arrRef spec7 5)).slice (win7_5.rect t)).set ↔ _
  rw [View.set_slice_whole, Rect.mem_set_unit]
  exact Iff.rfl

/-- The same for the second output's. -/
theorem r7_mem_blk6 (t : Fin cfg7.N) (i : S10000x128.Idx) :
    i ∈ ((cfg7.win 6).blk t).view.set ↔ ∀ a : Fin 2, win7_6.index t a * S400x128.size a ≤ (i a).val
      ∧ (i a).val < win7_6.index t a * S400x128.size a + S400x128.size a := by
  show i ∈ ((View.whole (Pipeline.arrRef spec7 6)).slice (win7_6.rect t)).set ↔ _
  rw [View.set_slice_whole, Rect.mem_set_unit]
  exact Iff.rfl

/-- Row r is in the block of point r / 400, which writes back. -/
theorem r7_cover5 (i : S10000x128.Idx) :
    ∃ t : Fin cfg7.N, (cfg7.win 5).flush t = true ∧ i ∈ ((cfg7.win 5).blk t).view.set := by
  have hi0 : (i 0).val < 10000 := idx2_lt0 i
  have hi1 : (i 1).val < 128 := idx2_lt1 i
  have ht : (i 0).val / 400 < cfg7.N := Nat.lt_of_lt_of_eq (by omega) (show cfg7.N = 25 from N_7).symm
  obtain ⟨-, -, -, -, -, -, -, -, -, -, e0, e1, -⟩ := r7_idx_facts ⟨(i 0).val / 400, ht⟩
  refine ⟨⟨(i 0).val / 400, ht⟩, flush7_5 _, ?_⟩
  rw [r7_mem_blk5]
  intro a
  match a with
  | ⟨0, _⟩ =>
    show win7_5.index ⟨(i 0).val / 400, ht⟩ (0 : Fin 2) * 400 ≤ (i 0).val
      ∧ (i 0).val < win7_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win7_5.index ⟨(i 0).val / 400, ht⟩ (1 : Fin 2) * 128 ≤ (i 1).val
      ∧ (i 1).val < win7_5.index ⟨(i 0).val / 400, ht⟩ (1 : Fin 2) * 128 + 128
    rw [e1]; omega

theorem r7_cover6 (i : S10000x128.Idx) :
    ∃ t : Fin cfg7.N, (cfg7.win 6).flush t = true ∧ i ∈ ((cfg7.win 6).blk t).view.set := by
  have hi0 : (i 0).val < 10000 := idx2_lt0 i
  have hi1 : (i 1).val < 128 := idx2_lt1 i
  have ht : (i 0).val / 400 < cfg7.N := Nat.lt_of_lt_of_eq (by omega) (show cfg7.N = 25 from N_7).symm
  obtain ⟨-, -, -, -, -, -, -, -, -, -, -, -, e0, e1⟩ := r7_idx_facts ⟨(i 0).val / 400, ht⟩
  refine ⟨⟨(i 0).val / 400, ht⟩, flush7_6 _, ?_⟩
  rw [r7_mem_blk6]
  intro a
  match a with
  | ⟨0, _⟩ =>
    show win7_6.index ⟨(i 0).val / 400, ht⟩ (0 : Fin 2) * 400 ≤ (i 0).val
      ∧ (i 0).val < win7_6.index ⟨(i 0).val / 400, ht⟩ (0 : Fin 2) * 400 + 400
    rw [e0]; show (i 0).val / 400 * 400 ≤ (i 0).val ∧ (i 0).val < (i 0).val / 400 * 400 + 400; omega
  | ⟨1, _⟩ =>
    show win7_6.index ⟨(i 0).val / 400, ht⟩ (1 : Fin 2) * 128 ≤ (i 1).val
      ∧ (i 1).val < win7_6.index ⟨(i 0).val / 400, ht⟩ (1 : Fin 2) * 128 + 128
    rw [e1]; omega

/-! ## The two arrays after the region -/

/-- The first output after the region is u + E ub of the arrays the region found. -/
theorem final7_5 (c : Dev nD) :
    (dat7 (F := Ideal) V c).arrAt 5 cfg7.N
      = Bern.prop2 (V c (Pipeline.arrRef spec7 0) : Bern.Arr 10000 10000) (V c (Pipeline.arrRef spec7 1) : Bern.Arr 10000 128)
          (V c (Pipeline.arrRef spec7 2) : Bern.Arr 10000 128) :=
  (dat7 (F := Ideal) V c).arrAt_eq_of_cover 5 (Bern.prop2 (r7_E V c) (r7_ub V c) (r7_u V c))
    (fun t _ => r7_flushed5_eq V c t) r7_cover5

/-- The second output after the region is acc + ct ⊙ (u + E ub) of the arrays the region found. -/
theorem final7_6 (c : Dev nD) :
    (dat7 (F := Ideal) V c).arrAt 6 cfg7.N
      = Bern.axpyRow (V c (Pipeline.arrRef spec7 3) : Bern.Arr 10000 128) (V c (Pipeline.arrRef spec7 4) : Bern.Arr 1 128)
          (Bern.prop2 (V c (Pipeline.arrRef spec7 0) : Bern.Arr 10000 10000) (V c (Pipeline.arrRef spec7 1) : Bern.Arr 10000 128)
            (V c (Pipeline.arrRef spec7 2) : Bern.Arr 10000 128)) :=
  (dat7 (F := Ideal) V c).arrAt_eq_of_cover 6
    (Bern.axpyRow (r7_acc V c) (r7_ct V c) (Bern.prop2 (r7_E V c) (r7_ub V c) (r7_u V c)))
    (fun t _ => r7_flushed6_eq V c t) r7_cover6

end Cert.KernelIdeal.RegVal

end
-- ==== Proof.RegionPropRelu8.lean ====
/-
  Region 8 of the filter: one propagation pass and one accumulation, closed by relu.

  The region's grid has 25 points. At point t the body reads rows 400 t … 400 t + 399 (every column) of the matrix E, of
  the features u and of the accumulator acc, and the whole of the features' second copy ub and of the coefficient row
  ct, and writes rows 400 t … 400 t + 399 of two arrays. With r = 400 t + p,
      first array   [r, q] = u[r, q] + ∑ l, E[r, l] · ub[l, q]                         (u + E ub),
      second array  [r, q] = max (acc[r, q] + ct[0, q] · (u + E ub)[r, q]) 0.
  The 25 row blocks tile the 10000 rows, so after the region the first array is `Bern.prop2 E ub u` and the second is
  `Bern.relu (Bern.axpyRow acc ct (Bern.prop2 E ub u))` of the arrays as the region found them.
-/
import proofs.«148114_g1589137899740_cont_week2b_1182_5_alg».proof.Proof.FrameKernelIdeal
import proofs.«148114_g1589137899740_cont_week2b_1182_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

/-! ## The body's arithmetic at an entry -/

/-- The product's left operand at output entry j and contraction position k: row j₀ … -/
theorem r8_lhs_0 (j : S400x128.Idx) (k : dot_S400x10000_S10000x128_S400x128_1_0_0_1_n_n.contr.Idx) :
    ((dot_S400x10000_S10000x128_S400x128_1_0_0_1_n_n.lhsIdx j k 0 : Fin _) : ℕ) = (j 0 : ℕ) := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

/-- … column k; -/
theorem r8_lhs_1 (j : S400x128.Idx) (k : dot_S400x10000_S10000x128_S400x128_1_0_0_1_n_n.contr.Idx) :
    ((dot_S400x10000_S10000x128_S400x128_1_0_0_1_n_n.lhsIdx j k 1 : Fin _) : ℕ) = (k ⟨0, by decide⟩ : ℕ) :=
  dot_S400x10000_S10000x128_S400x128_1_0_0_1_n_n.lhsIdx_val_of_single (cl := 1) rfl j k

/-- the right operand's: row k … -/
theorem r8_rhs_0 (j : S400x128.Idx) (k : dot_S400x10000_S10000x128_S400x128_1_0_0_1_n_n.contr.Idx) :
    ((dot_S400x10000_S10000x128_S400x128_1_0_0_1_n_n.rhsIdx j k 0 : Fin _) : ℕ) = (k ⟨0, by decide⟩ : ℕ) :=
  dot_S400x10000_S10000x128_S400x128_1_0_0_1_n_n.rhsIdx_val_of_single (cr := 0) rfl j k

/-- … column j₁. -/
theorem r8_rhs_1 (j : S400x128.Idx) (k : dot_S400x10000_S10000x128_S400x128_1_0_0_1_n_n.contr.Idx) :
    ((dot_S400x10000_S10000x128_S400x128_1_0_0_1_n_n.rhsIdx j k 1 : Fin _) : ℕ) = (j 1 : ℕ) := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product of a [400, 10000] block and a [10000, 128] array, accumulated from zero, at (p, q):
    ∑ l, a[p, l] · b[l, q]. -/
theorem r8_matmul_apply (a : FVec Ideal S400x10000 .bf16) (b : FVec Ideal S10000x128 .bf16) (p : Fin 400) (q : Fin 128) :
    matmul dot_S400x10000_S10000x128_S400x128_1_0_0_1_n_n none a b (constant S400x128 .f32 0x00000000#32) (ix2 p q)
      = ∑ l : Fin 10000, a (ix2 p l) * b (ix2 l q) := by
  refine (Ideal.matmul_constant_zero_apply dot_S400x10000_S10000x128_S400x128_1_0_0_1_n_n none a b (ix2 p q)).trans ?_
  rw [← Equiv.sum_comp (contrEquiv1 dot_S400x10000_S10000x128_S400x128_1_0_0_1_n_n 10000 rfl rfl).symm]
  refine Finset.sum_congr rfl fun l _ => ?_
  have hk := contrEquiv1_symm_val dot_S400x10000_S10000x128_S400x128_1_0_0_1_n_n 10000 rfl rfl l
  congr 1
  · refine congrArg a (funext fun d => Fin.ext ?_)
    match d with
    | ⟨0, _⟩ => exact r8_lhs_0 _ _
    | ⟨1, _⟩ => exact (r8_lhs_1 _ _).trans hk
  · refine congrArg b (funext fun d => Fin.ext ?_)
    match d with
    | ⟨0, _⟩ => exact (r8_rhs_0 _ _).trans hk
    | ⟨1, _⟩ => exact r8_rhs_1 _ _

/-- A [1, 128] row broadcast to [400, 128] reads, at (p, q), the row's entry of column q. -/
theorem r8_bcast_apply (v : FVec Ideal S1x128 .f32) (p : Fin 400) (q : Fin 128) :
    broadcastTo S400x128 v broadcasts_S1x128_S400x128 (ix2 p q) = v (ix2 0 q) := by
  refine broadcastTo_apply v broadcasts_S1x128_S400x128 (ix2 p q) (ix2 0 q) fun a => ?_
  match a with
  | ⟨0, _⟩ => rfl
  | ⟨1, _⟩ => rfl

/-- The propagated block at (p, q): the features' entry plus row p of the matrix block times column q of the
    features' second copy. -/
theorem r8_pay1_apply (vu : Vec Ideal S400x128 .f32) (vE : Vec Ideal S400x10000 .bf16) (vb : Vec Ideal S10000x128 .bf16)
    (p : Fin 400) (q : Fin 128) :
    k8_pay1 vu vE vb (ix2 p q) = vu (ix2 p q) + ∑ l : Fin 10000, vE (ix2 p l) * vb (ix2 l q) := by
  unfold k8_pay1
  simp only [shapeCast_self]
  refine (addf_apply _ _ (ix2 p q)).trans ?_
  rw [r8_matmul_apply]

/-- The accumulated block at (p, q): the larger of zero and the accumulator's entry plus the coefficient row's entry
    of column q times the propagated entry. -/
theorem r8_pay2_apply (vu : Vec Ideal S400x128 .f32) (vE : Vec Ideal S400x10000 .bf16) (vb : Vec Ideal S10000x128 .bf16)
    (va : Vec Ideal S400x128 .f32) (vc : Vec Ideal S1x128 .f32) (p : Fin 400) (q : Fin 128) :
    k8_pay2 vu vE vb va vc (ix2 p q) = max (va (ix2 p q) + vc (ix2 0 q) * k8_pay1 vu vE vb (ix2 p q)) 0 := by
  unfold k8_pay2
  simp only [shapeCast_self]
  refine (maximumf_apply _ _ (ix2 p q)).trans ?_
  refine congrArg₂ max ?_ Ideal.ofBits_zero_f32
  refine (addf_apply _ _ (ix2 p q)).trans ?_
  refine congrArg (va (ix2 p q) + ·) ?_
  refine (mulf_apply _ _ (ix2 p q)).trans ?_
  rw [r8_bcast_apply]

/-- The propagated block, from blocks that are rows r p of E, of u, and the whole of ub, is those rows of u + E ub. -/
theorem r8_point_prop (E : Bern.Arr 10000 10000) (ub u : Bern.Arr 10000 128)
    (xE : Vec Ideal S400x10000 .bf16) (xb : Vec Ideal S10000x128 .bf16) (xu : Vec Ideal S400x128 .f32) (r : Fin 400 → Fin 10000)
    (hE : ∀ p l, xE (ix2 p l) = E (ix2 (r p) l)) (hb : ∀ l q, xb (ix2 l q) = ub (ix2 l q))
    (hu : ∀ p q, xu (ix2 p q) = u (ix2 (r p) q)) (p : Fin 400) (q : Fin 128) :
    k8_pay1 xu xE xb (ix2 p q) = Bern.prop2 E ub u (ix2 (r p) q) := by
  rw [r8_pay1_apply, hu]
  show _ = u (ix2 (r p) q) + Bern.mm E ub (ix2 (r p) q)
  rw [Bern.mm_apply]
  refine congrArg (u (ix2 (r p) q) + ·) (Finset.sum_congr rfl fun l _ => ?_)
  rw [hE, hb]

/-- The accumulated block, from those and rows r p of acc and the whole row ct, is those rows of
    relu (acc + ct ⊙ (u + E ub)). -/
theorem r8_point_acc (E : Bern.Arr 10000 10000) (ub u acc : Bern.Arr 10000 128) (ct : Bern.Arr 1 128)
    (xE : Vec Ideal S400x10000 .bf16) (xb : Vec Ideal S10000x128 .bf16) (xu xa : Vec Ideal S400x128 .f32) (xc : Vec Ideal S1x128 .f32)
    (r : Fin 400 → Fin 10000)
    (hE : ∀ p l, xE (ix2 p l) = E (ix2 (r p) l)) (hb : ∀ l q, xb (ix2 l q) = ub (ix2 l q))
    (hu : ∀ p q, xu (ix2 p q) = u (ix2 (r p) q)) (ha : ∀ p q, xa (ix2 p q) = acc (ix2 (r p) q))
    (hc : ∀ q, xc (ix2 0 q) = ct (ix2 0 q)) (p : Fin 400) (q : Fin 128) :
    k8_pay2 xu xE xb xa xc (ix2 p q) = Bern.relu (Bern.axpyRow acc ct (Bern.prop2 E ub u)) (ix2 (r p) q) := by
  rw [r8_pay2_apply, ha, hc, r8_point_prop E ub u xE xb xu r hE hb hu]
  rfl

/-! ## The grid: 25 points; point t's blocks are rows 400 t … 400 t + 399 -/

theorem r8_hz : (![0, 0] : Fin 2 → Nat) = fun _ => 0 := funext fun a => by fin_cases a <;> rfl

/-- The block indices of the seven windows at every point: (t, 0) for the matrix, the features, the accumulator and the two
    outputs; (0, 0) for the features' second copy and the coefficient row. -/
theorem r8_idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0 :=
  (by decide +kernel : ∀ t : Fin grid8.N, _)

theorem r8_lt (t : Fin cfg8.N) : t.val < 25 := Nat.lt_of_lt_of_eq t.isLt (show cfg8.N = 25 from N_8)

/-- Row 400 t + p: the array's row under row p of the block at point t. -/
noncomputable def r8_row (t : Fin cfg8.N) (p : Fin 400) : Fin 10000 :=
  ⟨400 * t.val + p.val, by have := r8_lt t; have := p.isLt; omega⟩

/-- The matrix's block at point t is rows 400 t … of the matrix, every column. -/
theorem r8_read0 (A : Bern.Arr 10000 10000) (t : Fin cfg8.N) (p : Fin 400) (l : Fin 10000) :
    (((cfg8.win 0).blk t).view.read (Elt Ideal) A : Vec Ideal S400x10000 .bf16) (ix2 p l) = A (ix2 (r8_row t p) l) := by
  obtain ⟨e0, e1, -⟩ := r8_idx_facts t
  rw [View.read_apply]
  show A _ = A _
  refine congrArg A (funext fun a => Fin.ext ?_)
  match a with
  | ⟨0, _⟩ => show win8_0.index t (0 : Fin 2) * 400 + 1 * p.val = 400 * t.val + p.val; rw [e0]; omega
  | ⟨1, _⟩ => show win8_0.index t (1 : Fin 2) * 10000 + 1 * l.val = l.val; rw [e1]; omega

/-- The features' second copy is staged whole at every point. -/
theorem r8_read1 (A : Bern.Arr 10000 128) (t : Fin cfg8.N) (l : Fin 10000) (q : Fin 128) :
    (((cfg8.win 1).blk t).view.read (Elt Ideal) A : Vec Ideal S10000x128 .bf16) (ix2 l q) = A (ix2 l q) := by
  obtain ⟨-, -, e0, e1, -⟩ := r8_idx_facts t
  rw [View.read_apply]
  show A _ = A _
  refine congrArg A (funext fun a => Fin.ext ?_)
  match a with
  | ⟨0, _⟩ => show win8_1.index t (0 : Fin 2) * 10000 + 1 * l.val = l.val; rw [e0]; omega
  | ⟨1, _⟩ => show win8_1.index t (1 : Fin 2) * 128 + 1 * q.val = q.val; rw [e1]; omega

/-- The features' block at point t is rows 400 t … of the features. -/
theorem r8_read2 (A : Bern.Arr 10000 128) (t : Fin cfg8.N) (p : Fin 400) (q : Fin 128) :
    (((cfg8.win 2).blk t).view.read (Elt Ideal) A : Vec Ideal S400x128 .f32) (ix2 p q) = A (ix2 (r8_row t p) q) := by
  obtain ⟨-, -, -, -, e0, e1, -⟩ := r8_idx_facts t
  rw [View.read_apply]
  show A _ = A _
  refine congrArg A (funext fun a => Fin.ext ?_)
  match a with
  | ⟨0, _⟩ => show win8_2.index t (0 : Fin 2) * 400 + 1 * p.val = 400 * t.val + p.val; rw [e0]; omega
  | ⟨1, _⟩ => show win8_2.index t (1 : Fin 2) * 128 + 1 * q.val = q.val; rw [e1]; omega

/-- The accumulator's block at point t is rows 400 t … of the accumulator. -/
theorem r8_read3 (A : Bern.Arr 10000 128) (t : Fin cfg8.N) (p : Fin 400) (q : Fin 128) :
    (((cfg8.win 3).blk t).view.read (Elt Ideal) A : Vec Ideal S400x128 .f32) (ix2 p q) = A (ix2 (r8_row t p) q) := by
  obtain ⟨-, -, -, -, -, -, e0, e1, -⟩ := r8_idx_facts t
  rw [View.read_apply]
  show A _ = A _
  refine congrArg A (funext fun a => Fin.ext ?_)
  match a with
  | ⟨0, _⟩ => show win8_3.index t (0 : Fin 2) * 400 + 1 * p.val = 400 * t.val + p.val; rw [e0]; omega
  | ⟨1, _⟩ => show win8_3.index t (1 : Fin 2) * 128 + 1 * q.val = q.val; rw [e1]; omega

/-- The coefficient row is staged whole at every point. -/
theorem r8_read4 (A : Bern.Arr 1 128) (t : Fin cfg8.N) (q : Fin 128) :
    (((cfg8.win 4).blk t).view.read (Elt Ideal) A : Vec Ideal S1x128 .f32) (ix2 0 q) = A (ix2 0 q) := by
  obtain ⟨-, -, -, -, -, -, -, -, e0, e1, -⟩ := r8_idx_facts t
  rw [View.read_apply]
  show A _ = A _
  refine congrArg A (funext fun a => Fin.ext ?_)
  match a with
  | ⟨0, _⟩ => show win8_4.index t (0 : Fin 2) * 1 + 1 * 0 = 0; rw [e0]
  | ⟨1, _⟩ => show win8_4.index t (1 : Fin 2) * 128 + 1 * q.val = q.val; rw [e1]; omega

/-- The first output's block at point t is rows 400 t … of its array. -/
theorem r8_read5 (A : Bern.Arr 10000 128) (t : Fin cfg8.N) (p : Fin 400) (q : Fin 128) :
    (((cfg8.win 5).blk t).view.read (Elt Ideal) A : Vec Ideal S400x128 .f32) (ix2 p q) = A (ix2 (r8_row t p) q) := by
  obtain ⟨-, -, -, -, -, -, -, -, -, -, e0, e1, -⟩ := r8_idx_facts t
  rw [View.read_apply]
  show A _ = A _
  refine congrArg A (funext fun a => Fin.ext ?_)
  match a with
  | ⟨0, _⟩ => show win8_5.index t (0 : Fin 2) * 400 + 1 * p.val = 400 * t.val + p.val; rw [e0]; omega
  | ⟨1, _⟩ => show win8_5.index t (1 : Fin 2) * 128 + 1 * q.val = q.val; rw [e1]; omega

/-- The second output's block at point t is rows 400 t … of its array. -/
theorem r8_read6 (A : Bern.Arr 10000 128) (t : Fin cfg8.N) (p : Fin 400) (q : Fin 128) :
    (((cfg8.win 6).blk t).view.read (Elt Ideal) A : Vec Ideal S400x128 .f32) (ix2 p q) = A (ix2 (r8_row t p) q) := by
  obtain ⟨-, -, -, -, -, -, -, -, -, -, -, -, e0, e1⟩ := r8_idx_facts t
  rw [View.read_apply]
  show A _ = A _
  refine congrArg A (funext fun a => Fin.ext ?_)
  match a with
  | ⟨0, _⟩ => show win8_6.index t (0 : Fin 2) * 400 + 1 * p.val = 400 * t.val + p.val; rw [e0]; omega
  | ⟨1, _⟩ => show win8_6.index t (1 : Fin 2) * 128 + 1 * q.val = q.val; rw [e1]; omega

/-! ## The arrays the region reads, as it finds them -/

/-- The matrix E (window 0's array). -/
noncomputable abbrev r8_E (c : Dev nD) : Bern.Arr 10000 10000 := V c (Pipeline.arrRef spec8 0)
/-- The features' second copy, the product's operand (window 1's array). -/
noncomputable abbrev r8_ub (c : Dev nD) : Bern.Arr 10000 128 := V c (Pipeline.arrRef spec8 1)
/-- The features (window 2's array). -/
noncomputable abbrev r8_u (c : Dev nD) : Bern.Arr 10000 128 := V c (Pipeline.arrRef spec8 2)
/-- The accumulator (window 3's array). -/
noncomputable abbrev r8_acc (c : Dev nD) : Bern.Arr 10000 128 := V c (Pipeline.arrRef spec8 3)
/-- The coefficient row (window 4's array). -/
noncomputable abbrev r8_ct (c : Dev nD) : Bern.Arr 1 128 := V c (Pipeline.arrRef spec8 4)

/-! ## What each point writes back -/

/-- Point t writes rows 400 t … 400 t + 399 of u + E ub to the first output. -/
theorem r8_flushed5_eq (c : Dev nD) (t : Fin cfg8.N) :
    (dat8 (F := Ideal) V c).flushed 5 t
      = ((cfg8.win 5).blk t).view.read (Elt Ideal) (Bern.prop2 (r8_E V c) (r8_ub V c) (r8_u V c)) := by
  show (cfg8.win 5).cut (grid8.coords t) ((dat8 (F := Ideal) V c).after 5 t) = _
  rw [after8_5]
  unfold out8_5
  rw [View.canon_unit_zero r8_hz]
  simp only [View.ld_unit_zero (S := S400x128) r8_hz, View.ld_unit_zero (S := S400x10000) r8_hz,
    View.ld_unit_zero (S := S10000x128) r8_hz]
  funext j
  obtain ⟨p, q, rfl⟩ : ∃ (p : Fin 400) (q : Fin 128), j = ix2 p q := ⟨j 0, j 1, eq_ix2 j⟩
  refine Eq.trans ?_ (r8_read5 (Bern.prop2 (r8_E V c) (r8_ub V c) (r8_u V c)) t p q).symm
  exact r8_point_prop (r8_E V c) (r8_ub V c) (r8_u V c) (iblk8 V c 0 t) (iblk8 V c 1 t) (iblk8 V c 2 t) (r8_row t)
    (r8_read0 (r8_E V c) t) (r8_read1 (r8_ub V c) t) (r8_read2 (r8_u V c) t) p q

/-- Point t writes rows 400 t … 400 t + 399 of relu (acc + ct ⊙ (u + E ub)) to the second output. -/
theorem r8_flushed6_eq (c : Dev nD) (t : Fin cfg8.N) :
    (dat8 (F := Ideal) V c).flushed 6 t
      = ((cfg8.win 6).blk t).view.read (Elt Ideal)
          (Bern.relu (Bern.axpyRow (r8_acc V c) (r8_ct V c) (Bern.prop2 (r8_E V c) (r8_ub V c) (r8_u V c)))) := by
  show (cfg8.win 6).cut (grid8.coords t) ((dat8 (F := Ideal) V c).after 6 t) = _
  rw [after8_6]
  unfold out8_6
  rw [View.canon_unit_zero r8_hz]
  simp only [View.ld_unit_zero (S := S400x128) r8_hz, View.ld_unit_zero (S := S400x10000) r8_hz,
    View.ld_unit_zero (S := S10000x128) r8_hz, View.ld_unit_zero (S := S1x128) r8_hz]
  funext j
  obtain ⟨p, q, rfl⟩ : ∃ (p : Fin 400) (q : Fin 128), j = ix2 p q := ⟨j 0, j 1, eq_ix2 j⟩
  refine Eq.trans ?_ (r8_read6 (Bern.relu (Bern.axpyRow (r8_acc V c) (r8_ct V c) (Bern.prop2 (r8_E V c) (r8_ub V c) (r8_u V c)))) t p q).symm
  exact r8_point_acc (r8_E V c) (r8_ub V c) (r8_u V c) (r8_acc V c) (r8_ct V c)
    (iblk8 V c 0 t) (iblk8 V c 1 t) (iblk8 V c 2 t) (iblk8 V c 3 t) (iblk8 V c 4 t) (r8_row t)
    (r8_read0 (r8_E V c) t) (r8_read1 (r8_ub V c) t) (r8_read2 (r8_u V c) t) (r8_read3 (r8_acc V c) t)
    (r8_read4 (r8_ct V c) t) p q

/-! ## The row blocks tile the rows -/

/-- An entry of the first output's array is in point t's block iff, on each axis, its coordinate lies in the block's
    range: from block index × block size, one block size long. -/
theorem r8_mem_blk5 (t : Fin cfg8.N) (i : S10000x128.Idx) :
    i ∈ ((cfg8.win 5).blk t).view.set ↔ ∀ a : Fin 2, win8_5.index t a * S400x128.size a ≤ (i a).val
      ∧ (i a).val < win8_5.index t a * S400x128.size a + S400x128.size a := by
  show i ∈ ((View.whole (Pipeline.arrRef spec8 5)).slice (win8_5.rect t)).set ↔ _
  rw [View.set_slice_whole, Rect.mem_set_unit]
  exact Iff.rfl

/-- The same for the second output's. -/
theorem r8_mem_blk6 (t : Fin cfg8.N) (i : S10000x128.Idx) :
    i ∈ ((cfg8.win 6).blk t).view.set ↔ ∀ a : Fin 2, win8_6.index t a * S400x128.size a ≤ (i a).val
      ∧ (i a).val < win8_6.index t a * S400x128.size a + S400x128.size a := by
  show i ∈ ((View.whole (Pipeline.arrRef spec8 6)).slice (win8_6.rect t)).set ↔ _
  rw [View.set_slice_whole, Rect.mem_set_unit]
  exact Iff.rfl

/-- Row r is in the block of point r / 400, which writes back. -/
theorem r8_cover5 (i : S10000x128.Idx) :
    ∃ t : Fin cfg8.N, (cfg8.win 5).flush t = true ∧ i ∈ ((cfg8.win 5).blk t).view.set := by
  have hi0 : (i 0).val < 10000 := idx2_lt0 i
  have hi1 : (i 1).val < 128 := idx2_lt1 i
  have ht : (i 0).val / 400 < cfg8.N := Nat.lt_of_lt_of_eq (by omega) (show cfg8.N = 25 from N_8).symm
  obtain ⟨-, -, -, -, -, -, -, -, -, -, e0, e1, -⟩ := r8_idx_facts ⟨(i 0).val / 400, ht⟩
  refine ⟨⟨(i 0).val / 400, ht⟩, flush8_5 _, ?_⟩
  rw [r8_mem_blk5]
  intro a
  match a with
  | ⟨0, _⟩ =>
    show win8_5.index ⟨(i 0).val / 400, ht⟩ (0 : Fin 2) * 400 ≤ (i 0).val
      ∧ (i 0).val < win8_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win8_5.index ⟨(i 0).val / 400, ht⟩ (1 : Fin 2) * 128 ≤ (i 1).val
      ∧ (i 1).val < win8_5.index ⟨(i 0).val / 400, ht⟩ (1 : Fin 2) * 128 + 128
    rw [e1]; omega

theorem r8_cover6 (i : S10000x128.Idx) :
    ∃ t : Fin cfg8.N, (cfg8.win 6).flush t = true ∧ i ∈ ((cfg8.win 6).blk t).view.set := by
  have hi0 : (i 0).val < 10000 := idx2_lt0 i
  have hi1 : (i 1).val < 128 := idx2_lt1 i
  have ht : (i 0).val / 400 < cfg8.N := Nat.lt_of_lt_of_eq (by omega) (show cfg8.N = 25 from N_8).symm
  obtain ⟨-, -, -, -, -, -, -, -, -, -, -, -, e0, e1⟩ := r8_idx_facts ⟨(i 0).val / 400, ht⟩
  refine ⟨⟨(i 0).val / 400, ht⟩, flush8_6 _, ?_⟩
  rw [r8_mem_blk6]
  intro a
  match a with
  | ⟨0, _⟩ =>
    show win8_6.index ⟨(i 0).val / 400, ht⟩ (0 : Fin 2) * 400 ≤ (i 0).val
      ∧ (i 0).val < win8_6.index ⟨(i 0).val / 400, ht⟩ (0 : Fin 2) * 400 + 400
    rw [e0]; show (i 0).val / 400 * 400 ≤ (i 0).val ∧ (i 0).val < (i 0).val / 400 * 400 + 400; omega
  | ⟨1, _⟩ =>
    show win8_6.index ⟨(i 0).val / 400, ht⟩ (1 : Fin 2) * 128 ≤ (i 1).val
      ∧ (i 1).val < win8_6.index ⟨(i 0).val / 400, ht⟩ (1 : Fin 2) * 128 + 128
    rw [e1]; omega

/-! ## The two arrays after the region -/

/-- The first output after the region is u + E ub of the arrays the region found. -/
theorem final8_5 (c : Dev nD) :
    (dat8 (F := Ideal) V c).arrAt 5 cfg8.N
      = Bern.prop2 (V c (Pipeline.arrRef spec8 0) : Bern.Arr 10000 10000) (V c (Pipeline.arrRef spec8 1) : Bern.Arr 10000 128)
          (V c (Pipeline.arrRef spec8 2) : Bern.Arr 10000 128) :=
  (dat8 (F := Ideal) V c).arrAt_eq_of_cover 5 (Bern.prop2 (r8_E V c) (r8_ub V c) (r8_u V c))
    (fun t _ => r8_flushed5_eq V c t) r8_cover5

/-- The second output after the region is relu (acc + ct ⊙ (u + E ub)) of the arrays the region found. -/
theorem final8_6 (c : Dev nD) :
    (dat8 (F := Ideal) V c).arrAt 6 cfg8.N
      = Bern.relu (Bern.axpyRow (V c (Pipeline.arrRef spec8 3) : Bern.Arr 10000 128) (V c (Pipeline.arrRef spec8 4) : Bern.Arr 1 128)
          (Bern.prop2 (V c (Pipeline.arrRef spec8 0) : Bern.Arr 10000 10000) (V c (Pipeline.arrRef spec8 1) : Bern.Arr 10000 128)
            (V c (Pipeline.arrRef spec8 2) : Bern.Arr 10000 128))) :=
  (dat8 (F := Ideal) V c).arrAt_eq_of_cover 6
    (Bern.relu (Bern.axpyRow (r8_acc V c) (r8_ct V c) (Bern.prop2 (r8_E V c) (r8_ub V c) (r8_u V c))))
    (fun t _ => r8_flushed6_eq V c t) r8_cover6

end Cert.KernelIdeal.RegVal

end
-- ==== Proof.ChainB.lean ====
/-
  The kernel's program followed through its second layer: the same four passes as the first layer, now from the first
  layer's output h₁ and with the coefficients of row 1 of thetas; every pass reads the matrix E the first layer's first
  pass wrote.
-/
import proofs.«148114_g1589137899740_cont_week2b_1182_5_alg».proof.Proof.ChainA
import proofs.«148114_g1589137899740_cont_week2b_1182_5_alg».proof.Proof.RegionProp5
import proofs.«148114_g1589137899740_cont_week2b_1182_5_alg».proof.Proof.RegionProp6
import proofs.«148114_g1589137899740_cont_week2b_1182_5_alg».proof.Proof.RegionProp7
import proofs.«148114_g1589137899740_cont_week2b_1182_5_alg».proof.Proof.RegionPropRelu8

set_option maxRecDepth 16384

noncomputable section

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

namespace Cert.KernelIdeal.KVal

open Cert.KernelIdeal.RegVal Cert.KernelIdeal.HostVal

/-! ## Layer 1, pass 1 (region 5) -/

theorem w11_v33 (c : Dev nD) : W11 m ρ c (Proc.devRef .tc main_v33) = lA0 m c 1 (cH1 m c) := by
  host_read hostOps5
  rw [w10_v2 m ρ c, w10_h1 m ρ c]
  exact (congrArg (fun t => mulf t (cH1 m c)) (pick_full_1_0 (cCs m c))).trans (scal_read _ _)

theorem w11_v34 (c : Dev nD) : W11 m ρ c (Proc.devRef .tc main_v34) = cH1 m c := by
  host_read hostOps5
  rw [w10_h1 m ρ c]
  exact trunc_read _

theorem w11_v37 (c : Dev nD) : W11 m ρ c (Proc.devRef .tc main_v37) = fun _ => cC m c 1 1 := by
  host_read hostOps5
  rw [w10_v2 m ρ c]
  exact pick_row_1_1 (cCs m c)

theorem w11_h1 (c : Dev nD) : W11 m ρ c (Proc.devRef .tc main_v29_1) = cH1 m c := by
  host_read hostOps5
  exact w10_h1 m ρ c

theorem w11_E (c : Dev nD) : W11 m ρ c (Proc.devRef .tc main_v14_2) = cE m c :=
  (at_main_v14_2_11 m ρ c).trans (w4_E m ρ c)

theorem w12_u (c : Dev nD) : W12 m ρ c (Proc.devRef .tc main_v38_0) = lU1 m c (cH1 m c) := by
  refine (W12_arr m ρ c 5).trans ((final5_5 (V11 m ρ) c).trans ?_)
  show Bern.prop2 (W11 m ρ c (Proc.devRef .tc main_v14_2)) (W11 m ρ c (Proc.devRef .tc main_v34)) (W11 m ρ c (Proc.devRef .tc main_v29_1)) = _
  rw [w11_E m ρ c, w11_v34 m ρ c, w11_h1 m ρ c]
  rfl

theorem w12_a (c : Dev nD) : W12 m ρ c (Proc.devRef .tc main_v38_1) = lA1 m c 1 (cH1 m c) := by
  refine (W12_arr m ρ c 6).trans ((final5_6 (V11 m ρ) c).trans ?_)
  show Bern.axpyRow (W11 m ρ c (Proc.devRef .tc main_v33)) (W11 m ρ c (Proc.devRef .tc main_v37))
    (Bern.prop2 (W11 m ρ c (Proc.devRef .tc main_v14_2)) (W11 m ρ c (Proc.devRef .tc main_v34)) (W11 m ρ c (Proc.devRef .tc main_v29_1))) = _
  rw [w11_E m ρ c, w11_v34 m ρ c, w11_h1 m ρ c, w11_v33 m ρ c, w11_v37 m ρ c]
  rfl

theorem w12_v2 (c : Dev nD) : W12 m ρ c (Proc.devRef .tc main_v2) = cCs m c :=
  (at_main_v2_12 m ρ c).trans (w1_v2 m ρ c)

/-! ## Layer 1, pass 2 (region 6) -/

theorem w13_v39 (c : Dev nD) : W13 m ρ c (Proc.devRef .tc main_v39) = lU1 m c (cH1 m c) := by
  host_read hostOps6
  rw [w12_u m ρ c]
  exact trunc_read _

theorem w13_v42 (c : Dev nD) : W13 m ρ c (Proc.devRef .tc main_v42) = fun _ => cC m c 1 2 := by
  host_read hostOps6
  rw [w12_v2 m ρ c]
  exact pick_row_1_2 (cCs m c)

theorem w13_u (c : Dev nD) : W13 m ρ c (Proc.devRef .tc main_v38_0) = lU1 m c (cH1 m c) := by
  host_read hostOps6
  exact w12_u m ρ c

theorem w13_a (c : Dev nD) : W13 m ρ c (Proc.devRef .tc main_v38_1) = lA1 m c 1 (cH1 m c) := by
  host_read hostOps6
  exact w12_a m ρ c

theorem w13_E (c : Dev nD) : W13 m ρ c (Proc.devRef .tc main_v14_2) = cE m c :=
  (at_main_v14_2_13 m ρ c).trans (w4_E m ρ c)

theorem w14_u (c : Dev nD) : W14 m ρ c (Proc.devRef .tc main_v43_0) = lU2 m c (cH1 m c) := by
  refine (W14_arr m ρ c 5).trans ((final6_5 (V13 m ρ) c).trans ?_)
  show Bern.prop2 (W13 m ρ c (Proc.devRef .tc main_v14_2)) (W13 m ρ c (Proc.devRef .tc main_v39)) (W13 m ρ c (Proc.devRef .tc main_v38_0)) = _
  rw [w13_E m ρ c, w13_v39 m ρ c, w13_u m ρ c]
  rfl

theorem w14_a (c : Dev nD) : W14 m ρ c (Proc.devRef .tc main_v43_1) = lA2 m c 1 (cH1 m c) := by
  refine (W14_arr m ρ c 6).trans ((final6_6 (V13 m ρ) c).trans ?_)
  show Bern.axpyRow (W13 m ρ c (Proc.devRef .tc main_v38_1)) (W13 m ρ c (Proc.devRef .tc main_v42))
    (Bern.prop2 (W13 m ρ c (Proc.devRef .tc main_v14_2)) (W13 m ρ c (Proc.devRef .tc main_v39)) (W13 m ρ c (Proc.devRef .tc main_v38_0))) = _
  rw [w13_E m ρ c, w13_v39 m ρ c, w13_u m ρ c, w13_a m ρ c, w13_v42 m ρ c]
  rfl

theorem w14_v2 (c : Dev nD) : W14 m ρ c (Proc.devRef .tc main_v2) = cCs m c :=
  (at_main_v2_14 m ρ c).trans (w1_v2 m ρ c)

/-! ## Layer 1, pass 3 (region 7) -/

theorem w15_v44 (c : Dev nD) : W15 m ρ c (Proc.devRef .tc main_v44) = lU2 m c (cH1 m c) := by
  host_read hostOps7
  rw [w14_u m ρ c]
  exact trunc_read _

theorem w15_v47 (c : Dev nD) : W15 m ρ c (Proc.devRef .tc main_v47) = fun _ => cC m c 1 3 := by
  host_read hostOps7
  rw [w14_v2 m ρ c]
  exact pick_row_1_3 (cCs m c)

theorem w15_u (c : Dev nD) : W15 m ρ c (Proc.devRef .tc main_v43_0) = lU2 m c (cH1 m c) := by
  host_read hostOps7
  exact w14_u m ρ c

theorem w15_a (c : Dev nD) : W15 m ρ c (Proc.devRef .tc main_v43_1) = lA2 m c 1 (cH1 m c) := by
  host_read hostOps7
  exact w14_a m ρ c

theorem w15_E (c : Dev nD) : W15 m ρ c (Proc.devRef .tc main_v14_2) = cE m c :=
  (at_main_v14_2_15 m ρ c).trans (w4_E m ρ c)

theorem w16_u (c : Dev nD) : W16 m ρ c (Proc.devRef .tc main_v48_0) = lU3 m c (cH1 m c) := by
  refine (W16_arr m ρ c 5).trans ((final7_5 (V15 m ρ) c).trans ?_)
  show Bern.prop2 (W15 m ρ c (Proc.devRef .tc main_v14_2)) (W15 m ρ c (Proc.devRef .tc main_v44)) (W15 m ρ c (Proc.devRef .tc main_v43_0)) = _
  rw [w15_E m ρ c, w15_v44 m ρ c, w15_u m ρ c]
  rfl

theorem w16_a (c : Dev nD) : W16 m ρ c (Proc.devRef .tc main_v48_1) = lA3 m c 1 (cH1 m c) := by
  refine (W16_arr m ρ c 6).trans ((final7_6 (V15 m ρ) c).trans ?_)
  show Bern.axpyRow (W15 m ρ c (Proc.devRef .tc main_v43_1)) (W15 m ρ c (Proc.devRef .tc main_v47))
    (Bern.prop2 (W15 m ρ c (Proc.devRef .tc main_v14_2)) (W15 m ρ c (Proc.devRef .tc main_v44)) (W15 m ρ c (Proc.devRef .tc main_v43_0))) = _
  rw [w15_E m ρ c, w15_v44 m ρ c, w15_u m ρ c, w15_a m ρ c, w15_v47 m ρ c]
  rfl

theorem w16_v2 (c : Dev nD) : W16 m ρ c (Proc.devRef .tc main_v2) = cCs m c :=
  (at_main_v2_16 m ρ c).trans (w1_v2 m ρ c)

/-! ## Layer 1, pass 4 (region 8, with the closing relu) -/

theorem w17_v49 (c : Dev nD) : W17 m ρ c (Proc.devRef .tc main_v49) = lU3 m c (cH1 m c) := by
  host_read hostOps8
  rw [w16_u m ρ c]
  exact trunc_read _

theorem w17_v52 (c : Dev nD) : W17 m ρ c (Proc.devRef .tc main_v52) = fun _ => cC m c 1 4 := by
  host_read hostOps8
  rw [w16_v2 m ρ c]
  exact pick_row_1_4 (cCs m c)

theorem w17_u (c : Dev nD) : W17 m ρ c (Proc.devRef .tc main_v48_0) = lU3 m c (cH1 m c) := by
  host_read hostOps8
  exact w16_u m ρ c

theorem w17_a (c : Dev nD) : W17 m ρ c (Proc.devRef .tc main_v48_1) = lA3 m c 1 (cH1 m c) := by
  host_read hostOps8
  exact w16_a m ρ c

theorem w17_E (c : Dev nD) : W17 m ρ c (Proc.devRef .tc main_v14_2) = cE m c :=
  (at_main_v14_2_17 m ρ c).trans (w4_E m ρ c)

/-- The second layer's output. -/
theorem w18_h2 (c : Dev nD) : W18 m ρ c (Proc.devRef .tc main_v53_1) = cH2 m c := by
  refine (W18_arr m ρ c 6).trans ((final8_6 (V17 m ρ) c).trans ?_)
  show Bern.relu (Bern.axpyRow (W17 m ρ c (Proc.devRef .tc main_v48_1)) (W17 m ρ c (Proc.devRef .tc main_v52))
    (Bern.prop2 (W17 m ρ c (Proc.devRef .tc main_v14_2)) (W17 m ρ c (Proc.devRef .tc main_v49)) (W17 m ρ c (Proc.devRef .tc main_v48_0)))) = _
  rw [w17_E m ρ c, w17_v49 m ρ c, w17_u m ρ c, w17_a m ρ c, w17_v52 m ρ c]
  rfl

end Cert.KernelIdeal.KVal

end
-- ==== Proof.RegionOut.lean ====
/-
  What the last kernel region leaves in its output array.

  The region walks 25 grid points. At point t it holds rows 400 t … 400 t + 399 of the feature array h (all 128 columns),
  the whole padded matrix W and the whole one-row bias b, and stores into rows 400 t … 400 t + 399 of the output the block
  product plus the bias row: at block index (p, q) the sum over l of h[400 t + p, l] · W[l, q], plus b[0, q]. That is the
  entry (400 t + p, q) of the array h W ⊕ b. Row r of the output lies in the block of point r / 400, so the 25 blocks
  cover the array, and the array the region leaves is h W ⊕ b.
-/
import proofs.«148114_g1589137899740_cont_week2b_1182_5_alg».proof.Proof.FrameKernelIdeal
import proofs.«148114_g1589137899740_cont_week2b_1182_5_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)
open scoped BigOperators

/-! ## The body's stored value at an index -/

/-- The dimension numbers of the [400, 128] by [128, 128] product are the plain matrix product's. -/
theorem dot9_eq_plain : dot_S400x128_S128x128_S400x128_1_0_0_1_n_n = DotDims.plain 400 128 128 := rfl

/-- The stored value at (p, q): the product into the zero constant is the sum over the contracted coordinate, and the
    one-row array broadcast down the rows reads its entry q. -/
theorem pay9_apply (x0 : Vec Ideal S400x128 .f32) (x1 : Vec Ideal S128x128 .f32) (x2 : Vec Ideal S1x128 .f32) (p : Fin 400) (q : Fin 128) :
    k9_pay1 x0 x1 x2 (ix2 p q) = (∑ l : Fin 128, x0 (ix2 p l) * x1 (ix2 l q)) + x2 (ix2 (0 : Fin 1) q) := by
  show addf (F := Ideal) (matmul (F := Ideal) dot_S400x128_S128x128_S400x128_1_0_0_1_n_n none
        (shapeCast S400x128 (x0 : FVec Ideal S400x128 .f32) shapeCasts_S400x128_S400x128)
        (shapeCast S128x128 (x1 : FVec Ideal S128x128 .f32) shapeCasts_S128x128_S128x128) (constant (F := Ideal) S400x128 .f32 0x00000000#32))
      (broadcastTo S400x128 (shapeCast S1x128 (x2 : FVec Ideal S1x128 .f32) shapeCasts_S1x128_S1x128) broadcasts_S1x128_S400x128) (ix2 p q) = _
  rw [addf_apply, shapeCast_self, shapeCast_self, shapeCast_self, matmul_zero_eq_dotGeneral, dot9_eq_plain,
    StackMember.dotGeneral_plain_apply, broadcastTo_1b_ab_apply]

/-- The stored value at a block index j is the padded projection at an array index i, when the block of the first
    operand holds the array's rows around i, the other two blocks are the whole arrays, and j and i name the same column. -/
theorem pay9_eq_projR (x0 : Vec Ideal S400x128 .f32) (x1 : Vec Ideal S128x128 .f32) (x2 : Vec Ideal S1x128 .f32)
    (h : Bern.Arr 10000 128) (W : Bern.Arr 128 128) (b : Bern.Arr 1 128) (p : Fin 400) (q : Fin 128) (r : Fin 10000)
    (h0 : ∀ l : Fin 128, x0 (ix2 p l) = h (ix2 r l)) (h1 : x1 = W) (h2 : x2 = b) :
    k9_pay1 x0 x1 x2 (ix2 p q) = Bern.projR h W b (ix2 r q) := by
  rw [pay9_apply, h1, h2]
  show _ = (∑ l : Fin 128, h (ix2 r l) * W (ix2 l q)) + b (ix2 0 q)
  congr 1
  exact Finset.sum_congr rfl fun l _ => by rw [h0]

/-- The stored value at a block index j is the padded projection at an array index i: the same statement with the two
    indices given whole, the rows related through the first operand's block and the columns equal. -/
theorem pay9_eq_projR_at (x0 : Vec Ideal S400x128 .f32) (x1 : Vec Ideal S128x128 .f32) (x2 : Vec Ideal S1x128 .f32)
    (h : Bern.Arr 10000 128) (W : Bern.Arr 128 128) (b : Bern.Arr 1 128) (j : S400x128.Idx) (i : S10000x128.Idx)
    (h0 : ∀ l : Fin 128, x0 (ix2 (j 0) l) = h (ix2 (i 0) l)) (h1 : x1 = W) (h2 : x2 = b) (hq : (i 1).val = (j 1).val) :
    k9_pay1 x0 x1 x2 j = Bern.projR h W b i := by
  obtain ⟨p, q, rfl⟩ : ∃ (p : Fin 400) (q : Fin 128), j = ix2 p q := ⟨j 0, j 1, eq_ix2 j⟩
  obtain ⟨r, s, rfl⟩ : ∃ (r : Fin 10000) (s : Fin 128), i = ix2 r s := ⟨i 0, i 1, eq_ix2 i⟩
  have hs : s = q := Fin.ext hq
  subst hs
  exact pay9_eq_projR x0 x1 x2 h W b p s r h0 h1 h2

/-! ## From the blocks to the array -/

variable (V : (c : Dev nD) → (b : Ref sig .tc) → Buf (Elt Ideal) ((c : Thread nD τ).loc b))

/-- The offsets (0, 0) are the zero offsets. -/
theorem hz : (![0, 0] : Fin 2 → Nat) = fun _ => 0 := funext fun a => match a with | ⟨0, _⟩ => rfl | ⟨1, _⟩ => rfl

/-- The index maps over the grid: at point t the first operand's block and the output's block are block row t of their
    arrays, and the other two operands' blocks are their whole arrays. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- What point t writes back is block t of h W ⊕ b, for the arrays h, W, b as the region finds them. -/
theorem flushed9_3_eq (c : Dev nD) (t : Fin cfg9.N) :
    (dat9 (F := Ideal) V c).flushed 3 t
      = ((cfg9.win 3).blk t).view.read (Elt Ideal) (Bern.projR (V c main_v53_1) (V c main_v54) (V c main_v56)) := by
  show (cfg9.win 3).cut (grid9.coords t) ((dat9 (F := Ideal) V c).after 3 t) = _
  rw [after9_3]
  unfold out9_3
  rw [View.canon_unit_zero hz]
  simp only [View.ld_unit_zero (S := S400x128) hz, View.ld_unit_zero (S := S128x128) hz, View.ld_unit_zero (S := S1x128) hz]
  obtain ⟨e00, e01, e10, e11, e20, e21, e30, e31⟩ := idx_facts9 t
  funext j
  show k9_pay1 (iblk9 V c 0 t) (iblk9 V c 1 t) (iblk9 V c 2 t) j
      = Bern.projR (V c main_v53_1) (V c main_v54) (V c main_v56) (((cfg9.win 3).blk t).view.emb j)
  refine pay9_eq_projR_at _ _ _ _ _ _ j _ (fun l => ?_) ?_ ?_ ?_
  · show V c main_v53_1 (((cfg9.win 0).blk t).view.emb (ix2 (j 0) l))
        = V c main_v53_1 (ix2 ((((cfg9.win 3).blk t).view.emb j) 0) l)
    refine congrArg (V c main_v53_1) (funext fun a => Fin.ext ?_)
    match a with
    | ⟨0, _⟩ => show win9_0.index t (0 : Fin 2) * 400 + 1 * (j 0).val = win9_3.index t (0 : Fin 2) * 400 + 1 * (j 0).val; omega
    | ⟨1, _⟩ => show win9_0.index t (1 : Fin 2) * 128 + 1 * l.val = l.val; omega
  · funext y
    show V c main_v54 (((cfg9.win 1).blk t).view.emb y) = V c main_v54 y
    refine congrArg (V c main_v54) (funext fun a => Fin.ext ?_)
    match a with
    | ⟨0, _⟩ => show win9_1.index t (0 : Fin 2) * 128 + 1 * (y 0).val = (y 0).val; omega
    | ⟨1, _⟩ => show win9_1.index t (1 : Fin 2) * 128 + 1 * (y 1).val = (y 1).val; omega
  · funext y
    show V c main_v56 (((cfg9.win 2).blk t).view.emb y) = V c main_v56 y
    refine congrArg (V c main_v56) (funext fun a => Fin.ext ?_)
    match a with
    | ⟨0, _⟩ => show win9_2.index t (0 : Fin 2) * 1 + 1 * (y 0).val = (y 0).val; omega
    | ⟨1, _⟩ => show win9_2.index t (1 : Fin 2) * 128 + 1 * (y 1).val = (y 1).val; omega
  · show win9_3.index t (1 : Fin 2) * 128 + 1 * (j 1).val = (j 1).val
    omega

/-- An index of the output array is in point t's block iff each coordinate is in the block's range on its axis. -/
theorem mem_blk9 (t : Fin cfg9.N) (i : S10000x128.Idx) :
    i ∈ ((cfg9.win 3).blk t).view.set ↔ ∀ a : Fin 2, win9_3.index t a * S400x128.size a ≤ (i a).val
      ∧ (i a).val < win9_3.index t a * S400x128.size a + S400x128.size a := by
  show i ∈ ((View.whole main_v57).slice (win9_3.rect t)).set ↔ _
  rw [View.set_slice_whole, Rect.mem_set_unit]
  exact Iff.rfl

/-- Row r of the output is in the block of point r / 400: the 25 blocks cover the array. -/
theorem cover9 (i : S10000x128.Idx) :
    ∃ t : Fin cfg9.N, (cfg9.win 3).flush t = true ∧ i ∈ ((cfg9.win 3).blk t).view.set := by
  have hi0 : (i 0).val < 10000 := (i 0).isLt
  have hi1 : (i 1).val < 128 := (i 1).isLt
  have hN : cfg9.N = 25 := N_9
  have hlt : (i 0).val / 400 < cfg9.N := by rw [hN]; omega
  obtain ⟨-, -, -, -, -, -, e30, e31⟩ := idx_facts9 ⟨(i 0).val / 400, hlt⟩
  have e30' : win9_3.index ⟨(i 0).val / 400, hlt⟩ (0 : Fin 2) = (i 0).val / 400 := e30
  refine ⟨⟨(i 0).val / 400, hlt⟩, flush9_3 _, ?_⟩
  rw [mem_blk9]
  intro a
  match a with
  | ⟨0, _⟩ =>
    show win9_3.index ⟨(i 0).val / 400, hlt⟩ (0 : Fin 2) * 400 ≤ (i 0).val
      ∧ (i 0).val < win9_3.index ⟨(i 0).val / 400, hlt⟩ (0 : Fin 2) * 400 + 400
    omega
  | ⟨1, _⟩ =>
    show win9_3.index ⟨(i 0).val / 400, hlt⟩ (1 : Fin 2) * 128 ≤ (i 1).val
      ∧ (i 1).val < win9_3.index ⟨(i 0).val / 400, hlt⟩ (1 : Fin 2) * 128 + 128
    omega

/-- The array the region leaves: h W ⊕ b of the arrays it reads, as it finds them. -/
theorem final9_3 (c : Dev nD) :
    (dat9 (F := Ideal) V c).arrAt 3 cfg9.N = Bern.projR (V c main_v53_1) (V c main_v54) (V c main_v56) :=
  (dat9 (F := Ideal) V c).arrAt_eq_of_cover 3 _ (fun t _ => flushed9_3_eq V c t) (fun i => cover9 i)

end Cert.KernelIdeal.RegVal

end
-- ==== Proof.ChainC.lean ====
/-
  The end of the kernel's program: the second layer's output projected through W₃ and b₃ padded to 128 columns, and the
  first 40 columns kept: the specification's `proj`, hence `Bern.kernelSpec` of the argument arrays.
-/
import proofs.«148114_g1589137899740_cont_week2b_1182_5_alg».proof.Proof.ChainB
import proofs.«148114_g1589137899740_cont_week2b_1182_5_alg».proof.Proof.RegionOut

set_option maxRecDepth 16384

noncomputable section

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

namespace Cert.KernelIdeal.KVal

open Cert.KernelIdeal.RegVal Cert.KernelIdeal.HostVal

/-! ## The padded projection's operands

  Between region 8 and region 9 the host pads W₃ with 88 zero columns and b₃ with 88 zeros (the padding value is the integer
  constant 0 converted to a float), and reshapes the padded bias to a [1, 128] row; nothing there writes the second layer's
  output. -/

theorem w18_arg7 (c : Dev nD) : W18 m ρ c (Proc.devRef .tc main_arg7) = aW3 m c :=
  (keep_main_arg7_19 m ρ c).symm.trans (at_main_arg7_19 m ρ c)

theorem w18_arg8 (c : Dev nD) : W18 m ρ c (Proc.devRef .tc main_arg8) = ab3 m c :=
  (keep_main_arg8_19 m ρ c).symm.trans ((keep_main_arg8_20 m ρ c).symm.trans ((keep_main_arg8_21 m ρ c).symm.trans (at_main_arg8_21 m ρ c)))

/-- W₃ padded with zero columns to [128, 128]. -/
theorem w23_v54 (c : Dev nD) : W23 m ρ c (Proc.devRef .tc main_v54)
    = pad S128x128 ![0, 0] ![0, 88] ![0, 0] (aW3 m c) (sitofp (F := Ideal) .f32 (constantI S_ 32 0#32)) pads_S128x40_S128x128_000_0880 h_S_ := by
  host_read hostOps9_4
  show pad S128x128 ![0, 0] ![0, 88] ![0, 0] (W18 m ρ c (Proc.devRef .tc main_arg7)) (sitofp (F := Ideal) .f32 (constantI S_ 32 0#32))
    pads_S128x40_S128x128_000_0880 h_S_ = _
  rw [w18_arg7 m ρ c]

/-- b₃ padded with zeros to 128 entries, as a [1, 128] row. -/
theorem w23_v56 (c : Dev nD) : W23 m ρ c (Proc.devRef .tc main_v56)
    = shapeCast S1x128 (pad S128 ![0] ![88] ![0] (ab3 m c) (sitofp (F := Ideal) .f32 (constantI S_ 32 0#32)) pads_S40_S128_0880 h_S_) shapeCasts_S128_S1x128 := by
  host_read hostOps9_4
  show shapeCast S1x128 (pad S128 ![0] ![88] ![0] (W18 m ρ c (Proc.devRef .tc main_arg8)) (sitofp (F := Ideal) .f32 (constantI S_ 32 0#32))
    pads_S40_S128_0880 h_S_) shapeCasts_S128_S1x128 = _
  rw [w18_arg8 m ρ c]

theorem w23_h2 (c : Dev nD) : W23 m ρ c (Proc.devRef .tc main_v53_1) = cH2 m c := by
  host_read hostOps9_4
  exact w18_h2 m ρ c

/-! ## Region 9 and the final slice -/

theorem w24_v57 (c : Dev nD) : W24 m ρ c (Proc.devRef .tc main_v57)
    = Bern.projR (cH2 m c) (pad S128x128 ![0, 0] ![0, 88] ![0, 0] (aW3 m c) (sitofp (F := Ideal) .f32 (constantI S_ 32 0#32)) pads_S128x40_S128x128_000_0880 h_S_)
        (shapeCast S1x128 (pad S128 ![0] ![88] ![0] (ab3 m c) (sitofp (F := Ideal) .f32 (constantI S_ 32 0#32)) pads_S40_S128_0880 h_S_) shapeCasts_S128_S1x128) := by
  refine (W24_arr m ρ c 3).trans ((final9_3 (V23 m ρ) c).trans ?_)
  show Bern.projR (W23 m ρ c (Proc.devRef .tc main_v53_1)) (W23 m ρ c (Proc.devRef .tc main_v54)) (W23 m ρ c (Proc.devRef .tc main_v56)) = _
  rw [w23_h2 m ρ c, w23_v54 m ρ c, w23_v56 m ρ c]

/-- THE KERNEL PROGRAM'S RESULT: the specification of the argument arrays. -/
theorem kernel_value (c : Dev nD) : W25 m ρ c (Proc.devRef .tc main_v58)
    = Bern.kernelSpec (aX m c) (aL m c) (aW1 m c) (ab1 m c) (aW2 m c) (ab2 m c) (aTh m c) (aW3 m c) (ab3 m c) := by
  host_read hostOps10
  rw [w24_v57 m ρ c]
  exact (tail_read _ _ _).trans (spec_eq m c)

end Cert.KernelIdeal.KVal

end
-- ==== Proof.lean ====
/-
  The claim: the kernel program (a perceptron, two polynomial graph-filter layers evaluated in the monomial basis with
  E = L − I, a padded projection) and its reference (the same perceptron, the two layers in the Bernstein basis, the
  projection) return equal arrays over the extended reals whenever every input entry is finite.

  Frames: the two kernel programs' frames are the frame modules' (ten pipelined regions among host stretches); the
  reference's is its run with the result dropped. The idealized kernel is the kernel's own text read over the extended
  reals (no rewrite was applied), so `preserves` is trivial. For the equivalence: the kernel's run ends with its result
  array at the last contents of the fold through @main, which the chain modules read as `Bern.kernelSpec` of the
  arguments; the reference's run ends at `Bern.refSpec` of its arguments; the precondition makes every argument entry a
  real number, and over real arguments the two specifications are one function (the binomial expansion of
  (2 − λ)^(4−j) λ^j into monomials, with L u = u + (L − I) u).
-/
import proofs.«148114_g1589137899740_cont_week2b_1182_5_alg».proof.Defs
import proofs.«148114_g1589137899740_cont_week2b_1182_5_alg».proof.Proof.Gen.Kernel
import proofs.«148114_g1589137899740_cont_week2b_1182_5_alg».proof.Proof.Gen.Kernel.Skeleton
import proofs.«148114_g1589137899740_cont_week2b_1182_5_alg».proof.Proof.Gen.Kernel.Launch
import proofs.«148114_g1589137899740_cont_week2b_1182_5_alg».proof.Proof.Gen.Kernel.Points
import proofs.«148114_g1589137899740_cont_week2b_1182_5_alg».proof.Proof.FrameKernel
import proofs.«148114_g1589137899740_cont_week2b_1182_5_alg».proof.Proof.Gen.KernelIdeal
import proofs.«148114_g1589137899740_cont_week2b_1182_5_alg».proof.Proof.Gen.KernelIdeal.Skeleton
import proofs.«148114_g1589137899740_cont_week2b_1182_5_alg».proof.Proof.Gen.KernelIdeal.Launch
import proofs.«148114_g1589137899740_cont_week2b_1182_5_alg».proof.Proof.Gen.KernelIdeal.Points
import proofs.«148114_g1589137899740_cont_week2b_1182_5_alg».proof.Proof.FrameKernelIdeal
import proofs.«148114_g1589137899740_cont_week2b_1182_5_alg».proof.Proof.RunKernelIdeal
import proofs.«148114_g1589137899740_cont_week2b_1182_5_alg».proof.Proof.Gen.ReferenceIdeal
import proofs.«148114_g1589137899740_cont_week2b_1182_5_alg».proof.Proof.Gen.ReferenceIdeal.Run
import proofs.«148114_g1589137899740_cont_week2b_1182_5_alg».proof.Proof.Gen.Pre_finite_inputs
import proofs.«148114_g1589137899740_cont_week2b_1182_5_alg».proof.Proof.Spec
import proofs.«148114_g1589137899740_cont_week2b_1182_5_alg».proof.Proof.Algebra
import proofs.«148114_g1589137899740_cont_week2b_1182_5_alg».proof.Proof.PreReal
import proofs.«148114_g1589137899740_cont_week2b_1182_5_alg».proof.Proof.RefValue
import proofs.«148114_g1589137899740_cont_week2b_1182_5_alg».proof.Proof.ChainDefs
import proofs.«148114_g1589137899740_cont_week2b_1182_5_alg».proof.Proof.ChainC
import Idealize.ShloMosaic.Adequacy
import Idealize.ShloMosaic.Init

noncomputable section

namespace Cert.Proof

open Idealize.ShloMosaic Idealize.SL.Sem

/-- Under the precondition every argument array of the idealized kernel is real-valued, on every device. -/
theorem args_real [hPre_finite_inputs : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    Bern.IsReal (Cert.KernelIdeal.KVal.aX m c) ∧ Bern.IsReal (Cert.KernelIdeal.KVal.aL m c) ∧ Bern.IsReal (Cert.KernelIdeal.KVal.aW1 m c)
    ∧ Bern.IsReal (Cert.KernelIdeal.KVal.ab1 m c) ∧ Bern.IsReal (Cert.KernelIdeal.KVal.aW2 m c) ∧ Bern.IsReal (Cert.KernelIdeal.KVal.ab2 m c)
    ∧ Bern.IsReal (Cert.KernelIdeal.KVal.aTh m c) ∧ Bern.IsReal (Cert.KernelIdeal.KVal.aW3 m c) ∧ Bern.IsReal (Cert.KernelIdeal.KVal.ab3 m c) :=
  Cert.PreReal.real_of_pre _ _ _ _ _ _ _ _ _ (h c)

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.Value.run (F := Ideal) m ρ),
  trivial,
  by
    intro m ρ m' ρ' hpre hagree
    refine ⟨fun c => Bern.kernelSpec (Cert.KernelIdeal.KVal.aX m c) (Cert.KernelIdeal.KVal.aL m c) (Cert.KernelIdeal.KVal.aW1 m c)
      (Cert.KernelIdeal.KVal.ab1 m c) (Cert.KernelIdeal.KVal.aW2 m c) (Cert.KernelIdeal.KVal.ab2 m c) (Cert.KernelIdeal.KVal.aTh m c)
      (Cert.KernelIdeal.KVal.aW3 m c) (Cert.KernelIdeal.KVal.ab3 m c), ?_, ?_⟩
    · exact (θ_run Cert.KernelIdeal.defs _ _).mono
        (fun r h c => ⟨(h c).1.trans (Cert.KernelIdeal.KVal.kernel_value m ρ c), (h c).2⟩)
        (Cert.KernelIdeal.GenP.run_value (F := Ideal) m ρ)
    · refine (θ_run Cert.ReferenceIdeal.defs _ _).mono (fun r h c => ⟨(h c).1.trans ?_, (h c).2⟩)
        (Cert.ReferenceIdeal.RefValue.run_spec m' ρ')
      obtain ⟨e0, e1, e2, e3, e4, e5, e6, e7, e8⟩ := hagree c
      obtain ⟨r0, r1, r2, r3, r4, r5, r6, r7, r8⟩ := args_real m hpre c
      rw [e0, e1, e2, e3, e4, e5, e6, e7, e8]
      exact (Bern.kernelSpec_eq_refSpec _ _ _ _ _ _ _ _ _ r0 r1 r2 r3 r4 r5 r6 r7 r8).symm⟩

end Cert.Proof

end
